-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S2x640000 : Shape := ⟨2, ![2, 640000]⟩
abbrev S40000 : Shape := ⟨1, ![40000]⟩
abbrev S256x256 : Shape := ⟨2, ![256, 256]⟩
abbrev S256 : Shape := ⟨1, ![256]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_arg10 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S40000x256 .f32) (main_arg1 : IVec S2x640000 32) (main_arg2 : IVec S40000 32) (main_arg3 : FVec F S256x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_v13 main_v16
-- ==== Kernel.lean ====
abbrev S40000x256 : Shape := ⟨2, ![40000, 256]⟩
abbrev S2x640000 : Shape := ⟨2, ![2, 640000]⟩
abbrev S40000 : Shape := ⟨1, ![40000]⟩
abbrev S256x256 : Shape := ⟨2, ![256, 256]⟩
abbrev S256 : Shape := ⟨1, ![256]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S4000x256 : Shape := ⟨2, ![4000, 256]⟩
abbrev S680000x256 : Shape := ⟨2, ![680000, 256]⟩
abbrev S1x256 : Shape := ⟨2, ![1, 256]⟩
abbrev S64 : Shape := ⟨1, ![64]⟩
abbrev S40000x1 : Shape := ⟨2, ![40000, 1]⟩
abbrev S1x64 : Shape := ⟨2, ![1, 64]⟩
abbrev S40000x64 : Shape := ⟨2, ![40000, 64]⟩
abbrev S64x256 : Shape := ⟨2, ![64, 256]⟩
abbrev S4000x64 : Shape := ⟨2, ![4000, 64]⟩
abbrev S64x1 : Shape := ⟨2, ![64, 1]⟩

abbrev nBuf : Space → Nat
  | .hbm => 140
  | .vmem => 40
  | .smem => 0
  | _ => 0

abbrev hbmTy0_0 (i : Nat) : BufTy := match i % 128 with
  | 0 => ⟨S40000x256, .f32⟩
  | 1 => ⟨S2x640000, .i32⟩
  | 2 => ⟨S40000, .i32⟩
  | 3 => ⟨S256x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S40000, .i32⟩
  | 12 => ⟨S1x640000, .i32⟩
  | 13 => ⟨S640000, .i32⟩
  | 14 => ⟨S680000, .i32⟩
  | 15 => ⟨S1x640000, .i32⟩
  | 16 => ⟨S640000, .i32⟩
  | 17 => ⟨S680000, .i32⟩
  | 18 => ⟨S_, .f32⟩
  | 19 => ⟨S680000, .f32⟩
  | 20 => ⟨S_, .f32⟩
  | 21 => ⟨S40000, .f32⟩
  | 22 => ⟨S680000x1, .i32⟩
  | 23 => ⟨S40000, .f32⟩
  | 24 => ⟨S40000, .f32⟩
  | 25 => ⟨S_, .i32⟩
  | 26 => ⟨S680000, .i32⟩
  | 27 => ⟨S680000, .i1⟩
  | 28 => ⟨S_, .i32⟩
  | 29 => ⟨S680000, .i32⟩
  | 30 => ⟨S680000, .i32⟩
  | 31 => ⟨S680000, .i32⟩
  | 32 => ⟨S680000x1, .i32⟩
  | 33 => ⟨S680000, .f32⟩
  | 34 => ⟨S_, .i32⟩
  | 35 => ⟨S680000, .i32⟩
  | 36 => ⟨S680000, .i1⟩
  | 37 => ⟨S_, .i32⟩
  | 38 => ⟨S680000, .i32⟩
  | 39 => ⟨S680000, .i32⟩
  | 40 => ⟨S680000, .i32⟩
  | 41 => ⟨S680000x1, .i32⟩
  | 42 => ⟨S680000, .f32⟩
  | 43 => ⟨S680000, .f32⟩
  | 44 => ⟨S40000x256, .f32⟩
  | 45 => ⟨S_, .i32⟩
  | 46 => ⟨S680000, .i32⟩
  | 47 => ⟨S680000, .i1⟩
  | 48 => ⟨S_, .i32⟩
  | 49 => ⟨S680000, .i32⟩
  | 50 => ⟨S680000, .i32⟩
  | 51 => ⟨S680000, .i32⟩
  | 52 => ⟨S680000x1, .i32⟩
  | 53 => ⟨S680000x256, .f32⟩
  | 54 => ⟨S680000x1, .f32⟩
  | 55 => ⟨S680000x256, .f32⟩
  | 56 => ⟨S680000x256, .f32⟩
  | 57 => ⟨S_, .f32⟩
  | 58 => ⟨S40000x256, .f32⟩
  | 59 => ⟨S680000x1, .i32⟩
  | 60 => ⟨S40000x256, .f32⟩
  | 61 => ⟨S1x256, .f32⟩
  | 62 => ⟨S40000x256, .f32⟩
  | 63 => ⟨S40000x256, .f32⟩
  | 64 => ⟨S1x256, .f32⟩
  | 65 => ⟨S1x256, .f32⟩
  | 66 => ⟨S_, .f32⟩
  | 67 => ⟨S1x256, .f32⟩
  | 68 => ⟨S1x256, .f32⟩
  | 69 => ⟨S_, .f32⟩
  | 70 => ⟨S1x256, .f32⟩
  | 71 => ⟨S1x256, .f32⟩
  | 72 => ⟨S1x256, .f32⟩
  | 73 => ⟨S1x256, .f32⟩
  | 74 => ⟨S_, .f32⟩
  | 75 => ⟨S1x256, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S40000x256, .f32⟩
  | 84 => ⟨S40000x256, .f32⟩
  | 85 => ⟨S_, .i32⟩
  | 86 => ⟨S680000, .i32⟩
  | 87 => ⟨S680000, .i1⟩
  | 88 => ⟨S_, .i32⟩
  | 89 => ⟨S680000, .i32⟩
  | 90 => ⟨S680000, .i32⟩
  | 91 => ⟨S680000, .i32⟩
  | 92 => ⟨S680000x1, .i32⟩
  | 93 => ⟨S680000x256, .f32⟩
  | 94 => ⟨S680000x1, .f32⟩
  | 95 => ⟨S680000x256, .f32⟩
  | 96 => ⟨S680000x256, .f32⟩
  | 97 => ⟨S_, .f32⟩
  | 98 => ⟨S40000x256, .f32⟩
  | 99 => ⟨S680000x1, .i32⟩
  | 100 => ⟨S40000x256, .f32⟩
  | 101 => ⟨S1x256, .f32⟩
  | 102 => ⟨S40000x256, .f32⟩
  | 103 => ⟨S40000x256, .f32⟩
  | 104 => ⟨S1x256, .f32⟩
  | 105 => ⟨S1x256, .f32⟩
  | 106 => ⟨S_, .f32⟩
  | 107 => ⟨S1x256, .f32⟩
  | 108 => ⟨S1x256, .f32⟩
  | 109 => ⟨S_, .f32⟩
  | 110 => ⟨S1x256, .f32⟩
  | 111 => ⟨S1x256, .f32⟩
  | 112 => ⟨S1x256, .f32⟩
  | 113 => ⟨S1x256, .f32⟩
  | 114 => ⟨S_, .f32⟩
  | 115 => ⟨S1x256, .f32⟩
  | 116 => ⟨S1x256, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S40000x256, .f32⟩
  | 124 => ⟨S64, .i32⟩
  | 125 => ⟨S40000x1, .i32⟩
  | 126 => ⟨S1x64, .i32⟩
  | 127 => ⟨S40000x64, .i32⟩
  | _ => ⟨S40000x256, .f32⟩

abbrev hbmTy0_1 (i : Nat) : BufTy := match i % 128 with
  | 0 => ⟨S40000x64, .i32⟩
  | 1 => ⟨S40000x64, .i1⟩
  | 2 => ⟨S40000x64, .f32⟩
  | 3 => ⟨S_, .f32⟩
  | 4 => ⟨S64, .f32⟩
  | 5 => ⟨S64x256, .f32⟩
  | 6 => ⟨S_, .f32⟩
  | 7 => ⟨S64, .f32⟩
  | 8 => ⟨S64, .f32⟩
  | 9 => ⟨S64x1, .f32⟩
  | 10 => ⟨S64x256, .f32⟩
  | 11 => ⟨S64x256, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S4000x256, .f32⟩
  | .local _ .vmem, ⟨12, _⟩ => ⟨S4000x256, .f32⟩
  | .local _ .vmem, ⟨13, _⟩ => ⟨S1x256, .f32⟩
  | .local _ .vmem, ⟨14, _⟩ => ⟨S1x256, .f32⟩
  | .local _ .vmem, ⟨15, _⟩ => ⟨S4000x256, .f32⟩
  | .local _ .vmem, ⟨16, _⟩ => ⟨S4000x256, .f32⟩
  | .local _ .vmem, ⟨17, _⟩ => ⟨S4000x256, .f32⟩
  | .local _ .vmem, ⟨18, _⟩ => ⟨S4000x256, .f32⟩
  | .local _ .vmem, ⟨19, _⟩ => ⟨S256x256, .f32⟩
  | .local _ .vmem, ⟨20, _⟩ => ⟨S4000x256, .f32⟩
  | .local _ .vmem, ⟨21, _⟩ => ⟨S4000x256, .f32⟩
  | .local _ .vmem, ⟨22, _⟩ => ⟨S4000x256, .f32⟩
  | .local _ .vmem, ⟨23, _⟩ => ⟨S4000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S4000x256, .f32⟩
  | .local _ .vmem, ⟨29, _⟩ => ⟨S4000x256, .f32⟩
  | .local _ .vmem, ⟨30, _⟩ => ⟨S1x256, .f32⟩
  | .local _ .vmem, ⟨31, _⟩ => ⟨S1x256, .f32⟩
  | .local _ .vmem, ⟨32, _⟩ => ⟨S4000x256, .f32⟩
  | .local _ .vmem, ⟨33, _⟩ => ⟨S4000x256, .f32⟩
  | .local _ .vmem, ⟨34, _⟩ => ⟨S4000x256, .f32⟩
  | .local _ .vmem, ⟨35, _⟩ => ⟨S4000x256, .f32⟩
  | .local _ .vmem, ⟨36, _⟩ => ⟨S4000x64, .f32⟩
  | .local _ .vmem, ⟨37, _⟩ => ⟨S4000x64, .f32⟩
  | .local _ .vmem, ⟨38, _⟩ => ⟨S64x256, .f32⟩
  | .local _ .vmem, ⟨39, _⟩ => ⟨S64x256, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77_0 : Ref sig .tc := ⟨.hbm, 104, rfl⟩
abbrev main_v77_1 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_16 : Ref sig .tc := ⟨.hbm, 131, rfl⟩
abbrev main_v100 : Ref sig .tc := ⟨.hbm, 132, rfl⟩
abbrev main_v101 : Ref sig .tc := ⟨.hbm, 133, rfl⟩
abbrev main_cst_17 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_scratch0 : Ref sig .tc := ⟨.vmem, 26, rfl⟩
abbrev cc4_scratch1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem3_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S680000x1_S680000x256_0_1 : S680000x1.BroadcastsInDim S680000x256 (![0, 1] : Fin 2 → Fin S680000x256.rank)
  bcast_S_S40000x256 : S_.BroadcastsInDim S40000x256 (![] : Fin 0 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S4000x256_S4000x256 : S4000x256.ShapeCasts S4000x256
  reduces_S4000x256_S256 : S4000x256.Reduces [0] S256
  shapeCasts_S256_S1x256 : S256.ShapeCasts S1x256
  bcast_S_S1x256 : S_.BroadcastsInDim S1x256 (![] : Fin 0 → Fin S1x256.rank)
  broadcasts_S1x256_S4000x256 : S1x256.Broadcasts S4000x256
  bcast_S40000_S40000x1_0 : S40000.BroadcastsInDim S40000x1 (![0] : Fin 1 → Fin S40000x1.rank)
  bcast_S64_S1x64_1 : S64.BroadcastsInDim S1x64 (![1] : Fin 1 → Fin S1x64.rank)
  bcast_S40000x1_S40000x64_0_1 : S40000x1.BroadcastsInDim S40000x64 (![0, 1] : Fin 2 → Fin S40000x64.rank)
  bcast_S1x64_S40000x64_0_1 : S1x64.BroadcastsInDim S40000x64 (![0, 1] : Fin 2 → Fin S40000x64.rank)
  reducesTo_S40000x64_S64_d0 : S40000x64.ReducesTo [0] S64
  h_S_ : 0 < S_.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S4000x256_S256x256_S4000x256_1_0_0_1_n_n_wf : DotDims.WF S4000x256 S256x256 S4000x256 [1] [0] [0] [1] [] []
  gather_S40000x256_S680000x1_S680000x256_1_0_n_n_0_1_1256_wf : GatherDims.WF S40000x256 S680000x1 S680000x256 [1] [0] [] [0] [] 1 ![1, 256]
  scatter_S40000x256_S680000x1_S680000x256_1_0_0_1_wf : ScatterDims.WF S40000x256 S680000x1 S680000x256 [1] [0] [0] 1
  dot_S4000x64_S4000x256_S64x256_0_0_1_1_n_n_wf : DotDims.WF S4000x64 S4000x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S40000x256.size a
  hwx0_0 : ∀ i : grid0.Coords, EltTy.bits .f32 = 32 ∨ (Rect.block (s := S40000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S40000x256.size a
  hwx0_2 : ∀ i : grid0.Coords, EltTy.bits .f32 = 32 ∨ (Rect.block (s := S40000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S40000x256.size a
  hwx1_0 : ∀ i : grid1.Coords, EltTy.bits .f32 = 32 ∨ (Rect.block (s := S40000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S40000x256.size a
  hwx2_0 : ∀ i : grid2.Coords, EltTy.bits .f32 = 32 ∨ (Rect.block (s := S40000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x256.size a ≤ S40000x256.size a
  hwx2_3 : ∀ i : grid2.Coords, EltTy.bits .f32 = 32 ∨ (Rect.block (s := S40000x256) S4000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S40000x256.size a
  hwx3_0 : ∀ i : grid3.Coords, EltTy.bits .f32 = 32 ∨ (Rect.block (s := S40000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x256.size a ≤ S40000x256.size a
  hwx3_2 : ∀ i : grid3.Coords, EltTy.bits .f32 = 32 ∨ (Rect.block (s := S40000x256) S4000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S40000x256.size a
  hwx4_0 : ∀ i : grid4.Coords, EltTy.bits .f32 = 32 ∨ (Rect.block (s := S40000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S40000x256.size a
  hwx5_0 : ∀ i : grid5.Coords, EltTy.bits .f32 = 32 ∨ (Rect.block (s := S40000x256) S4000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x256.size a ≤ S40000x256.size a
  hwx5_3 : ∀ i : grid5.Coords, EltTy.bits .f32 = 32 ∨ (Rect.block (s := S40000x256) S4000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x256.size a ≤ S40000x256.size a
  hwx6_0 : ∀ i : grid6.Coords, EltTy.bits .f32 = 32 ∨ (Rect.block (s := S40000x256) S4000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S40000x64.size a
  hwx6_1 : ∀ i : grid6.Coords, EltTy.bits .f32 = 32 ∨ (Rect.block (s := S40000x64) S4000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x256.size a ≤ S64x256.size a
  hwx6_2 : ∀ i : grid6.Coords, EltTy.bits .f32 = 32 ∨ (Rect.block (s := S64x256) S64x256.size (cc6_transform_2 i) (hinb6_2 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S40000x256_S680000x1_S680000x256_1_0_n_n_0_1_1256 : GatherDims S40000x256 S680000x1 S680000x256 where
  offsetDims := [1]
  collapsedSliceDims := [0]
  operandBatchingDims := []
  startIndicesBatchingDims := []
  startIndexMap := [0]
  indexVectorDim := 1
  sliceSizes := ![1, 256]
  wf := gather_S40000x256_S680000x1_S680000x256_1_0_n_n_0_1_1256_wf
def scatter_S40000x256_S680000x1_S680000x256_1_0_0_1 : ScatterDims S40000x256 S680000x1 S680000x256 where
  updateWindowDims := [1]
  insertedWindowDims := [0]
  scatterDimsToOperandDims := [0]
  indexVectorDim := 1
  wf := scatter_S40000x256_S680000x1_S680000x256_1_0_0_1_wf
def dot_S4000x64_S4000x256_S64x256_0_0_1_1_n_n : DotDims S4000x64 S4000x256 S64x256 where
  lhsContracting := [0]
  rhsContracting := [0]
  lhsNonContracting := [1]
  rhsNonContracting := [1]
  lhsBatch := []
  rhsBatch := []
  wf := dot_S4000x64_S4000x256_S64x256_0_0_1_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v43) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S4000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S4000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77_0) S1x256.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77_1) S1x256.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v76) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S4000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v92) S4000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v101) S64x256.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S40000x256 : Shape := ⟨2, ![40000, 256]⟩
abbrev S2x640000 : Shape := ⟨2, ![2, 640000]⟩
abbrev S40000 : Shape := ⟨1, ![40000]⟩
abbrev S256x256 : Shape := ⟨2, ![256, 256]⟩
abbrev S256 : Shape := ⟨1, ![256]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x256 : Shape := ⟨2, ![680000, 256]⟩
abbrev S1x256 : Shape := ⟨2, ![1, 256]⟩
abbrev S64x256 : Shape := ⟨2, ![64, 256]⟩
abbrev S40000x1 : Shape := ⟨2, ![40000, 1]⟩
abbrev S64 : Shape := ⟨1, ![64]⟩
abbrev S64x1 : Shape := ⟨2, ![64, 1]⟩

abbrev nBuf : Space → Nat
  | .hbm => 220
  | .vmem => 0
  | .smem => 0
  | _ => 0

abbrev hbmTy0_0 (i : Nat) : BufTy := match i % 128 with
  | 0 => ⟨S40000x256, .f32⟩
  | 1 => ⟨S2x640000, .i32⟩
  | 2 => ⟨S40000, .i32⟩
  | 3 => ⟨S256x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S40000, .i32⟩
  | 12 => ⟨S1x640000, .i32⟩
  | 13 => ⟨S640000, .i32⟩
  | 14 => ⟨S680000, .i32⟩
  | 15 => ⟨S1x640000, .i32⟩
  | 16 => ⟨S640000, .i32⟩
  | 17 => ⟨S680000, .i32⟩
  | 18 => ⟨S40000x256, .f32⟩
  | 19 => ⟨S_, .f32⟩
  | 20 => ⟨S680000, .f32⟩
  | 21 => ⟨S_, .f32⟩
  | 22 => ⟨S40000, .f32⟩
  | 23 => ⟨S680000x1, .i32⟩
  | 24 => ⟨S40000, .f32⟩
  | 25 => ⟨S40000, .f32⟩
  | 26 => ⟨S_, .i32⟩
  | 27 => ⟨S680000, .i32⟩
  | 28 => ⟨S680000, .i1⟩
  | 29 => ⟨S_, .i32⟩
  | 30 => ⟨S680000, .i32⟩
  | 31 => ⟨S680000, .i32⟩
  | 32 => ⟨S680000, .i32⟩
  | 33 => ⟨S680000x1, .i32⟩
  | 34 => ⟨S680000, .f32⟩
  | 35 => ⟨S_, .i32⟩
  | 36 => ⟨S680000, .i32⟩
  | 37 => ⟨S680000, .i1⟩
  | 38 => ⟨S_, .i32⟩
  | 39 => ⟨S680000, .i32⟩
  | 40 => ⟨S680000, .i32⟩
  | 41 => ⟨S680000, .i32⟩
  | 42 => ⟨S680000x1, .i32⟩
  | 43 => ⟨S680000, .f32⟩
  | 44 => ⟨S680000, .f32⟩
  | 45 => ⟨S_, .i32⟩
  | 46 => ⟨S680000, .i32⟩
  | 47 => ⟨S680000, .i1⟩
  | 48 => ⟨S_, .i32⟩
  | 49 => ⟨S680000, .i32⟩
  | 50 => ⟨S680000, .i32⟩
  | 51 => ⟨S680000, .i32⟩
  | 52 => ⟨S680000x1, .i32⟩
  | 53 => ⟨S680000x256, .f32⟩
  | 54 => ⟨S680000x1, .f32⟩
  | 55 => ⟨S680000x256, .f32⟩
  | 56 => ⟨S680000x256, .f32⟩
  | 57 => ⟨S_, .f32⟩
  | 58 => ⟨S40000x256, .f32⟩
  | 59 => ⟨S680000x1, .i32⟩
  | 60 => ⟨S40000x256, .f32⟩
  | 61 => ⟨S1x256, .f32⟩
  | 62 => ⟨S40000x256, .f32⟩
  | 63 => ⟨S40000x256, .f32⟩
  | 64 => ⟨S_, .f32⟩
  | 65 => ⟨S256, .f32⟩
  | 66 => ⟨S_, .f32⟩
  | 67 => ⟨S256, .f32⟩
  | 68 => ⟨S256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S40000x256, .f32⟩
  | 77 => ⟨S40000x256, .f32⟩
  | 78 => ⟨S40000x256, .f32⟩
  | 79 => ⟨S_, .f32⟩
  | 80 => ⟨S_, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .i1⟩
  | 88 => ⟨S_, .f32⟩
  | 89 => ⟨S_, .f32⟩
  | 90 => ⟨S256, .f32⟩
  | 91 => ⟨S256, .f32⟩
  | 92 => ⟨S1x256, .f32⟩
  | 93 => ⟨S40000x256, .f32⟩
  | 94 => ⟨S40000x256, .f32⟩
  | 95 => ⟨S_, .f32⟩
  | 96 => ⟨S256, .f32⟩
  | 97 => ⟨S256, .f32⟩
  | 98 => ⟨S256, .f32⟩
  | 99 => ⟨S1x256, .f32⟩
  | 100 => ⟨S40000x256, .f32⟩
  | 101 => ⟨S40000x256, .f32⟩
  | 102 => ⟨S1x256, .f32⟩
  | 103 => ⟨S40000x256, .f32⟩
  | 104 => ⟨S40000x256, .f32⟩
  | 105 => ⟨S1x256, .f32⟩
  | 106 => ⟨S40000x256, .f32⟩
  | 107 => ⟨S40000x256, .f32⟩
  | 108 => ⟨S_, .f32⟩
  | 109 => ⟨S40000x256, .f32⟩
  | 110 => ⟨S40000x256, .f32⟩
  | 111 => ⟨S40000x256, .f32⟩
  | 112 => ⟨S_, .f32⟩
  | 113 => ⟨S680000, .f32⟩
  | 114 => ⟨S_, .f32⟩
  | 115 => ⟨S40000, .f32⟩
  | 116 => ⟨S680000x1, .i32⟩
  | 117 => ⟨S40000, .f32⟩
  | 118 => ⟨S40000, .f32⟩
  | 119 => ⟨S_, .i32⟩
  | 120 => ⟨S680000, .i32⟩
  | 121 => ⟨S680000, .i1⟩
  | 122 => ⟨S_, .i32⟩
  | 123 => ⟨S680000, .i32⟩
  | 124 => ⟨S680000, .i32⟩
  | 125 => ⟨S680000, .i32⟩
  | 126 => ⟨S680000x1, .i32⟩
  | 127 => ⟨S680000, .f32⟩
  | _ => ⟨S40000x256, .f32⟩

abbrev hbmTy0_1 (i : Nat) : BufTy := match i % 128 with
  | 0 => ⟨S_, .i32⟩
  | 1 => ⟨S680000, .i32⟩
  | 2 => ⟨S680000, .i1⟩
  | 3 => ⟨S_, .i32⟩
  | 4 => ⟨S680000, .i32⟩
  | 5 => ⟨S680000, .i32⟩
  | 6 => ⟨S680000, .i32⟩
  | 7 => ⟨S680000x1, .i32⟩
  | 8 => ⟨S680000, .f32⟩
  | 9 => ⟨S680000, .f32⟩
  | 10 => ⟨S_, .i32⟩
  | 11 => ⟨S680000, .i32⟩
  | 12 => ⟨S680000, .i1⟩
  | 13 => ⟨S_, .i32⟩
  | 14 => ⟨S680000, .i32⟩
  | 15 => ⟨S680000, .i32⟩
  | 16 => ⟨S680000, .i32⟩
  | 17 => ⟨S680000x1, .i32⟩
  | 18 => ⟨S680000x256, .f32⟩
  | 19 => ⟨S680000x1, .f32⟩
  | 20 => ⟨S680000x256, .f32⟩
  | 21 => ⟨S680000x256, .f32⟩
  | 22 => ⟨S_, .f32⟩
  | 23 => ⟨S40000x256, .f32⟩
  | 24 => ⟨S680000x1, .i32⟩
  | 25 => ⟨S40000x256, .f32⟩
  | 26 => ⟨S1x256, .f32⟩
  | 27 => ⟨S40000x256, .f32⟩
  | 28 => ⟨S40000x256, .f32⟩
  | 29 => ⟨S_, .f32⟩
  | 30 => ⟨S256, .f32⟩
  | 31 => ⟨S_, .f32⟩
  | 32 => ⟨S256, .f32⟩
  | 33 => ⟨S256, .f32⟩
  | 34 => ⟨S_, .i32⟩
  | 35 => ⟨S_, .f32⟩
  | 36 => ⟨S256, .f32⟩
  | 37 => ⟨S1x256, .f32⟩
  | 38 => ⟨S_, .f32⟩
  | 39 => ⟨S1x256, .f32⟩
  | 40 => ⟨S1x256, .f32⟩
  | 41 => ⟨S40000x256, .f32⟩
  | 42 => ⟨S40000x256, .f32⟩
  | 43 => ⟨S40000x256, .f32⟩
  | 44 => ⟨S_, .f32⟩
  | 45 => ⟨S_, .f32⟩
  | 46 => ⟨S_, .f32⟩
  | 47 => ⟨S_, .f32⟩
  | 48 => ⟨S256, .f32⟩
  | 49 => ⟨S256, .f32⟩
  | 50 => ⟨S256, .f32⟩
  | 51 => ⟨S_, .f32⟩
  | 52 => ⟨S_, .i1⟩
  | 53 => ⟨S_, .f32⟩
  | 54 => ⟨S_, .f32⟩
  | 55 => ⟨S256, .f32⟩
  | 56 => ⟨S256, .f32⟩
  | 57 => ⟨S1x256, .f32⟩
  | 58 => ⟨S40000x256, .f32⟩
  | 59 => ⟨S40000x256, .f32⟩
  | 60 => ⟨S_, .f32⟩
  | 61 => ⟨S256, .f32⟩
  | 62 => ⟨S256, .f32⟩
  | 63 => ⟨S256, .f32⟩
  | 64 => ⟨S1x256, .f32⟩
  | 65 => ⟨S40000x256, .f32⟩
  | 66 => ⟨S40000x256, .f32⟩
  | 67 => ⟨S1x256, .f32⟩
  | 68 => ⟨S40000x256, .f32⟩
  | 69 => ⟨S40000x256, .f32⟩
  | 70 => ⟨S1x256, .f32⟩
  | 71 => ⟨S40000x256, .f32⟩
  | 72 => ⟨S40000x256, .f32⟩
  | 73 => ⟨S_, .f32⟩
  | 74 => ⟨S40000x256, .f32⟩
  | 75 => ⟨S40000x256, .f32⟩
  | 76 => ⟨S_, .f32⟩
  | 77 => ⟨S64x256, .f32⟩
  | 78 => ⟨S40000x1, .i32⟩
  | 79 => ⟨S64x256, .f32⟩
  | 80 => ⟨S_, .f32⟩
  | 81 => ⟨S40000, .f32⟩
  | 82 => ⟨S_, .f32⟩
  | 83 => ⟨S64, .f32⟩
  | 84 => ⟨S40000x1, .i32⟩
  | 85 => ⟨S64, .f32⟩
  | 86 => ⟨S_, .f32⟩
  | 87 => ⟨S64, .f32⟩
  | 88 => ⟨S64, .f32⟩
  | 89 => ⟨S64x1, .f32⟩
  | 90 => ⟨S64x256, .f32⟩
  | 91 => ⟨S64x256, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_cst_3 : Ref sig .tc := ⟨.hbm, 86, rfl⟩
abbrev main_call0_v12 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_call1_cst : Ref sig .tc := ⟨.hbm, 108, rfl⟩
abbrev main_call1_v0 : Ref sig .tc := ⟨.hbm, 109, rfl⟩
abbrev main_v63 : Ref sig .tc := ⟨.hbm, 110, rfl⟩
abbrev main_v64 : Ref sig .tc := ⟨.hbm, 111, rfl⟩
abbrev main_cst_11 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_c_13 : Ref sig .tc := ⟨.hbm, 119, rfl⟩
abbrev main_v70 : Ref sig .tc := ⟨.hbm, 120, rfl⟩
abbrev main_v71 : Ref sig .tc := ⟨.hbm, 121, rfl⟩
abbrev main_c_14 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_15 : Ref sig .tc := ⟨.hbm, 128, rfl⟩
abbrev main_v77 : Ref sig .tc := ⟨.hbm, 129, rfl⟩
abbrev main_v78 : Ref sig .tc := ⟨.hbm, 130, rfl⟩
abbrev main_c_16 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_17 : Ref sig .tc := ⟨.hbm, 138, rfl⟩
abbrev main_v85 : Ref sig .tc := ⟨.hbm, 139, rfl⟩
abbrev main_v86 : Ref sig .tc := ⟨.hbm, 140, rfl⟩
abbrev main_c_18 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_19 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_20 : Ref sig .tc := ⟨.hbm, 157, rfl⟩
abbrev main_v101 : Ref sig .tc := ⟨.hbm, 158, rfl⟩
abbrev main_cst_21 : Ref sig .tc := ⟨.hbm, 159, rfl⟩
abbrev main_v102 : Ref sig .tc := ⟨.hbm, 160, rfl⟩
abbrev main_v103 : Ref sig .tc := ⟨.hbm, 161, rfl⟩
abbrev main_c_22 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_v7 : Ref sig .tc := ⟨.hbm, 172, rfl⟩
abbrev main_call2_cst_1 : Ref sig .tc := ⟨.hbm, 173, rfl⟩
abbrev main_call2_v8 : Ref sig .tc := ⟨.hbm, 174, rfl⟩
abbrev main_call2_cst_2 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_cst_3 : Ref sig .tc := ⟨.hbm, 179, rfl⟩
abbrev main_call2_v12 : Ref sig .tc := ⟨.hbm, 180, rfl⟩
abbrev main_call2_cst_4 : Ref sig .tc := ⟨.hbm, 181, rfl⟩
abbrev main_call2_call0_v0 : Ref sig .tc := ⟨.hbm, 182, rfl⟩
abbrev main_call2_call0_v1 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_23 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_call3_cst : Ref sig .tc := ⟨.hbm, 201, rfl⟩
abbrev main_call3_v0 : Ref sig .tc := ⟨.hbm, 202, rfl⟩
abbrev main_v120 : Ref sig .tc := ⟨.hbm, 203, rfl⟩
abbrev main_cst_24 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_cst_25 : Ref sig .tc := ⟨.hbm, 208, rfl⟩
abbrev main_v124 : Ref sig .tc := ⟨.hbm, 209, rfl⟩
abbrev main_cst_26 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_cst_27 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x256_0_1 : S680000x1.BroadcastsInDim S680000x256 (![0, 1] : Fin 2 → Fin S680000x256.rank)
  bcast_S_S40000x256 : S_.BroadcastsInDim S40000x256 (![] : Fin 0 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  reducesTo_S40000x256_S256_d0 : S40000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S64x256 : S_.BroadcastsInDim S64x256 (![] : Fin 0 → Fin S64x256.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  dot_S40000x256_S256x256_S40000x256_1_0_0_1_n_n_wf : DotDims.WF S40000x256 S256x256 S40000x256 [1] [0] [0] [1] [] []
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  gather_S40000x256_S680000x1_S680000x256_1_0_n_n_0_1_1256_wf : GatherDims.WF S40000x256 S680000x1 S680000x256 [1] [0] [] [0] [] 1 ![1, 256]
  scatter_S40000x256_S680000x1_S680000x256_1_0_0_1_wf : ScatterDims.WF S40000x256 S680000x1 S680000x256 [1] [0] [0] 1
  scatter_S64x256_S40000x1_S40000x256_1_0_0_1_wf : ScatterDims.WF S64x256 S40000x1 S40000x256 [1] [0] [0] 1
  scatter_S64_S40000x1_S40000_n_0_0_1_wf : ScatterDims.WF S64 S40000x1 S40000 [] [0] [0] 1

variable [Facts₀]

def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def gather_S40000x256_S680000x1_S680000x256_1_0_n_n_0_1_1256 : GatherDims S40000x256 S680000x1 S680000x256 where
  offsetDims := [1]
  collapsedSliceDims := [0]
  operandBatchingDims := []
  startIndicesBatchingDims := []
  startIndexMap := [0]
  indexVectorDim := 1
  sliceSizes := ![1, 256]
  wf := gather_S40000x256_S680000x1_S680000x256_1_0_n_n_0_1_1256_wf
def scatter_S40000x256_S680000x1_S680000x256_1_0_0_1 : ScatterDims S40000x256 S680000x1 S680000x256 where
  updateWindowDims := [1]
  insertedWindowDims := [0]
  scatterDimsToOperandDims := [0]
  indexVectorDim := 1
  wf := scatter_S40000x256_S680000x1_S680000x256_1_0_0_1_wf
def scatter_S64x256_S40000x1_S40000x256_1_0_0_1 : ScatterDims S64x256 S40000x1 S40000x256 where
  updateWindowDims := [1]
  insertedWindowDims := [0]
  scatterDimsToOperandDims := [0]
  indexVectorDim := 1
  wf := scatter_S64x256_S40000x1_S40000x256_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf

class Facts : Prop extends Facts₀ where

variable [Facts]
-- ==== Proof.K.Reg0.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: a dense product of a 40000×256 matrix with a 256×256 weight matrix, one block of 4000 rows per grid point -/

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point, whether or not it was fetched there, for any
    proof data over the entry contents whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: it is fetched once, and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 4000×256 buffer (the row block read, and the result block written). -/
abbrev r0_0 : Rect S4000x256 := Rect.unit (s := S4000x256) ![0, 0] S4000x256.size inb_S4000x256_S4000x256_0_0
/-- The whole 256×256 buffer (the weight matrix read). -/
abbrev r0_1 : Rect S256x256 := Rect.unit (s := S256x256) ![0, 0] S256x256.size inb_S256x256_S256x256_0_0

/-! ## What the body leaves in the output window's buffer -/

/-- The result buffer after the body, from the two input blocks: its one store, of the product of the narrowed row
    block with the narrowed weights accumulated onto zero. -/
def out0_2 (x0 : Vec F S4000x256 .f32) (x1 : Vec F S256x256 .f32) : Vec F S4000x256 .f32 :=
  View.canon [⟨r0_0, k0_pay1 (View.ld x0 r0_0) (View.ld x1 r0_1)⟩]

/-- The one store is of the whole buffer, so it covers it. -/
theorem cover0_2 (p0 : Vec F S4000x256 .f32) (y : S4000x256.Idx) :
    ∃ pc ∈ ([⟨r0_0, p0⟩] : List (View.Piece (Elt F) S4000x256 .f32)), y ∈ pc.1.set :=
  View.cover_of_tiled [⟨r0_0, p0⟩] S4000x256.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg1 : Memref sig .tc .vmem S4000x256 .f32) (harg1 : arg1.IsWhole) (arg2 : Memref sig .tc .vmem S256x256 .f32) (harg2 : arg2.IsWhole) (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Region0

/-! ## The pipeline's proof data -/

/-- The proof data of region 0 on core `c`: the arrays as the region finds them; after the body at point `t` each
    input's buffer at its block and the output's at `out0_2` of the two input blocks; the invariant is the scoped rest
    and the generator register, untouched; nothing owed; full shares. -/
def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t) : (dat0 V c).owed t = 0 := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest make up the invariant at the first point. -/
theorem phi_in0 (c : Dev nD) :
    (iprop((∃ r, prngReg c r) ∗ Pipeline.scopedRest (Ix := Unit) (Name := ℕ) (U := UR sig nD τ) (Lvl := ℕ) spec0 c) : sProp 𝕄)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Leaving: the invariant at the last point gives them back. -/
theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.Kernel.Hand

end
-- ==== Proof.K.Reg1.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column sums and column sums of squares of a 40000 by 256 array, ten row blocks of 4000

The body keeps two rows of 256 running sums in two scratch buffers that no window stages: it resets them at the
first grid point, adds the current block's column sums (of the entries, of their squares) at every point, and copies
them to the two one-row output blocks at the last point. The region's invariant therefore holds the two scratch
buffers at the running sums after the points so far, apart from every other scoped buffer, which stays unopened. -/

variable (V : (c : Dev nD) → (b : Ref sig .tc) → Buf (Elt F) ((c : Thread nD τ).loc b))

/-! ## The body's two conditions, in closed form over the grid -/

/-- The first conditional (the reset of the two running sums) is taken where the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- The second conditional (the copy of the two running sums to the output blocks) is taken where it is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The two output windows are idle exactly where the copy is not made. -/
theorem idleAt1_1 : ∀ t : Fin cfg1.N, cfg1.idle 1 (grid1.coords t) = true ↔ ¬ t.val % 10 = 9 :=
  (by decide +kernel : ∀ t : Fin grid1.N, idle1 1 (grid1.coords t) = true ↔ ¬ t.val % 10 = 9)
theorem idleAt1_2 : ∀ t : Fin cfg1.N, cfg1.idle 2 (grid1.coords t) = true ↔ ¬ t.val % 10 = 9 :=
  (by decide +kernel : ∀ t : Fin grid1.N, idle1 2 (grid1.coords t) = true ↔ ¬ t.val % 10 = 9)

theorem hz1 : (![0, 0] : Fin 2 → Nat) = fun _ => 0 := funext fun a => by fin_cases a <;> rfl

/-- A store through the whole-shape rectangle at zero offsets, made last, is what the buffer then reads, whatever was
    stored before: every index is the image of itself under that rectangle. -/
theorem store_whole1 {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  funext y
  have e := View.read_writes_cons_emb (Val := Elt F) v f (Rect.whole S) w L y
  rwa [Rect.emb_whole_apply] at e

/-! ## The body on any whole memrefs, case by case

The row block is held at `x`. Every load and store is of a whole buffer, so each buffer ends at the payload of
its last store, with the loads before it reading what the buffer then held. -/

set_option maxHeartbeats 1000000 in
/-- First point: both running sums are reset to zero, then the block's column sums (of the entries, of their
    squares) are added; the output blocks are not touched. -/
theorem run1_A (c : Dev nD) (i : grid1.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : cond1_0 i) (hc1 : ¬cond1_1 i)
    (x : Vec F S4000x256 .f32) :
      ∀ (E : Set ℕ) (K : PUnit → sProp 𝕄),
        iprop(owns (c : Thread nD τ) arg1 fullShare x ∗ (∃ d, owns (c : Thread nD τ) arg4 fullShare d) ∗ (∃ d, owns (c : Thread nD τ) arg5 fullShare d)
            ∗ (iprop(owns (c : Thread nD τ) arg1 fullShare x ∗ owns (c : Thread nD τ) arg4 fullShare (k1_pay4 x k1_pay1)
                ∗ owns (c : Thread nD τ) arg5 fullShare (k1_pay5 x k1_pay2)) -∗ K ⟨⟩))
          ⊢ wp frame (wpE (defs₀ (F := F)) Variants.none c none) E (cc1__stats_kernel i arg1 harg1 arg2 harg2 arg3 harg3 arg4 harg4 arg5 harg5) K := by
    intro E K
    simp only [cc1__stats_kernel_eq_skeleton]; unfold cc1__stats_kernel_skel
    unfold owns
    iintro ⟨⟨%f1, %hf1, H1⟩, ⟨%d4, %f4, -, H4⟩, ⟨%d5, %f5, -, H5⟩, Hk⟩
    obtain rfl := harg1.eq_unread hf1
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      sl_unfold_run_names
      rw [store_whole1 _ _ hz1, View.readCov_unit_zero (S := S1x256) _ hz1]
      simp only [View.readAt_eq_ld, harg1.read_unread, View.ld_unit_zero (S := S4000x256) hz1]
    · iexists _; isplitr; swap; · iexact H5
      ipureintro
      sl_unfold_run_names
      rw [store_whole1 _ _ hz1, View.readCov_unit_zero (S := S1x256) _ hz1]
      simp only [View.readAt_eq_ld, harg1.read_unread, View.ld_unit_zero (S := S4000x256) hz1]

set_option maxHeartbeats 1000000 in
/-- A middle point: the block's column sums are added to the running sums; the output blocks are not touched. -/
theorem run1_B (c : Dev nD) (i : grid1.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond1_0 i) (hc1 : ¬cond1_1 i)
    (x : Vec F S4000x256 .f32) (a0 a1 : Vec F S1x256 .f32) :
      ∀ (E : Set ℕ) (K : PUnit → sProp 𝕄),
        iprop(owns (c : Thread nD τ) arg1 fullShare x ∗ owns (c : Thread nD τ) arg4 fullShare a0 ∗ owns (c : Thread nD τ) arg5 fullShare a1
            ∗ (iprop(owns (c : Thread nD τ) arg1 fullShare x ∗ owns (c : Thread nD τ) arg4 fullShare (k1_pay4 x a0)
                ∗ owns (c : Thread nD τ) arg5 fullShare (k1_pay5 x a1)) -∗ K ⟨⟩))
          ⊢ wp frame (wpE (defs₀ (F := F)) Variants.none c none) E (cc1__stats_kernel i arg1 harg1 arg2 harg2 arg3 harg3 arg4 harg4 arg5 harg5) K := by
    intro E K
    simp only [cc1__stats_kernel_eq_skeleton]; unfold cc1__stats_kernel_skel
    unfold owns
    iintro ⟨⟨%f1, %hf1, H1⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      rw [store_whole1 _ _ hz1]
      simp only [View.readAt_eq_ld, harg1.read_unread, harg4.read_unread, View.ld_unit_zero (S := S4000x256) hz1, View.ld_unit_zero (S := S1x256) hz1]
    · iexists _; isplitr; swap; · iexact H5
      ipureintro
      rw [store_whole1 _ _ hz1]
      simp only [View.readAt_eq_ld, harg1.read_unread, harg5.read_unread, View.ld_unit_zero (S := S4000x256) hz1, View.ld_unit_zero (S := S1x256) hz1]

set_option maxHeartbeats 1000000 in
/-- Last point: the block's column sums are added to the running sums, and the two running sums are copied to the
    two output blocks. -/
theorem run1_C (c : Dev nD) (i : grid1.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond1_0 i) (hc1 : cond1_1 i)
    (x : Vec F S4000x256 .f32) (a0 a1 : Vec F S1x256 .f32) :
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d)
            ∗ owns (c : Thread nD τ) arg4 fullShare a0 ∗ owns (c : Thread nD τ) arg5 fullShare a1
            ∗ (iprop(owns (c : Thread nD τ) arg1 fullShare x ∗ owns (c : Thread nD τ) arg2 fullShare (k1_pay4 x a0)
                ∗ owns (c : Thread nD τ) arg3 fullShare (k1_pay5 x a1) ∗ owns (c : Thread nD τ) arg4 fullShare (k1_pay4 x a0)
                ∗ owns (c : Thread nD τ) arg5 fullShare (k1_pay5 x a1)) -∗ K ⟨⟩))
          ⊢ wp frame (wpE (defs₀ (F := F)) Variants.none c none) E (cc1__stats_kernel i arg1 harg1 arg2 harg2 arg3 harg3 arg4 harg4 arg5 harg5) K := by
    intro E K
    simp only [cc1__stats_kernel_eq_skeleton]; unfold cc1__stats_kernel_skel
    unfold owns
    iintro ⟨⟨%f1, %hf1, H1⟩, ⟨%d2, %f2, -, H2⟩, ⟨%d3, %f3, -, H3⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; swap; · iexact H2
      ipureintro
      sl_unfold_run_names
      rw [store_whole1 _ _ hz1, View.readCov_unit_zero (S := S1x256) _ hz1]
      simp only [View.readAt_eq_ld, harg1.read_unread, harg4.read_unread, View.ld_unit_zero (S := S4000x256) hz1, View.ld_unit_zero (S := S1x256) hz1]
    isplitl [H3]
    · iexists _; isplitr; swap; · iexact H3
      ipureintro
      sl_unfold_run_names
      rw [store_whole1 _ _ hz1, View.readCov_unit_zero (S := S1x256) _ hz1]
      simp only [View.readAt_eq_ld, harg1.read_unread, harg5.read_unread, View.ld_unit_zero (S := S4000x256) hz1, View.ld_unit_zero (S := S1x256) hz1]
    isplitl [H4]
    · iexists _; isplitr; swap; · iexact H4
      ipureintro
      sl_unfold_run_names
      rw [store_whole1 _ _ hz1]
      simp only [View.readAt_eq_ld, harg1.read_unread, harg4.read_unread, View.ld_unit_zero (S := S4000x256) hz1, View.ld_unit_zero (S := S1x256) hz1]
    · iexists _; isplitr; swap; · iexact H5
      ipureintro
      sl_unfold_run_names
      rw [store_whole1 _ _ hz1]
      simp only [View.readAt_eq_ld, harg1.read_unread, harg5.read_unread, View.ld_unit_zero (S := S4000x256) hz1, View.ld_unit_zero (S := S1x256) hz1]

/-! ## The proof data -/

/-- The staging memrefs as the pipeline passes them at point `t`, and the two scratch buffers. -/
abbrev ms1_0 (t : Fin cfg1.N) : Memref sig .tc .vmem S4000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev sc1_0 : Memref sig .tc .vmem S1x256 .f32 := Memref.whole cc1_scratch0
abbrev sc1_1 : Memref sig .tc .vmem S1x256 .f32 := Memref.whole cc1_scratch1

/-- The row block of the input array that point `t` works on, read off the array as the region finds it. -/
def iblk1 (c : Dev nD) (t : Fin cfg1.N) : ((cfg1.win 0).xblock (cfg1.grid.coords t)).Idx → Elt F (cfg1.win 0).elt :=
  ((cfg1.win 0).blk t).view.read (Elt F) (V c (Pipeline.arrRef spec1 0))
/-- The same at its literal type. -/
abbrev xblk1 (c : Dev nD) (t : Fin cfg1.N) : Vec F S4000x256 .f32 := iblk1 V c t

/-- The first running sum after `n` points: zero, then one block's column sums added per point. -/
def scr1_0 (c : Dev nD) : ℕ → Vec F S1x256 .f32
  | 0 => k1_pay1
  | n + 1 => if h : n < cfg1.N then k1_pay4 (xblk1 V c ⟨n, h⟩) (scr1_0 c n) else scr1_0 c n
/-- The second running sum after `n` points: zero, then one block's column sums of squares added per point. -/
def scr1_1 (c : Dev nD) : ℕ → Vec F S1x256 .f32
  | 0 => k1_pay2
  | n + 1 => if h : n < cfg1.N then k1_pay5 (xblk1 V c ⟨n, h⟩) (scr1_1 c n) else scr1_1 c n

theorem scr1_0_zero (c : Dev nD) : scr1_0 V c 0 = k1_pay1 := rfl
theorem scr1_1_zero (c : Dev nD) : scr1_1 V c 0 = k1_pay2 := rfl
theorem scr1_0_succ (c : Dev nD) (t : Fin cfg1.N) : scr1_0 V c (t.val + 1) = k1_pay4 (xblk1 V c t) (scr1_0 V c t.val) := by
  rw [scr1_0, dif_pos t.isLt]
theorem scr1_1_succ (c : Dev nD) (t : Fin cfg1.N) : scr1_1 V c (t.val + 1) = k1_pay5 (xblk1 V c t) (scr1_1 V c t.val) := by
  rw [scr1_1, dif_pos t.isLt]

/-- One scratch buffer between points: before the first point at anything (the first point overwrites it), after
    `n` points at `X n`. -/
def held1 (c : Dev nD) (b : Memref sig .tc .vmem S1x256 .f32) (X : ℕ → Vec F S1x256 .f32) (n : ℕ) : sProp 𝕄 :=
  if n = 0 then iprop(∃ d, owns (c : Thread nD τ) b fullShare d) else owns (c : Thread nD τ) b fullShare (X n)

/-- The region's invariant after `n` points: the generator register, every scoped buffer other than the staging
    buffers and the two scratch buffers unopened, and the two scratch buffers at the running sums. -/
def Φ1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0, cc1_scratch1]
    ∗ held1 c sc1_0 (scr1_0 V c) n ∗ held1 c sc1_1 (scr1_1 V c) n)

/-- The proof data of region 1 on core `c`: the arrays as the region finds them; after the body at point `t` the
    input's buffer at its block and the two outputs' at the running sums (read at the last point only: before it
    they are idle); the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => xblk1 V c t
    | ⟨1, _⟩ => scr1_0 V c (t.val + 1)
    | ⟨2, _⟩ => scr1_1 V c (t.val + 1)
  Φ t := Φ1 V c t.val
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t) : (dat1 V c).owed t = 0 := rfl

theorem after1_0 (c : Dev nD) (t : Fin cfg1.N) : (dat1 V c).after 0 t = iblk1 V c t := by dsimp only [dat1]
theorem after1_1 (c : Dev nD) (t : Fin cfg1.N) : (dat1 V c).after 1 t = scr1_0 V c (t.val + 1) := by dsimp only [dat1]
theorem after1_2 (c : Dev nD) (t : Fin cfg1.N) : (dat1 V c).after 2 t = scr1_1 V c (t.val + 1) := by dsimp only [dat1]

/-- The input's current staging buffer holds its block at every point. -/
theorem before1_0 (c : Dev nD) (t : Fin cfg1.N) (d) : (dat1 V c).before 0 t d = iblk1 V c t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-! ## The invariant at the region's two ends -/

theorem held1_any (c : Dev nD) (b : Memref sig .tc .vmem S1x256 .f32) (X : ℕ → Vec F S1x256 .f32) (n : ℕ) :
    held1 c b X n ⊢ (iprop(∃ d, owns (c : Thread nD τ) b fullShare d) : sProp 𝕄) := by
  unfold held1
  split
  · iintro H; iexact H
  · iintro H; iexists _; iexact H

theorem heldAny1_eq (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

theorem phi_in1 (c : Dev nD) :
    (iprop((∃ r, prngReg c r) ∗ Pipeline.scopedRest (Ix := Unit) (Name := ℕ) (U := UR sig nD τ) (Lvl := ℕ) spec1 c) : sProp 𝕄)
      ⊢ (dat1 V c).Φ 0 := by
  rw [scopedRest1_split, ← heldAny1_eq, ← heldAny1_eq]
  show _ ⊢ Φ1 V c 0
  unfold Φ1 held1
  rw [if_pos rfl, if_pos rfl]
  iintro ⟨Hp, ⟨H0, H1⟩, Hr⟩
  isplitl [Hp]; · iexact Hp
  isplitl [Hr]; · iexact Hr
  isplitl [H0]; · iexact H0
  iexact H1

theorem phi_out1 (c : Dev nD) :
    (dat1 V c).Φ (Fin.last cfg1.N)
      ⊢ (iprop((∃ r, prngReg c r) ∗ Pipeline.scopedRest (Ix := Unit) (Name := ℕ) (U := UR sig nD τ) (Lvl := ℕ) spec1 c) : sProp 𝕄) := by
  rw [scopedRest1_split, ← heldAny1_eq, ← heldAny1_eq]
  show Φ1 V c cfg1.N ⊢ _
  unfold Φ1
  iintro ⟨Hp, Hr, H0, H1⟩
  isplitl [Hp]; · iexact Hp
  isplitr [Hr]; swap; · iexact Hr
  isplitl [H0]
  · iapply (held1_any c sc1_0 _ _); iexact H0
  · iapply (held1_any c sc1_1 _ _); iexact H1

/-! ## The body obligation -/

theorem held1_of_eq_zero (c : Dev nD) (b : Memref sig .tc .vmem S1x256 .f32) (X : ℕ → Vec F S1x256 .f32) (n : ℕ) (h : n = 0) :
    held1 c b X n = (iprop(∃ d, owns (c : Thread nD τ) b fullShare d) : sProp 𝕄) := if_pos h
theorem held1_of_ne_zero (c : Dev nD) (b : Memref sig .tc .vmem S1x256 .f32) (X : ℕ → Vec F S1x256 .f32) (n : ℕ) (h : n ≠ 0) :
    held1 c b X n = (owns (c : Thread nD τ) b fullShare (X n) : sProp 𝕄) := if_neg h

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

/-- The input window is never idle: the body hands its buffer back at its block. -/
theorem leaves1_0 (c : Dev nD) (t : Fin cfg1.N) :
    (dat1 V c).leavesExact 0 t = owns (c : Thread nD τ) (ms1_0 t) fullShare (iblk1 V c t) := by
  rw [← after1_0]

/-- Before the last point the two output windows are idle and not written back: handed back as found. -/
theorem leaves1_1_idle (c : Dev nD) (t : Fin cfg1.N) (h9 : ¬ t.val % 10 = 9) :
    (dat1 V c).leavesExact 1 t = iprop(∃ d, owns (c : Thread nD τ) (ms1_1 t) fullShare ((dat1 V c).before 1 t d)) :=
  (dat1 V c).leavesExact_idle 1 t ((idleAt1_1 t).mpr h9) (Bool.eq_false_iff.mpr fun h => h9 ((flush1_1 t).mp h))
theorem leaves1_2_idle (c : Dev nD) (t : Fin cfg1.N) (h9 : ¬ t.val % 10 = 9) :
    (dat1 V c).leavesExact 2 t = iprop(∃ d, owns (c : Thread nD τ) (ms1_2 t) fullShare ((dat1 V c).before 2 t d)) :=
  (dat1 V c).leavesExact_idle 2 t ((idleAt1_2 t).mpr h9) (Bool.eq_false_iff.mpr fun h => h9 ((flush1_2 t).mp h))

/-- At the last point they are live: handed back at the running sums. -/
theorem leaves1_1_live (c : Dev nD) (t : Fin cfg1.N) (h9 : t.val % 10 = 9) :
    (dat1 V c).leavesExact 1 t = owns (c : Thread nD τ) (ms1_1 t) fullShare (scr1_0 V c (t.val + 1)) := by
  unfold Dat.leavesExact; rw [Bool.eq_false_iff.mpr fun h => (idleAt1_1 t).mp h h9, after1_1]
theorem leaves1_2_live (c : Dev nD) (t : Fin cfg1.N) (h9 : t.val % 10 = 9) :
    (dat1 V c).leavesExact 2 t = owns (c : Thread nD τ) (ms1_2 t) fullShare (scr1_1 V c (t.val + 1)) := by
  unfold Dat.leavesExact; rw [Bool.eq_false_iff.mpr fun h => (idleAt1_2 t).mp h h9, after1_2]

set_option maxHeartbeats 1600000 in
/-- The body at any point: the input's memref holds its block; the closed forms say which of the three cases the
    point is in; the case's run applies at the running sums the invariant holds the scratch buffers at; the rest of
    the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = Φ1 V c (t.val + 1) from rfl,
    show (dat1 V c).Φ t.castSucc = Φ1 V c t.val from rfl,
    show (dat1 V c).owesAt () t.succ = (dat1 V c).owesAt () t.castSucc from rfl,
    leaves1_0]
  have hN : t.val < 10 := lt_of_lt_of_eq t.isLt (show cfg1.N = 10 from N_1)
  unfold Φ1
  rw [held1_of_ne_zero c sc1_0 (scr1_0 V c) (t.val + 1) (Nat.succ_ne_zero _), held1_of_ne_zero c sc1_1 (scr1_1 V c) (t.val + 1) (Nat.succ_ne_zero _),
    scr1_0_succ, scr1_1_succ]
  by_cases h0 : t.val % 10 = 0
  · have h9 : ¬ t.val % 10 = 9 := by omega
    have e0 : scr1_0 V c t.val = k1_pay1 := by rw [show t.val = 0 by omega]; rfl
    have e1 : scr1_1 V c t.val = k1_pay2 := by rw [show t.val = 0 by omega]; rfl
    rw [leaves1_1_idle V c t h9, leaves1_2_idle V c t h9, e0, e1,
      held1_of_eq_zero c sc1_0 (scr1_0 V c) t.val (by omega), held1_of_eq_zero c sc1_1 (scr1_1 V c) t.val (by omega)]
    iintro ⟨⟨Hp, Hr, ⟨%d4, H4⟩, ⟨%d5, H5⟩⟩, Ho, ⟨%d0, H0⟩, H1, H2⟩
    iapply (run1_A c (grid1.coords t) _ _ _ _ _ _ _ _ _ _ ((hcond1_0 t).mpr h0) (fun h => h9 ((hcond1_1 t).mp h)) (xblk1 V c t) Set.univ _)
    isplitl [H0]; · iexact H0
    isplitl [H4]; · iexists _; iexact H4
    isplitl [H5]; · iexists _; iexact H5
    iintro ⟨H0, H4, H5⟩
    isplitl [Hp Hr H4 H5]
    · isplitl [Hp]; · iexact Hp
      isplitl [Hr]; · iexact Hr
      isplitl [H4]; · iexact H4
      iexact H5
    isplitl [Ho]; · iexact Ho
    isplitl [H0]; · iexact H0
    isplitl [H1]; · iexact H1
    iexact H2
  · rw [held1_of_ne_zero c sc1_0 (scr1_0 V c) t.val (by omega), held1_of_ne_zero c sc1_1 (scr1_1 V c) t.val (by omega)]
    by_cases h9 : t.val % 10 = 9
    · rw [leaves1_1_live V c t h9, leaves1_2_live V c t h9, scr1_0_succ, scr1_1_succ]
      iintro ⟨⟨Hp, Hr, H4, H5⟩, Ho, ⟨%d0, H0⟩, ⟨%d1, H1⟩, ⟨%d2, H2⟩⟩
      iapply (run1_C c (grid1.coords t) _ _ _ _ _ _ _ _ _ _ (fun h => h0 ((hcond1_0 t).mp h)) ((hcond1_1 t).mpr h9) (xblk1 V c t) (scr1_0 V c t.val) (scr1_1 V c t.val) Set.univ _)
      isplitl [H0]; · iexact H0
      isplitl [H1]; · iexists _; iexact H1
      isplitl [H2]; · iexists _; iexact H2
      isplitl [H4]; · iexact H4
      isplitl [H5]; · iexact H5
      iintro ⟨H0, H1, H2, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2
    · rw [leaves1_1_idle V c t h9, leaves1_2_idle V c t h9]
      iintro ⟨⟨Hp, Hr, H4, H5⟩, Ho, ⟨%d0, H0⟩, H1, H2⟩
      iapply (run1_B c (grid1.coords t) _ _ _ _ _ _ _ _ _ _ (fun h => h0 ((hcond1_0 t).mp h)) (fun h => h9 ((hcond1_1 t).mp h)) (xblk1 V c t) (scr1_0 V c t.val) (scr1_1 V c t.val) Set.univ _)
      isplitl [H0]; · iexact H0
      isplitl [H4]; · iexact H4
      isplitl [H5]; · iexact H5
      iintro ⟨H0, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the affine map followed by the rectifier, one row block per grid point

The region's kernel reads a block of 4000 rows of its first operand and the two single rows of per-column
coefficients, and writes the block of rows max (x * scale + shift) 0.  Everything is stated at a parameter V:
the contents of the core's buffers when the region is entered. -/

variable (V : (c : Dev nD) → (b : Ref sig .tc) → Buf (Elt F) ((c : Thread nD τ).loc b))

/-! ## The windows' blocks -/

/-- The block of window w at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the first operand sits in its current staging buffer at every point: for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row of scales sits in its staging buffer at every point, although it is brought in only once: its block
    index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The row of shifts likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 4000 x 256 block, and the whole single row of 256. -/
abbrev r2_0 : Rect S4000x256 := Rect.unit (s := S4000x256) ![0, 0] S4000x256.size inb_S4000x256_S4000x256_0_0
abbrev r2_1 : Rect S1x256 := Rect.unit (s := S1x256) ![0, 0] S1x256.size inb_S1x256_S1x256_0_0

/-! ## What the body leaves in the output window's buffer -/

/-- The output buffer after the body, as a function of the three input blocks: its single store, whose payload is
    the rectified affine image of the row block. -/
def out2_3 (x0 : Vec F S4000x256 .f32) (x1 : Vec F S1x256 .f32) (x2 : Vec F S1x256 .f32) : Vec F S4000x256 .f32 :=
  View.canon [⟨r2_0, k2_pay1 (View.ld x0 r2_0) (View.ld x1 r2_1) (View.ld x2 r2_1)⟩]

/-- The single store is to the whole buffer, so it covers it. -/
theorem cover2_3 (p0 : Vec F S4000x256 .f32) (y : S4000x256.Idx) :
    ∃ pc ∈ ([⟨r2_0, p0⟩] : List (View.Piece (Elt F) S4000x256 .f32)), y ∈ pc.1.set :=
  View.cover_of_tiled [⟨r2_0, p0⟩] S4000x256.size (by rfl) y

/-! ## The body's triple -/

set_option maxHeartbeats 1000000 in
/-- The kernel on whole staging memrefs: with the three inputs at read contents x0, x1, x2 and the output at
    anything, it runs to the continuation with the inputs unchanged and the output at out2_3 x0 x1 x2. -/
theorem sound_kernel2 (c : Dev nD) (E : Set ℕ) (i : grid2.Coords) (arg1 : Memref sig .tc .vmem S4000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4000x256 .f32) (harg4 : arg4.IsWhole)
    (x0 : Vec F S4000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bn_relu_kernel i arg1 harg1 arg2 harg2 arg3 harg3 arg4 harg4) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core c: the arrays as the region finds them; after the body at
    point t each input buffer still at its block and the output buffer at out2_3 of the input blocks; the
    invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- Every share is the full one. -/
theorem q_eq2 (c : Dev nD) (w : Fin cfg2.W) : (dat2 V c).q w = fullShare := by
  dsimp only [dat2]

/-- Nothing is owed at any point. -/
theorem owed_eq2 (c : Dev nD) (t) : (dat2 V c).owed t = 0 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- The generator register and the scoped rest make up the invariant before the first point, -/
theorem phi_in2 (c : Dev nD) :
    (iprop((∃ r, prngReg c r) ∗ Pipeline.scopedRest (Ix := Unit) (Name := ℕ) (U := UR sig nD τ) (Lvl := ℕ) spec2 c) : sProp 𝕄)
      ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- and the invariant after the last point gives them back. -/
theorem phi_out2 (c : Dev nD) :
    (dat2 V c).Φ (Fin.last cfg2.N)
      ⊢ (iprop((∃ r, prngReg c r) ∗ Pipeline.scopedRest (Ix := Unit) (Name := ℕ) (U := UR sig nD τ) (Lvl := ℕ) spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

end Cert.Kernel.Hand

end
-- ==== Proof.K.Reg3.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: a dense product of a 40000×256 matrix with a 256×256 weight matrix, one block of 4000 rows per grid point -/

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block input's staging buffer holds its block at every point, whether or not it was fetched there, for any
    proof data over the entry contents whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer holds the whole matrix at every point: it is fetched once, and its block index
    never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 4000×256 buffer (the row block read, and the result block written). -/
abbrev r3_0 : Rect S4000x256 := Rect.unit (s := S4000x256) ![0, 0] S4000x256.size inb_S4000x256_S4000x256_0_0
/-- The whole 256×256 buffer (the weight matrix read). -/
abbrev r3_1 : Rect S256x256 := Rect.unit (s := S256x256) ![0, 0] S256x256.size inb_S256x256_S256x256_0_0

/-! ## What the body leaves in the output window's buffer -/

/-- The result buffer after the body, from the two input blocks: its one store, of the product of the narrowed row
    block with the narrowed weights accumulated onto zero. -/
def out3_2 (x0 : Vec F S4000x256 .f32) (x1 : Vec F S256x256 .f32) : Vec F S4000x256 .f32 :=
  View.canon [⟨r3_0, k3_pay1 (View.ld x0 r3_0) (View.ld x1 r3_1)⟩]

/-- The one store is of the whole buffer, so it covers it. -/
theorem cover3_2 (p0 : Vec F S4000x256 .f32) (y : S4000x256.Idx) :
    ∃ pc ∈ ([⟨r3_0, p0⟩] : List (View.Piece (Elt F) S4000x256 .f32)), y ∈ pc.1.set :=
  View.cover_of_tiled [⟨r3_0, p0⟩] S4000x256.size (by rfl) y

/-! ## The body's triple -/

set_option maxHeartbeats 1000000 in
/-- The kernel body on whole staging memrefs, the inputs' at contents `x0`, `x1` and the output's at anything, runs
    to the continuation holding the inputs' as they were and the output's at `out3_2 x0 x1`. -/
theorem sound_kernel3 (c : Dev nD) (E : Set ℕ) (i : grid3.Coords) (arg1 : Memref sig .tc .vmem S4000x256 .f32) (harg1 : arg1.IsWhole) (arg2 : Memref sig .tc .vmem S256x256 .f32) (harg2 : arg2.IsWhole) (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

end Region3

/-! ## The pipeline's proof data -/

/-- The proof data of region 3 on core `c`: the arrays as the region finds them; after the body at point `t` each
    input's buffer at its block and the output's at `out3_2` of the two input blocks; the invariant is the scoped rest
    and the generator register, untouched; nothing owed; full shares. -/
def dat3 (V : (c : Dev nD) → (b : Ref sig .tc) → Buf (Elt F) ((c : Thread nD τ).loc b)) (c : Dev nD) :
    Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

variable (V : (c : Dev nD) → (b : Ref sig .tc) → Buf (Elt F) ((c : Thread nD τ).loc b))

/-- The proof data's arrays are the region-entry contents. -/
theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t) : (dat3 V c).owed t = 0 := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- Entering: the generator register and the scoped rest make up the invariant at the first point. -/
theorem phi_in3 (c : Dev nD) :
    (iprop((∃ r, prngReg c r) ∗ Pipeline.scopedRest (Ix := Unit) (Name := ℕ) (U := UR sig nD τ) (Lvl := ℕ) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Leaving: the invariant at the last point gives them back. -/
theorem phi_out3 (c : Dev nD) :
    (dat3 V c).Φ (Fin.last cfg3.N)
      ⊢ (iprop((∃ r, prngReg c r) ∗ Pipeline.scopedRest (Ix := Unit) (Name := ℕ) (U := UR sig nD τ) (Lvl := ℕ) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

end Cert.Kernel.Hand

end
-- ==== Proof.K.Reg4.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the column sums and column sums of squares of a 40000 by 256 array, ten row blocks of 4000

The body keeps two rows of 256 running sums in two scratch buffers that no window stages: it resets them at the
first grid point, adds the current block's column sums (of the entries, of their squares) at every point, and copies
them to the two one-row output blocks at the last point. The region's invariant therefore holds the two scratch
buffers at the running sums after the points so far, apart from every other scoped buffer, which stays unopened. -/

variable (V : (c : Dev nD) → (b : Ref sig .tc) → Buf (Elt F) ((c : Thread nD τ).loc b))

/-! ## The body's two conditions, in closed form over the grid -/

/-- The first conditional (the reset of the two running sums) is taken where the grid coordinate is 0. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The second conditional (the copy of the two running sums to the output blocks) is taken where it is 9. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-- The two output windows are idle exactly where the copy is not made. -/
theorem idleAt4_1 : ∀ t : Fin cfg4.N, cfg4.idle 1 (grid4.coords t) = true ↔ ¬ t.val % 10 = 9 :=
  (by decide +kernel : ∀ t : Fin grid4.N, idle4 1 (grid4.coords t) = true ↔ ¬ t.val % 10 = 9)
theorem idleAt4_2 : ∀ t : Fin cfg4.N, cfg4.idle 2 (grid4.coords t) = true ↔ ¬ t.val % 10 = 9 :=
  (by decide +kernel : ∀ t : Fin grid4.N, idle4 2 (grid4.coords t) = true ↔ ¬ t.val % 10 = 9)

theorem hz4 : (![0, 0] : Fin 2 → Nat) = fun _ => 0 := funext fun a => by fin_cases a <;> rfl

/-- A store through the whole-shape rectangle at zero offsets, made last, is what the buffer then reads, whatever was
    stored before: every index is the image of itself under that rectangle. -/
theorem store_whole4 {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  funext y
  have e := View.read_writes_cons_emb (Val := Elt F) v f (Rect.whole S) w L y
  rwa [Rect.emb_whole_apply] at e

/-! ## The body on any whole memrefs, case by case

The row block is held at `x`. Every load and store is of a whole buffer, so each buffer ends at the payload of
its last store, with the loads before it reading what the buffer then held. -/

set_option maxHeartbeats 1000000 in
/-- First point: both running sums are reset to zero, then the block's column sums (of the entries, of their
    squares) are added; the output blocks are not touched. -/
theorem run4_A (c : Dev nD) (i : grid4.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : cond4_0 i) (hc1 : ¬cond4_1 i)
    (x : Vec F S4000x256 .f32) :
      ∀ (E : Set ℕ) (K : PUnit → sProp 𝕄),
        iprop(owns (c : Thread nD τ) arg1 fullShare x ∗ (∃ d, owns (c : Thread nD τ) arg4 fullShare d) ∗ (∃ d, owns (c : Thread nD τ) arg5 fullShare d)
            ∗ (iprop(owns (c : Thread nD τ) arg1 fullShare x ∗ owns (c : Thread nD τ) arg4 fullShare (k4_pay4 x k4_pay1)
                ∗ owns (c : Thread nD τ) arg5 fullShare (k4_pay5 x k4_pay2)) -∗ K ⟨⟩))
          ⊢ wp frame (wpE (defs₀ (F := F)) Variants.none c none) E (cc4__stats_kernel i arg1 harg1 arg2 harg2 arg3 harg3 arg4 harg4 arg5 harg5) K := by
    intro E K
    simp only [cc4__stats_kernel_eq_skeleton]; unfold cc4__stats_kernel_skel
    unfold owns
    iintro ⟨⟨%f1, %hf1, H1⟩, ⟨%d4, %f4, -, H4⟩, ⟨%d5, %f5, -, H5⟩, Hk⟩
    obtain rfl := harg1.eq_unread hf1
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      sl_unfold_run_names
      rw [store_whole4 _ _ hz4, View.readCov_unit_zero (S := S1x256) _ hz4]
      simp only [View.readAt_eq_ld, harg1.read_unread, View.ld_unit_zero (S := S4000x256) hz4]
    · iexists _; isplitr; swap; · iexact H5
      ipureintro
      sl_unfold_run_names
      rw [store_whole4 _ _ hz4, View.readCov_unit_zero (S := S1x256) _ hz4]
      simp only [View.readAt_eq_ld, harg1.read_unread, View.ld_unit_zero (S := S4000x256) hz4]

set_option maxHeartbeats 1000000 in
/-- A middle point: the block's column sums are added to the running sums; the output blocks are not touched. -/
theorem run4_B (c : Dev nD) (i : grid4.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond4_0 i) (hc1 : ¬cond4_1 i)
    (x : Vec F S4000x256 .f32) (a0 a1 : Vec F S1x256 .f32) :
      ∀ (E : Set ℕ) (K : PUnit → sProp 𝕄),
        iprop(owns (c : Thread nD τ) arg1 fullShare x ∗ owns (c : Thread nD τ) arg4 fullShare a0 ∗ owns (c : Thread nD τ) arg5 fullShare a1
            ∗ (iprop(owns (c : Thread nD τ) arg1 fullShare x ∗ owns (c : Thread nD τ) arg4 fullShare (k4_pay4 x a0)
                ∗ owns (c : Thread nD τ) arg5 fullShare (k4_pay5 x a1)) -∗ K ⟨⟩))
          ⊢ wp frame (wpE (defs₀ (F := F)) Variants.none c none) E (cc4__stats_kernel i arg1 harg1 arg2 harg2 arg3 harg3 arg4 harg4 arg5 harg5) K := by
    intro E K
    simp only [cc4__stats_kernel_eq_skeleton]; unfold cc4__stats_kernel_skel
    unfold owns
    iintro ⟨⟨%f1, %hf1, H1⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      rw [store_whole4 _ _ hz4]
      simp only [View.readAt_eq_ld, harg1.read_unread, harg4.read_unread, View.ld_unit_zero (S := S4000x256) hz4, View.ld_unit_zero (S := S1x256) hz4]
    · iexists _; isplitr; swap; · iexact H5
      ipureintro
      rw [store_whole4 _ _ hz4]
      simp only [View.readAt_eq_ld, harg1.read_unread, harg5.read_unread, View.ld_unit_zero (S := S4000x256) hz4, View.ld_unit_zero (S := S1x256) hz4]

set_option maxHeartbeats 1000000 in
/-- Last point: the block's column sums are added to the running sums, and the two running sums are copied to the
    two output blocks. -/
theorem run4_C (c : Dev nD) (i : grid4.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond4_0 i) (hc1 : cond4_1 i)
    (x : Vec F S4000x256 .f32) (a0 a1 : Vec F S1x256 .f32) :
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d)
            ∗ owns (c : Thread nD τ) arg4 fullShare a0 ∗ owns (c : Thread nD τ) arg5 fullShare a1
            ∗ (iprop(owns (c : Thread nD τ) arg1 fullShare x ∗ owns (c : Thread nD τ) arg2 fullShare (k4_pay4 x a0)
                ∗ owns (c : Thread nD τ) arg3 fullShare (k4_pay5 x a1) ∗ owns (c : Thread nD τ) arg4 fullShare (k4_pay4 x a0)
                ∗ owns (c : Thread nD τ) arg5 fullShare (k4_pay5 x a1)) -∗ K ⟨⟩))
          ⊢ wp frame (wpE (defs₀ (F := F)) Variants.none c none) E (cc4__stats_kernel i arg1 harg1 arg2 harg2 arg3 harg3 arg4 harg4 arg5 harg5) K := by
    intro E K
    simp only [cc4__stats_kernel_eq_skeleton]; unfold cc4__stats_kernel_skel
    unfold owns
    iintro ⟨⟨%f1, %hf1, H1⟩, ⟨%d2, %f2, -, H2⟩, ⟨%d3, %f3, -, H3⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; swap; · iexact H2
      ipureintro
      sl_unfold_run_names
      rw [store_whole4 _ _ hz4, View.readCov_unit_zero (S := S1x256) _ hz4]
      simp only [View.readAt_eq_ld, harg1.read_unread, harg4.read_unread, View.ld_unit_zero (S := S4000x256) hz4, View.ld_unit_zero (S := S1x256) hz4]
    isplitl [H3]
    · iexists _; isplitr; swap; · iexact H3
      ipureintro
      sl_unfold_run_names
      rw [store_whole4 _ _ hz4, View.readCov_unit_zero (S := S1x256) _ hz4]
      simp only [View.readAt_eq_ld, harg1.read_unread, harg5.read_unread, View.ld_unit_zero (S := S4000x256) hz4, View.ld_unit_zero (S := S1x256) hz4]
    isplitl [H4]
    · iexists _; isplitr; swap; · iexact H4
      ipureintro
      sl_unfold_run_names
      rw [store_whole4 _ _ hz4]
      simp only [View.readAt_eq_ld, harg1.read_unread, harg4.read_unread, View.ld_unit_zero (S := S4000x256) hz4, View.ld_unit_zero (S := S1x256) hz4]
    · iexists _; isplitr; swap; · iexact H5
      ipureintro
      sl_unfold_run_names
      rw [store_whole4 _ _ hz4]
      simp only [View.readAt_eq_ld, harg1.read_unread, harg5.read_unread, View.ld_unit_zero (S := S4000x256) hz4, View.ld_unit_zero (S := S1x256) hz4]

/-! ## The proof data -/

/-- The staging memrefs as the pipeline passes them at point `t`, and the two scratch buffers. -/
abbrev ms4_0 (t : Fin cfg4.N) : Memref sig .tc .vmem S4000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev sc4_0 : Memref sig .tc .vmem S1x256 .f32 := Memref.whole cc4_scratch0
abbrev sc4_1 : Memref sig .tc .vmem S1x256 .f32 := Memref.whole cc4_scratch1

/-- The row block of the input array that point `t` works on, read off the array as the region finds it. -/
def iblk4 (c : Dev nD) (t : Fin cfg4.N) : ((cfg4.win 0).xblock (cfg4.grid.coords t)).Idx → Elt F (cfg4.win 0).elt :=
  ((cfg4.win 0).blk t).view.read (Elt F) (V c (Pipeline.arrRef spec4 0))
/-- The same at its literal type. -/
abbrev xblk4 (c : Dev nD) (t : Fin cfg4.N) : Vec F S4000x256 .f32 := iblk4 V c t

/-- The first running sum after `n` points: zero, then one block's column sums added per point. -/
def scr4_0 (c : Dev nD) : ℕ → Vec F S1x256 .f32
  | 0 => k4_pay1
  | n + 1 => if h : n < cfg4.N then k4_pay4 (xblk4 V c ⟨n, h⟩) (scr4_0 c n) else scr4_0 c n
/-- The second running sum after `n` points: zero, then one block's column sums of squares added per point. -/
def scr4_1 (c : Dev nD) : ℕ → Vec F S1x256 .f32
  | 0 => k4_pay2
  | n + 1 => if h : n < cfg4.N then k4_pay5 (xblk4 V c ⟨n, h⟩) (scr4_1 c n) else scr4_1 c n

theorem scr4_0_zero (c : Dev nD) : scr4_0 V c 0 = k4_pay1 := rfl
theorem scr4_1_zero (c : Dev nD) : scr4_1 V c 0 = k4_pay2 := rfl
theorem scr4_0_succ (c : Dev nD) (t : Fin cfg4.N) : scr4_0 V c (t.val + 1) = k4_pay4 (xblk4 V c t) (scr4_0 V c t.val) := by
  rw [scr4_0, dif_pos t.isLt]
theorem scr4_1_succ (c : Dev nD) (t : Fin cfg4.N) : scr4_1 V c (t.val + 1) = k4_pay5 (xblk4 V c t) (scr4_1 V c t.val) := by
  rw [scr4_1, dif_pos t.isLt]

/-- One scratch buffer between points: before the first point at anything (the first point overwrites it), after
    `n` points at `X n`. -/
def held4 (c : Dev nD) (b : Memref sig .tc .vmem S1x256 .f32) (X : ℕ → Vec F S1x256 .f32) (n : ℕ) : sProp 𝕄 :=
  if n = 0 then iprop(∃ d, owns (c : Thread nD τ) b fullShare d) else owns (c : Thread nD τ) b fullShare (X n)

/-- The region's invariant after `n` points: the generator register, every scoped buffer other than the staging
    buffers and the two scratch buffers unopened, and the two scratch buffers at the running sums. -/
def Φ4 (c : Dev nD) (n : ℕ) : sProp 𝕄 :=
  iprop((∃ r, prngReg c r)
    ∗ Pipeline.scopedRestBut (Ix := Unit) (Name := ℕ) (U := UR sig nD τ) (Lvl := ℕ) (Val := Elt F) spec4 c [cc4_scratch0, cc4_scratch1]
    ∗ held4 c sc4_0 (scr4_0 V c) n ∗ held4 c sc4_1 (scr4_1 V c) n)

/-- The proof data of region 4 on core `c`: the arrays as the region finds them; after the body at point `t` the
    input's buffer at its block and the two outputs' at the running sums (read at the last point only: before it
    they are idle); the invariant `Φ4`; nothing owed; full shares. -/
def dat4 (c : Dev nD) : Dat τ (Elt F) Unit ℕ (UR sig nD τ) ℕ cfg4 c where
  A w := V c (Pipeline.arrRef spec4 w)
  after w t := match w with
    | ⟨0, _⟩ => xblk4 V c t
    | ⟨1, _⟩ => scr4_0 V c (t.val + 1)
    | ⟨2, _⟩ => scr4_1 V c (t.val + 1)
  Φ t := Φ4 V c t.val
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (t) : (dat4 V c).owed t = 0 := rfl

theorem after4_0 (c : Dev nD) (t : Fin cfg4.N) : (dat4 V c).after 0 t = iblk4 V c t := by dsimp only [dat4]
theorem after4_1 (c : Dev nD) (t : Fin cfg4.N) : (dat4 V c).after 1 t = scr4_0 V c (t.val + 1) := by dsimp only [dat4]
theorem after4_2 (c : Dev nD) (t : Fin cfg4.N) : (dat4 V c).after 2 t = scr4_1 V c (t.val + 1) := by dsimp only [dat4]

/-- The input's current staging buffer holds its block at every point. -/
theorem before4_0 (c : Dev nD) (t : Fin cfg4.N) (d) : (dat4 V c).before 0 t d = iblk4 V c t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-! ## The invariant at the region's two ends -/

theorem held4_any (c : Dev nD) (b : Memref sig .tc .vmem S1x256 .f32) (X : ℕ → Vec F S1x256 .f32) (n : ℕ) :
    held4 c b X n ⊢ (iprop(∃ d, owns (c : Thread nD τ) b fullShare d) : sProp 𝕄) := by
  unfold held4
  split
  · iintro H; iexact H
  · iintro H; iexists _; iexact H

theorem heldAny4_eq (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

theorem phi_in4 (c : Dev nD) :
    (iprop((∃ r, prngReg c r) ∗ Pipeline.scopedRest (Ix := Unit) (Name := ℕ) (U := UR sig nD τ) (Lvl := ℕ) spec4 c) : sProp 𝕄)
      ⊢ (dat4 V c).Φ 0 := by
  rw [scopedRest4_split, ← heldAny4_eq, ← heldAny4_eq]
  show _ ⊢ Φ4 V c 0
  unfold Φ4 held4
  rw [if_pos rfl, if_pos rfl]
  iintro ⟨Hp, ⟨H0, H1⟩, Hr⟩
  isplitl [Hp]; · iexact Hp
  isplitl [Hr]; · iexact Hr
  isplitl [H0]; · iexact H0
  iexact H1

theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) spec4 c) : sProp 𝕄) := by
  rw [scopedRest4_split, ← heldAny4_eq, ← heldAny4_eq]
  show Φ4 V c cfg4.N ⊢ _
  unfold Φ4
  iintro ⟨Hp, Hr, H0, H1⟩
  isplitl [Hp]; · iexact Hp
  isplitr [Hr]; swap; · iexact Hr
  isplitl [H0]
  · iapply (held4_any c sc4_0 _ _); iexact H0
  · iapply (held4_any c sc4_1 _ _); iexact H1

/-! ## The body obligation -/

theorem held4_of_eq_zero (c : Dev nD) (b : Memref sig .tc .vmem S1x256 .f32) (X : ℕ → Vec F S1x256 .f32) (n : ℕ) (h : n = 0) :
    held4 c b X n = (iprop(∃ d, owns (c : Thread nD τ) b fullShare d) : sProp 𝕄) := if_pos h
theorem held4_of_ne_zero (c : Dev nD) (b : Memref sig .tc .vmem S1x256 .f32) (X : ℕ → Vec F S1x256 .f32) (n : ℕ) (h : n ≠ 0) :
    held4 c b X n = (owns (c : Thread nD τ) b fullShare (X n) : sProp 𝕄) := if_neg h

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

/-- The input window is never idle: the body hands its buffer back at its block. -/
theorem leaves4_0 (c : Dev nD) (t : Fin cfg4.N) :
    (dat4 V c).leavesExact 0 t = owns (c : Thread nD τ) (ms4_0 t) fullShare (iblk4 V c t) := by
  rw [← after4_0]

/-- Before the last point the two output windows are idle and not written back: handed back as found. -/
theorem leaves4_1_idle (c : Dev nD) (t : Fin cfg4.N) (h9 : ¬ t.val % 10 = 9) :
    (dat4 V c).leavesExact 1 t = iprop(∃ d, owns (c : Thread nD τ) (ms4_1 t) fullShare ((dat4 V c).before 1 t d)) :=
  (dat4 V c).leavesExact_idle 1 t ((idleAt4_1 t).mpr h9) (Bool.eq_false_iff.mpr fun h => h9 ((flush4_1 t).mp h))
theorem leaves4_2_idle (c : Dev nD) (t : Fin cfg4.N) (h9 : ¬ t.val % 10 = 9) :
    (dat4 V c).leavesExact 2 t = iprop(∃ d, owns (c : Thread nD τ) (ms4_2 t) fullShare ((dat4 V c).before 2 t d)) :=
  (dat4 V c).leavesExact_idle 2 t ((idleAt4_2 t).mpr h9) (Bool.eq_false_iff.mpr fun h => h9 ((flush4_2 t).mp h))

/-- At the last point they are live: handed back at the running sums. -/
theorem leaves4_1_live (c : Dev nD) (t : Fin cfg4.N) (h9 : t.val % 10 = 9) :
    (dat4 V c).leavesExact 1 t = owns (c : Thread nD τ) (ms4_1 t) fullShare (scr4_0 V c (t.val + 1)) := by
  unfold Dat.leavesExact; rw [Bool.eq_false_iff.mpr fun h => (idleAt4_1 t).mp h h9, after4_1]
theorem leaves4_2_live (c : Dev nD) (t : Fin cfg4.N) (h9 : t.val % 10 = 9) :
    (dat4 V c).leavesExact 2 t = owns (c : Thread nD τ) (ms4_2 t) fullShare (scr4_1 V c (t.val + 1)) := by
  unfold Dat.leavesExact; rw [Bool.eq_false_iff.mpr fun h => (idleAt4_2 t).mp h h9, after4_2]

set_option maxHeartbeats 1600000 in
/-- The body at any point: the input's memref holds its block; the closed forms say which of the three cases the
    point is in; the case's run applies at the running sums the invariant holds the scratch buffers at; the rest of
    the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = Φ4 V c (t.val + 1) from rfl,
    show (dat4 V c).Φ t.castSucc = Φ4 V c t.val from rfl,
    show (dat4 V c).owesAt () t.succ = (dat4 V c).owesAt () t.castSucc from rfl,
    leaves4_0]
  have hN : t.val < 10 := lt_of_lt_of_eq t.isLt (show cfg4.N = 10 from N_4)
  unfold Φ4
  rw [held4_of_ne_zero c sc4_0 (scr4_0 V c) (t.val + 1) (Nat.succ_ne_zero _), held4_of_ne_zero c sc4_1 (scr4_1 V c) (t.val + 1) (Nat.succ_ne_zero _),
    scr4_0_succ, scr4_1_succ]
  by_cases h0 : t.val % 10 = 0
  · have h9 : ¬ t.val % 10 = 9 := by omega
    have e0 : scr4_0 V c t.val = k4_pay1 := by rw [show t.val = 0 by omega]; rfl
    have e1 : scr4_1 V c t.val = k4_pay2 := by rw [show t.val = 0 by omega]; rfl
    rw [leaves4_1_idle V c t h9, leaves4_2_idle V c t h9, e0, e1,
      held4_of_eq_zero c sc4_0 (scr4_0 V c) t.val (by omega), held4_of_eq_zero c sc4_1 (scr4_1 V c) t.val (by omega)]
    iintro ⟨⟨Hp, Hr, ⟨%d4, H4⟩, ⟨%d5, H5⟩⟩, Ho, ⟨%d0, H0⟩, H1, H2⟩
    iapply (run4_A c (grid4.coords t) _ _ _ _ _ _ _ _ _ _ ((hcond4_0 t).mpr h0) (fun h => h9 ((hcond4_1 t).mp h)) (xblk4 V c t) Set.univ _)
    isplitl [H0]; · iexact H0
    isplitl [H4]; · iexists _; iexact H4
    isplitl [H5]; · iexists _; iexact H5
    iintro ⟨H0, H4, H5⟩
    isplitl [Hp Hr H4 H5]
    · isplitl [Hp]; · iexact Hp
      isplitl [Hr]; · iexact Hr
      isplitl [H4]; · iexact H4
      iexact H5
    isplitl [Ho]; · iexact Ho
    isplitl [H0]; · iexact H0
    isplitl [H1]; · iexact H1
    iexact H2
  · rw [held4_of_ne_zero c sc4_0 (scr4_0 V c) t.val (by omega), held4_of_ne_zero c sc4_1 (scr4_1 V c) t.val (by omega)]
    by_cases h9 : t.val % 10 = 9
    · rw [leaves4_1_live V c t h9, leaves4_2_live V c t h9, scr4_0_succ, scr4_1_succ]
      iintro ⟨⟨Hp, Hr, H4, H5⟩, Ho, ⟨%d0, H0⟩, ⟨%d1, H1⟩, ⟨%d2, H2⟩⟩
      iapply (run4_C c (grid4.coords t) _ _ _ _ _ _ _ _ _ _ (fun h => h0 ((hcond4_0 t).mp h)) ((hcond4_1 t).mpr h9) (xblk4 V c t) (scr4_0 V c t.val) (scr4_1 V c t.val) Set.univ _)
      isplitl [H0]; · iexact H0
      isplitl [H1]; · iexists _; iexact H1
      isplitl [H2]; · iexists _; iexact H2
      isplitl [H4]; · iexact H4
      isplitl [H5]; · iexact H5
      iintro ⟨H0, H1, H2, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2
    · rw [leaves4_1_idle V c t h9, leaves4_2_idle V c t h9]
      iintro ⟨⟨Hp, Hr, H4, H5⟩, Ho, ⟨%d0, H0⟩, H1, H2⟩
      iapply (run4_B c (grid4.coords t) _ _ _ _ _ _ _ _ _ _ (fun h => h0 ((hcond4_0 t).mp h)) (fun h => h9 ((hcond4_1 t).mp h)) (xblk4 V c t) (scr4_0 V c t.val) (scr4_1 V c t.val) Set.univ _)
      isplitl [H0]; · iexact H0
      isplitl [H4]; · iexact H4
      isplitl [H5]; · iexact H5
      iintro ⟨H0, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the affine map followed by the rectifier, one row block per grid point

The region's kernel reads a block of 4000 rows of its first operand and the two single rows of per-column
coefficients, and writes the block of rows max (x * scale + shift) 0.  Everything is stated at a parameter V:
the contents of the core's buffers when the region is entered. -/

variable (V : (c : Dev nD) → (b : Ref sig .tc) → Buf (Elt F) ((c : Thread nD τ).loc b))

/-! ## The windows' blocks -/

/-- The block of window w at grid point t, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block of the first operand sits in its current staging buffer at every point: for any proof data whose
    array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The row of scales sits in its staging buffer at every point, although it is brought in only once: its block
    index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The row of shifts likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 4000 x 256 block, and the whole single row of 256. -/
abbrev r5_0 : Rect S4000x256 := Rect.unit (s := S4000x256) ![0, 0] S4000x256.size inb_S4000x256_S4000x256_0_0
abbrev r5_1 : Rect S1x256 := Rect.unit (s := S1x256) ![0, 0] S1x256.size inb_S1x256_S1x256_0_0

/-! ## What the body leaves in the output window's buffer -/

/-- The output buffer after the body, as a function of the three input blocks: its single store, whose payload is
    the rectified affine image of the row block. -/
def out5_3 (x0 : Vec F S4000x256 .f32) (x1 : Vec F S1x256 .f32) (x2 : Vec F S1x256 .f32) : Vec F S4000x256 .f32 :=
  View.canon [⟨r5_0, k5_pay1 (View.ld x0 r5_0) (View.ld x1 r5_1) (View.ld x2 r5_1)⟩]

/-- The single store is to the whole buffer, so it covers it. -/
theorem cover5_3 (p0 : Vec F S4000x256 .f32) (y : S4000x256.Idx) :
    ∃ pc ∈ ([⟨r5_0, p0⟩] : List (View.Piece (Elt F) S4000x256 .f32)), y ∈ pc.1.set :=
  View.cover_of_tiled [⟨r5_0, p0⟩] S4000x256.size (by rfl) y

/-! ## The body's triple -/

set_option maxHeartbeats 1000000 in
/-- The kernel on whole staging memrefs: with the three inputs at read contents x0, x1, x2 and the output at
    anything, it runs to the continuation with the inputs unchanged and the output at out5_3 x0 x1 x2. -/
theorem sound_kernel5 (c : Dev nD) (E : Set ℕ) (i : grid5.Coords) (arg1 : Memref sig .tc .vmem S4000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4000x256 .f32) (harg4 : arg4.IsWhole)
    (x0 : Vec F S4000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bn_relu_kernel i arg1 harg1 arg2 harg2 arg3 harg3 arg4 harg4) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the region's pipeline on core c: the arrays as the region finds them; after the body at
    point t each input buffer still at its block and the output buffer at out5_3 of the input blocks; the
    invariant is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- Every share is the full one. -/
theorem q_eq5 (c : Dev nD) (w : Fin cfg5.W) : (dat5 V c).q w = fullShare := by
  dsimp only [dat5]

/-- Nothing is owed at any point. -/
theorem owed_eq5 (c : Dev nD) (t) : (dat5 V c).owed t = 0 := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- The generator register and the scoped rest make up the invariant before the first point, -/
theorem phi_in5 (c : Dev nD) :
    (iprop((∃ r, prngReg c r) ∗ Pipeline.scopedRest (Ix := Unit) (Name := ℕ) (U := UR sig nD τ) (Lvl := ℕ) spec5 c) : sProp 𝕄)
      ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- and the invariant after the last point gives them back. -/
theorem phi_out5 (c : Dev nD) :
    (dat5 V c).Φ (Fin.last cfg5.N)
      ⊢ (iprop((∃ r, prngReg c r) ∗ Pipeline.scopedRest (Ix := Unit) (Name := ℕ) (U := UR sig nD τ) (Lvl := ℕ) spec5 c) : sProp 𝕄) := by
  rw [show (dat5 V c).Φ (Fin.last _) = Pipeline.ΦA spec5 c from rfl]; unfold Pipeline.ΦA
  iintro ⟨Hr, Hp⟩
  isplitl [Hp]; · iexact Hp
  iexact Hr

end Cert.Kernel.Hand

end
-- ==== Proof.K.Reg6.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region: per-graph sums accumulated over ten row blocks

The body keeps a 64 by 256 accumulator across the ten grid points: zeroed at the first point, increased at each
point by the product of the transposed membership block with the feature block, and copied to the output block at
the last point.  This module runs the body in its three control cases, states what the accumulator holds between
points, and discharges the pipeline's body obligation. -/

/-- The offsets of a whole-block access, however the zeros are spelt. -/
theorem hz2 : (![0, 0] : Fin 2 → Nat) = fun _ => 0 := funext fun a => by fin_cases a <;> rfl

/-- A store through the whole-shape rectangle, made last, is what the buffer then reads through the view,
    whatever was stored before and whatever the buffer held. -/
theorem read_writes_cons_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (Val := Val) v f (Rect.whole S) w L y
  rw [Rect.emb_whole_apply] at e
  exact e

/-- The first conditional of the body: the grid coordinate is zero. -/
abbrev cond6_0 (i : grid6.Coords) : Prop := (Scalar.cmpi .ne (Scalar.extui (Scalar.cmpi .eq (BitVec.ofNat 32 (i 0).val) 0#32)) 0#32) = 1#1

/-- It holds at the first point only. -/
theorem hcond6_0 : ∀ t : Fin cfg6.N, cond6_0 (grid6.coords t) ↔ t.val = 0 :=
  (by decide +kernel : ∀ t : Fin grid6.N, cond6_0 (grid6.coords t) ↔ t.val = 0)
/-- The second conditional (the coordinate is nine) holds at the last point only. -/
theorem hcond6_1 : ∀ t : Fin cfg6.N, k6_cond2 (grid6.coords t) = 1#1 ↔ t.val = 9 :=
  (by decide +kernel : ∀ t : Fin grid6.N, k6_cond2 (grid6.coords t) = 1#1 ↔ t.val = 9)

/-! ## The body in its three control cases -/

set_option maxHeartbeats 1000000 in
/-- The body at the first point: the accumulator, whatever it held, is zeroed, and then holds the zero block
    plus the product of the two input blocks; the output's staging buffer is not touched. -/
theorem run6_first (c : Dev nD) (i : grid6.Coords)
    (arg1 : Memref sig .tc .vmem S4000x256 .f32) (harg1 : arg1.IsWhole)
    (arg2 : Memref sig .tc .vmem S4000x64 .f32) (harg2 : arg2.IsWhole)
    (arg3 : Memref sig .tc .vmem S64x256 .f32) (harg3 : arg3.IsWhole)
    (arg4 : Memref sig .tc .vmem S64x256 .f32) (harg4 : arg4.IsWhole)
    (hc0 : cond6_0 i) (hc1 : ¬ k6_cond2 i = 1#1)
    (x0 : Vec F S4000x256 .f32) (x1 : Vec F S4000x64 .f32) (E : Set ℕ) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d4, %f4, %hf4, H4⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_words
  rw [read_writes_cons_whole _ _ hz2]
  simp only [View.readAt_eq_ld, harg1.read_unread, harg2.read_unread, View.ld_unit_zero (S := S4000x256) hz2,
    View.ld_unit_zero (S := S4000x64) hz2, View.readCov_unit_zero (S := S64x256) _ hz2]

set_option maxHeartbeats 1000000 in
/-- The body at a point that is neither the first nor the last: the accumulator, holding `xs`, ends holding
    `xs` plus the product of the two input blocks; the output's staging buffer is not touched. -/
theorem run6_mid (c : Dev nD) (i : grid6.Coords)
    (arg1 : Memref sig .tc .vmem S4000x256 .f32) (harg1 : arg1.IsWhole)
    (arg2 : Memref sig .tc .vmem S4000x64 .f32) (harg2 : arg2.IsWhole)
    (arg3 : Memref sig .tc .vmem S64x256 .f32) (harg3 : arg3.IsWhole)
    (arg4 : Memref sig .tc .vmem S64x256 .f32) (harg4 : arg4.IsWhole)
    (hc0 : ¬ cond6_0 i) (hc1 : ¬ k6_cond2 i = 1#1)
    (x0 : Vec F S4000x256 .f32) (x1 : Vec F S4000x64 .f32) (xs : Vec F S64x256 .f32) (E : Set ℕ) (K : PUnit → sProp 𝕄) :
    iprop(owns (c : Thread nD τ) arg1 fullShare x0 ∗ owns (c : Thread nD τ) arg2 fullShare x1
        ∗ owns (c : Thread nD τ) arg4 fullShare xs
        ∗ (iprop(owns (c : Thread nD τ) arg1 fullShare x0 ∗ owns (c : Thread nD τ) arg2 fullShare x1
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%f4, %hf4, H4⟩, Hk⟩
  obtain rfl := harg1.eq_unread hf0; obtain rfl := harg2.eq_unread hf1; obtain rfl := harg4.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_words
  rw [read_writes_cons_whole _ _ hz2]
  simp only [View.readAt_eq_ld, harg1.read_unread, harg2.read_unread, harg4.read_unread, View.ld_unit_zero (S := S4000x256) hz2,
    View.ld_unit_zero (S := S4000x64) hz2, View.ld_unit_zero (S := S64x256) hz2]

set_option maxHeartbeats 1000000 in
/-- The body at the last point: the accumulator, holding `xs`, ends holding `xs` plus the product of the
    two input blocks, and the output's staging buffer, whatever it held, ends holding the same. -/
theorem run6_last (c : Dev nD) (i : grid6.Coords)
    (arg1 : Memref sig .tc .vmem S4000x256 .f32) (harg1 : arg1.IsWhole)
    (arg2 : Memref sig .tc .vmem S4000x64 .f32) (harg2 : arg2.IsWhole)
    (arg3 : Memref sig .tc .vmem S64x256 .f32) (harg3 : arg3.IsWhole)
    (arg4 : Memref sig .tc .vmem S64x256 .f32) (harg4 : arg4.IsWhole)
    (hc0 : ¬ cond6_0 i) (hc1 : k6_cond2 i = 1#1)
    (x0 : Vec F S4000x256 .f32) (x1 : Vec F S4000x64 .f32) (xs : Vec F S64x256 .f32) (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, %hf3, H3⟩, ⟨%f4, %hf4, H4⟩, Hk⟩
  obtain rfl := harg1.eq_unread hf0; obtain rfl := harg2.eq_unread hf1; obtain rfl := harg4.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [read_writes_cons_whole _ _ hz2]
    simp only [View.readCov_unit_zero (S := S64x256) _ hz2, View.readAt_eq_ld, harg1.read_unread, harg2.read_unread,
      harg4.read_unread, View.ld_unit_zero (S := S4000x256) hz2, View.ld_unit_zero (S := S4000x64) hz2,
      View.ld_unit_zero (S := S64x256) hz2]
  iexists _; isplitr
  swap; · iexact H4
  ipureintro
  sl_unfold_words
  rw [read_writes_cons_whole _ _ hz2]
  simp only [View.readAt_eq_ld, harg1.read_unread, harg2.read_unread, harg4.read_unread, View.ld_unit_zero (S := S4000x256) hz2,
    View.ld_unit_zero (S := S4000x64) hz2, View.ld_unit_zero (S := S64x256) hz2]

/-! ## The staging memrefs at a point, and the accumulator -/

/-- Each window's current staging memref at point `t`, and its wholeness. -/
abbrev ms6_0 (t : Fin cfg6.N) : Memref sig .tc .vmem S4000x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x256 .f32 := win6_2.stage (cfg6.slots t 2)
abbrev hs6_2 (t : Fin cfg6.N) : (ms6_2 t).IsWhole := hstage6_2 ((cfg6.slots t 2).cast nbuf6_2)
/-- The accumulator: a whole scoped buffer of the kernel's own. -/
abbrev scM6 : Memref sig .tc .vmem S64x256 .f32 := Memref.whole cc6_scratch0

/-- Where the windows are idle and where the output is written back. -/
theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬ k6_cond2 (grid6.coords t) = 1#1 → cfg6.idle 2 (grid6.coords t) = true := by decide +kernel
theorem liveAt6_2 : ∀ t : Fin cfg6.N, k6_cond2 (grid6.coords t) = 1#1 → cfg6.idle 2 (grid6.coords t) = false := by decide +kernel
theorem noFlush6_2 : ∀ t : Fin cfg6.N, ¬ k6_cond2 (grid6.coords t) = 1#1 → (cfg6.win 2).flush t = false := by decide +kernel

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- THE ACCUMULATION. What the accumulator holds after the first `n` points: the zero block, then at each point
    what it held plus the product of that point's two input blocks (the membership block transposed, times the
    feature block), both narrowed first. -/
def acc6 (c : Dev nD) : (n : ℕ) → n ≤ cfg6.N → Vec F S64x256 .f32
  | 0, _ => k6_pay1
  | n + 1, h => k6_pay2 (iblk6 V c 0 ⟨n, h⟩) (iblk6 V c 1 ⟨n, h⟩) (acc6 c n (Nat.le_of_lt h))

theorem acc6_succ (c : Dev nD) (n : ℕ) (h : n + 1 ≤ cfg6.N) :
    acc6 V c (n + 1) h = k6_pay2 (iblk6 V c 0 ⟨n, h⟩) (iblk6 V c 1 ⟨n, h⟩) (acc6 V c n (Nat.le_of_lt h)) := rfl

/-- The region's invariant before position `n`: the generator register at some state, the scoped buffers other than
    the accumulator at anything, and the accumulator — before the first point at anything, afterwards at what the
    points so far have summed. -/
def Phi6 (c : Dev nD) : (n : ℕ) → n ≤ cfg6.N → sProp 𝕄
  | 0, _ => iprop((∃ r, prngReg c r)
      ∗ iprop(iprop((∃ f : Buf (Elt F) ((c : Thread nD τ).loc cc6_scratch0), ((c : Thread nD τ).loc cc6_scratch0) ↦{fullShare} f))
          ∗ Pipeline.scopedRestBut (Ix := Unit) (Name := ℕ) (U := UR sig nD τ) (Lvl := ℕ) (Val := Elt F) spec6 c [cc6_scratch0]))
  | n + 1, h => iprop((∃ r, prngReg c r)
      ∗ iprop(owns (c : Thread nD τ) scM6 fullShare (acc6 V c (n + 1) h)
          ∗ Pipeline.scopedRestBut (Ix := Unit) (Name := ℕ) (U := UR sig nD τ) (Lvl := ℕ) (Val := Elt F) spec6 c [cc6_scratch0]))

theorem Phi6_zero (c : Dev nD) (n : ℕ) (h : n ≤ cfg6.N) (hz : n = 0) :
    Phi6 V c n h = iprop((∃ r, prngReg c r)
      ∗ iprop(iprop((∃ d, owns (c : Thread nD τ) scM6 fullShare d))
          ∗ Pipeline.scopedRestBut (Ix := Unit) (Name := ℕ) (U := UR sig nD τ) (Lvl := ℕ) (Val := Elt F) spec6 c [cc6_scratch0])) := by
  subst hz; unfold Phi6; simp only [scM6, owns_whole]; rfl

theorem Phi6_succ (c : Dev nD) (n : ℕ) (h : n + 1 ≤ cfg6.N) :
    Phi6 V c (n + 1) h = iprop((∃ r, prngReg c r)
      ∗ iprop(owns (c : Thread nD τ) scM6 fullShare (acc6 V c (n + 1) h)
          ∗ Pipeline.scopedRestBut (Ix := Unit) (Name := ℕ) (U := UR sig nD τ) (Lvl := ℕ) (Val := Elt F) spec6 c [cc6_scratch0])) := rfl

theorem Phi6_pos (c : Dev nD) (n : ℕ) (h : n ≤ cfg6.N) (hz : n ≠ 0) :
    Phi6 V c n h = iprop((∃ r, prngReg c r)
      ∗ iprop(owns (c : Thread nD τ) scM6 fullShare (acc6 V c n h)
          ∗ Pipeline.scopedRestBut (Ix := Unit) (Name := ℕ) (U := UR sig nD τ) (Lvl := ℕ) (Val := Elt F) spec6 c [cc6_scratch0])) := by
  cases n with
  | zero => exact absurd rfl hz
  | succ n => rfl

/-! ## The proof data -/

/-- The proof data of the pooling pipeline on core `c`: the arrays as the region finds them; after the body at a
    point each input's buffer at its block and the output's at the accumulated sum (consulted at the last point
    only: elsewhere the output's buffer is handed back as found); the invariant `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c (t.val + 1) t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := rfl
theorem owed_eq6 (c : Dev nD) (t) : (dat6 V c).owed t = 0 := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c (t.val + 1) t.isLt := by dsimp only [dat6]

/-- The invariant at a point's start, restated at the point's position. -/
theorem Phi6_castSucc (c : Dev nD) (t : Fin cfg6.N) :
    (dat6 V c).Φ t.castSucc = Phi6 V c t.val (Nat.le_of_lt t.isLt) := by
  dsimp only [dat6]; simp only [Fin.coe_castSucc]

/-- Each input's current staging buffer holds its block at every point, fetched there or not: the windows are
    uncut and never idle, the body leaves the blocks in place, and an unfetched block's index has not moved. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 2000000 in
/-- The body at any point. The inputs' memrefs hold their blocks; the invariant hands the body the accumulator
    (at anything at the first point, else at the sum so far) and takes it back at the sum including this point;
    the output's buffer is handed back as found, except at the last point, where it ends at the full sum. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ, Phi6_castSucc]
  rw [show (dat6 V c).leavesExact 0 t = owns (c : Thread nD τ) (ms6_0 t) fullShare ((dat6 V c).after 0 t) from by
        unfold Dat.leavesExact; rw [liveAt6_0 t], after6_0]
  rw [show (dat6 V c).leavesExact 1 t = owns (c : Thread nD τ) (ms6_1 t) fullShare ((dat6 V c).after 1 t) from by
        unfold Dat.leavesExact; rw [liveAt6_1 t], after6_1]
  have hN : t.val < 10 := lt_of_lt_of_eq t.isLt (show cfg6.N = 10 from N_6)
  rw [acc6_succ]
  by_cases hz : t.val = 0
  · -- the first point
    have h0 : cond6_0 (grid6.coords t) := (hcond6_0 t).mpr hz
    have h1 : ¬ k6_cond2 (grid6.coords t) = 1#1 := fun h => by have := (hcond6_1 t).mp h; omega
    rw [Dat.leavesExact_idle (dat6 V c) 2 t (idleAt6_2 t h1) (noFlush6_2 t h1)]
    rw [Phi6_zero V c _ _ hz]
    have hacc : acc6 V c t.val (Nat.le_of_lt t.isLt) = k6_pay1 := by
      obtain ⟨n, hn⟩ := t; dsimp only at hz; subst hz; rfl
    rw [hacc]
    iintro ⟨⟨Hg, HS, HR⟩, Ho, ⟨%d0, H0⟩, ⟨%d1, H1⟩, H2⟩
    iapply (run6_first c (grid6.coords t) _ _ _ _ _ _ _ _ h0 h1 (iblk6 V c 0 t) (iblk6 V c 1 t) Set.univ _)
    isplitl [H0]; · iexact H0
    isplitl [H1]; · iexact H1
    isplitl [HS]; · iexact HS
    iintro ⟨H0, H1, HS⟩
    isplitl [Hg HS HR]
    · isplitl [Hg]; · iexact Hg
      isplitl [HS]; · iexact HS
      iexact HR
    isplitl [Ho]; · iexact Ho
    isplitl [H0]; · iexact H0
    isplitl [H1]; · iexact H1
    iexact H2
  · have h0 : ¬ cond6_0 (grid6.coords t) := fun h => hz ((hcond6_0 t).mp h)
    rw [Phi6_pos V c _ _ hz]
    by_cases hl : t.val = 9
    · -- the last point
      have h1 : k6_cond2 (grid6.coords t) = 1#1 := (hcond6_1 t).mpr hl
      rw [show (dat6 V c).leavesExact 2 t = owns (c : Thread nD τ) (ms6_2 t) fullShare ((dat6 V c).after 2 t) from by
            unfold Dat.leavesExact; rw [liveAt6_2 t h1], after6_2, acc6_succ]
      iintro ⟨⟨Hg, HS, HR⟩, Ho, ⟨%d0, H0⟩, ⟨%d1, H1⟩, ⟨%d2, H2⟩⟩
      iapply (run6_last c (grid6.coords t) _ _ _ _ _ _ _ _ h0 h1 (iblk6 V c 0 t) (iblk6 V c 1 t) (acc6 V c t.val (Nat.le_of_lt t.isLt)) Set.univ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · -- a point in between
      have h1 : ¬ k6_cond2 (grid6.coords t) = 1#1 := fun h => hl ((hcond6_1 t).mp h)
      rw [Dat.leavesExact_idle (dat6 V c) 2 t (idleAt6_2 t h1) (noFlush6_2 t h1)]
      iintro ⟨⟨Hg, HS, HR⟩, Ho, ⟨%d0, H0⟩, ⟨%d1, H1⟩, H2⟩
      iapply (run6_mid c (grid6.coords t) _ _ _ _ _ _ _ _ h0 h1 (iblk6 V c 0 t) (iblk6 V c 1 t) (acc6 V c t.val (Nat.le_of_lt t.isLt)) Set.univ _)
      isplitl [H0]; · iexact H0
      isplitl [H1]; · iexact H1
      isplitl [HS]; · iexact HS
      iintro ⟨H0, H1, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Entering and leaving the region -/

/-- What the launch hands the region is the invariant before the first point: the scoped rest split at the accumulator. -/
theorem phi_in6 (c : Dev nD) :
    (iprop((∃ r, prngReg c r) ∗ Pipeline.scopedRest (Ix := Unit) (Name := ℕ) (U := UR sig nD τ) (Lvl := ℕ) spec6 c) : sProp 𝕄)
      ⊢ (dat6 V c).Φ 0 := by
  rw [scopedRest6_split]
  exact Idealize.SL.BI.Entails.refl _

/-- After the last point the invariant gives the scoped rest back: what the accumulator holds is forgotten. -/
theorem phi_out6 (c : Dev nD) :
    (dat6 V c).Φ (Fin.last cfg6.N)
      ⊢ (iprop((∃ r, prngReg c r) ∗ Pipeline.scopedRest (Ix := Unit) (Name := ℕ) (U := UR sig nD τ) (Lvl := ℕ) spec6 c) : sProp 𝕄) := by
  rw [scopedRest6_split]
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 10 := N_6; omega)]
  simp only [scM6, owns_whole]
  iintro ⟨Hg, HS, HR⟩
  isplitl [Hg]; · iexact Hg
  isplitl [HS]; · iexists _; iexact HS
  iexact HR

end Cert.Kernel.Hand

end
-- ==== Proof.K.Fold.lean ====
import proofs.«406782_j35519379538031_1_alg».proof.Proof.Gen.Kernel.Launch
import proofs.«406782_j35519379538031_1_alg».proof.Proof.Gen.Kernel.Skeleton
import proofs.«406782_j35519379538031_1_alg».proof.Proof.Gen.Kernel.Points
import proofs.«406782_j35519379538031_1_alg».proof.Proof.Gen.Kernel.Regions
import proofs.«406782_j35519379538031_1_alg».proof.Proof.K.Reg0
import proofs.«406782_j35519379538031_1_alg».proof.Proof.K.Reg1
import proofs.«406782_j35519379538031_1_alg».proof.Proof.K.Reg2
import proofs.«406782_j35519379538031_1_alg».proof.Proof.K.Reg3
import proofs.«406782_j35519379538031_1_alg».proof.Proof.K.Reg4
import proofs.«406782_j35519379538031_1_alg».proof.Proof.K.Reg5
import proofs.«406782_j35519379538031_1_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program: a fold from the launch memory

The program is fourteen pieces in order: a stretch of host operations, then kernel region 0, a stretch, region 1,
a stretch, regions 2 and 3 back to back, a stretch, region 4, a stretch, region 5, a stretch, region 6, and a last
stretch. `W0` is what a core's buffers hold at launch; a stretch takes `W` to what its operations compute from `W`;
a region takes `W` to the same contents except at the region's own arrays, which hold what the region's write-backs
leave. `W14` is what the buffers hold at the return. -/

/-- Core `c`'s buffers at launch. -/
abbrev W0 : Dev nD → Valuation τ sig (Elt F) := fun c b => (s₀ m ρ).mem ((c : Dev nD), b)
/-- After the first stretch: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- After region 0: its arrays at what the region leaves, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array region 0 only reads is left as found. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b
/-- At region 0's exit each of its arrays holds what the region leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After region 2: what region 3 is entered from (no stretch lies between the two). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After region 3. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the fourth stretch: what region 4 is entered from. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

/-- After region 4. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the fifth stretch: what region 5 is entered from. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

/-- After region 5. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
theorem W11_in (c : Dev nD) (w : Fin cfg5.W) (hin : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hin _).trans (A_eq5 (V10 m ρ) c w))
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the sixth stretch: what region 6 is entered from. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b

/-- After region 6. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
theorem W13_in (c : Dev nD) (w : Fin cfg6.W) (hin : (cfg6.win w).isOut = false) :
    W13 m ρ c (Proc.devRef .tc (Pipeline.arrRef spec6 w)) = W12 m ρ c (Proc.devRef .tc (Pipeline.arrRef spec6 w)) :=
  (W13_arr m ρ c w).trans (((dat6 (V12 m ρ) c).arrAt_in w hin _).trans (A_eq6 (V12 m ρ) c w))
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- After the last stretch: what the buffers hold at the return. -/
abbrev W14 : Dev nD → Valuation τ sig (Elt F) := fun c => StableHlo.after hostOps7 (W13 m ρ c)

/-! ## The arguments end as launched

No stretch writes an argument's buffer, and no region has one as an array it writes: a region either has the
argument as an array it only reads (the first product region reads arguments 0 and 3, the second reads argument 7),
which the region leaves as found, or does not have it among its arrays at all. -/

/-- From the return back to the exit of region 3, for a reference none of the later pieces touches. -/
theorem W14_eq_W7 (c : Dev nD) (r : Ref sig .tc)
    (h4 : r ∉ hostOps4_W) (h5 : r ∉ hostOps5_W) (h6 : r ∉ hostOps6_W) (h7 : r ∉ hostOps7_W)
    (a4 : ∀ w, Pipeline.arrRef spec4 w ≠ r) (a5 : ∀ w, Pipeline.arrRef spec5 w ≠ r) (a6 : ∀ w, Pipeline.arrRef spec6 w ≠ r) :
    W14 m ρ c (Proc.devRef .tc r) = W7 m ρ c (Proc.devRef .tc r) :=
  calc W14 m ρ c (Proc.devRef .tc r)
    _ = W13 m ρ c (Proc.devRef .tc r) := StableHlo.after_of_writes_sub hostOps7 _ hostOps7_writes h7
    _ = W12 m ρ c (Proc.devRef .tc r) := W13_of_ne m ρ c r a6
    _ = W11 m ρ c (Proc.devRef .tc r) := StableHlo.after_of_writes_sub hostOps6 _ hostOps6_writes h6
    _ = W10 m ρ c (Proc.devRef .tc r) := W11_of_ne m ρ c r a5
    _ = W9 m ρ c (Proc.devRef .tc r) := StableHlo.after_of_writes_sub hostOps5 _ hostOps5_writes h5
    _ = W8 m ρ c (Proc.devRef .tc r) := W9_of_ne m ρ c r a4
    _ = W7 m ρ c (Proc.devRef .tc r) := StableHlo.after_of_writes_sub hostOps4 _ hostOps4_writes h4

/-- From the entry of region 3 back to the exit of region 0, for a reference none of the pieces between touches. -/
theorem W6_eq_W2 (c : Dev nD) (r : Ref sig .tc) (h1 : r ∉ hostOps1_W) (h2 : r ∉ hostOps2_W)
    (a1 : ∀ w, Pipeline.arrRef spec1 w ≠ r) (a2 : ∀ w, Pipeline.arrRef spec2 w ≠ r) :
    W6 m ρ c (Proc.devRef .tc r) = W2 m ρ c (Proc.devRef .tc r) :=
  calc W6 m ρ c (Proc.devRef .tc r)
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1

/-- From the entry of region 0 back to the launch, for a reference the first stretch does not write. -/
theorem W1_eq_launch (c : Dev nD) (r : Ref sig .tc) (h0 : r ∉ hostOps0_W) :
    W1 m ρ c (Proc.devRef .tc r) = m ((c : Thread nD τ).loc r) :=
  (StableHlo.after_of_writes_sub hostOps0 _ hostOps0_writes h0).trans rfl

/-- A reference no piece of the program touches holds at the return what it held at launch. -/
theorem W14_of_untouched (c : Dev nD) (r : Ref sig .tc)
    (h0 : r ∉ hostOps0_W) (h1 : r ∉ hostOps1_W) (h2 : r ∉ hostOps2_W) (h4 : r ∉ hostOps4_W) (h5 : r ∉ hostOps5_W)
    (h6 : r ∉ hostOps6_W) (h7 : r ∉ hostOps7_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) (a5 : ∀ w, Pipeline.arrRef spec5 w ≠ r)
    (a6 : ∀ w, Pipeline.arrRef spec6 w ≠ r) :
    W14 m ρ c (Proc.devRef .tc r) = m ((c : Thread nD τ).loc r) :=
  calc W14 m ρ c (Proc.devRef .tc r)
    _ = W7 m ρ c (Proc.devRef .tc r) := W14_eq_W7 m ρ c r h4 h5 h6 h7 a4 a5 a6
    _ = W6 m ρ c (Proc.devRef .tc r) := W7_of_ne m ρ c r a3
    _ = W2 m ρ c (Proc.devRef .tc r) := W6_eq_W2 m ρ c r h1 h2 a1 a2
    _ = W1 m ρ c (Proc.devRef .tc r) := W2_of_ne m ρ c r a0
    _ = m ((c : Thread nD τ).loc r) := W1_eq_launch m ρ c r h0

/-- Argument 0 is the first array region 0 reads. -/
theorem W14_main_arg0 (c : Dev nD) : W14 m ρ c (Proc.devRef .tc main_arg0) = m ((c : Thread nD τ).loc main_arg0) :=
  calc W14 m ρ c (Proc.devRef .tc main_arg0)
    _ = W7 m ρ c (Proc.devRef .tc main_arg0) :=
        W14_eq_W7 m ρ c main_arg0 (by decide) (by decide) (by decide) (by decide) (by decide) (by decide) (by decide)
    _ = W6 m ρ c (Proc.devRef .tc main_arg0) := W7_of_ne m ρ c main_arg0 (by decide)
    _ = W2 m ρ c (Proc.devRef .tc main_arg0) := W6_eq_W2 m ρ c main_arg0 (by decide) (by decide) (by decide) (by decide)
    _ = W1 m ρ c (Proc.devRef .tc main_arg0) := W2_in m ρ c 0 rfl
    _ = m ((c : Thread nD τ).loc main_arg0) := W1_eq_launch m ρ c main_arg0 (by decide)

theorem W14_main_arg1 (c : Dev nD) : W14 m ρ c (Proc.devRef .tc main_arg1) = m ((c : Thread nD τ).loc main_arg1) :=
  W14_of_untouched m ρ c main_arg1 (by decide) (by decide) (by decide) (by decide) (by decide) (by decide) (by decide)
    (by decide) (by decide) (by decide) (by decide) (by decide) (by decide) (by decide)

theorem W14_main_arg2 (c : Dev nD) : W14 m ρ c (Proc.devRef .tc main_arg2) = m ((c : Thread nD τ).loc main_arg2) :=
  W14_of_untouched m ρ c main_arg2 (by decide) (by decide) (by decide) (by decide) (by decide) (by decide) (by decide)
    (by decide) (by decide) (by decide) (by decide) (by decide) (by decide) (by decide)

/-- Argument 3 is the second array region 0 reads. -/
theorem W14_main_arg3 (c : Dev nD) : W14 m ρ c (Proc.devRef .tc main_arg3) = m ((c : Thread nD τ).loc main_arg3) :=
  calc W14 m ρ c (Proc.devRef .tc main_arg3)
    _ = W7 m ρ c (Proc.devRef .tc main_arg3) :=
        W14_eq_W7 m ρ c main_arg3 (by decide) (by decide) (by decide) (by decide) (by decide) (by decide) (by decide)
    _ = W6 m ρ c (Proc.devRef .tc main_arg3) := W7_of_ne m ρ c main_arg3 (by decide)
    _ = W2 m ρ c (Proc.devRef .tc main_arg3) := W6_eq_W2 m ρ c main_arg3 (by decide) (by decide) (by decide) (by decide)
    _ = W1 m ρ c (Proc.devRef .tc main_arg3) := W2_in m ρ c 1 rfl
    _ = m ((c : Thread nD τ).loc main_arg3) := W1_eq_launch m ρ c main_arg3 (by decide)

theorem W14_main_arg4 (c : Dev nD) : W14 m ρ c (Proc.devRef .tc main_arg4) = m ((c : Thread nD τ).loc main_arg4) :=
  W14_of_untouched m ρ c main_arg4 (by decide) (by decide) (by decide) (by decide) (by decide) (by decide) (by decide)
    (by decide) (by decide) (by decide) (by decide) (by decide) (by decide) (by decide)

theorem W14_main_arg5 (c : Dev nD) : W14 m ρ c (Proc.devRef .tc main_arg5) = m ((c : Thread nD τ).loc main_arg5) :=
  W14_of_untouched m ρ c main_arg5 (by decide) (by decide) (by decide) (by decide) (by decide) (by decide) (by decide)
    (by decide) (by decide) (by decide) (by decide) (by decide) (by decide) (by decide)

theorem W14_main_arg6 (c : Dev nD) : W14 m ρ c (Proc.devRef .tc main_arg6) = m ((c : Thread nD τ).loc main_arg6) :=
  W14_of_untouched m ρ c main_arg6 (by decide) (by decide) (by decide) (by decide) (by decide) (by decide) (by decide)
    (by decide) (by decide) (by decide) (by decide) (by decide) (by decide) (by decide)

/-- Argument 7 is the second array region 3 reads. -/
theorem W14_main_arg7 (c : Dev nD) : W14 m ρ c (Proc.devRef .tc main_arg7) = m ((c : Thread nD τ).loc main_arg7) :=
  calc W14 m ρ c (Proc.devRef .tc main_arg7)
    _ = W7 m ρ c (Proc.devRef .tc main_arg7) :=
        W14_eq_W7 m ρ c main_arg7 (by decide) (by decide) (by decide) (by decide) (by decide) (by decide) (by decide)
    _ = W6 m ρ c (Proc.devRef .tc main_arg7) := W7_in m ρ c 1 rfl
    _ = W2 m ρ c (Proc.devRef .tc main_arg7) := W6_eq_W2 m ρ c main_arg7 (by decide) (by decide) (by decide) (by decide)
    _ = W1 m ρ c (Proc.devRef .tc main_arg7) := W2_of_ne m ρ c main_arg7 (by decide)
    _ = m ((c : Thread nD τ).loc main_arg7) := W1_eq_launch m ρ c main_arg7 (by decide)

theorem W14_main_arg8 (c : Dev nD) : W14 m ρ c (Proc.devRef .tc main_arg8) = m ((c : Thread nD τ).loc main_arg8) :=
  W14_of_untouched m ρ c main_arg8 (by decide) (by decide) (by decide) (by decide) (by decide) (by decide) (by decide)
    (by decide) (by decide) (by decide) (by decide) (by decide) (by decide) (by decide)

theorem W14_main_arg9 (c : Dev nD) : W14 m ρ c (Proc.devRef .tc main_arg9) = m ((c : Thread nD τ).loc main_arg9) :=
  W14_of_untouched m ρ c main_arg9 (by decide) (by decide) (by decide) (by decide) (by decide) (by decide) (by decide)
    (by decide) (by decide) (by decide) (by decide) (by decide) (by decide) (by decide)

theorem W14_main_arg10 (c : Dev nD) : W14 m ρ c (Proc.devRef .tc main_arg10) = m ((c : Thread nD τ).loc main_arg10) :=
  W14_of_untouched m ρ c main_arg10 (by decide) (by decide) (by decide) (by decide) (by decide) (by decide) (by decide)
    (by decide) (by decide) (by decide) (by decide) (by decide) (by decide) (by decide)

/-! ## The proof data of every region, and the state a core holds between pieces -/

/-- No region has a prefetched table: each region's admissible table contents are the trivial ones. -/
abbrev adm : (p : Fin 7) → (pcfgs (F := F) p).Adm := fun p => (cfgs p).toPCfg_adm
/-- Every region's proof data, each at the contents its region is entered from. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
abbrev 𝒱₀ : Variants := Variants.none
/-- No core owes another anything: no semaphore is given a level. -/
abbrev L : GSem nD τ sig → Finset Unit := fun _ => ∅
abbrev lv : GSem nD τ sig → Unit → ℕ := fun _ _ => 0
/-- What a core holds beside its buffers between any two pieces: its generator register at some state, and the
    record of what it owes, which is nothing. -/
abbrev R (c : Dev nD) : sProp 𝕄 := iprop((∃ r, prngReg c r) ∗ ∃ W, owes (c : Thread nD τ) (0 : CellTallies nD τ sig Unit) W)
/-- A stretch of host operations run from the contents `W`: it takes every unscoped buffer from `W c` to what the
    operations compute from `W c`, the rest of the core's state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those a core holds between pieces. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the return, apart from the record of owing nothing: every unscoped buffer at `W14`, the
    generator register at some state. -/
abbrev Tₙ (c : Dev nD) : sProp 𝕄 := iprop(StableHlo.held (c : Thread nD τ) (Pipeline.ucRefs τ sig) (W14 m ρ c) ∗ ∃ r, prngReg c r)

end Cert.Kernel.Hand

end
-- ==== Proof.K.Owes.lean ====
import proofs.«406782_j35519379538031_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Owing nothing, said the way a region's proof data say it

Between pieces a core holds the record of what it owes at nothing, beside whatever pairs its waits have recorded.
A region's proof data say the same before a point `t` where they put the tallies at nothing and bound the recorded
pairs by nothing at all. -/

section Owes

variable {cfg : Cfg sig Λ₀} {c : Dev nD} (dat : Dat τ (Elt F) Unit ℕ (UR sig nD τ) ℕ cfg c)

/-- Into a region: owing nothing is what the proof data ask before point `t`. -/
theorem owesAt_of_zero (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩
  iexists W
  isplitr
  · ipureintro; intro x _; exact Or.inl (by rw [hr]; exact Set.mem_univ x)
  iexact HO

/-- Out of a region: what the proof data hold before point `t` is owing nothing. -/
theorem zero_of_owesAt (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

end Owes

end Cert.Kernel.Hand

end
-- ==== Proof.K.Seg0.lean ====
import proofs.«406782_j35519379538031_1_alg».proof.Proof.K.Fold
import proofs.«406782_j35519379538031_1_alg».proof.Proof.K.Owes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 0 as a piece of the run: entered from every unscoped buffer at `W1`, left at `W2`. At entry its arrays
    are split out of the unscoped buffers and the rest bypasses the region; the generator register goes into the
    region's invariant and comes back out of it; at exit the arrays, at what the region leaves, are put back beside
    the bypassing rest. Nothing is owed, and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hrec : (dat0 (V1 m ρ) c).recorded 0 = Set.univ := rfl
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 0 c) 0 (owed_eq0 (V1 m ρ) c 0) hrec); iexact HO
    isplitl [Hp]; · iexact Hp
    iexact Hrest
  hin c := by
    refine BIBase.Entails.trans ?_ (phi_in0 (V1 m ρ) c)
    iintro ⟨Hp, -, Hr⟩
    isplitl [Hp]; · iexact Hp
    iexact Hr
  hout c := by
    rw [Pipeline.ownSems0_none]
    refine BIBase.Entails.trans (phi_out0 (V1 m ρ) c) ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 0 c) (Fin.last _) (owed_eq0 (V1 m ρ) c (Fin.last _))); iexact HO

end Cert.Kernel.Hand

end
-- ==== Proof.K.Seg1.lean ====
import proofs.«406782_j35519379538031_1_alg».proof.Proof.K.Fold
import proofs.«406782_j35519379538031_1_alg».proof.Proof.K.Owes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 1 as a piece of the run: entered from every unscoped buffer at `W3`, left at `W4`. At entry its arrays
    are split out of the unscoped buffers and the rest bypasses the region; the generator register goes into the
    region's invariant and comes back out of it; at exit the arrays, at what the region leaves, are put back beside
    the bypassing rest. Nothing is owed, and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hrec : (dat1 (V3 m ρ) c).recorded 0 = Set.univ := rfl
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 1 c) 0 (owed_eq1 (V3 m ρ) c 0) hrec); iexact HO
    isplitl [Hp]; · iexact Hp
    iexact Hrest
  hin c := by
    refine BIBase.Entails.trans ?_ (phi_in1 (V3 m ρ) c)
    iintro ⟨Hp, -, Hr⟩
    isplitl [Hp]; · iexact Hp
    iexact Hr
  hout c := by
    rw [Pipeline.ownSems0_none]
    refine BIBase.Entails.trans (phi_out1 (V3 m ρ) c) ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 1 c) (Fin.last _) (owed_eq1 (V3 m ρ) c (Fin.last _))); iexact HO

end Cert.Kernel.Hand

end
-- ==== Proof.K.Seg2.lean ====
import proofs.«406782_j35519379538031_1_alg».proof.Proof.K.Fold
import proofs.«406782_j35519379538031_1_alg».proof.Proof.K.Owes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 2 as a piece of the run: entered from every unscoped buffer at `W5`, left at `W6`. At entry its arrays
    are split out of the unscoped buffers and the rest bypasses the region; the generator register goes into the
    region's invariant and comes back out of it; at exit the arrays, at what the region leaves, are put back beside
    the bypassing rest. Nothing is owed, and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed_eq2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hrec : (dat2 (V5 m ρ) c).recorded 0 = Set.univ := rfl
    have hsplit := Pipeline.arrays_of_unscopedBufs (p := 2) (pcfgs (F := F)) adm (pdats m ρ) launch2.win launch2.arr_whole c
      ((pdats m ρ 2 c).share_full fun w => q_eq2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 2 c) 0 (owed_eq2 (V5 m ρ) c 0) hrec); iexact HO
    isplitl [Hp]; · iexact Hp
    iexact Hrest
  hin c := by
    refine BIBase.Entails.trans ?_ (phi_in2 (V5 m ρ) c)
    iintro ⟨Hp, -, Hr⟩
    isplitl [Hp]; · iexact Hp
    iexact Hr
  hout c := by
    rw [Pipeline.ownSems0_none]
    refine BIBase.Entails.trans (phi_out2 (V5 m ρ) c) ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 2 c) (Fin.last _) (owed_eq2 (V5 m ρ) c (Fin.last _))); iexact HO

end Cert.Kernel.Hand

end
-- ==== Proof.K.Seg3.lean ====
import proofs.«406782_j35519379538031_1_alg».proof.Proof.K.Fold
import proofs.«406782_j35519379538031_1_alg».proof.Proof.K.Owes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 3 as a piece of the run: entered from every unscoped buffer at `W6`, left at `W7`. At entry its arrays
    are split out of the unscoped buffers and the rest bypasses the region; the generator register goes into the
    region's invariant and comes back out of it; at exit the arrays, at what the region leaves, are put back beside
    the bypassing rest. Nothing is owed, and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun c t => owed_eq3 (V6 m ρ) c t
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hrec : (dat3 (V6 m ρ) c).recorded 0 = Set.univ := rfl
    have hsplit := Pipeline.arrays_of_unscopedBufs (p := 3) (pcfgs (F := F)) adm (pdats m ρ) launch3.win launch3.arr_whole c
      ((pdats m ρ 3 c).share_full fun w => q_eq3 (V6 m ρ) c w) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 3 c) 0 (owed_eq3 (V6 m ρ) c 0) hrec); iexact HO
    isplitl [Hp]; · iexact Hp
    iexact Hrest
  hin c := by
    refine BIBase.Entails.trans ?_ (phi_in3 (V6 m ρ) c)
    iintro ⟨Hp, -, Hr⟩
    isplitl [Hp]; · iexact Hp
    iexact Hr
  hout c := by
    rw [Pipeline.ownSems0_none]
    refine BIBase.Entails.trans (phi_out3 (V6 m ρ) c) ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => q_eq3 (V6 m ρ) c w)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 3 c) (Fin.last _) (owed_eq3 (V6 m ρ) c (Fin.last _))); iexact HO

end Cert.Kernel.Hand

end
-- ==== Proof.K.Seg4.lean ====
import proofs.«406782_j35519379538031_1_alg».proof.Proof.K.Fold
import proofs.«406782_j35519379538031_1_alg».proof.Proof.K.Owes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 4 as a piece of the run: entered from every unscoped buffer at `W8`, left at `W9`. At entry its arrays
    are split out of the unscoped buffers and the rest bypasses the region; the generator register goes into the
    region's invariant and comes back out of it; at exit the arrays, at what the region leaves, are put back beside
    the bypassing rest. Nothing is owed, and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun c t => owed_eq4 (V8 m ρ) c t
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hrec : (dat4 (V8 m ρ) c).recorded 0 = Set.univ := rfl
    have hsplit := Pipeline.arrays_of_unscopedBufs (p := 4) (pcfgs (F := F)) adm (pdats m ρ) launch4.win launch4.arr_whole c
      ((pdats m ρ 4 c).share_full fun w => q_eq4 (V8 m ρ) c w) (V8 m ρ c) fun w => A_eq4 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 4 c) 0 (owed_eq4 (V8 m ρ) c 0) hrec); iexact HO
    isplitl [Hp]; · iexact Hp
    iexact Hrest
  hin c := by
    refine BIBase.Entails.trans ?_ (phi_in4 (V8 m ρ) c)
    iintro ⟨Hp, -, Hr⟩
    isplitl [Hp]; · iexact Hp
    iexact Hr
  hout c := by
    rw [Pipeline.ownSems0_none]
    refine BIBase.Entails.trans (phi_out4 (V8 m ρ) c) ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun w => q_eq4 (V8 m ρ) c w)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 4 c) (Fin.last _) (owed_eq4 (V8 m ρ) c (Fin.last _))); iexact HO

end Cert.Kernel.Hand

end
-- ==== Proof.K.Seg5.lean ====
import proofs.«406782_j35519379538031_1_alg».proof.Proof.K.Fold
import proofs.«406782_j35519379538031_1_alg».proof.Proof.K.Owes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 5 as a piece of the run: entered from every unscoped buffer at `W10`, left at `W11`. At entry its arrays
    are split out of the unscoped buffers and the rest bypasses the region; the generator register goes into the
    region's invariant and comes back out of it; at exit the arrays, at what the region leaves, are put back beside
    the bypassing rest. Nothing is owed, and the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun c t => owed_eq5 (V10 m ρ) c t
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hrec : (dat5 (V10 m ρ) c).recorded 0 = Set.univ := rfl
    have hsplit := Pipeline.arrays_of_unscopedBufs (p := 5) (pcfgs (F := F)) adm (pdats m ρ) launch5.win launch5.arr_whole c
      ((pdats m ρ 5 c).share_full fun w => q_eq5 (V10 m ρ) c w) (V10 m ρ c) fun w => A_eq5 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 5 c) 0 (owed_eq5 (V10 m ρ) c 0) hrec); iexact HO
    isplitl [Hp]; · iexact Hp
    iexact Hrest
  hin c := by
    refine BIBase.Entails.trans ?_ (phi_in5 (V10 m ρ) c)
    iintro ⟨Hp, -, Hr⟩
    isplitl [Hp]; · iexact Hp
    iexact Hr
  hout c := by
    rw [Pipeline.ownSems0_none]
    refine BIBase.Entails.trans (phi_out5 (V10 m ρ) c) ?_
    iintro ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun w => q_eq5 (V10 m ρ) c w)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 5 c) (Fin.last _) (owed_eq5 (V10 m ρ) c (Fin.last _))); iexact HO

end Cert.Kernel.Hand

end
-- ==== Proof.K.Seg6.lean ====
import proofs.«406782_j35519379538031_1_alg».proof.Proof.K.Fold
import proofs.«406782_j35519379538031_1_alg».proof.Proof.K.Owes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 6 as a piece of the run: entered from every unscoped buffer at `W12`, left at `W13`. At entry its arrays
    are split out of the unscoped buffers and the rest bypasses the region; the generator register goes into the
    region's invariant and comes back out of it; at exit the arrays, at what the region leaves, are put back beside
    the bypassing rest. Nothing is owed, and the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun c t => owed_eq6 (V12 m ρ) c t
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hrec : (dat6 (V12 m ρ) c).recorded 0 = Set.univ := rfl
    have hsplit := Pipeline.arrays_of_unscopedBufs (p := 6) (pcfgs (F := F)) adm (pdats m ρ) launch6.win launch6.arr_whole c
      ((pdats m ρ 6 c).share_full fun w => q_eq6 (V12 m ρ) c w) (V12 m ρ c) fun w => A_eq6 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 6 c) 0 (owed_eq6 (V12 m ρ) c 0) hrec); iexact HO
    isplitl [Hp]; · iexact Hp
    iexact Hrest
  hin c := by
    refine BIBase.Entails.trans ?_ (phi_in6 (V12 m ρ) c)
    iintro ⟨Hp, -, Hr⟩
    isplitl [Hp]; · iexact Hp
    iexact Hr
  hout c := by
    rw [Pipeline.ownSems0_none]
    refine BIBase.Entails.trans (phi_out6 (V12 m ρ) c) ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun w => q_eq6 (V12 m ρ) c w)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 6 c) (Fin.last _) (owed_eq6 (V12 m ρ) c (Fin.last _))); iexact HO

end Cert.Kernel.Hand

end
-- ==== Proof.K.Run.lean ====
import proofs.«406782_j35519379538031_1_alg».proof.Proof.K.Seg0
import proofs.«406782_j35519379538031_1_alg».proof.Proof.K.Seg1
import proofs.«406782_j35519379538031_1_alg».proof.Proof.K.Seg2
import proofs.«406782_j35519379538031_1_alg».proof.Proof.K.Seg3
import proofs.«406782_j35519379538031_1_alg».proof.Proof.K.Seg4
import proofs.«406782_j35519379538031_1_alg».proof.Proof.K.Seg5
import proofs.«406782_j35519379538031_1_alg».proof.Proof.K.Seg6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program as its fourteen pieces, and the launch -/

/-- The program's pieces in order: each stretch of host operations run from the contents of the boundary before it,
    each kernel region as its record. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)) ]

/-- The program is the run of its pieces: it is the chain of its items, and the pieces' programs are those items. -/
theorem main_run (c : Dev nD) : main (F := F) c = Pipeline.Seg.run (segs m ρ) := (main_chain c).trans (by chain_rfl)

/-- At the return: what the last stretch leaves is the last state beside the record of owing nothing. -/
theorem hlast (c : Dev nD) :
    (iprop(StableHlo.held (c : Thread nD τ) (Pipeline.ucRefs τ sig) (W14 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

-- the launch theorem's implicit arguments are found by unifying its conclusion with this one, which takes unfolding
-- plain definitions inside a metavariable's type
set_option backward.isDefEq.respectTransparency.types false in
/-- From any launch memory with every semaphore counter at zero, every weakly fair execution of the program on the
    TensorCores terminates without fault, and in every final memory the result buffer holds what the fold `W14` says
    and each of the eleven arguments holds what it held at launch. The pieces' states chain from the launch to the
    return; the last state is read against the final memory, buffer by buffer. -/
theorem run : θ_run defs (onTc (τ := τ) (main (F := F))) ⟨m, fun _ => 0, ρ⟩ (fun r => ∀ c : Dev nD,
      r.2.mem ((c.tc : Thread nD τ).loc main_v106) = W14 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v106 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.Kernel.Hand

end
-- ==== Proof.KI.Reg0.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: a dense product of a 40000×256 matrix with a 256×256 weight matrix, one block of 4000 rows per grid point -/

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point, whether or not it was fetched there, for any
    proof data over the entry contents whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: it is fetched once, and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 4000×256 buffer (the row block read, and the result block written). -/
abbrev r0_0 : Rect S4000x256 := Rect.unit (s := S4000x256) ![0, 0] S4000x256.size inb_S4000x256_S4000x256_0_0
/-- The whole 256×256 buffer (the weight matrix read). -/
abbrev r0_1 : Rect S256x256 := Rect.unit (s := S256x256) ![0, 0] S256x256.size inb_S256x256_S256x256_0_0

/-! ## What the body leaves in the output window's buffer -/

/-- The result buffer after the body, from the two input blocks: its one store, of the product of the narrowed row
    block with the narrowed weights accumulated onto zero. -/
def out0_2 (x0 : Vec F S4000x256 .f32) (x1 : Vec F S256x256 .f32) : Vec F S4000x256 .f32 :=
  View.canon [⟨r0_0, k0_pay1 (View.ld x0 r0_0) (View.ld x1 r0_1)⟩]

/-- The one store is of the whole buffer, so it covers it. -/
theorem cover0_2 (p0 : Vec F S4000x256 .f32) (y : S4000x256.Idx) :
    ∃ pc ∈ ([⟨r0_0, p0⟩] : List (View.Piece (Elt F) S4000x256 .f32)), y ∈ pc.1.set :=
  View.cover_of_tiled [⟨r0_0, p0⟩] S4000x256.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg1 : Memref sig .tc .vmem S4000x256 .f32) (harg1 : arg1.IsWhole) (arg2 : Memref sig .tc .vmem S256x256 .f32) (harg2 : arg2.IsWhole) (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Region0

/-! ## The pipeline's proof data -/

/-- The proof data of region 0 on core `c`: the arrays as the region finds them; after the body at point `t` each
    input's buffer at its block and the output's at `out0_2` of the two input blocks; the invariant is the scoped rest
    and the generator register, untouched; nothing owed; full shares. -/
def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t) : (dat0 V c).owed t = 0 := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest make up the invariant at the first point. -/
theorem phi_in0 (c : Dev nD) :
    (iprop((∃ r, prngReg c r) ∗ Pipeline.scopedRest (Ix := Unit) (Name := ℕ) (U := UR sig nD τ) (Lvl := ℕ) spec0 c) : sProp 𝕄)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Leaving: the invariant at the last point gives them back. -/
theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.KernelIdeal.Hand

end
-- ==== Proof.KI.Reg1.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column sums and column sums of squares of a 40000 by 256 array, ten row blocks of 4000

The body keeps two rows of 256 running sums in two scratch buffers that no window stages: it resets them at the
first grid point, adds the current block's column sums (of the entries, of their squares) at every point, and copies
them to the two one-row output blocks at the last point. The region's invariant therefore holds the two scratch
buffers at the running sums after the points so far, apart from every other scoped buffer, which stays unopened. -/

variable (V : (c : Dev nD) → (b : Ref sig .tc) → Buf (Elt F) ((c : Thread nD τ).loc b))

/-! ## The body's two conditions, in closed form over the grid -/

/-- The first conditional (the reset of the two running sums) is taken where the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- The second conditional (the copy of the two running sums to the output blocks) is taken where it is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The two output windows are idle exactly where the copy is not made. -/
theorem idleAt1_1 : ∀ t : Fin cfg1.N, cfg1.idle 1 (grid1.coords t) = true ↔ ¬ t.val % 10 = 9 :=
  (by decide +kernel : ∀ t : Fin grid1.N, idle1 1 (grid1.coords t) = true ↔ ¬ t.val % 10 = 9)
theorem idleAt1_2 : ∀ t : Fin cfg1.N, cfg1.idle 2 (grid1.coords t) = true ↔ ¬ t.val % 10 = 9 :=
  (by decide +kernel : ∀ t : Fin grid1.N, idle1 2 (grid1.coords t) = true ↔ ¬ t.val % 10 = 9)

theorem hz1 : (![0, 0] : Fin 2 → Nat) = fun _ => 0 := funext fun a => by fin_cases a <;> rfl

/-- A store through the whole-shape rectangle at zero offsets, made last, is what the buffer then reads, whatever was
    stored before: every index is the image of itself under that rectangle. -/
theorem store_whole1 {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  funext y
  have e := View.read_writes_cons_emb (Val := Elt F) v f (Rect.whole S) w L y
  rwa [Rect.emb_whole_apply] at e

/-! ## The body on any whole memrefs, case by case

The row block is held at `x`. Every load and store is of a whole buffer, so each buffer ends at the payload of
its last store, with the loads before it reading what the buffer then held. -/

set_option maxHeartbeats 1000000 in
/-- First point: both running sums are reset to zero, then the block's column sums (of the entries, of their
    squares) are added; the output blocks are not touched. -/
theorem run1_A (c : Dev nD) (i : grid1.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : cond1_0 i) (hc1 : ¬cond1_1 i)
    (x : Vec F S4000x256 .f32) :
      ∀ (E : Set ℕ) (K : PUnit → sProp 𝕄),
        iprop(owns (c : Thread nD τ) arg1 fullShare x ∗ (∃ d, owns (c : Thread nD τ) arg4 fullShare d) ∗ (∃ d, owns (c : Thread nD τ) arg5 fullShare d)
            ∗ (iprop(owns (c : Thread nD τ) arg1 fullShare x ∗ owns (c : Thread nD τ) arg4 fullShare (k1_pay4 x k1_pay1)
                ∗ owns (c : Thread nD τ) arg5 fullShare (k1_pay5 x k1_pay2)) -∗ K ⟨⟩))
          ⊢ wp frame (wpE (defs₀ (F := F)) Variants.none c none) E (cc1__stats_kernel i arg1 harg1 arg2 harg2 arg3 harg3 arg4 harg4 arg5 harg5) K := by
    intro E K
    simp only [cc1__stats_kernel_eq_skeleton]; unfold cc1__stats_kernel_skel
    unfold owns
    iintro ⟨⟨%f1, %hf1, H1⟩, ⟨%d4, %f4, -, H4⟩, ⟨%d5, %f5, -, H5⟩, Hk⟩
    obtain rfl := harg1.eq_unread hf1
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      sl_unfold_run_names
      rw [store_whole1 _ _ hz1, View.readCov_unit_zero (S := S1x256) _ hz1]
      simp only [View.readAt_eq_ld, harg1.read_unread, View.ld_unit_zero (S := S4000x256) hz1]
    · iexists _; isplitr; swap; · iexact H5
      ipureintro
      sl_unfold_run_names
      rw [store_whole1 _ _ hz1, View.readCov_unit_zero (S := S1x256) _ hz1]
      simp only [View.readAt_eq_ld, harg1.read_unread, View.ld_unit_zero (S := S4000x256) hz1]

set_option maxHeartbeats 1000000 in
/-- A middle point: the block's column sums are added to the running sums; the output blocks are not touched. -/
theorem run1_B (c : Dev nD) (i : grid1.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond1_0 i) (hc1 : ¬cond1_1 i)
    (x : Vec F S4000x256 .f32) (a0 a1 : Vec F S1x256 .f32) :
      ∀ (E : Set ℕ) (K : PUnit → sProp 𝕄),
        iprop(owns (c : Thread nD τ) arg1 fullShare x ∗ owns (c : Thread nD τ) arg4 fullShare a0 ∗ owns (c : Thread nD τ) arg5 fullShare a1
            ∗ (iprop(owns (c : Thread nD τ) arg1 fullShare x ∗ owns (c : Thread nD τ) arg4 fullShare (k1_pay4 x a0)
                ∗ owns (c : Thread nD τ) arg5 fullShare (k1_pay5 x a1)) -∗ K ⟨⟩))
          ⊢ wp frame (wpE (defs₀ (F := F)) Variants.none c none) E (cc1__stats_kernel i arg1 harg1 arg2 harg2 arg3 harg3 arg4 harg4 arg5 harg5) K := by
    intro E K
    simp only [cc1__stats_kernel_eq_skeleton]; unfold cc1__stats_kernel_skel
    unfold owns
    iintro ⟨⟨%f1, %hf1, H1⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      rw [store_whole1 _ _ hz1]
      simp only [View.readAt_eq_ld, harg1.read_unread, harg4.read_unread, View.ld_unit_zero (S := S4000x256) hz1, View.ld_unit_zero (S := S1x256) hz1]
    · iexists _; isplitr; swap; · iexact H5
      ipureintro
      rw [store_whole1 _ _ hz1]
      simp only [View.readAt_eq_ld, harg1.read_unread, harg5.read_unread, View.ld_unit_zero (S := S4000x256) hz1, View.ld_unit_zero (S := S1x256) hz1]

set_option maxHeartbeats 1000000 in
/-- Last point: the block's column sums are added to the running sums, and the two running sums are copied to the
    two output blocks. -/
theorem run1_C (c : Dev nD) (i : grid1.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond1_0 i) (hc1 : cond1_1 i)
    (x : Vec F S4000x256 .f32) (a0 a1 : Vec F S1x256 .f32) :
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d)
            ∗ owns (c : Thread nD τ) arg4 fullShare a0 ∗ owns (c : Thread nD τ) arg5 fullShare a1
            ∗ (iprop(owns (c : Thread nD τ) arg1 fullShare x ∗ owns (c : Thread nD τ) arg2 fullShare (k1_pay4 x a0)
                ∗ owns (c : Thread nD τ) arg3 fullShare (k1_pay5 x a1) ∗ owns (c : Thread nD τ) arg4 fullShare (k1_pay4 x a0)
                ∗ owns (c : Thread nD τ) arg5 fullShare (k1_pay5 x a1)) -∗ K ⟨⟩))
          ⊢ wp frame (wpE (defs₀ (F := F)) Variants.none c none) E (cc1__stats_kernel i arg1 harg1 arg2 harg2 arg3 harg3 arg4 harg4 arg5 harg5) K := by
    intro E K
    simp only [cc1__stats_kernel_eq_skeleton]; unfold cc1__stats_kernel_skel
    unfold owns
    iintro ⟨⟨%f1, %hf1, H1⟩, ⟨%d2, %f2, -, H2⟩, ⟨%d3, %f3, -, H3⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; swap; · iexact H2
      ipureintro
      sl_unfold_run_names
      rw [store_whole1 _ _ hz1, View.readCov_unit_zero (S := S1x256) _ hz1]
      simp only [View.readAt_eq_ld, harg1.read_unread, harg4.read_unread, View.ld_unit_zero (S := S4000x256) hz1, View.ld_unit_zero (S := S1x256) hz1]
    isplitl [H3]
    · iexists _; isplitr; swap; · iexact H3
      ipureintro
      sl_unfold_run_names
      rw [store_whole1 _ _ hz1, View.readCov_unit_zero (S := S1x256) _ hz1]
      simp only [View.readAt_eq_ld, harg1.read_unread, harg5.read_unread, View.ld_unit_zero (S := S4000x256) hz1, View.ld_unit_zero (S := S1x256) hz1]
    isplitl [H4]
    · iexists _; isplitr; swap; · iexact H4
      ipureintro
      sl_unfold_run_names
      rw [store_whole1 _ _ hz1]
      simp only [View.readAt_eq_ld, harg1.read_unread, harg4.read_unread, View.ld_unit_zero (S := S4000x256) hz1, View.ld_unit_zero (S := S1x256) hz1]
    · iexists _; isplitr; swap; · iexact H5
      ipureintro
      sl_unfold_run_names
      rw [store_whole1 _ _ hz1]
      simp only [View.readAt_eq_ld, harg1.read_unread, harg5.read_unread, View.ld_unit_zero (S := S4000x256) hz1, View.ld_unit_zero (S := S1x256) hz1]

/-! ## The proof data -/

/-- The staging memrefs as the pipeline passes them at point `t`, and the two scratch buffers. -/
abbrev ms1_0 (t : Fin cfg1.N) : Memref sig .tc .vmem S4000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev sc1_0 : Memref sig .tc .vmem S1x256 .f32 := Memref.whole cc1_scratch0
abbrev sc1_1 : Memref sig .tc .vmem S1x256 .f32 := Memref.whole cc1_scratch1

/-- The row block of the input array that point `t` works on, read off the array as the region finds it. -/
def iblk1 (c : Dev nD) (t : Fin cfg1.N) : ((cfg1.win 0).xblock (cfg1.grid.coords t)).Idx → Elt F (cfg1.win 0).elt :=
  ((cfg1.win 0).blk t).view.read (Elt F) (V c (Pipeline.arrRef spec1 0))
/-- The same at its literal type. -/
abbrev xblk1 (c : Dev nD) (t : Fin cfg1.N) : Vec F S4000x256 .f32 := iblk1 V c t

/-- The first running sum after `n` points: zero, then one block's column sums added per point. -/
def scr1_0 (c : Dev nD) : ℕ → Vec F S1x256 .f32
  | 0 => k1_pay1
  | n + 1 => if h : n < cfg1.N then k1_pay4 (xblk1 V c ⟨n, h⟩) (scr1_0 c n) else scr1_0 c n
/-- The second running sum after `n` points: zero, then one block's column sums of squares added per point. -/
def scr1_1 (c : Dev nD) : ℕ → Vec F S1x256 .f32
  | 0 => k1_pay2
  | n + 1 => if h : n < cfg1.N then k1_pay5 (xblk1 V c ⟨n, h⟩) (scr1_1 c n) else scr1_1 c n

theorem scr1_0_zero (c : Dev nD) : scr1_0 V c 0 = k1_pay1 := rfl
theorem scr1_1_zero (c : Dev nD) : scr1_1 V c 0 = k1_pay2 := rfl
theorem scr1_0_succ (c : Dev nD) (t : Fin cfg1.N) : scr1_0 V c (t.val + 1) = k1_pay4 (xblk1 V c t) (scr1_0 V c t.val) := by
  rw [scr1_0, dif_pos t.isLt]
theorem scr1_1_succ (c : Dev nD) (t : Fin cfg1.N) : scr1_1 V c (t.val + 1) = k1_pay5 (xblk1 V c t) (scr1_1 V c t.val) := by
  rw [scr1_1, dif_pos t.isLt]

/-- One scratch buffer between points: before the first point at anything (the first point overwrites it), after
    `n` points at `X n`. -/
def held1 (c : Dev nD) (b : Memref sig .tc .vmem S1x256 .f32) (X : ℕ → Vec F S1x256 .f32) (n : ℕ) : sProp 𝕄 :=
  if n = 0 then iprop(∃ d, owns (c : Thread nD τ) b fullShare d) else owns (c : Thread nD τ) b fullShare (X n)

/-- The region's invariant after `n` points: the generator register, every scoped buffer other than the staging
    buffers and the two scratch buffers unopened, and the two scratch buffers at the running sums. -/
def Φ1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0, cc1_scratch1]
    ∗ held1 c sc1_0 (scr1_0 V c) n ∗ held1 c sc1_1 (scr1_1 V c) n)

/-- The proof data of region 1 on core `c`: the arrays as the region finds them; after the body at point `t` the
    input's buffer at its block and the two outputs' at the running sums (read at the last point only: before it
    they are idle); the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => xblk1 V c t
    | ⟨1, _⟩ => scr1_0 V c (t.val + 1)
    | ⟨2, _⟩ => scr1_1 V c (t.val + 1)
  Φ t := Φ1 V c t.val
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t) : (dat1 V c).owed t = 0 := rfl

theorem after1_0 (c : Dev nD) (t : Fin cfg1.N) : (dat1 V c).after 0 t = iblk1 V c t := by dsimp only [dat1]
theorem after1_1 (c : Dev nD) (t : Fin cfg1.N) : (dat1 V c).after 1 t = scr1_0 V c (t.val + 1) := by dsimp only [dat1]
theorem after1_2 (c : Dev nD) (t : Fin cfg1.N) : (dat1 V c).after 2 t = scr1_1 V c (t.val + 1) := by dsimp only [dat1]

/-- The input's current staging buffer holds its block at every point. -/
theorem before1_0 (c : Dev nD) (t : Fin cfg1.N) (d) : (dat1 V c).before 0 t d = iblk1 V c t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-! ## The invariant at the region's two ends -/

theorem held1_any (c : Dev nD) (b : Memref sig .tc .vmem S1x256 .f32) (X : ℕ → Vec F S1x256 .f32) (n : ℕ) :
    held1 c b X n ⊢ (iprop(∃ d, owns (c : Thread nD τ) b fullShare d) : sProp 𝕄) := by
  unfold held1
  split
  · iintro H; iexact H
  · iintro H; iexists _; iexact H

theorem heldAny1_eq (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

theorem phi_in1 (c : Dev nD) :
    (iprop((∃ r, prngReg c r) ∗ Pipeline.scopedRest (Ix := Unit) (Name := ℕ) (U := UR sig nD τ) (Lvl := ℕ) spec1 c) : sProp 𝕄)
      ⊢ (dat1 V c).Φ 0 := by
  rw [scopedRest1_split, ← heldAny1_eq, ← heldAny1_eq]
  show _ ⊢ Φ1 V c 0
  unfold Φ1 held1
  rw [if_pos rfl, if_pos rfl]
  iintro ⟨Hp, ⟨H0, H1⟩, Hr⟩
  isplitl [Hp]; · iexact Hp
  isplitl [Hr]; · iexact Hr
  isplitl [H0]; · iexact H0
  iexact H1

theorem phi_out1 (c : Dev nD) :
    (dat1 V c).Φ (Fin.last cfg1.N)
      ⊢ (iprop((∃ r, prngReg c r) ∗ Pipeline.scopedRest (Ix := Unit) (Name := ℕ) (U := UR sig nD τ) (Lvl := ℕ) spec1 c) : sProp 𝕄) := by
  rw [scopedRest1_split, ← heldAny1_eq, ← heldAny1_eq]
  show Φ1 V c cfg1.N ⊢ _
  unfold Φ1
  iintro ⟨Hp, Hr, H0, H1⟩
  isplitl [Hp]; · iexact Hp
  isplitr [Hr]; swap; · iexact Hr
  isplitl [H0]
  · iapply (held1_any c sc1_0 _ _); iexact H0
  · iapply (held1_any c sc1_1 _ _); iexact H1

/-! ## The body obligation -/

theorem held1_of_eq_zero (c : Dev nD) (b : Memref sig .tc .vmem S1x256 .f32) (X : ℕ → Vec F S1x256 .f32) (n : ℕ) (h : n = 0) :
    held1 c b X n = (iprop(∃ d, owns (c : Thread nD τ) b fullShare d) : sProp 𝕄) := if_pos h
theorem held1_of_ne_zero (c : Dev nD) (b : Memref sig .tc .vmem S1x256 .f32) (X : ℕ → Vec F S1x256 .f32) (n : ℕ) (h : n ≠ 0) :
    held1 c b X n = (owns (c : Thread nD τ) b fullShare (X n) : sProp 𝕄) := if_neg h

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

/-- The input window is never idle: the body hands its buffer back at its block. -/
theorem leaves1_0 (c : Dev nD) (t : Fin cfg1.N) :
    (dat1 V c).leavesExact 0 t = owns (c : Thread nD τ) (ms1_0 t) fullShare (iblk1 V c t) := by
  rw [← after1_0]

/-- Before the last point the two output windows are idle and not written back: handed back as found. -/
theorem leaves1_1_idle (c : Dev nD) (t : Fin cfg1.N) (h9 : ¬ t.val % 10 = 9) :
    (dat1 V c).leavesExact 1 t = iprop(∃ d, owns (c : Thread nD τ) (ms1_1 t) fullShare ((dat1 V c).before 1 t d)) :=
  (dat1 V c).leavesExact_idle 1 t ((idleAt1_1 t).mpr h9) (Bool.eq_false_iff.mpr fun h => h9 ((flush1_1 t).mp h))
theorem leaves1_2_idle (c : Dev nD) (t : Fin cfg1.N) (h9 : ¬ t.val % 10 = 9) :
    (dat1 V c).leavesExact 2 t = iprop(∃ d, owns (c : Thread nD τ) (ms1_2 t) fullShare ((dat1 V c).before 2 t d)) :=
  (dat1 V c).leavesExact_idle 2 t ((idleAt1_2 t).mpr h9) (Bool.eq_false_iff.mpr fun h => h9 ((flush1_2 t).mp h))

/-- At the last point they are live: handed back at the running sums. -/
theorem leaves1_1_live (c : Dev nD) (t : Fin cfg1.N) (h9 : t.val % 10 = 9) :
    (dat1 V c).leavesExact 1 t = owns (c : Thread nD τ) (ms1_1 t) fullShare (scr1_0 V c (t.val + 1)) := by
  unfold Dat.leavesExact; rw [Bool.eq_false_iff.mpr fun h => (idleAt1_1 t).mp h h9, after1_1]
theorem leaves1_2_live (c : Dev nD) (t : Fin cfg1.N) (h9 : t.val % 10 = 9) :
    (dat1 V c).leavesExact 2 t = owns (c : Thread nD τ) (ms1_2 t) fullShare (scr1_1 V c (t.val + 1)) := by
  unfold Dat.leavesExact; rw [Bool.eq_false_iff.mpr fun h => (idleAt1_2 t).mp h h9, after1_2]

set_option maxHeartbeats 1600000 in
/-- The body at any point: the input's memref holds its block; the closed forms say which of the three cases the
    point is in; the case's run applies at the running sums the invariant holds the scratch buffers at; the rest of
    the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = Φ1 V c (t.val + 1) from rfl,
    show (dat1 V c).Φ t.castSucc = Φ1 V c t.val from rfl,
    show (dat1 V c).owesAt () t.succ = (dat1 V c).owesAt () t.castSucc from rfl,
    leaves1_0]
  have hN : t.val < 10 := lt_of_lt_of_eq t.isLt (show cfg1.N = 10 from N_1)
  unfold Φ1
  rw [held1_of_ne_zero c sc1_0 (scr1_0 V c) (t.val + 1) (Nat.succ_ne_zero _), held1_of_ne_zero c sc1_1 (scr1_1 V c) (t.val + 1) (Nat.succ_ne_zero _),
    scr1_0_succ, scr1_1_succ]
  by_cases h0 : t.val % 10 = 0
  · have h9 : ¬ t.val % 10 = 9 := by omega
    have e0 : scr1_0 V c t.val = k1_pay1 := by rw [show t.val = 0 by omega]; rfl
    have e1 : scr1_1 V c t.val = k1_pay2 := by rw [show t.val = 0 by omega]; rfl
    rw [leaves1_1_idle V c t h9, leaves1_2_idle V c t h9, e0, e1,
      held1_of_eq_zero c sc1_0 (scr1_0 V c) t.val (by omega), held1_of_eq_zero c sc1_1 (scr1_1 V c) t.val (by omega)]
    iintro ⟨⟨Hp, Hr, ⟨%d4, H4⟩, ⟨%d5, H5⟩⟩, Ho, ⟨%d0, H0⟩, H1, H2⟩
    iapply (run1_A c (grid1.coords t) _ _ _ _ _ _ _ _ _ _ ((hcond1_0 t).mpr h0) (fun h => h9 ((hcond1_1 t).mp h)) (xblk1 V c t) Set.univ _)
    isplitl [H0]; · iexact H0
    isplitl [H4]; · iexists _; iexact H4
    isplitl [H5]; · iexists _; iexact H5
    iintro ⟨H0, H4, H5⟩
    isplitl [Hp Hr H4 H5]
    · isplitl [Hp]; · iexact Hp
      isplitl [Hr]; · iexact Hr
      isplitl [H4]; · iexact H4
      iexact H5
    isplitl [Ho]; · iexact Ho
    isplitl [H0]; · iexact H0
    isplitl [H1]; · iexact H1
    iexact H2
  · rw [held1_of_ne_zero c sc1_0 (scr1_0 V c) t.val (by omega), held1_of_ne_zero c sc1_1 (scr1_1 V c) t.val (by omega)]
    by_cases h9 : t.val % 10 = 9
    · rw [leaves1_1_live V c t h9, leaves1_2_live V c t h9, scr1_0_succ, scr1_1_succ]
      iintro ⟨⟨Hp, Hr, H4, H5⟩, Ho, ⟨%d0, H0⟩, ⟨%d1, H1⟩, ⟨%d2, H2⟩⟩
      iapply (run1_C c (grid1.coords t) _ _ _ _ _ _ _ _ _ _ (fun h => h0 ((hcond1_0 t).mp h)) ((hcond1_1 t).mpr h9) (xblk1 V c t) (scr1_0 V c t.val) (scr1_1 V c t.val) Set.univ _)
      isplitl [H0]; · iexact H0
      isplitl [H1]; · iexists _; iexact H1
      isplitl [H2]; · iexists _; iexact H2
      isplitl [H4]; · iexact H4
      isplitl [H5]; · iexact H5
      iintro ⟨H0, H1, H2, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2
    · rw [leaves1_1_idle V c t h9, leaves1_2_idle V c t h9]
      iintro ⟨⟨Hp, Hr, H4, H5⟩, Ho, ⟨%d0, H0⟩, H1, H2⟩
      iapply (run1_B c (grid1.coords t) _ _ _ _ _ _ _ _ _ _ (fun h => h0 ((hcond1_0 t).mp h)) (fun h => h9 ((hcond1_1 t).mp h)) (xblk1 V c t) (scr1_0 V c t.val) (scr1_1 V c t.val) Set.univ _)
      isplitl [H0]; · iexact H0
      isplitl [H4]; · iexact H4
      isplitl [H5]; · iexact H5
      iintro ⟨H0, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the affine map followed by the rectifier, one row block per grid point

The region's kernel reads a block of 4000 rows of its first operand and the two single rows of per-column
coefficients, and writes the block of rows max (x * scale + shift) 0.  Everything is stated at a parameter V:
the contents of the core's buffers when the region is entered. -/

variable (V : (c : Dev nD) → (b : Ref sig .tc) → Buf (Elt F) ((c : Thread nD τ).loc b))

/-! ## The windows' blocks -/

/-- The block of window w at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the first operand sits in its current staging buffer at every point: for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row of scales sits in its staging buffer at every point, although it is brought in only once: its block
    index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The row of shifts likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 4000 x 256 block, and the whole single row of 256. -/
abbrev r2_0 : Rect S4000x256 := Rect.unit (s := S4000x256) ![0, 0] S4000x256.size inb_S4000x256_S4000x256_0_0
abbrev r2_1 : Rect S1x256 := Rect.unit (s := S1x256) ![0, 0] S1x256.size inb_S1x256_S1x256_0_0

/-! ## What the body leaves in the output window's buffer -/

/-- The output buffer after the body, as a function of the three input blocks: its single store, whose payload is
    the rectified affine image of the row block. -/
def out2_3 (x0 : Vec F S4000x256 .f32) (x1 : Vec F S1x256 .f32) (x2 : Vec F S1x256 .f32) : Vec F S4000x256 .f32 :=
  View.canon [⟨r2_0, k2_pay1 (View.ld x0 r2_0) (View.ld x1 r2_1) (View.ld x2 r2_1)⟩]

/-- The single store is to the whole buffer, so it covers it. -/
theorem cover2_3 (p0 : Vec F S4000x256 .f32) (y : S4000x256.Idx) :
    ∃ pc ∈ ([⟨r2_0, p0⟩] : List (View.Piece (Elt F) S4000x256 .f32)), y ∈ pc.1.set :=
  View.cover_of_tiled [⟨r2_0, p0⟩] S4000x256.size (by rfl) y

/-! ## The body's triple -/

set_option maxHeartbeats 1000000 in
/-- The kernel on whole staging memrefs: with the three inputs at read contents x0, x1, x2 and the output at
    anything, it runs to the continuation with the inputs unchanged and the output at out2_3 x0 x1 x2. -/
theorem sound_kernel2 (c : Dev nD) (E : Set ℕ) (i : grid2.Coords) (arg1 : Memref sig .tc .vmem S4000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4000x256 .f32) (harg4 : arg4.IsWhole)
    (x0 : Vec F S4000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bn_relu_kernel i arg1 harg1 arg2 harg2 arg3 harg3 arg4 harg4) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core c: the arrays as the region finds them; after the body at
    point t each input buffer still at its block and the output buffer at out2_3 of the input blocks; the
    invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- Every share is the full one. -/
theorem q_eq2 (c : Dev nD) (w : Fin cfg2.W) : (dat2 V c).q w = fullShare := by
  dsimp only [dat2]

/-- Nothing is owed at any point. -/
theorem owed_eq2 (c : Dev nD) (t) : (dat2 V c).owed t = 0 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- The generator register and the scoped rest make up the invariant before the first point, -/
theorem phi_in2 (c : Dev nD) :
    (iprop((∃ r, prngReg c r) ∗ Pipeline.scopedRest (Ix := Unit) (Name := ℕ) (U := UR sig nD τ) (Lvl := ℕ) spec2 c) : sProp 𝕄)
      ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- and the invariant after the last point gives them back. -/
theorem phi_out2 (c : Dev nD) :
    (dat2 V c).Φ (Fin.last cfg2.N)
      ⊢ (iprop((∃ r, prngReg c r) ∗ Pipeline.scopedRest (Ix := Unit) (Name := ℕ) (U := UR sig nD τ) (Lvl := ℕ) spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand

end
-- ==== Proof.KI.Reg3.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: a dense product of a 40000×256 matrix with a 256×256 weight matrix, one block of 4000 rows per grid point -/

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block input's staging buffer holds its block at every point, whether or not it was fetched there, for any
    proof data over the entry contents whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer holds the whole matrix at every point: it is fetched once, and its block index
    never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 4000×256 buffer (the row block read, and the result block written). -/
abbrev r3_0 : Rect S4000x256 := Rect.unit (s := S4000x256) ![0, 0] S4000x256.size inb_S4000x256_S4000x256_0_0
/-- The whole 256×256 buffer (the weight matrix read). -/
abbrev r3_1 : Rect S256x256 := Rect.unit (s := S256x256) ![0, 0] S256x256.size inb_S256x256_S256x256_0_0

/-! ## What the body leaves in the output window's buffer -/

/-- The result buffer after the body, from the two input blocks: its one store, of the product of the narrowed row
    block with the narrowed weights accumulated onto zero. -/
def out3_2 (x0 : Vec F S4000x256 .f32) (x1 : Vec F S256x256 .f32) : Vec F S4000x256 .f32 :=
  View.canon [⟨r3_0, k3_pay1 (View.ld x0 r3_0) (View.ld x1 r3_1)⟩]

/-- The one store is of the whole buffer, so it covers it. -/
theorem cover3_2 (p0 : Vec F S4000x256 .f32) (y : S4000x256.Idx) :
    ∃ pc ∈ ([⟨r3_0, p0⟩] : List (View.Piece (Elt F) S4000x256 .f32)), y ∈ pc.1.set :=
  View.cover_of_tiled [⟨r3_0, p0⟩] S4000x256.size (by rfl) y

/-! ## The body's triple -/

set_option maxHeartbeats 1000000 in
/-- The kernel body on whole staging memrefs, the inputs' at contents `x0`, `x1` and the output's at anything, runs
    to the continuation holding the inputs' as they were and the output's at `out3_2 x0 x1`. -/
theorem sound_kernel3 (c : Dev nD) (E : Set ℕ) (i : grid3.Coords) (arg1 : Memref sig .tc .vmem S4000x256 .f32) (harg1 : arg1.IsWhole) (arg2 : Memref sig .tc .vmem S256x256 .f32) (harg2 : arg2.IsWhole) (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

end Region3

/-! ## The pipeline's proof data -/

/-- The proof data of region 3 on core `c`: the arrays as the region finds them; after the body at point `t` each
    input's buffer at its block and the output's at `out3_2` of the two input blocks; the invariant is the scoped rest
    and the generator register, untouched; nothing owed; full shares. -/
def dat3 (V : (c : Dev nD) → (b : Ref sig .tc) → Buf (Elt F) ((c : Thread nD τ).loc b)) (c : Dev nD) :
    Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

variable (V : (c : Dev nD) → (b : Ref sig .tc) → Buf (Elt F) ((c : Thread nD τ).loc b))

/-- The proof data's arrays are the region-entry contents. -/
theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t) : (dat3 V c).owed t = 0 := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- Entering: the generator register and the scoped rest make up the invariant at the first point. -/
theorem phi_in3 (c : Dev nD) :
    (iprop((∃ r, prngReg c r) ∗ Pipeline.scopedRest (Ix := Unit) (Name := ℕ) (U := UR sig nD τ) (Lvl := ℕ) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Leaving: the invariant at the last point gives them back. -/
theorem phi_out3 (c : Dev nD) :
    (dat3 V c).Φ (Fin.last cfg3.N)
      ⊢ (iprop((∃ r, prngReg c r) ∗ Pipeline.scopedRest (Ix := Unit) (Name := ℕ) (U := UR sig nD τ) (Lvl := ℕ) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

end Cert.KernelIdeal.Hand

end
-- ==== Proof.KI.Reg4.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the column sums and column sums of squares of a 40000 by 256 array, ten row blocks of 4000

The body keeps two rows of 256 running sums in two scratch buffers that no window stages: it resets them at the
first grid point, adds the current block's column sums (of the entries, of their squares) at every point, and copies
them to the two one-row output blocks at the last point. The region's invariant therefore holds the two scratch
buffers at the running sums after the points so far, apart from every other scoped buffer, which stays unopened. -/

variable (V : (c : Dev nD) → (b : Ref sig .tc) → Buf (Elt F) ((c : Thread nD τ).loc b))

/-! ## The body's two conditions, in closed form over the grid -/

/-- The first conditional (the reset of the two running sums) is taken where the grid coordinate is 0. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The second conditional (the copy of the two running sums to the output blocks) is taken where it is 9. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-- The two output windows are idle exactly where the copy is not made. -/
theorem idleAt4_1 : ∀ t : Fin cfg4.N, cfg4.idle 1 (grid4.coords t) = true ↔ ¬ t.val % 10 = 9 :=
  (by decide +kernel : ∀ t : Fin grid4.N, idle4 1 (grid4.coords t) = true ↔ ¬ t.val % 10 = 9)
theorem idleAt4_2 : ∀ t : Fin cfg4.N, cfg4.idle 2 (grid4.coords t) = true ↔ ¬ t.val % 10 = 9 :=
  (by decide +kernel : ∀ t : Fin grid4.N, idle4 2 (grid4.coords t) = true ↔ ¬ t.val % 10 = 9)

theorem hz4 : (![0, 0] : Fin 2 → Nat) = fun _ => 0 := funext fun a => by fin_cases a <;> rfl

/-- A store through the whole-shape rectangle at zero offsets, made last, is what the buffer then reads, whatever was
    stored before: every index is the image of itself under that rectangle. -/
theorem store_whole4 {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  funext y
  have e := View.read_writes_cons_emb (Val := Elt F) v f (Rect.whole S) w L y
  rwa [Rect.emb_whole_apply] at e

/-! ## The body on any whole memrefs, case by case

The row block is held at `x`. Every load and store is of a whole buffer, so each buffer ends at the payload of
its last store, with the loads before it reading what the buffer then held. -/

set_option maxHeartbeats 1000000 in
/-- First point: both running sums are reset to zero, then the block's column sums (of the entries, of their
    squares) are added; the output blocks are not touched. -/
theorem run4_A (c : Dev nD) (i : grid4.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : cond4_0 i) (hc1 : ¬cond4_1 i)
    (x : Vec F S4000x256 .f32) :
      ∀ (E : Set ℕ) (K : PUnit → sProp 𝕄),
        iprop(owns (c : Thread nD τ) arg1 fullShare x ∗ (∃ d, owns (c : Thread nD τ) arg4 fullShare d) ∗ (∃ d, owns (c : Thread nD τ) arg5 fullShare d)
            ∗ (iprop(owns (c : Thread nD τ) arg1 fullShare x ∗ owns (c : Thread nD τ) arg4 fullShare (k4_pay4 x k4_pay1)
                ∗ owns (c : Thread nD τ) arg5 fullShare (k4_pay5 x k4_pay2)) -∗ K ⟨⟩))
          ⊢ wp frame (wpE (defs₀ (F := F)) Variants.none c none) E (cc4__stats_kernel i arg1 harg1 arg2 harg2 arg3 harg3 arg4 harg4 arg5 harg5) K := by
    intro E K
    simp only [cc4__stats_kernel_eq_skeleton]; unfold cc4__stats_kernel_skel
    unfold owns
    iintro ⟨⟨%f1, %hf1, H1⟩, ⟨%d4, %f4, -, H4⟩, ⟨%d5, %f5, -, H5⟩, Hk⟩
    obtain rfl := harg1.eq_unread hf1
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      sl_unfold_run_names
      rw [store_whole4 _ _ hz4, View.readCov_unit_zero (S := S1x256) _ hz4]
      simp only [View.readAt_eq_ld, harg1.read_unread, View.ld_unit_zero (S := S4000x256) hz4]
    · iexists _; isplitr; swap; · iexact H5
      ipureintro
      sl_unfold_run_names
      rw [store_whole4 _ _ hz4, View.readCov_unit_zero (S := S1x256) _ hz4]
      simp only [View.readAt_eq_ld, harg1.read_unread, View.ld_unit_zero (S := S4000x256) hz4]

set_option maxHeartbeats 1000000 in
/-- A middle point: the block's column sums are added to the running sums; the output blocks are not touched. -/
theorem run4_B (c : Dev nD) (i : grid4.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond4_0 i) (hc1 : ¬cond4_1 i)
    (x : Vec F S4000x256 .f32) (a0 a1 : Vec F S1x256 .f32) :
      ∀ (E : Set ℕ) (K : PUnit → sProp 𝕄),
        iprop(owns (c : Thread nD τ) arg1 fullShare x ∗ owns (c : Thread nD τ) arg4 fullShare a0 ∗ owns (c : Thread nD τ) arg5 fullShare a1
            ∗ (iprop(owns (c : Thread nD τ) arg1 fullShare x ∗ owns (c : Thread nD τ) arg4 fullShare (k4_pay4 x a0)
                ∗ owns (c : Thread nD τ) arg5 fullShare (k4_pay5 x a1)) -∗ K ⟨⟩))
          ⊢ wp frame (wpE (defs₀ (F := F)) Variants.none c none) E (cc4__stats_kernel i arg1 harg1 arg2 harg2 arg3 harg3 arg4 harg4 arg5 harg5) K := by
    intro E K
    simp only [cc4__stats_kernel_eq_skeleton]; unfold cc4__stats_kernel_skel
    unfold owns
    iintro ⟨⟨%f1, %hf1, H1⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H4]
    · iexists _; isplitr; swap; · iexact H4
      ipureintro
      rw [store_whole4 _ _ hz4]
      simp only [View.readAt_eq_ld, harg1.read_unread, harg4.read_unread, View.ld_unit_zero (S := S4000x256) hz4, View.ld_unit_zero (S := S1x256) hz4]
    · iexists _; isplitr; swap; · iexact H5
      ipureintro
      rw [store_whole4 _ _ hz4]
      simp only [View.readAt_eq_ld, harg1.read_unread, harg5.read_unread, View.ld_unit_zero (S := S4000x256) hz4, View.ld_unit_zero (S := S1x256) hz4]

set_option maxHeartbeats 1000000 in
/-- Last point: the block's column sums are added to the running sums, and the two running sums are copied to the
    two output blocks. -/
theorem run4_C (c : Dev nD) (i : grid4.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬cond4_0 i) (hc1 : cond4_1 i)
    (x : Vec F S4000x256 .f32) (a0 a1 : Vec F S1x256 .f32) :
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d)
            ∗ owns (c : Thread nD τ) arg4 fullShare a0 ∗ owns (c : Thread nD τ) arg5 fullShare a1
            ∗ (iprop(owns (c : Thread nD τ) arg1 fullShare x ∗ owns (c : Thread nD τ) arg2 fullShare (k4_pay4 x a0)
                ∗ owns (c : Thread nD τ) arg3 fullShare (k4_pay5 x a1) ∗ owns (c : Thread nD τ) arg4 fullShare (k4_pay4 x a0)
                ∗ owns (c : Thread nD τ) arg5 fullShare (k4_pay5 x a1)) -∗ K ⟨⟩))
          ⊢ wp frame (wpE (defs₀ (F := F)) Variants.none c none) E (cc4__stats_kernel i arg1 harg1 arg2 harg2 arg3 harg3 arg4 harg4 arg5 harg5) K := by
    intro E K
    simp only [cc4__stats_kernel_eq_skeleton]; unfold cc4__stats_kernel_skel
    unfold owns
    iintro ⟨⟨%f1, %hf1, H1⟩, ⟨%d2, %f2, -, H2⟩, ⟨%d3, %f3, -, H3⟩, ⟨%f4, %hf4, H4⟩, ⟨%f5, %hf5, H5⟩, Hk⟩
    obtain rfl := harg1.eq_unread hf1
    obtain rfl := harg4.eq_unread hf4
    obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; swap; · iexact H2
      ipureintro
      sl_unfold_run_names
      rw [store_whole4 _ _ hz4, View.readCov_unit_zero (S := S1x256) _ hz4]
      simp only [View.readAt_eq_ld, harg1.read_unread, harg4.read_unread, View.ld_unit_zero (S := S4000x256) hz4, View.ld_unit_zero (S := S1x256) hz4]
    isplitl [H3]
    · iexists _; isplitr; swap; · iexact H3
      ipureintro
      sl_unfold_run_names
      rw [store_whole4 _ _ hz4, View.readCov_unit_zero (S := S1x256) _ hz4]
      simp only [View.readAt_eq_ld, harg1.read_unread, harg5.read_unread, View.ld_unit_zero (S := S4000x256) hz4, View.ld_unit_zero (S := S1x256) hz4]
    isplitl [H4]
    · iexists _; isplitr; swap; · iexact H4
      ipureintro
      sl_unfold_run_names
      rw [store_whole4 _ _ hz4]
      simp only [View.readAt_eq_ld, harg1.read_unread, harg4.read_unread, View.ld_unit_zero (S := S4000x256) hz4, View.ld_unit_zero (S := S1x256) hz4]
    · iexists _; isplitr; swap; · iexact H5
      ipureintro
      sl_unfold_run_names
      rw [store_whole4 _ _ hz4]
      simp only [View.readAt_eq_ld, harg1.read_unread, harg5.read_unread, View.ld_unit_zero (S := S4000x256) hz4, View.ld_unit_zero (S := S1x256) hz4]

/-! ## The proof data -/

/-- The staging memrefs as the pipeline passes them at point `t`, and the two scratch buffers. -/
abbrev ms4_0 (t : Fin cfg4.N) : Memref sig .tc .vmem S4000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev sc4_0 : Memref sig .tc .vmem S1x256 .f32 := Memref.whole cc4_scratch0
abbrev sc4_1 : Memref sig .tc .vmem S1x256 .f32 := Memref.whole cc4_scratch1

/-- The row block of the input array that point `t` works on, read off the array as the region finds it. -/
def iblk4 (c : Dev nD) (t : Fin cfg4.N) : ((cfg4.win 0).xblock (cfg4.grid.coords t)).Idx → Elt F (cfg4.win 0).elt :=
  ((cfg4.win 0).blk t).view.read (Elt F) (V c (Pipeline.arrRef spec4 0))
/-- The same at its literal type. -/
abbrev xblk4 (c : Dev nD) (t : Fin cfg4.N) : Vec F S4000x256 .f32 := iblk4 V c t

/-- The first running sum after `n` points: zero, then one block's column sums added per point. -/
def scr4_0 (c : Dev nD) : ℕ → Vec F S1x256 .f32
  | 0 => k4_pay1
  | n + 1 => if h : n < cfg4.N then k4_pay4 (xblk4 V c ⟨n, h⟩) (scr4_0 c n) else scr4_0 c n
/-- The second running sum after `n` points: zero, then one block's column sums of squares added per point. -/
def scr4_1 (c : Dev nD) : ℕ → Vec F S1x256 .f32
  | 0 => k4_pay2
  | n + 1 => if h : n < cfg4.N then k4_pay5 (xblk4 V c ⟨n, h⟩) (scr4_1 c n) else scr4_1 c n

theorem scr4_0_zero (c : Dev nD) : scr4_0 V c 0 = k4_pay1 := rfl
theorem scr4_1_zero (c : Dev nD) : scr4_1 V c 0 = k4_pay2 := rfl
theorem scr4_0_succ (c : Dev nD) (t : Fin cfg4.N) : scr4_0 V c (t.val + 1) = k4_pay4 (xblk4 V c t) (scr4_0 V c t.val) := by
  rw [scr4_0, dif_pos t.isLt]
theorem scr4_1_succ (c : Dev nD) (t : Fin cfg4.N) : scr4_1 V c (t.val + 1) = k4_pay5 (xblk4 V c t) (scr4_1 V c t.val) := by
  rw [scr4_1, dif_pos t.isLt]

/-- One scratch buffer between points: before the first point at anything (the first point overwrites it), after
    `n` points at `X n`. -/
def held4 (c : Dev nD) (b : Memref sig .tc .vmem S1x256 .f32) (X : ℕ → Vec F S1x256 .f32) (n : ℕ) : sProp 𝕄 :=
  if n = 0 then iprop(∃ d, owns (c : Thread nD τ) b fullShare d) else owns (c : Thread nD τ) b fullShare (X n)

/-- The region's invariant after `n` points: the generator register, every scoped buffer other than the staging
    buffers and the two scratch buffers unopened, and the two scratch buffers at the running sums. -/
def Φ4 (c : Dev nD) (n : ℕ) : sProp 𝕄 :=
  iprop((∃ r, prngReg c r)
    ∗ Pipeline.scopedRestBut (Ix := Unit) (Name := ℕ) (U := UR sig nD τ) (Lvl := ℕ) (Val := Elt F) spec4 c [cc4_scratch0, cc4_scratch1]
    ∗ held4 c sc4_0 (scr4_0 V c) n ∗ held4 c sc4_1 (scr4_1 V c) n)

/-- The proof data of region 4 on core `c`: the arrays as the region finds them; after the body at point `t` the
    input's buffer at its block and the two outputs' at the running sums (read at the last point only: before it
    they are idle); the invariant `Φ4`; nothing owed; full shares. -/
def dat4 (c : Dev nD) : Dat τ (Elt F) Unit ℕ (UR sig nD τ) ℕ cfg4 c where
  A w := V c (Pipeline.arrRef spec4 w)
  after w t := match w with
    | ⟨0, _⟩ => xblk4 V c t
    | ⟨1, _⟩ => scr4_0 V c (t.val + 1)
    | ⟨2, _⟩ => scr4_1 V c (t.val + 1)
  Φ t := Φ4 V c t.val
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (t) : (dat4 V c).owed t = 0 := rfl

theorem after4_0 (c : Dev nD) (t : Fin cfg4.N) : (dat4 V c).after 0 t = iblk4 V c t := by dsimp only [dat4]
theorem after4_1 (c : Dev nD) (t : Fin cfg4.N) : (dat4 V c).after 1 t = scr4_0 V c (t.val + 1) := by dsimp only [dat4]
theorem after4_2 (c : Dev nD) (t : Fin cfg4.N) : (dat4 V c).after 2 t = scr4_1 V c (t.val + 1) := by dsimp only [dat4]

/-- The input's current staging buffer holds its block at every point. -/
theorem before4_0 (c : Dev nD) (t : Fin cfg4.N) (d) : (dat4 V c).before 0 t d = iblk4 V c t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-! ## The invariant at the region's two ends -/

theorem held4_any (c : Dev nD) (b : Memref sig .tc .vmem S1x256 .f32) (X : ℕ → Vec F S1x256 .f32) (n : ℕ) :
    held4 c b X n ⊢ (iprop(∃ d, owns (c : Thread nD τ) b fullShare d) : sProp 𝕄) := by
  unfold held4
  split
  · iintro H; iexact H
  · iintro H; iexists _; iexact H

theorem heldAny4_eq (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) :=
  Memref.IsWhole.exists_owns_eq (Memref.isWhole_whole b) fullShare

theorem phi_in4 (c : Dev nD) :
    (iprop((∃ r, prngReg c r) ∗ Pipeline.scopedRest (Ix := Unit) (Name := ℕ) (U := UR sig nD τ) (Lvl := ℕ) spec4 c) : sProp 𝕄)
      ⊢ (dat4 V c).Φ 0 := by
  rw [scopedRest4_split, ← heldAny4_eq, ← heldAny4_eq]
  show _ ⊢ Φ4 V c 0
  unfold Φ4 held4
  rw [if_pos rfl, if_pos rfl]
  iintro ⟨Hp, ⟨H0, H1⟩, Hr⟩
  isplitl [Hp]; · iexact Hp
  isplitl [Hr]; · iexact Hr
  isplitl [H0]; · iexact H0
  iexact H1

theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) spec4 c) : sProp 𝕄) := by
  rw [scopedRest4_split, ← heldAny4_eq, ← heldAny4_eq]
  show Φ4 V c cfg4.N ⊢ _
  unfold Φ4
  iintro ⟨Hp, Hr, H0, H1⟩
  isplitl [Hp]; · iexact Hp
  isplitr [Hr]; swap; · iexact Hr
  isplitl [H0]
  · iapply (held4_any c sc4_0 _ _); iexact H0
  · iapply (held4_any c sc4_1 _ _); iexact H1

/-! ## The body obligation -/

theorem held4_of_eq_zero (c : Dev nD) (b : Memref sig .tc .vmem S1x256 .f32) (X : ℕ → Vec F S1x256 .f32) (n : ℕ) (h : n = 0) :
    held4 c b X n = (iprop(∃ d, owns (c : Thread nD τ) b fullShare d) : sProp 𝕄) := if_pos h
theorem held4_of_ne_zero (c : Dev nD) (b : Memref sig .tc .vmem S1x256 .f32) (X : ℕ → Vec F S1x256 .f32) (n : ℕ) (h : n ≠ 0) :
    held4 c b X n = (owns (c : Thread nD τ) b fullShare (X n) : sProp 𝕄) := if_neg h

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

/-- The input window is never idle: the body hands its buffer back at its block. -/
theorem leaves4_0 (c : Dev nD) (t : Fin cfg4.N) :
    (dat4 V c).leavesExact 0 t = owns (c : Thread nD τ) (ms4_0 t) fullShare (iblk4 V c t) := by
  rw [← after4_0]

/-- Before the last point the two output windows are idle and not written back: handed back as found. -/
theorem leaves4_1_idle (c : Dev nD) (t : Fin cfg4.N) (h9 : ¬ t.val % 10 = 9) :
    (dat4 V c).leavesExact 1 t = iprop(∃ d, owns (c : Thread nD τ) (ms4_1 t) fullShare ((dat4 V c).before 1 t d)) :=
  (dat4 V c).leavesExact_idle 1 t ((idleAt4_1 t).mpr h9) (Bool.eq_false_iff.mpr fun h => h9 ((flush4_1 t).mp h))
theorem leaves4_2_idle (c : Dev nD) (t : Fin cfg4.N) (h9 : ¬ t.val % 10 = 9) :
    (dat4 V c).leavesExact 2 t = iprop(∃ d, owns (c : Thread nD τ) (ms4_2 t) fullShare ((dat4 V c).before 2 t d)) :=
  (dat4 V c).leavesExact_idle 2 t ((idleAt4_2 t).mpr h9) (Bool.eq_false_iff.mpr fun h => h9 ((flush4_2 t).mp h))

/-- At the last point they are live: handed back at the running sums. -/
theorem leaves4_1_live (c : Dev nD) (t : Fin cfg4.N) (h9 : t.val % 10 = 9) :
    (dat4 V c).leavesExact 1 t = owns (c : Thread nD τ) (ms4_1 t) fullShare (scr4_0 V c (t.val + 1)) := by
  unfold Dat.leavesExact; rw [Bool.eq_false_iff.mpr fun h => (idleAt4_1 t).mp h h9, after4_1]
theorem leaves4_2_live (c : Dev nD) (t : Fin cfg4.N) (h9 : t.val % 10 = 9) :
    (dat4 V c).leavesExact 2 t = owns (c : Thread nD τ) (ms4_2 t) fullShare (scr4_1 V c (t.val + 1)) := by
  unfold Dat.leavesExact; rw [Bool.eq_false_iff.mpr fun h => (idleAt4_2 t).mp h h9, after4_2]

set_option maxHeartbeats 1600000 in
/-- The body at any point: the input's memref holds its block; the closed forms say which of the three cases the
    point is in; the case's run applies at the running sums the invariant holds the scratch buffers at; the rest of
    the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = Φ4 V c (t.val + 1) from rfl,
    show (dat4 V c).Φ t.castSucc = Φ4 V c t.val from rfl,
    show (dat4 V c).owesAt () t.succ = (dat4 V c).owesAt () t.castSucc from rfl,
    leaves4_0]
  have hN : t.val < 10 := lt_of_lt_of_eq t.isLt (show cfg4.N = 10 from N_4)
  unfold Φ4
  rw [held4_of_ne_zero c sc4_0 (scr4_0 V c) (t.val + 1) (Nat.succ_ne_zero _), held4_of_ne_zero c sc4_1 (scr4_1 V c) (t.val + 1) (Nat.succ_ne_zero _),
    scr4_0_succ, scr4_1_succ]
  by_cases h0 : t.val % 10 = 0
  · have h9 : ¬ t.val % 10 = 9 := by omega
    have e0 : scr4_0 V c t.val = k4_pay1 := by rw [show t.val = 0 by omega]; rfl
    have e1 : scr4_1 V c t.val = k4_pay2 := by rw [show t.val = 0 by omega]; rfl
    rw [leaves4_1_idle V c t h9, leaves4_2_idle V c t h9, e0, e1,
      held4_of_eq_zero c sc4_0 (scr4_0 V c) t.val (by omega), held4_of_eq_zero c sc4_1 (scr4_1 V c) t.val (by omega)]
    iintro ⟨⟨Hp, Hr, ⟨%d4, H4⟩, ⟨%d5, H5⟩⟩, Ho, ⟨%d0, H0⟩, H1, H2⟩
    iapply (run4_A c (grid4.coords t) _ _ _ _ _ _ _ _ _ _ ((hcond4_0 t).mpr h0) (fun h => h9 ((hcond4_1 t).mp h)) (xblk4 V c t) Set.univ _)
    isplitl [H0]; · iexact H0
    isplitl [H4]; · iexists _; iexact H4
    isplitl [H5]; · iexists _; iexact H5
    iintro ⟨H0, H4, H5⟩
    isplitl [Hp Hr H4 H5]
    · isplitl [Hp]; · iexact Hp
      isplitl [Hr]; · iexact Hr
      isplitl [H4]; · iexact H4
      iexact H5
    isplitl [Ho]; · iexact Ho
    isplitl [H0]; · iexact H0
    isplitl [H1]; · iexact H1
    iexact H2
  · rw [held4_of_ne_zero c sc4_0 (scr4_0 V c) t.val (by omega), held4_of_ne_zero c sc4_1 (scr4_1 V c) t.val (by omega)]
    by_cases h9 : t.val % 10 = 9
    · rw [leaves4_1_live V c t h9, leaves4_2_live V c t h9, scr4_0_succ, scr4_1_succ]
      iintro ⟨⟨Hp, Hr, H4, H5⟩, Ho, ⟨%d0, H0⟩, ⟨%d1, H1⟩, ⟨%d2, H2⟩⟩
      iapply (run4_C c (grid4.coords t) _ _ _ _ _ _ _ _ _ _ (fun h => h0 ((hcond4_0 t).mp h)) ((hcond4_1 t).mpr h9) (xblk4 V c t) (scr4_0 V c t.val) (scr4_1 V c t.val) Set.univ _)
      isplitl [H0]; · iexact H0
      isplitl [H1]; · iexists _; iexact H1
      isplitl [H2]; · iexists _; iexact H2
      isplitl [H4]; · iexact H4
      isplitl [H5]; · iexact H5
      iintro ⟨H0, H1, H2, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2
    · rw [leaves4_1_idle V c t h9, leaves4_2_idle V c t h9]
      iintro ⟨⟨Hp, Hr, H4, H5⟩, Ho, ⟨%d0, H0⟩, H1, H2⟩
      iapply (run4_B c (grid4.coords t) _ _ _ _ _ _ _ _ _ _ (fun h => h0 ((hcond4_0 t).mp h)) (fun h => h9 ((hcond4_1 t).mp h)) (xblk4 V c t) (scr4_0 V c t.val) (scr4_1 V c t.val) Set.univ _)
      isplitl [H0]; · iexact H0
      isplitl [H4]; · iexact H4
      isplitl [H5]; · iexact H5
      iintro ⟨H0, H4, H5⟩
      isplitl [Hp Hr H4 H5]
      · isplitl [Hp]; · iexact Hp
        isplitl [Hr]; · iexact Hr
        isplitl [H4]; · iexact H4
        iexact H5
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the affine map followed by the rectifier, one row block per grid point

The region's kernel reads a block of 4000 rows of its first operand and the two single rows of per-column
coefficients, and writes the block of rows max (x * scale + shift) 0.  Everything is stated at a parameter V:
the contents of the core's buffers when the region is entered. -/

variable (V : (c : Dev nD) → (b : Ref sig .tc) → Buf (Elt F) ((c : Thread nD τ).loc b))

/-! ## The windows' blocks -/

/-- The block of window w at grid point t, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block of the first operand sits in its current staging buffer at every point: for any proof data whose
    array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The row of scales sits in its staging buffer at every point, although it is brought in only once: its block
    index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The row of shifts likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 4000 x 256 block, and the whole single row of 256. -/
abbrev r5_0 : Rect S4000x256 := Rect.unit (s := S4000x256) ![0, 0] S4000x256.size inb_S4000x256_S4000x256_0_0
abbrev r5_1 : Rect S1x256 := Rect.unit (s := S1x256) ![0, 0] S1x256.size inb_S1x256_S1x256_0_0

/-! ## What the body leaves in the output window's buffer -/

/-- The output buffer after the body, as a function of the three input blocks: its single store, whose payload is
    the rectified affine image of the row block. -/
def out5_3 (x0 : Vec F S4000x256 .f32) (x1 : Vec F S1x256 .f32) (x2 : Vec F S1x256 .f32) : Vec F S4000x256 .f32 :=
  View.canon [⟨r5_0, k5_pay1 (View.ld x0 r5_0) (View.ld x1 r5_1) (View.ld x2 r5_1)⟩]

/-- The single store is to the whole buffer, so it covers it. -/
theorem cover5_3 (p0 : Vec F S4000x256 .f32) (y : S4000x256.Idx) :
    ∃ pc ∈ ([⟨r5_0, p0⟩] : List (View.Piece (Elt F) S4000x256 .f32)), y ∈ pc.1.set :=
  View.cover_of_tiled [⟨r5_0, p0⟩] S4000x256.size (by rfl) y

/-! ## The body's triple -/

set_option maxHeartbeats 1000000 in
/-- The kernel on whole staging memrefs: with the three inputs at read contents x0, x1, x2 and the output at
    anything, it runs to the continuation with the inputs unchanged and the output at out5_3 x0 x1 x2. -/
theorem sound_kernel5 (c : Dev nD) (E : Set ℕ) (i : grid5.Coords) (arg1 : Memref sig .tc .vmem S4000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4000x256 .f32) (harg4 : arg4.IsWhole)
    (x0 : Vec F S4000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bn_relu_kernel i arg1 harg1 arg2 harg2 arg3 harg3 arg4 harg4) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the region's pipeline on core c: the arrays as the region finds them; after the body at
    point t each input buffer still at its block and the output buffer at out5_3 of the input blocks; the
    invariant is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- Every share is the full one. -/
theorem q_eq5 (c : Dev nD) (w : Fin cfg5.W) : (dat5 V c).q w = fullShare := by
  dsimp only [dat5]

/-- Nothing is owed at any point. -/
theorem owed_eq5 (c : Dev nD) (t) : (dat5 V c).owed t = 0 := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- The generator register and the scoped rest make up the invariant before the first point, -/
theorem phi_in5 (c : Dev nD) :
    (iprop((∃ r, prngReg c r) ∗ Pipeline.scopedRest (Ix := Unit) (Name := ℕ) (U := UR sig nD τ) (Lvl := ℕ) spec5 c) : sProp 𝕄)
      ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- and the invariant after the last point gives them back. -/
theorem phi_out5 (c : Dev nD) :
    (dat5 V c).Φ (Fin.last cfg5.N)
      ⊢ (iprop((∃ r, prngReg c r) ∗ Pipeline.scopedRest (Ix := Unit) (Name := ℕ) (U := UR sig nD τ) (Lvl := ℕ) spec5 c) : sProp 𝕄) := by
  rw [show (dat5 V c).Φ (Fin.last _) = Pipeline.ΦA spec5 c from rfl]; unfold Pipeline.ΦA
  iintro ⟨Hr, Hp⟩
  isplitl [Hp]; · iexact Hp
  iexact Hr

end Cert.KernelIdeal.Hand

end
-- ==== Proof.KI.Reg6.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region: per-graph sums accumulated over ten row blocks

The body keeps a 64 by 256 accumulator across the ten grid points: zeroed at the first point, increased at each
point by the product of the transposed membership block with the feature block, and copied to the output block at
the last point.  This module runs the body in its three control cases, states what the accumulator holds between
points, and discharges the pipeline's body obligation. -/

/-- The offsets of a whole-block access, however the zeros are spelt. -/
theorem hz2 : (![0, 0] : Fin 2 → Nat) = fun _ => 0 := funext fun a => by fin_cases a <;> rfl

/-- A store through the whole-shape rectangle, made last, is what the buffer then reads through the view,
    whatever was stored before and whatever the buffer held. -/
theorem read_writes_cons_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (Val := Val) v f (Rect.whole S) w L y
  rw [Rect.emb_whole_apply] at e
  exact e

/-- The first conditional of the body: the grid coordinate is zero. -/
abbrev cond6_0 (i : grid6.Coords) : Prop := (Scalar.cmpi .ne (Scalar.extui (Scalar.cmpi .eq (BitVec.ofNat 32 (i 0).val) 0#32)) 0#32) = 1#1

/-- It holds at the first point only. -/
theorem hcond6_0 : ∀ t : Fin cfg6.N, cond6_0 (grid6.coords t) ↔ t.val = 0 :=
  (by decide +kernel : ∀ t : Fin grid6.N, cond6_0 (grid6.coords t) ↔ t.val = 0)
/-- The second conditional (the coordinate is nine) holds at the last point only. -/
theorem hcond6_1 : ∀ t : Fin cfg6.N, k6_cond2 (grid6.coords t) = 1#1 ↔ t.val = 9 :=
  (by decide +kernel : ∀ t : Fin grid6.N, k6_cond2 (grid6.coords t) = 1#1 ↔ t.val = 9)

/-! ## The body in its three control cases -/

set_option maxHeartbeats 1000000 in
/-- The body at the first point: the accumulator, whatever it held, is zeroed, and then holds the zero block
    plus the product of the two input blocks; the output's staging buffer is not touched. -/
theorem run6_first (c : Dev nD) (i : grid6.Coords)
    (arg1 : Memref sig .tc .vmem S4000x256 .f32) (harg1 : arg1.IsWhole)
    (arg2 : Memref sig .tc .vmem S4000x64 .f32) (harg2 : arg2.IsWhole)
    (arg3 : Memref sig .tc .vmem S64x256 .f32) (harg3 : arg3.IsWhole)
    (arg4 : Memref sig .tc .vmem S64x256 .f32) (harg4 : arg4.IsWhole)
    (hc0 : cond6_0 i) (hc1 : ¬ k6_cond2 i = 1#1)
    (x0 : Vec F S4000x256 .f32) (x1 : Vec F S4000x64 .f32) (E : Set ℕ) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (k6_pay2 x0 x1 (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d4, %f4, %hf4, H4⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_words
  rw [read_writes_cons_whole _ _ hz2]
  simp only [View.readAt_eq_ld, harg1.read_unread, harg2.read_unread, View.ld_unit_zero (S := S4000x256) hz2,
    View.ld_unit_zero (S := S4000x64) hz2, View.readCov_unit_zero (S := S64x256) _ hz2]

set_option maxHeartbeats 1000000 in
/-- The body at a point that is neither the first nor the last: the accumulator, holding `xs`, ends holding
    `xs` plus the product of the two input blocks; the output's staging buffer is not touched. -/
theorem run6_mid (c : Dev nD) (i : grid6.Coords)
    (arg1 : Memref sig .tc .vmem S4000x256 .f32) (harg1 : arg1.IsWhole)
    (arg2 : Memref sig .tc .vmem S4000x64 .f32) (harg2 : arg2.IsWhole)
    (arg3 : Memref sig .tc .vmem S64x256 .f32) (harg3 : arg3.IsWhole)
    (arg4 : Memref sig .tc .vmem S64x256 .f32) (harg4 : arg4.IsWhole)
    (hc0 : ¬ cond6_0 i) (hc1 : ¬ k6_cond2 i = 1#1)
    (x0 : Vec F S4000x256 .f32) (x1 : Vec F S4000x64 .f32) (xs : Vec F S64x256 .f32) (E : Set ℕ) (K : PUnit → sProp 𝕄) :
    iprop(owns (c : Thread nD τ) arg1 fullShare x0 ∗ owns (c : Thread nD τ) arg2 fullShare x1
        ∗ owns (c : Thread nD τ) arg4 fullShare xs
        ∗ (iprop(owns (c : Thread nD τ) arg1 fullShare x0 ∗ owns (c : Thread nD τ) arg2 fullShare x1
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%f4, %hf4, H4⟩, Hk⟩
  obtain rfl := harg1.eq_unread hf0; obtain rfl := harg2.eq_unread hf1; obtain rfl := harg4.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_words
  rw [read_writes_cons_whole _ _ hz2]
  simp only [View.readAt_eq_ld, harg1.read_unread, harg2.read_unread, harg4.read_unread, View.ld_unit_zero (S := S4000x256) hz2,
    View.ld_unit_zero (S := S4000x64) hz2, View.ld_unit_zero (S := S64x256) hz2]

set_option maxHeartbeats 1000000 in
/-- The body at the last point: the accumulator, holding `xs`, ends holding `xs` plus the product of the
    two input blocks, and the output's staging buffer, whatever it held, ends holding the same. -/
theorem run6_last (c : Dev nD) (i : grid6.Coords)
    (arg1 : Memref sig .tc .vmem S4000x256 .f32) (harg1 : arg1.IsWhole)
    (arg2 : Memref sig .tc .vmem S4000x64 .f32) (harg2 : arg2.IsWhole)
    (arg3 : Memref sig .tc .vmem S64x256 .f32) (harg3 : arg3.IsWhole)
    (arg4 : Memref sig .tc .vmem S64x256 .f32) (harg4 : arg4.IsWhole)
    (hc0 : ¬ cond6_0 i) (hc1 : k6_cond2 i = 1#1)
    (x0 : Vec F S4000x256 .f32) (x1 : Vec F S4000x64 .f32) (xs : Vec F S64x256 .f32) (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x0 x1 xs)
            ∗ owns (c : Thread nD τ) arg4 fullShare (k6_pay2 x0 x1 xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, %hf3, H3⟩, ⟨%f4, %hf4, H4⟩, Hk⟩
  obtain rfl := harg1.eq_unread hf0; obtain rfl := harg2.eq_unread hf1; obtain rfl := harg4.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [read_writes_cons_whole _ _ hz2]
    simp only [View.readCov_unit_zero (S := S64x256) _ hz2, View.readAt_eq_ld, harg1.read_unread, harg2.read_unread,
      harg4.read_unread, View.ld_unit_zero (S := S4000x256) hz2, View.ld_unit_zero (S := S4000x64) hz2,
      View.ld_unit_zero (S := S64x256) hz2]
  iexists _; isplitr
  swap; · iexact H4
  ipureintro
  sl_unfold_words
  rw [read_writes_cons_whole _ _ hz2]
  simp only [View.readAt_eq_ld, harg1.read_unread, harg2.read_unread, harg4.read_unread, View.ld_unit_zero (S := S4000x256) hz2,
    View.ld_unit_zero (S := S4000x64) hz2, View.ld_unit_zero (S := S64x256) hz2]

/-! ## The staging memrefs at a point, and the accumulator -/

/-- Each window's current staging memref at point `t`, and its wholeness. -/
abbrev ms6_0 (t : Fin cfg6.N) : Memref sig .tc .vmem S4000x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x256 .f32 := win6_2.stage (cfg6.slots t 2)
abbrev hs6_2 (t : Fin cfg6.N) : (ms6_2 t).IsWhole := hstage6_2 ((cfg6.slots t 2).cast nbuf6_2)
/-- The accumulator: a whole scoped buffer of the kernel's own. -/
abbrev scM6 : Memref sig .tc .vmem S64x256 .f32 := Memref.whole cc6_scratch0

/-- Where the windows are idle and where the output is written back. -/
theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬ k6_cond2 (grid6.coords t) = 1#1 → cfg6.idle 2 (grid6.coords t) = true := by decide +kernel
theorem liveAt6_2 : ∀ t : Fin cfg6.N, k6_cond2 (grid6.coords t) = 1#1 → cfg6.idle 2 (grid6.coords t) = false := by decide +kernel
theorem noFlush6_2 : ∀ t : Fin cfg6.N, ¬ k6_cond2 (grid6.coords t) = 1#1 → (cfg6.win 2).flush t = false := by decide +kernel

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- THE ACCUMULATION. What the accumulator holds after the first `n` points: the zero block, then at each point
    what it held plus the product of that point's two input blocks (the membership block transposed, times the
    feature block), both narrowed first. -/
def acc6 (c : Dev nD) : (n : ℕ) → n ≤ cfg6.N → Vec F S64x256 .f32
  | 0, _ => k6_pay1
  | n + 1, h => k6_pay2 (iblk6 V c 0 ⟨n, h⟩) (iblk6 V c 1 ⟨n, h⟩) (acc6 c n (Nat.le_of_lt h))

theorem acc6_succ (c : Dev nD) (n : ℕ) (h : n + 1 ≤ cfg6.N) :
    acc6 V c (n + 1) h = k6_pay2 (iblk6 V c 0 ⟨n, h⟩) (iblk6 V c 1 ⟨n, h⟩) (acc6 V c n (Nat.le_of_lt h)) := rfl

/-- The region's invariant before position `n`: the generator register at some state, the scoped buffers other than
    the accumulator at anything, and the accumulator — before the first point at anything, afterwards at what the
    points so far have summed. -/
def Phi6 (c : Dev nD) : (n : ℕ) → n ≤ cfg6.N → sProp 𝕄
  | 0, _ => iprop((∃ r, prngReg c r)
      ∗ iprop(iprop((∃ f : Buf (Elt F) ((c : Thread nD τ).loc cc6_scratch0), ((c : Thread nD τ).loc cc6_scratch0) ↦{fullShare} f))
          ∗ Pipeline.scopedRestBut (Ix := Unit) (Name := ℕ) (U := UR sig nD τ) (Lvl := ℕ) (Val := Elt F) spec6 c [cc6_scratch0]))
  | n + 1, h => iprop((∃ r, prngReg c r)
      ∗ iprop(owns (c : Thread nD τ) scM6 fullShare (acc6 V c (n + 1) h)
          ∗ Pipeline.scopedRestBut (Ix := Unit) (Name := ℕ) (U := UR sig nD τ) (Lvl := ℕ) (Val := Elt F) spec6 c [cc6_scratch0]))

theorem Phi6_zero (c : Dev nD) (n : ℕ) (h : n ≤ cfg6.N) (hz : n = 0) :
    Phi6 V c n h = iprop((∃ r, prngReg c r)
      ∗ iprop(iprop((∃ d, owns (c : Thread nD τ) scM6 fullShare d))
          ∗ Pipeline.scopedRestBut (Ix := Unit) (Name := ℕ) (U := UR sig nD τ) (Lvl := ℕ) (Val := Elt F) spec6 c [cc6_scratch0])) := by
  subst hz; unfold Phi6; simp only [scM6, owns_whole]; rfl

theorem Phi6_succ (c : Dev nD) (n : ℕ) (h : n + 1 ≤ cfg6.N) :
    Phi6 V c (n + 1) h = iprop((∃ r, prngReg c r)
      ∗ iprop(owns (c : Thread nD τ) scM6 fullShare (acc6 V c (n + 1) h)
          ∗ Pipeline.scopedRestBut (Ix := Unit) (Name := ℕ) (U := UR sig nD τ) (Lvl := ℕ) (Val := Elt F) spec6 c [cc6_scratch0])) := rfl

theorem Phi6_pos (c : Dev nD) (n : ℕ) (h : n ≤ cfg6.N) (hz : n ≠ 0) :
    Phi6 V c n h = iprop((∃ r, prngReg c r)
      ∗ iprop(owns (c : Thread nD τ) scM6 fullShare (acc6 V c n h)
          ∗ Pipeline.scopedRestBut (Ix := Unit) (Name := ℕ) (U := UR sig nD τ) (Lvl := ℕ) (Val := Elt F) spec6 c [cc6_scratch0])) := by
  cases n with
  | zero => exact absurd rfl hz
  | succ n => rfl

/-! ## The proof data -/

/-- The proof data of the pooling pipeline on core `c`: the arrays as the region finds them; after the body at a
    point each input's buffer at its block and the output's at the accumulated sum (consulted at the last point
    only: elsewhere the output's buffer is handed back as found); the invariant `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c (t.val + 1) t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := rfl
theorem owed_eq6 (c : Dev nD) (t) : (dat6 V c).owed t = 0 := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c (t.val + 1) t.isLt := by dsimp only [dat6]

/-- The invariant at a point's start, restated at the point's position. -/
theorem Phi6_castSucc (c : Dev nD) (t : Fin cfg6.N) :
    (dat6 V c).Φ t.castSucc = Phi6 V c t.val (Nat.le_of_lt t.isLt) := by
  dsimp only [dat6]; simp only [Fin.coe_castSucc]

/-- Each input's current staging buffer holds its block at every point, fetched there or not: the windows are
    uncut and never idle, the body leaves the blocks in place, and an unfetched block's index has not moved. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 2000000 in
/-- The body at any point. The inputs' memrefs hold their blocks; the invariant hands the body the accumulator
    (at anything at the first point, else at the sum so far) and takes it back at the sum including this point;
    the output's buffer is handed back as found, except at the last point, where it ends at the full sum. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ, Phi6_castSucc]
  rw [show (dat6 V c).leavesExact 0 t = owns (c : Thread nD τ) (ms6_0 t) fullShare ((dat6 V c).after 0 t) from by
        unfold Dat.leavesExact; rw [liveAt6_0 t], after6_0]
  rw [show (dat6 V c).leavesExact 1 t = owns (c : Thread nD τ) (ms6_1 t) fullShare ((dat6 V c).after 1 t) from by
        unfold Dat.leavesExact; rw [liveAt6_1 t], after6_1]
  have hN : t.val < 10 := lt_of_lt_of_eq t.isLt (show cfg6.N = 10 from N_6)
  rw [acc6_succ]
  by_cases hz : t.val = 0
  · -- the first point
    have h0 : cond6_0 (grid6.coords t) := (hcond6_0 t).mpr hz
    have h1 : ¬ k6_cond2 (grid6.coords t) = 1#1 := fun h => by have := (hcond6_1 t).mp h; omega
    rw [Dat.leavesExact_idle (dat6 V c) 2 t (idleAt6_2 t h1) (noFlush6_2 t h1)]
    rw [Phi6_zero V c _ _ hz]
    have hacc : acc6 V c t.val (Nat.le_of_lt t.isLt) = k6_pay1 := by
      obtain ⟨n, hn⟩ := t; dsimp only at hz; subst hz; rfl
    rw [hacc]
    iintro ⟨⟨Hg, HS, HR⟩, Ho, ⟨%d0, H0⟩, ⟨%d1, H1⟩, H2⟩
    iapply (run6_first c (grid6.coords t) _ _ _ _ _ _ _ _ h0 h1 (iblk6 V c 0 t) (iblk6 V c 1 t) Set.univ _)
    isplitl [H0]; · iexact H0
    isplitl [H1]; · iexact H1
    isplitl [HS]; · iexact HS
    iintro ⟨H0, H1, HS⟩
    isplitl [Hg HS HR]
    · isplitl [Hg]; · iexact Hg
      isplitl [HS]; · iexact HS
      iexact HR
    isplitl [Ho]; · iexact Ho
    isplitl [H0]; · iexact H0
    isplitl [H1]; · iexact H1
    iexact H2
  · have h0 : ¬ cond6_0 (grid6.coords t) := fun h => hz ((hcond6_0 t).mp h)
    rw [Phi6_pos V c _ _ hz]
    by_cases hl : t.val = 9
    · -- the last point
      have h1 : k6_cond2 (grid6.coords t) = 1#1 := (hcond6_1 t).mpr hl
      rw [show (dat6 V c).leavesExact 2 t = owns (c : Thread nD τ) (ms6_2 t) fullShare ((dat6 V c).after 2 t) from by
            unfold Dat.leavesExact; rw [liveAt6_2 t h1], after6_2, acc6_succ]
      iintro ⟨⟨Hg, HS, HR⟩, Ho, ⟨%d0, H0⟩, ⟨%d1, H1⟩, ⟨%d2, H2⟩⟩
      iapply (run6_last c (grid6.coords t) _ _ _ _ _ _ _ _ h0 h1 (iblk6 V c 0 t) (iblk6 V c 1 t) (acc6 V c t.val (Nat.le_of_lt t.isLt)) Set.univ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · -- a point in between
      have h1 : ¬ k6_cond2 (grid6.coords t) = 1#1 := fun h => hl ((hcond6_1 t).mp h)
      rw [Dat.leavesExact_idle (dat6 V c) 2 t (idleAt6_2 t h1) (noFlush6_2 t h1)]
      iintro ⟨⟨Hg, HS, HR⟩, Ho, ⟨%d0, H0⟩, ⟨%d1, H1⟩, H2⟩
      iapply (run6_mid c (grid6.coords t) _ _ _ _ _ _ _ _ h0 h1 (iblk6 V c 0 t) (iblk6 V c 1 t) (acc6 V c t.val (Nat.le_of_lt t.isLt)) Set.univ _)
      isplitl [H0]; · iexact H0
      isplitl [H1]; · iexact H1
      isplitl [HS]; · iexact HS
      iintro ⟨H0, H1, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Entering and leaving the region -/

/-- What the launch hands the region is the invariant before the first point: the scoped rest split at the accumulator. -/
theorem phi_in6 (c : Dev nD) :
    (iprop((∃ r, prngReg c r) ∗ Pipeline.scopedRest (Ix := Unit) (Name := ℕ) (U := UR sig nD τ) (Lvl := ℕ) spec6 c) : sProp 𝕄)
      ⊢ (dat6 V c).Φ 0 := by
  rw [scopedRest6_split]
  exact Idealize.SL.BI.Entails.refl _

/-- After the last point the invariant gives the scoped rest back: what the accumulator holds is forgotten. -/
theorem phi_out6 (c : Dev nD) :
    (dat6 V c).Φ (Fin.last cfg6.N)
      ⊢ (iprop((∃ r, prngReg c r) ∗ Pipeline.scopedRest (Ix := Unit) (Name := ℕ) (U := UR sig nD τ) (Lvl := ℕ) spec6 c) : sProp 𝕄) := by
  rw [scopedRest6_split]
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 10 := N_6; omega)]
  simp only [scM6, owns_whole]
  iintro ⟨Hg, HS, HR⟩
  isplitl [Hg]; · iexact Hg
  isplitl [HS]; · iexists _; iexact HS
  iexact HR

end Cert.KernelIdeal.Hand

end
-- ==== Proof.KI.Fold.lean ====
import proofs.«406782_j35519379538031_1_alg».proof.Proof.Gen.KernelIdeal.Launch
import proofs.«406782_j35519379538031_1_alg».proof.Proof.Gen.KernelIdeal.Skeleton
import proofs.«406782_j35519379538031_1_alg».proof.Proof.Gen.KernelIdeal.Points
import proofs.«406782_j35519379538031_1_alg».proof.Proof.Gen.KernelIdeal.Regions
import proofs.«406782_j35519379538031_1_alg».proof.Proof.KI.Reg0
import proofs.«406782_j35519379538031_1_alg».proof.Proof.KI.Reg1
import proofs.«406782_j35519379538031_1_alg».proof.Proof.KI.Reg2
import proofs.«406782_j35519379538031_1_alg».proof.Proof.KI.Reg3
import proofs.«406782_j35519379538031_1_alg».proof.Proof.KI.Reg4
import proofs.«406782_j35519379538031_1_alg».proof.Proof.KI.Reg5
import proofs.«406782_j35519379538031_1_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program: a fold from the launch memory

The program is fourteen pieces in order: a stretch of host operations, then kernel region 0, a stretch, region 1,
a stretch, regions 2 and 3 back to back, a stretch, region 4, a stretch, region 5, a stretch, region 6, and a last
stretch. `W0` is what a core's buffers hold at launch; a stretch takes `W` to what its operations compute from `W`;
a region takes `W` to the same contents except at the region's own arrays, which hold what the region's write-backs
leave. `W14` is what the buffers hold at the return. -/

/-- Core `c`'s buffers at launch. -/
abbrev W0 : Dev nD → Valuation τ sig (Elt F) := fun c b => (s₀ m ρ).mem ((c : Dev nD), b)
/-- After the first stretch: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- After region 0: its arrays at what the region leaves, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array region 0 only reads is left as found. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b
/-- At region 0's exit each of its arrays holds what the region leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After region 2: what region 3 is entered from (no stretch lies between the two). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After region 3. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the fourth stretch: what region 4 is entered from. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

/-- After region 4. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the fifth stretch: what region 5 is entered from. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

/-- After region 5. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
theorem W11_in (c : Dev nD) (w : Fin cfg5.W) (hin : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hin _).trans (A_eq5 (V10 m ρ) c w))
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the sixth stretch: what region 6 is entered from. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b

/-- After region 6. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
theorem W13_in (c : Dev nD) (w : Fin cfg6.W) (hin : (cfg6.win w).isOut = false) :
    W13 m ρ c (Proc.devRef .tc (Pipeline.arrRef spec6 w)) = W12 m ρ c (Proc.devRef .tc (Pipeline.arrRef spec6 w)) :=
  (W13_arr m ρ c w).trans (((dat6 (V12 m ρ) c).arrAt_in w hin _).trans (A_eq6 (V12 m ρ) c w))
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- After the last stretch: what the buffers hold at the return. -/
abbrev W14 : Dev nD → Valuation τ sig (Elt F) := fun c => StableHlo.after hostOps7 (W13 m ρ c)

/-! ## The arguments end as launched

No stretch writes an argument's buffer, and no region has one as an array it writes: a region either has the
argument as an array it only reads (the first product region reads arguments 0 and 3, the second reads argument 7),
which the region leaves as found, or does not have it among its arrays at all. -/

/-- From the return back to the exit of region 3, for a reference none of the later pieces touches. -/
theorem W14_eq_W7 (c : Dev nD) (r : Ref sig .tc)
    (h4 : r ∉ hostOps4_W) (h5 : r ∉ hostOps5_W) (h6 : r ∉ hostOps6_W) (h7 : r ∉ hostOps7_W)
    (a4 : ∀ w, Pipeline.arrRef spec4 w ≠ r) (a5 : ∀ w, Pipeline.arrRef spec5 w ≠ r) (a6 : ∀ w, Pipeline.arrRef spec6 w ≠ r) :
    W14 m ρ c (Proc.devRef .tc r) = W7 m ρ c (Proc.devRef .tc r) :=
  calc W14 m ρ c (Proc.devRef .tc r)
    _ = W13 m ρ c (Proc.devRef .tc r) := StableHlo.after_of_writes_sub hostOps7 _ hostOps7_writes h7
    _ = W12 m ρ c (Proc.devRef .tc r) := W13_of_ne m ρ c r a6
    _ = W11 m ρ c (Proc.devRef .tc r) := StableHlo.after_of_writes_sub hostOps6 _ hostOps6_writes h6
    _ = W10 m ρ c (Proc.devRef .tc r) := W11_of_ne m ρ c r a5
    _ = W9 m ρ c (Proc.devRef .tc r) := StableHlo.after_of_writes_sub hostOps5 _ hostOps5_writes h5
    _ = W8 m ρ c (Proc.devRef .tc r) := W9_of_ne m ρ c r a4
    _ = W7 m ρ c (Proc.devRef .tc r) := StableHlo.after_of_writes_sub hostOps4 _ hostOps4_writes h4

/-- From the entry of region 3 back to the exit of region 0, for a reference none of the pieces between touches. -/
theorem W6_eq_W2 (c : Dev nD) (r : Ref sig .tc) (h1 : r ∉ hostOps1_W) (h2 : r ∉ hostOps2_W)
    (a1 : ∀ w, Pipeline.arrRef spec1 w ≠ r) (a2 : ∀ w, Pipeline.arrRef spec2 w ≠ r) :
    W6 m ρ c (Proc.devRef .tc r) = W2 m ρ c (Proc.devRef .tc r) :=
  calc W6 m ρ c (Proc.devRef .tc r)
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1

/-- From the entry of region 0 back to the launch, for a reference the first stretch does not write. -/
theorem W1_eq_launch (c : Dev nD) (r : Ref sig .tc) (h0 : r ∉ hostOps0_W) :
    W1 m ρ c (Proc.devRef .tc r) = m ((c : Thread nD τ).loc r) :=
  (StableHlo.after_of_writes_sub hostOps0 _ hostOps0_writes h0).trans rfl

/-- A reference no piece of the program touches holds at the return what it held at launch. -/
theorem W14_of_untouched (c : Dev nD) (r : Ref sig .tc)
    (h0 : r ∉ hostOps0_W) (h1 : r ∉ hostOps1_W) (h2 : r ∉ hostOps2_W) (h4 : r ∉ hostOps4_W) (h5 : r ∉ hostOps5_W)
    (h6 : r ∉ hostOps6_W) (h7 : r ∉ hostOps7_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) (a5 : ∀ w, Pipeline.arrRef spec5 w ≠ r)
    (a6 : ∀ w, Pipeline.arrRef spec6 w ≠ r) :
    W14 m ρ c (Proc.devRef .tc r) = m ((c : Thread nD τ).loc r) :=
  calc W14 m ρ c (Proc.devRef .tc r)
    _ = W7 m ρ c (Proc.devRef .tc r) := W14_eq_W7 m ρ c r h4 h5 h6 h7 a4 a5 a6
    _ = W6 m ρ c (Proc.devRef .tc r) := W7_of_ne m ρ c r a3
    _ = W2 m ρ c (Proc.devRef .tc r) := W6_eq_W2 m ρ c r h1 h2 a1 a2
    _ = W1 m ρ c (Proc.devRef .tc r) := W2_of_ne m ρ c r a0
    _ = m ((c : Thread nD τ).loc r) := W1_eq_launch m ρ c r h0

/-- Argument 0 is the first array region 0 reads. -/
theorem W14_main_arg0 (c : Dev nD) : W14 m ρ c (Proc.devRef .tc main_arg0) = m ((c : Thread nD τ).loc main_arg0) :=
  calc W14 m ρ c (Proc.devRef .tc main_arg0)
    _ = W7 m ρ c (Proc.devRef .tc main_arg0) :=
        W14_eq_W7 m ρ c main_arg0 (by decide) (by decide) (by decide) (by decide) (by decide) (by decide) (by decide)
    _ = W6 m ρ c (Proc.devRef .tc main_arg0) := W7_of_ne m ρ c main_arg0 (by decide)
    _ = W2 m ρ c (Proc.devRef .tc main_arg0) := W6_eq_W2 m ρ c main_arg0 (by decide) (by decide) (by decide) (by decide)
    _ = W1 m ρ c (Proc.devRef .tc main_arg0) := W2_in m ρ c 0 rfl
    _ = m ((c : Thread nD τ).loc main_arg0) := W1_eq_launch m ρ c main_arg0 (by decide)

theorem W14_main_arg1 (c : Dev nD) : W14 m ρ c (Proc.devRef .tc main_arg1) = m ((c : Thread nD τ).loc main_arg1) :=
  W14_of_untouched m ρ c main_arg1 (by decide) (by decide) (by decide) (by decide) (by decide) (by decide) (by decide)
    (by decide) (by decide) (by decide) (by decide) (by decide) (by decide) (by decide)

theorem W14_main_arg2 (c : Dev nD) : W14 m ρ c (Proc.devRef .tc main_arg2) = m ((c : Thread nD τ).loc main_arg2) :=
  W14_of_untouched m ρ c main_arg2 (by decide) (by decide) (by decide) (by decide) (by decide) (by decide) (by decide)
    (by decide) (by decide) (by decide) (by decide) (by decide) (by decide) (by decide)

/-- Argument 3 is the second array region 0 reads. -/
theorem W14_main_arg3 (c : Dev nD) : W14 m ρ c (Proc.devRef .tc main_arg3) = m ((c : Thread nD τ).loc main_arg3) :=
  calc W14 m ρ c (Proc.devRef .tc main_arg3)
    _ = W7 m ρ c (Proc.devRef .tc main_arg3) :=
        W14_eq_W7 m ρ c main_arg3 (by decide) (by decide) (by decide) (by decide) (by decide) (by decide) (by decide)
    _ = W6 m ρ c (Proc.devRef .tc main_arg3) := W7_of_ne m ρ c main_arg3 (by decide)
    _ = W2 m ρ c (Proc.devRef .tc main_arg3) := W6_eq_W2 m ρ c main_arg3 (by decide) (by decide) (by decide) (by decide)
    _ = W1 m ρ c (Proc.devRef .tc main_arg3) := W2_in m ρ c 1 rfl
    _ = m ((c : Thread nD τ).loc main_arg3) := W1_eq_launch m ρ c main_arg3 (by decide)

theorem W14_main_arg4 (c : Dev nD) : W14 m ρ c (Proc.devRef .tc main_arg4) = m ((c : Thread nD τ).loc main_arg4) :=
  W14_of_untouched m ρ c main_arg4 (by decide) (by decide) (by decide) (by decide) (by decide) (by decide) (by decide)
    (by decide) (by decide) (by decide) (by decide) (by decide) (by decide) (by decide)

theorem W14_main_arg5 (c : Dev nD) : W14 m ρ c (Proc.devRef .tc main_arg5) = m ((c : Thread nD τ).loc main_arg5) :=
  W14_of_untouched m ρ c main_arg5 (by decide) (by decide) (by decide) (by decide) (by decide) (by decide) (by decide)
    (by decide) (by decide) (by decide) (by decide) (by decide) (by decide) (by decide)

theorem W14_main_arg6 (c : Dev nD) : W14 m ρ c (Proc.devRef .tc main_arg6) = m ((c : Thread nD τ).loc main_arg6) :=
  W14_of_untouched m ρ c main_arg6 (by decide) (by decide) (by decide) (by decide) (by decide) (by decide) (by decide)
    (by decide) (by decide) (by decide) (by decide) (by decide) (by decide) (by decide)

/-- Argument 7 is the second array region 3 reads. -/
theorem W14_main_arg7 (c : Dev nD) : W14 m ρ c (Proc.devRef .tc main_arg7) = m ((c : Thread nD τ).loc main_arg7) :=
  calc W14 m ρ c (Proc.devRef .tc main_arg7)
    _ = W7 m ρ c (Proc.devRef .tc main_arg7) :=
        W14_eq_W7 m ρ c main_arg7 (by decide) (by decide) (by decide) (by decide) (by decide) (by decide) (by decide)
    _ = W6 m ρ c (Proc.devRef .tc main_arg7) := W7_in m ρ c 1 rfl
    _ = W2 m ρ c (Proc.devRef .tc main_arg7) := W6_eq_W2 m ρ c main_arg7 (by decide) (by decide) (by decide) (by decide)
    _ = W1 m ρ c (Proc.devRef .tc main_arg7) := W2_of_ne m ρ c main_arg7 (by decide)
    _ = m ((c : Thread nD τ).loc main_arg7) := W1_eq_launch m ρ c main_arg7 (by decide)

theorem W14_main_arg8 (c : Dev nD) : W14 m ρ c (Proc.devRef .tc main_arg8) = m ((c : Thread nD τ).loc main_arg8) :=
  W14_of_untouched m ρ c main_arg8 (by decide) (by decide) (by decide) (by decide) (by decide) (by decide) (by decide)
    (by decide) (by decide) (by decide) (by decide) (by decide) (by decide) (by decide)

theorem W14_main_arg9 (c : Dev nD) : W14 m ρ c (Proc.devRef .tc main_arg9) = m ((c : Thread nD τ).loc main_arg9) :=
  W14_of_untouched m ρ c main_arg9 (by decide) (by decide) (by decide) (by decide) (by decide) (by decide) (by decide)
    (by decide) (by decide) (by decide) (by decide) (by decide) (by decide) (by decide)

theorem W14_main_arg10 (c : Dev nD) : W14 m ρ c (Proc.devRef .tc main_arg10) = m ((c : Thread nD τ).loc main_arg10) :=
  W14_of_untouched m ρ c main_arg10 (by decide) (by decide) (by decide) (by decide) (by decide) (by decide) (by decide)
    (by decide) (by decide) (by decide) (by decide) (by decide) (by decide) (by decide)

/-! ## The proof data of every region, and the state a core holds between pieces -/

/-- No region has a prefetched table: each region's admissible table contents are the trivial ones. -/
abbrev adm : (p : Fin 7) → (pcfgs (F := F) p).Adm := fun p => (cfgs p).toPCfg_adm
/-- Every region's proof data, each at the contents its region is entered from. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
abbrev 𝒱₀ : Variants := Variants.none
/-- No core owes another anything: no semaphore is given a level. -/
abbrev L : GSem nD τ sig → Finset Unit := fun _ => ∅
abbrev lv : GSem nD τ sig → Unit → ℕ := fun _ _ => 0
/-- What a core holds beside its buffers between any two pieces: its generator register at some state, and the
    record of what it owes, which is nothing. -/
abbrev R (c : Dev nD) : sProp 𝕄 := iprop((∃ r, prngReg c r) ∗ ∃ W, owes (c : Thread nD τ) (0 : CellTallies nD τ sig Unit) W)
/-- A stretch of host operations run from the contents `W`: it takes every unscoped buffer from `W c` to what the
    operations compute from `W c`, the rest of the core's state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those a core holds between pieces. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the return, apart from the record of owing nothing: every unscoped buffer at `W14`, the
    generator register at some state. -/
abbrev Tₙ (c : Dev nD) : sProp 𝕄 := iprop(StableHlo.held (c : Thread nD τ) (Pipeline.ucRefs τ sig) (W14 m ρ c) ∗ ∃ r, prngReg c r)

end Cert.KernelIdeal.Hand

end
-- ==== Proof.KI.Owes.lean ====
import proofs.«406782_j35519379538031_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Owing nothing, said the way a region's proof data say it

Between pieces a core holds the record of what it owes at nothing, beside whatever pairs its waits have recorded.
A region's proof data say the same before a point `t` where they put the tallies at nothing and bound the recorded
pairs by nothing at all. -/

section Owes

variable {cfg : Cfg sig Λ₀} {c : Dev nD} (dat : Dat τ (Elt F) Unit ℕ (UR sig nD τ) ℕ cfg c)

/-- Into a region: owing nothing is what the proof data ask before point `t`. -/
theorem owesAt_of_zero (t : Fin (cfg.N + 1)) (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩
  iexists W
  isplitr
  · ipureintro; intro x _; exact Or.inl (by rw [hr]; exact Set.mem_univ x)
  iexact HO

/-- Out of a region: what the proof data hold before point `t` is owing nothing. -/
theorem zero_of_owesAt (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

end Owes

end Cert.KernelIdeal.Hand

end
-- ==== Proof.KI.Seg0.lean ====
import proofs.«406782_j35519379538031_1_alg».proof.Proof.KI.Fold
import proofs.«406782_j35519379538031_1_alg».proof.Proof.KI.Owes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 0 as a piece of the run: entered from every unscoped buffer at `W1`, left at `W2`. At entry its arrays
    are split out of the unscoped buffers and the rest bypasses the region; the generator register goes into the
    region's invariant and comes back out of it; at exit the arrays, at what the region leaves, are put back beside
    the bypassing rest. Nothing is owed, and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hrec : (dat0 (V1 m ρ) c).recorded 0 = Set.univ := rfl
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 0 c) 0 (owed_eq0 (V1 m ρ) c 0) hrec); iexact HO
    isplitl [Hp]; · iexact Hp
    iexact Hrest
  hin c := by
    refine BIBase.Entails.trans ?_ (phi_in0 (V1 m ρ) c)
    iintro ⟨Hp, -, Hr⟩
    isplitl [Hp]; · iexact Hp
    iexact Hr
  hout c := by
    rw [Pipeline.ownSems0_none]
    refine BIBase.Entails.trans (phi_out0 (V1 m ρ) c) ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 0 c) (Fin.last _) (owed_eq0 (V1 m ρ) c (Fin.last _))); iexact HO

end Cert.KernelIdeal.Hand

end
-- ==== Proof.KI.Seg1.lean ====
import proofs.«406782_j35519379538031_1_alg».proof.Proof.KI.Fold
import proofs.«406782_j35519379538031_1_alg».proof.Proof.KI.Owes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 1 as a piece of the run: entered from every unscoped buffer at `W3`, left at `W4`. At entry its arrays
    are split out of the unscoped buffers and the rest bypasses the region; the generator register goes into the
    region's invariant and comes back out of it; at exit the arrays, at what the region leaves, are put back beside
    the bypassing rest. Nothing is owed, and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hrec : (dat1 (V3 m ρ) c).recorded 0 = Set.univ := rfl
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 1 c) 0 (owed_eq1 (V3 m ρ) c 0) hrec); iexact HO
    isplitl [Hp]; · iexact Hp
    iexact Hrest
  hin c := by
    refine BIBase.Entails.trans ?_ (phi_in1 (V3 m ρ) c)
    iintro ⟨Hp, -, Hr⟩
    isplitl [Hp]; · iexact Hp
    iexact Hr
  hout c := by
    rw [Pipeline.ownSems0_none]
    refine BIBase.Entails.trans (phi_out1 (V3 m ρ) c) ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 1 c) (Fin.last _) (owed_eq1 (V3 m ρ) c (Fin.last _))); iexact HO

end Cert.KernelIdeal.Hand

end
-- ==== Proof.KI.Seg2.lean ====
import proofs.«406782_j35519379538031_1_alg».proof.Proof.KI.Fold
import proofs.«406782_j35519379538031_1_alg».proof.Proof.KI.Owes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 2 as a piece of the run: entered from every unscoped buffer at `W5`, left at `W6`. At entry its arrays
    are split out of the unscoped buffers and the rest bypasses the region; the generator register goes into the
    region's invariant and comes back out of it; at exit the arrays, at what the region leaves, are put back beside
    the bypassing rest. Nothing is owed, and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed_eq2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hrec : (dat2 (V5 m ρ) c).recorded 0 = Set.univ := rfl
    have hsplit := Pipeline.arrays_of_unscopedBufs (p := 2) (pcfgs (F := F)) adm (pdats m ρ) launch2.win launch2.arr_whole c
      ((pdats m ρ 2 c).share_full fun w => q_eq2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 2 c) 0 (owed_eq2 (V5 m ρ) c 0) hrec); iexact HO
    isplitl [Hp]; · iexact Hp
    iexact Hrest
  hin c := by
    refine BIBase.Entails.trans ?_ (phi_in2 (V5 m ρ) c)
    iintro ⟨Hp, -, Hr⟩
    isplitl [Hp]; · iexact Hp
    iexact Hr
  hout c := by
    rw [Pipeline.ownSems0_none]
    refine BIBase.Entails.trans (phi_out2 (V5 m ρ) c) ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 2 c) (Fin.last _) (owed_eq2 (V5 m ρ) c (Fin.last _))); iexact HO

end Cert.KernelIdeal.Hand

end
-- ==== Proof.KI.Seg3.lean ====
import proofs.«406782_j35519379538031_1_alg».proof.Proof.KI.Fold
import proofs.«406782_j35519379538031_1_alg».proof.Proof.KI.Owes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 3 as a piece of the run: entered from every unscoped buffer at `W6`, left at `W7`. At entry its arrays
    are split out of the unscoped buffers and the rest bypasses the region; the generator register goes into the
    region's invariant and comes back out of it; at exit the arrays, at what the region leaves, are put back beside
    the bypassing rest. Nothing is owed, and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun c t => owed_eq3 (V6 m ρ) c t
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hrec : (dat3 (V6 m ρ) c).recorded 0 = Set.univ := rfl
    have hsplit := Pipeline.arrays_of_unscopedBufs (p := 3) (pcfgs (F := F)) adm (pdats m ρ) launch3.win launch3.arr_whole c
      ((pdats m ρ 3 c).share_full fun w => q_eq3 (V6 m ρ) c w) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 3 c) 0 (owed_eq3 (V6 m ρ) c 0) hrec); iexact HO
    isplitl [Hp]; · iexact Hp
    iexact Hrest
  hin c := by
    refine BIBase.Entails.trans ?_ (phi_in3 (V6 m ρ) c)
    iintro ⟨Hp, -, Hr⟩
    isplitl [Hp]; · iexact Hp
    iexact Hr
  hout c := by
    rw [Pipeline.ownSems0_none]
    refine BIBase.Entails.trans (phi_out3 (V6 m ρ) c) ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => q_eq3 (V6 m ρ) c w)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 3 c) (Fin.last _) (owed_eq3 (V6 m ρ) c (Fin.last _))); iexact HO

end Cert.KernelIdeal.Hand

end
-- ==== Proof.KI.Seg4.lean ====
import proofs.«406782_j35519379538031_1_alg».proof.Proof.KI.Fold
import proofs.«406782_j35519379538031_1_alg».proof.Proof.KI.Owes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 4 as a piece of the run: entered from every unscoped buffer at `W8`, left at `W9`. At entry its arrays
    are split out of the unscoped buffers and the rest bypasses the region; the generator register goes into the
    region's invariant and comes back out of it; at exit the arrays, at what the region leaves, are put back beside
    the bypassing rest. Nothing is owed, and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun c t => owed_eq4 (V8 m ρ) c t
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hrec : (dat4 (V8 m ρ) c).recorded 0 = Set.univ := rfl
    have hsplit := Pipeline.arrays_of_unscopedBufs (p := 4) (pcfgs (F := F)) adm (pdats m ρ) launch4.win launch4.arr_whole c
      ((pdats m ρ 4 c).share_full fun w => q_eq4 (V8 m ρ) c w) (V8 m ρ c) fun w => A_eq4 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 4 c) 0 (owed_eq4 (V8 m ρ) c 0) hrec); iexact HO
    isplitl [Hp]; · iexact Hp
    iexact Hrest
  hin c := by
    refine BIBase.Entails.trans ?_ (phi_in4 (V8 m ρ) c)
    iintro ⟨Hp, -, Hr⟩
    isplitl [Hp]; · iexact Hp
    iexact Hr
  hout c := by
    rw [Pipeline.ownSems0_none]
    refine BIBase.Entails.trans (phi_out4 (V8 m ρ) c) ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun w => q_eq4 (V8 m ρ) c w)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 4 c) (Fin.last _) (owed_eq4 (V8 m ρ) c (Fin.last _))); iexact HO

end Cert.KernelIdeal.Hand

end
-- ==== Proof.KI.Seg5.lean ====
import proofs.«406782_j35519379538031_1_alg».proof.Proof.KI.Fold
import proofs.«406782_j35519379538031_1_alg».proof.Proof.KI.Owes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 5 as a piece of the run: entered from every unscoped buffer at `W10`, left at `W11`. At entry its arrays
    are split out of the unscoped buffers and the rest bypasses the region; the generator register goes into the
    region's invariant and comes back out of it; at exit the arrays, at what the region leaves, are put back beside
    the bypassing rest. Nothing is owed, and the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun c t => owed_eq5 (V10 m ρ) c t
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hrec : (dat5 (V10 m ρ) c).recorded 0 = Set.univ := rfl
    have hsplit := Pipeline.arrays_of_unscopedBufs (p := 5) (pcfgs (F := F)) adm (pdats m ρ) launch5.win launch5.arr_whole c
      ((pdats m ρ 5 c).share_full fun w => q_eq5 (V10 m ρ) c w) (V10 m ρ c) fun w => A_eq5 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 5 c) 0 (owed_eq5 (V10 m ρ) c 0) hrec); iexact HO
    isplitl [Hp]; · iexact Hp
    iexact Hrest
  hin c := by
    refine BIBase.Entails.trans ?_ (phi_in5 (V10 m ρ) c)
    iintro ⟨Hp, -, Hr⟩
    isplitl [Hp]; · iexact Hp
    iexact Hr
  hout c := by
    rw [Pipeline.ownSems0_none]
    refine BIBase.Entails.trans (phi_out5 (V10 m ρ) c) ?_
    iintro ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun w => q_eq5 (V10 m ρ) c w)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 5 c) (Fin.last _) (owed_eq5 (V10 m ρ) c (Fin.last _))); iexact HO

end Cert.KernelIdeal.Hand

end
-- ==== Proof.KI.Seg6.lean ====
import proofs.«406782_j35519379538031_1_alg».proof.Proof.KI.Fold
import proofs.«406782_j35519379538031_1_alg».proof.Proof.KI.Owes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying a library lemma stated over a pinned configuration with the printed one takes unfolding plain
-- definitions inside a metavariable's type
set_option backward.isDefEq.respectTransparency.types false in
/-- Region 6 as a piece of the run: entered from every unscoped buffer at `W12`, left at `W13`. At entry its arrays
    are split out of the unscoped buffers and the rest bypasses the region; the generator register goes into the
    region's invariant and comes back out of it; at exit the arrays, at what the region leaves, are put back beside
    the bypassing rest. Nothing is owed, and the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun c t => owed_eq6 (V12 m ρ) c t
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hrec : (dat6 (V12 m ρ) c).recorded 0 = Set.univ := rfl
    have hsplit := Pipeline.arrays_of_unscopedBufs (p := 6) (pcfgs (F := F)) adm (pdats m ρ) launch6.win launch6.arr_whole c
      ((pdats m ρ 6 c).share_full fun w => q_eq6 (V12 m ρ) c w) (V12 m ρ c) fun w => A_eq6 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 6 c) 0 (owed_eq6 (V12 m ρ) c 0) hrec); iexact HO
    isplitl [Hp]; · iexact Hp
    iexact Hrest
  hin c := by
    refine BIBase.Entails.trans ?_ (phi_in6 (V12 m ρ) c)
    iintro ⟨Hp, -, Hr⟩
    isplitl [Hp]; · iexact Hp
    iexact Hr
  hout c := by
    rw [Pipeline.ownSems0_none]
    refine BIBase.Entails.trans (phi_out6 (V12 m ρ) c) ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun w => q_eq6 (V12 m ρ) c w)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 6 c) (Fin.last _) (owed_eq6 (V12 m ρ) c (Fin.last _))); iexact HO

end Cert.KernelIdeal.Hand

end
-- ==== Proof.KI.Run.lean ====
import proofs.«406782_j35519379538031_1_alg».proof.Proof.KI.Seg0
import proofs.«406782_j35519379538031_1_alg».proof.Proof.KI.Seg1
import proofs.«406782_j35519379538031_1_alg».proof.Proof.KI.Seg2
import proofs.«406782_j35519379538031_1_alg».proof.Proof.KI.Seg3
import proofs.«406782_j35519379538031_1_alg».proof.Proof.KI.Seg4
import proofs.«406782_j35519379538031_1_alg».proof.Proof.KI.Seg5
import proofs.«406782_j35519379538031_1_alg».proof.Proof.KI.Seg6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program as its fourteen pieces, and the launch -/

/-- The program's pieces in order: each stretch of host operations run from the contents of the boundary before it,
    each kernel region as its record. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)) ]

/-- The program is the run of its pieces: it is the chain of its items, and the pieces' programs are those items. -/
theorem main_run (c : Dev nD) : main (F := F) c = Pipeline.Seg.run (segs m ρ) := (main_chain c).trans (by chain_rfl)

/-- At the return: what the last stretch leaves is the last state beside the record of owing nothing. -/
theorem hlast (c : Dev nD) :
    (iprop(StableHlo.held (c : Thread nD τ) (Pipeline.ucRefs τ sig) (W14 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

-- the launch theorem's implicit arguments are found by unifying its conclusion with this one, which takes unfolding
-- plain definitions inside a metavariable's type
set_option backward.isDefEq.respectTransparency.types false in
/-- From any launch memory with every semaphore counter at zero, every weakly fair execution of the program on the
    TensorCores terminates without fault, and in every final memory the result buffer holds what the fold `W14` says
    and each of the eleven arguments holds what it held at launch. The pieces' states chain from the launch to the
    return; the last state is read against the final memory, buffer by buffer. -/
theorem run : θ_run defs (onTc (τ := τ) (main (F := F))) ⟨m, fun _ => 0, ρ⟩ (fun r => ∀ c : Dev nD,
      r.2.mem ((c.tc : Thread nD τ).loc main_v106) = W14 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v106 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Hand

end
-- ==== Proof.KI.Host.lean ====
import proofs.«406782_j35519379538031_1_alg».proof.Proof.Gen.KernelIdeal.Regions
import Idealize.ShloMosaic.Lib.StableHlo.Run

set_option maxRecDepth 1232

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## Node numbers as table indices -/

/-- A node number read the way an index into a 40000-row table is: a negative one counts from the end
    (40000 is added), any other stands as it is. -/
def kWrap (i : (⟨S680000, .i32⟩ : BufTy).Contents (Elt F)) : (⟨S680000, .i32⟩ : BufTy).Contents (Elt F) :=
  (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
    ((cmpi .slt : (⟨S680000, .i32⟩ : BufTy).Contents (Elt F) → (⟨S680000, .i32⟩ : BufTy).Contents (Elt F) → (⟨S680000, .i1⟩ : BufTy).Contents (Elt F))
      i (broadcastInDim S680000 ![] bcast_S_S680000 ((constantI S_ 32 0#32 : (⟨S_, .i32⟩ : BufTy).Contents (Elt F)))))
    ((addi : (⟨S680000, .i32⟩ : BufTy).Contents (Elt F) → (⟨S680000, .i32⟩ : BufTy).Contents (Elt F) → (⟨S680000, .i32⟩ : BufTy).Contents (Elt F))
      i (broadcastInDim S680000 ![] bcast_S_S680000 ((constantI S_ 32 40000#32 : (⟨S_, .i32⟩ : BufTy).Contents (Elt F)))))
    i

/-! ## The edge list with its self-loops, and the edge weights -/

/-- The edge sources: row 0 of the 2 × 640000 edge table, followed by the node numbers `0 … 39999` (one
    self-loop per node). -/
def kSrc (ei : (⟨S2x640000, .i32⟩ : BufTy).Contents (Elt F)) : (⟨S680000, .i32⟩ : BufTy).Contents (Elt F) :=
  concatenate S680000 0
    [⟨S640000, shapeCast S640000 (extractStridedSlice S1x640000 ![0, 0] ei slices_S2x640000_S1x640000_0_0)
        shapeCasts_S1x640000_S640000⟩,
     ⟨S40000, (iotaInDim S40000 32 0 : (⟨S40000, .i32⟩ : BufTy).Contents (Elt F))⟩]
    concatenates_S640000_S40000_S680000_d0

/-- The edge destinations: row 1 of the edge table, followed by the same node numbers. -/
def kDst (ei : (⟨S2x640000, .i32⟩ : BufTy).Contents (Elt F)) : (⟨S680000, .i32⟩ : BufTy).Contents (Elt F) :=
  concatenate S680000 0
    [⟨S640000, shapeCast S640000 (extractStridedSlice S1x640000 ![1, 0] ei slices_S2x640000_S1x640000_1_0)
        shapeCasts_S1x640000_S640000⟩,
     ⟨S40000, (iotaInDim S40000 32 0 : (⟨S40000, .i32⟩ : BufTy).Contents (Elt F))⟩]
    concatenates_S640000_S40000_S680000_d0

/-- The in-degrees: a one for every edge added into entry `dst e` of a vector of zeros. -/
def kDeg (dst : (⟨S680000, .i32⟩ : BufTy).Contents (Elt F)) : (⟨S40000, .f32⟩ : BufTy).Contents (Elt F) :=
  Host.scatterAdd scatter_S40000_S680000x1_S680000_n_0_0_1
    (broadcastInDim S40000 ![] bcast_S_S40000 (constant S_ .f32 0x00000000#32))
    (broadcastInDim S680000x1 ![0] bcast_S680000_S680000x1_0 dst)
    (broadcastInDim S680000 ![] bcast_S_S680000 (constant S_ .f32 0x3F800000#32))

/-- The reciprocal square roots of the in-degrees. -/
def kDinv (dst : (⟨S680000, .i32⟩ : BufTy).Contents (Elt F)) : (⟨S40000, .f32⟩ : BufTy).Contents (Elt F) :=
  Host.rsqrt (kDeg dst)

/-- The weight of edge `e`: the reciprocal square root of the in-degree of its source times that of its
    destination. -/
def kNormOf (src dst : (⟨S680000, .i32⟩ : BufTy).Contents (Elt F)) : (⟨S680000, .f32⟩ : BufTy).Contents (Elt F) :=
  mulf
    (Host.gather gather_S40000_S680000x1_S680000_n_0_n_n_0_1_1 (kDinv dst)
      (broadcastInDim S680000x1 ![0] bcast_S680000_S680000x1_0 (kWrap src)))
    (Host.gather gather_S40000_S680000x1_S680000_n_0_n_n_0_1_1 (kDinv dst)
      (broadcastInDim S680000x1 ![0] bcast_S680000_S680000x1_0 (kWrap dst)))

/-- The edge weights as a function of the edge table. -/
def kNorm (ei : (⟨S2x640000, .i32⟩ : BufTy).Contents (Elt F)) : (⟨S680000, .f32⟩ : BufTy).Contents (Elt F) :=
  kNormOf (kSrc ei) (kDst ei)

/-- After the first stretch the sources' array is `kSrc` of the edge table. -/
theorem hostOps0_v3 (W : Valuation τ sig (Elt F)) :
    StableHlo.after hostOps0 W (Proc.devRef .tc main_v3) = kSrc (W (Proc.devRef .tc main_arg1)) := by
  show StableHlo.after hostOps0 W (Proc.devRef .tc main_v3) = _
  simp only [hostOps0]
  after_results_simp
  rfl

/-- After the first stretch the destinations' array is `kDst` of the edge table. -/
theorem hostOps0_v6 (W : Valuation τ sig (Elt F)) :
    StableHlo.after hostOps0 W (Proc.devRef .tc main_v6) = kDst (W (Proc.devRef .tc main_arg1)) := by
  show StableHlo.after hostOps0 W (Proc.devRef .tc main_v6) = _
  simp only [hostOps0]
  after_results_simp
  rfl

/-- After the first stretch the weights' array is `kNorm` of the edge table. -/
theorem hostOps0_v26 (W : Valuation τ sig (Elt F)) :
    StableHlo.after hostOps0 W (Proc.devRef .tc main_v26) = kNorm (W (Proc.devRef .tc main_arg1)) := by
  show StableHlo.after hostOps0 W (Proc.devRef .tc main_v26) = _
  simp only [hostOps0]
  after_results_simp
  rfl

/-! ## The neighbourhood sum -/

/-- One layer's neighbourhood sum: edge `e` carries row `src e` of `h` times the edge weight `nrm e`; the carried
    rows are added into row `dst e` of a table of zeros; the bias `b` is then added to every row. -/
def kAgg (h : (⟨S40000x256, .f32⟩ : BufTy).Contents (Elt F))
    (src dst : (⟨S680000, .i32⟩ : BufTy).Contents (Elt F)) (nrm : (⟨S680000, .f32⟩ : BufTy).Contents (Elt F))
    (b : (⟨S256, .f32⟩ : BufTy).Contents (Elt F)) : (⟨S40000x256, .f32⟩ : BufTy).Contents (Elt F) :=
  addf
    (Host.scatterAdd scatter_S40000x256_S680000x1_S680000x256_1_0_0_1
      (broadcastInDim S40000x256 ![] bcast_S_S40000x256 (constant S_ .f32 0x00000000#32))
      (broadcastInDim S680000x1 ![0] bcast_S680000_S680000x1_0 dst)
      (mulf
        (Host.gather gather_S40000x256_S680000x1_S680000x256_1_0_n_n_0_1_1256 h
          (broadcastInDim S680000x1 ![0] bcast_S680000_S680000x1_0 (kWrap src)))
        (broadcastInDim S680000x256 ![0, 1] bcast_S680000x1_S680000x256_0_1
          (broadcastInDim S680000x1 ![0] bcast_S680000_S680000x1_0 nrm))))
    (broadcastInDim S40000x256 ![0, 1] bcast_S1x256_S40000x256_0_1
      (broadcastInDim S1x256 ![1] bcast_S256_S1x256_1 b))

/-- First layer: after the stretch that follows the first product region, the summed array is `kAgg` of the
    product, the edge ends, the edge weights and the first bias. -/
theorem hostOps1_v43 (W : Valuation τ sig (Elt F)) :
    StableHlo.after hostOps1 W (Proc.devRef .tc main_v43)
      = kAgg (W (Proc.devRef .tc main_v27)) (W (Proc.devRef .tc main_v3)) (W (Proc.devRef .tc main_v6))
          (W (Proc.devRef .tc main_v26)) (W (Proc.devRef .tc main_arg4)) := by
  show StableHlo.after hostOps1 W (Proc.devRef .tc main_v43) = _
  simp only [hostOps1]
  after_results_simp
  rfl

/-- Second layer: the same function of the second product, the same edge ends and weights, the second bias. -/
theorem hostOps4_v76 (W : Valuation τ sig (Elt F)) :
    StableHlo.after hostOps4 W (Proc.devRef .tc main_v76)
      = kAgg (W (Proc.devRef .tc main_v60)) (W (Proc.devRef .tc main_v3)) (W (Proc.devRef .tc main_v6))
          (W (Proc.devRef .tc main_v26)) (W (Proc.devRef .tc main_arg8)) := by
  show StableHlo.after hostOps4 W (Proc.devRef .tc main_v76) = _
  simp only [hostOps4]
  after_results_simp
  rfl

/-! ## The batch-norm coefficients from the column sums -/

/-- The column means: the column sums divided by the number of rows, 40000. -/
def kMean (s : (⟨S1x256, .f32⟩ : BufTy).Contents (Elt F)) : (⟨S1x256, .f32⟩ : BufTy).Contents (Elt F) :=
  Host.divf s (broadcastInDim S1x256 ![] bcast_S_S1x256 (constant S_ .f32 0x471C4000#32))

/-- The multiplier of column `j`: `g j` times the reciprocal square root of the column's variance plus the small
    constant, the variance being the mean of the squares (`q / 40000`) less the square of the mean (`s / 40000`). -/
def kScale (s q : (⟨S1x256, .f32⟩ : BufTy).Contents (Elt F)) (g : (⟨S256, .f32⟩ : BufTy).Contents (Elt F)) :
    (⟨S1x256, .f32⟩ : BufTy).Contents (Elt F) :=
  mulf (broadcastInDim S1x256 ![1] bcast_S256_S1x256_1 g)
    (Host.rsqrt
      (addf
        (subf (Host.divf q (broadcastInDim S1x256 ![] bcast_S_S1x256 (constant S_ .f32 0x471C4000#32)))
          (mulf (kMean s) (kMean s)))
        (broadcastInDim S1x256 ![] bcast_S_S1x256 (constant S_ .f32 0x3727C5AC#32))))

/-- The offset of column `j`: `be j` less the column's mean times its multiplier. -/
def kShift (s q : (⟨S1x256, .f32⟩ : BufTy).Contents (Elt F)) (g be : (⟨S256, .f32⟩ : BufTy).Contents (Elt F)) :
    (⟨S1x256, .f32⟩ : BufTy).Contents (Elt F) :=
  subf (broadcastInDim S1x256 ![1] bcast_S256_S1x256_1 be) (mulf (kMean s) (kScale s q g))

/-- First layer: after the stretch that follows the statistics region the multiplier's array is `kScale`. -/
theorem hostOps2_v55 (W : Valuation τ sig (Elt F)) :
    StableHlo.after hostOps2 W (Proc.devRef .tc main_v55)
      = kScale (W (Proc.devRef .tc main_v44_0)) (W (Proc.devRef .tc main_v44_1)) (W (Proc.devRef .tc main_arg5)) := by
  show StableHlo.after hostOps2 W (Proc.devRef .tc main_v55) = _
  simp only [hostOps2]
  after_results_simp
  rfl

/-- First layer: after the same stretch the offset's array is `kShift`. -/
theorem hostOps2_v58 (W : Valuation τ sig (Elt F)) :
    StableHlo.after hostOps2 W (Proc.devRef .tc main_v58)
      = kShift (W (Proc.devRef .tc main_v44_0)) (W (Proc.devRef .tc main_v44_1)) (W (Proc.devRef .tc main_arg5))
          (W (Proc.devRef .tc main_arg6)) := by
  show StableHlo.after hostOps2 W (Proc.devRef .tc main_v58) = _
  simp only [hostOps2]
  after_results_simp
  rfl

/-- Second layer: the multiplier's array, the same function of that layer's sums and coefficients. -/
theorem hostOps5_v88 (W : Valuation τ sig (Elt F)) :
    StableHlo.after hostOps5 W (Proc.devRef .tc main_v88)
      = kScale (W (Proc.devRef .tc main_v77_0)) (W (Proc.devRef .tc main_v77_1)) (W (Proc.devRef .tc main_arg9)) := by
  show StableHlo.after hostOps5 W (Proc.devRef .tc main_v88) = _
  simp only [hostOps5]
  after_results_simp
  rfl

/-- Second layer: the offset's array. -/
theorem hostOps5_v91 (W : Valuation τ sig (Elt F)) :
    StableHlo.after hostOps5 W (Proc.devRef .tc main_v91)
      = kShift (W (Proc.devRef .tc main_v77_0)) (W (Proc.devRef .tc main_v77_1)) (W (Proc.devRef .tc main_arg9))
          (W (Proc.devRef .tc main_arg10)) := by
  show StableHlo.after hostOps5 W (Proc.devRef .tc main_v91) = _
  simp only [hostOps5]
  after_results_simp
  rfl

/-! ## The membership table and the graph sizes -/

/-- The membership table: entry `(n, g)` is one when node `n`'s graph number equals `g` and zero otherwise —
    the graph numbers laid along the rows, the numbers `0 … 63` along the columns, compared for equality,
    the truth value read as a float. -/
def kOnehot (batch : (⟨S40000, .i32⟩ : BufTy).Contents (Elt F)) : (⟨S40000x64, .f32⟩ : BufTy).Contents (Elt F) :=
  (uitofp .f32 : (⟨S40000x64, .i1⟩ : BufTy).Contents (Elt F) → (⟨S40000x64, .f32⟩ : BufTy).Contents (Elt F))
    ((cmpi .eq : (⟨S40000x64, .i32⟩ : BufTy).Contents (Elt F) → (⟨S40000x64, .i32⟩ : BufTy).Contents (Elt F) → (⟨S40000x64, .i1⟩ : BufTy).Contents (Elt F))
      (broadcastInDim S40000x64 ![0, 1] bcast_S40000x1_S40000x64_0_1
        (broadcastInDim S40000x1 ![0] bcast_S40000_S40000x1_0 batch))
      (broadcastInDim S40000x64 ![0, 1] bcast_S1x64_S40000x64_0_1
        (broadcastInDim S1x64 ![1] bcast_S64_S1x64_1
          ((iotaInDim S64 32 0 : (⟨S64, .i32⟩ : BufTy).Contents (Elt F))))))

/-- The graph sizes: column `g` of the membership table summed over the 40000 nodes, from zero. -/
def kCnt (batch : (⟨S40000, .i32⟩ : BufTy).Contents (Elt F)) : (⟨S64, .f32⟩ : BufTy).Contents (Elt F) :=
  Host.reduceAdd (kOnehot batch) (constant S_ .f32 0x00000000#32) reducesTo_S40000x64_S64_d0 h_S_

/-- After the stretch before the pooling region, the table's array is `kOnehot` of the graph numbers. -/
theorem hostOps6_v99 (W : Valuation τ sig (Elt F)) :
    StableHlo.after hostOps6 W (Proc.devRef .tc main_v99) = kOnehot (W (Proc.devRef .tc main_arg2)) := by
  show StableHlo.after hostOps6 W (Proc.devRef .tc main_v99) = _
  simp only [hostOps6]
  after_results
  rfl

/-- After the same stretch the sizes' array is `kCnt` of the graph numbers. -/
theorem hostOps6_v100 (W : Valuation τ sig (Elt F)) :
    StableHlo.after hostOps6 W (Proc.devRef .tc main_v100) = kCnt (W (Proc.devRef .tc main_arg2)) := by
  show StableHlo.after hostOps6 W (Proc.devRef .tc main_v100) = _
  simp only [hostOps6]
  after_results
  rfl

/-! ## The last stretch: the pooled sums divided by the clamped graph sizes -/

/-- Row `g` of the pooled sums divided by `max (cnt g) 1`: the count vector clamped below at one, laid along
    the rows and repeated across the 256 columns, then the elementwise quotient. -/
def kFinal (s : (⟨S64x256, .f32⟩ : BufTy).Contents (Elt F)) (cnt : (⟨S64, .f32⟩ : BufTy).Contents (Elt F)) :
    (⟨S64x256, .f32⟩ : BufTy).Contents (Elt F) :=
  Host.divf s
    (broadcastInDim S64x256 ![0, 1] bcast_S64x1_S64x256_0_1
      (broadcastInDim S64x1 ![0] bcast_S64_S64x1_0
        (maximumf cnt (broadcastInDim S64 ![] bcast_S_S64 (constant S_ .f32 0x3F800000#32)))))

/-- After the last stretch the result array is `kFinal` of the pooled sums and the counts it found. -/
theorem hostOps7_v106 (W : Valuation τ sig (Elt F)) :
    StableHlo.after hostOps7 W (Proc.devRef .tc main_v106)
      = kFinal (W (Proc.devRef .tc main_v101)) (W (Proc.devRef .tc main_v100)) := by
  show StableHlo.after hostOps7 W (Proc.devRef .tc main_v106) = _
  simp only [hostOps7]
  after_results
  rfl

end Cert.KernelIdeal.Hand

end
-- ==== Proof.Spec.lean ====
/-
  What each kernel region of the two-layer graph convolution computes, as one whole-array function over the
  extended reals: the dense product of a node-feature matrix with a square weight matrix, the column sums and
  column sums of squares over the node axis (the batch-norm statistics), the per-column affine map followed by
  the positive part, and the product of a transposed one-hot membership matrix with the node features (the
  per-graph sums).  Indices are built from coordinates; every shape is literal.
-/
import Idealize.ShloMosaic.PureOps.Ideal
import Idealize.ShloMosaic.Lib.ValueIdx

noncomputable section

open scoped BigOperators

namespace Cert.Spec

open Idealize.ShloMosaic Idealize.ShloMosaic.ValueIdx

/-- 40000 nodes by 256 features. -/
abbrev SNH : Shape := ⟨2, ![40000, 256]⟩
/-- A 256 by 256 weight matrix. -/
abbrev SHH : Shape := ⟨2, ![256, 256]⟩
/-- One row of 256 features. -/
abbrev S1H : Shape := ⟨2, ![1, 256]⟩
/-- 40000 nodes by 64 graphs. -/
abbrev SNG : Shape := ⟨2, ![40000, 64]⟩
/-- 64 graphs by 256 features. -/
abbrev SGH : Shape := ⟨2, ![64, 256]⟩

/-- The matrix product: entry (i, j) is the sum over k of x[i, k] * w[k, j]. -/
def mm (x : SNH.Idx → EReal) (w : SHH.Idx → EReal) : SNH.Idx → EReal :=
  fun i => ∑ k : Fin 256, x (ix2 (i 0) k) * w (ix2 k (i 1))

/-- The sum of each column over the 40000 rows, kept as one row. -/
def colSum (x : SNH.Idx → EReal) : S1H.Idx → EReal :=
  fun j => ∑ n : Fin 40000, x (ix2 n (j 1))

/-- The sum of the squares of each column over the 40000 rows, kept as one row. -/
def colSumSq (x : SNH.Idx → EReal) : S1H.Idx → EReal :=
  fun j => ∑ n : Fin 40000, x (ix2 n (j 1)) * x (ix2 n (j 1))

/-- Column-wise scale and shift, then the positive part: max (x[i, j] * sc[0, j] + sh[0, j]) 0. -/
def affRelu (x : SNH.Idx → EReal) (sc sh : S1H.Idx → EReal) : SNH.Idx → EReal :=
  fun i => max (x i * sc (ix2 0 (i 1)) + sh (ix2 0 (i 1))) 0

/-- The per-graph sums through a membership matrix: entry (g, j) is the sum over nodes n of oh[n, g] * h[n, j]. -/
def poolSum (h : SNH.Idx → EReal) (oh : SNG.Idx → EReal) : SGH.Idx → EReal :=
  fun g => ∑ n : Fin 40000, oh (ix2 n (g 0)) * h (ix2 n (g 1))

end Cert.Spec

end
-- ==== Proof.Bridge.KOut.lean ====
/-
  The kernel program's result as ONE composition over the extended reals: two graph-convolution layers, each a
  dense product with the layer's weights, the degree-normalised aggregation over the edges (with self-loops) plus
  the bias, and batch normalisation folded into a per-column scale and shift followed by the positive part; then
  the per-graph sums through the membership table, divided by the graph sizes clamped below at one.
  The dense products, the column statistics, the scale-shift-clamp and the membership sums are the kernel regions'
  whole-array functions; everything else is the program's own host arithmetic.
-/
import proofs.«406782_j35519379538031_1_alg».proof.Proof.KI.Host
import proofs.«406782_j35519379538031_1_alg».proof.Proof.Spec

noncomputable section

namespace Cert.KernelIdeal.Hand

open Cert.KernelIdeal Cert.KernelIdeal.Gen
open Idealize.ShloMosaic

/-- The aggregate a layer normalises: the features times the weights, gathered along the edges, weighted by the
    symmetric degree normalisation, summed into the target nodes, plus the bias. -/
def kAggOf (hin : (⟨S40000x256, .f32⟩ : BufTy).Contents (Elt Ideal)) (W : (⟨S256x256, .f32⟩ : BufTy).Contents (Elt Ideal))
    (b : (⟨S256, .f32⟩ : BufTy).Contents (Elt Ideal)) (ei : (⟨S2x640000, .i32⟩ : BufTy).Contents (Elt Ideal)) :
    (⟨S40000x256, .f32⟩ : BufTy).Contents (Elt Ideal) :=
  kAgg (F := Ideal) (Cert.Spec.mm hin W) (kSrc ei) (kDst ei) (kNorm ei) b

/-- One layer: the aggregate, then each column scaled and shifted by what its sum and its sum of squares
    determine, then the positive part. -/
def kLayer (hin : (⟨S40000x256, .f32⟩ : BufTy).Contents (Elt Ideal)) (W : (⟨S256x256, .f32⟩ : BufTy).Contents (Elt Ideal))
    (b g be : (⟨S256, .f32⟩ : BufTy).Contents (Elt Ideal)) (ei : (⟨S2x640000, .i32⟩ : BufTy).Contents (Elt Ideal)) :
    (⟨S40000x256, .f32⟩ : BufTy).Contents (Elt Ideal) :=
  Cert.Spec.affRelu (kAggOf hin W b ei)
    (kScale (F := Ideal) (Cert.Spec.colSum (kAggOf hin W b ei)) (Cert.Spec.colSumSq (kAggOf hin W b ei)) g)
    (kShift (F := Ideal) (Cert.Spec.colSum (kAggOf hin W b ei)) (Cert.Spec.colSumSq (kAggOf hin W b ei)) g be)

/-- The whole program: two layers, the membership sums, the division by the clamped graph sizes. -/
def kOut (x : (⟨S40000x256, .f32⟩ : BufTy).Contents (Elt Ideal)) (ei : (⟨S2x640000, .i32⟩ : BufTy).Contents (Elt Ideal))
    (batch : (⟨S40000, .i32⟩ : BufTy).Contents (Elt Ideal))
    (W1 : (⟨S256x256, .f32⟩ : BufTy).Contents (Elt Ideal)) (b1 g1 be1 : (⟨S256, .f32⟩ : BufTy).Contents (Elt Ideal))
    (W2 : (⟨S256x256, .f32⟩ : BufTy).Contents (Elt Ideal)) (b2 g2 be2 : (⟨S256, .f32⟩ : BufTy).Contents (Elt Ideal)) :
    (⟨S64x256, .f32⟩ : BufTy).Contents (Elt Ideal) :=
  kFinal (F := Ideal)
    (Cert.Spec.poolSum (kLayer (kLayer x W1 b1 g1 be1 ei) W2 b2 g2 be2 ei) (kOnehot (F := Ideal) batch))
    (kCnt (F := Ideal) batch)

end Cert.KernelIdeal.Hand

end
-- ==== Proof.KI.Read.lean ====
/-
  The kernel program's result read back through the fold of buffer contents: granted what each kernel region
  leaves in its output array as a whole-array function of what it found in its input arrays, the result array at
  the return is the composition `kOut` of the launch contents of the eleven arguments.  One small statement per
  boundary and buffer: a stretch's result is its stage function of what the stretch read, a region's output is
  the granted function of what the region read, and a buffer that a piece does not write is carried across it.
-/
import proofs.«406782_j35519379538031_1_alg».proof.Proof.KI.Fold
import proofs.«406782_j35519379538031_1_alg».proof.Proof.KI.Host
import proofs.«406782_j35519379538031_1_alg».proof.Proof.Bridge.KOut
import proofs.«406782_j35519379538031_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem

/-! ## What is granted of the regions -/

/-- Region 0 leaves the product of its first array with its second. -/
abbrev Hv0 : Prop := ∀ (V : (c : Dev nD) → (b : Ref sig .tc) → Buf (Elt Ideal) ((c : Thread nD τ).loc b)) (c : Dev nD),
  (dat0 (F := Ideal) V c).arrAt 2 cfg0.N = Cert.Spec.mm (V c main_arg0) (V c main_arg3)
/-- Region 1 leaves the column sums of its input … -/
abbrev Hv1s : Prop := ∀ (V : (c : Dev nD) → (b : Ref sig .tc) → Buf (Elt Ideal) ((c : Thread nD τ).loc b)) (c : Dev nD),
  (dat1 (F := Ideal) V c).arrAt 1 cfg1.N = Cert.Spec.colSum (V c main_v43)
/-- … and the column sums of its squares. -/
abbrev Hv1q : Prop := ∀ (V : (c : Dev nD) → (b : Ref sig .tc) → Buf (Elt Ideal) ((c : Thread nD τ).loc b)) (c : Dev nD),
  (dat1 (F := Ideal) V c).arrAt 2 cfg1.N = Cert.Spec.colSumSq (V c main_v43)
/-- Region 2 leaves its input scaled and shifted column by column, clamped below at zero. -/
abbrev Hv2 : Prop := ∀ (V : (c : Dev nD) → (b : Ref sig .tc) → Buf (Elt Ideal) ((c : Thread nD τ).loc b)) (c : Dev nD),
  (dat2 (F := Ideal) V c).arrAt 3 cfg2.N = Cert.Spec.affRelu (V c main_v43) (V c main_v55) (V c main_v58)
/-- Region 3 leaves the product of its first array with its second. -/
abbrev Hv3 : Prop := ∀ (V : (c : Dev nD) → (b : Ref sig .tc) → Buf (Elt Ideal) ((c : Thread nD τ).loc b)) (c : Dev nD),
  (dat3 (F := Ideal) V c).arrAt 2 cfg3.N = Cert.Spec.mm (V c main_v59) (V c main_arg7)
/-- Region 4 leaves the column sums of its input … -/
abbrev Hv4s : Prop := ∀ (V : (c : Dev nD) → (b : Ref sig .tc) → Buf (Elt Ideal) ((c : Thread nD τ).loc b)) (c : Dev nD),
  (dat4 (F := Ideal) V c).arrAt 1 cfg4.N = Cert.Spec.colSum (V c main_v76)
/-- … and the column sums of its squares. -/
abbrev Hv4q : Prop := ∀ (V : (c : Dev nD) → (b : Ref sig .tc) → Buf (Elt Ideal) ((c : Thread nD τ).loc b)) (c : Dev nD),
  (dat4 (F := Ideal) V c).arrAt 2 cfg4.N = Cert.Spec.colSumSq (V c main_v76)
/-- Region 5 leaves its input scaled and shifted column by column, clamped below at zero. -/
abbrev Hv5 : Prop := ∀ (V : (c : Dev nD) → (b : Ref sig .tc) → Buf (Elt Ideal) ((c : Thread nD τ).loc b)) (c : Dev nD),
  (dat5 (F := Ideal) V c).arrAt 3 cfg5.N = Cert.Spec.affRelu (V c main_v76) (V c main_v88) (V c main_v91)
/-- Region 6 leaves the per-graph sums of its first array through the membership table, its second. -/
abbrev Hv6 : Prop := ∀ (V : (c : Dev nD) → (b : Ref sig .tc) → Buf (Elt Ideal) ((c : Thread nD τ).loc b)) (c : Dev nD),
  (dat6 (F := Ideal) V c).arrAt 2 cfg6.N = Cert.Spec.poolSum (V c main_v92) (V c main_v99)

/-! ## Equal arguments, equal values -/

theorem congr3 {α β γ δ : Sort _} (f : α → β → γ → δ) {a a' : α} {b b' : β} {c c' : γ}
    (ha : a = a') (hb : b = b') (hc : c = c') : f a b c = f a' b' c' := by subst ha hb hc; rfl
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl
theorem congr5 {α β γ δ ε ζ : Sort _} (f : α → β → γ → δ → ε → ζ) {a a' : α} {b b' : β} {c c' : γ} {d d' : δ}
    {e e' : ε} (ha : a = a') (hb : b = b') (hc : c = c') (hd : d = d') (he : e = e') :
    f a b c d e = f a' b' c' d' e' := by subst ha hb hc hd he; rfl

/-! ## The values along the way, over the launch memory -/

section Read

variable (m : (ℓ : Loc nD τ sig) → Buf (Elt Ideal) ℓ) (ρ : Dev nD → PrngReg) (c : Dev nD)

/-- What array `b` of core `c` holds at launch. -/
abbrev A (b : Ref sig .tc) : Buf (Elt Ideal) ((c : Thread nD τ).loc b) := m ((c : Thread nD τ).loc b)

/-- The first layer's aggregate. -/
def kAgg1 : (⟨S40000x256, .f32⟩ : BufTy).Contents (Elt Ideal) :=
  kAggOf (A m c main_arg0) (A m c main_arg3) (A m c main_arg4) (A m c main_arg1)
/-- The first layer's output. -/
def kH1 : (⟨S40000x256, .f32⟩ : BufTy).Contents (Elt Ideal) :=
  kLayer (A m c main_arg0) (A m c main_arg3) (A m c main_arg4) (A m c main_arg5) (A m c main_arg6) (A m c main_arg1)
/-- The second layer's aggregate. -/
def kAgg2 : (⟨S40000x256, .f32⟩ : BufTy).Contents (Elt Ideal) :=
  kAggOf (kH1 m c) (A m c main_arg7) (A m c main_arg8) (A m c main_arg1)
/-- The second layer's output. -/
def kH2 : (⟨S40000x256, .f32⟩ : BufTy).Contents (Elt Ideal) :=
  kLayer (kH1 m c) (A m c main_arg7) (A m c main_arg8) (A m c main_arg9) (A m c main_arg10) (A m c main_arg1)

/-! ## Boundary by boundary -/

/-! ### At launch every argument array holds the launch memory -/

theorem W0_arg0 :
    W0 m ρ c (Proc.devRef .tc main_arg0) = A m c main_arg0 :=
  rfl
theorem W0_arg1 :
    W0 m ρ c (Proc.devRef .tc main_arg1) = A m c main_arg1 :=
  rfl
theorem W0_arg2 :
    W0 m ρ c (Proc.devRef .tc main_arg2) = A m c main_arg2 :=
  rfl
theorem W0_arg3 :
    W0 m ρ c (Proc.devRef .tc main_arg3) = A m c main_arg3 :=
  rfl
theorem W0_arg4 :
    W0 m ρ c (Proc.devRef .tc main_arg4) = A m c main_arg4 :=
  rfl
theorem W0_arg5 :
    W0 m ρ c (Proc.devRef .tc main_arg5) = A m c main_arg5 :=
  rfl
theorem W0_arg6 :
    W0 m ρ c (Proc.devRef .tc main_arg6) = A m c main_arg6 :=
  rfl
theorem W0_arg7 :
    W0 m ρ c (Proc.devRef .tc main_arg7) = A m c main_arg7 :=
  rfl
theorem W0_arg8 :
    W0 m ρ c (Proc.devRef .tc main_arg8) = A m c main_arg8 :=
  rfl
theorem W0_arg9 :
    W0 m ρ c (Proc.devRef .tc main_arg9) = A m c main_arg9 :=
  rfl
theorem W0_arg10 :
    W0 m ρ c (Proc.devRef .tc main_arg10) = A m c main_arg10 :=
  rfl

/-! ### The arguments, carried to the boundaries where they are read: no stretch writes one, and no region on the way has one as a window -/

theorem W1_arg0 :
    W1 m ρ c (Proc.devRef .tc main_arg0) = A m c main_arg0 :=
  (StableHlo.after_of_writes_sub hostOps0 _ hostOps0_writes (by decide)).trans (W0_arg0 m ρ c)
theorem W1_arg3 :
    W1 m ρ c (Proc.devRef .tc main_arg3) = A m c main_arg3 :=
  (StableHlo.after_of_writes_sub hostOps0 _ hostOps0_writes (by decide)).trans (W0_arg3 m ρ c)
theorem W1_arg4 :
    W1 m ρ c (Proc.devRef .tc main_arg4) = A m c main_arg4 :=
  (StableHlo.after_of_writes_sub hostOps0 _ hostOps0_writes (by decide)).trans (W0_arg4 m ρ c)
theorem W2_arg4 :
    W2 m ρ c (Proc.devRef .tc main_arg4) = A m c main_arg4 :=
  (W2_of_ne m ρ c main_arg4 (by decide)).trans (W1_arg4 m ρ c)
theorem W1_arg5 :
    W1 m ρ c (Proc.devRef .tc main_arg5) = A m c main_arg5 :=
  (StableHlo.after_of_writes_sub hostOps0 _ hostOps0_writes (by decide)).trans (W0_arg5 m ρ c)
theorem W2_arg5 :
    W2 m ρ c (Proc.devRef .tc main_arg5) = A m c main_arg5 :=
  (W2_of_ne m ρ c main_arg5 (by decide)).trans (W1_arg5 m ρ c)
theorem W3_arg5 :
    W3 m ρ c (Proc.devRef .tc main_arg5) = A m c main_arg5 :=
  (StableHlo.after_of_writes_sub hostOps1 _ hostOps1_writes (by decide)).trans (W2_arg5 m ρ c)
theorem W4_arg5 :
    W4 m ρ c (Proc.devRef .tc main_arg5) = A m c main_arg5 :=
  (W4_of_ne m ρ c main_arg5 (by decide)).trans (W3_arg5 m ρ c)
theorem W1_arg6 :
    W1 m ρ c (Proc.devRef .tc main_arg6) = A m c main_arg6 :=
  (StableHlo.after_of_writes_sub hostOps0 _ hostOps0_writes (by decide)).trans (W0_arg6 m ρ c)
theorem W2_arg6 :
    W2 m ρ c (Proc.devRef .tc main_arg6) = A m c main_arg6 :=
  (W2_of_ne m ρ c main_arg6 (by decide)).trans (W1_arg6 m ρ c)
theorem W3_arg6 :
    W3 m ρ c (Proc.devRef .tc main_arg6) = A m c main_arg6 :=
  (StableHlo.after_of_writes_sub hostOps1 _ hostOps1_writes (by decide)).trans (W2_arg6 m ρ c)
theorem W4_arg6 :
    W4 m ρ c (Proc.devRef .tc main_arg6) = A m c main_arg6 :=
  (W4_of_ne m ρ c main_arg6 (by decide)).trans (W3_arg6 m ρ c)
theorem W1_arg7 :
    W1 m ρ c (Proc.devRef .tc main_arg7) = A m c main_arg7 :=
  (StableHlo.after_of_writes_sub hostOps0 _ hostOps0_writes (by decide)).trans (W0_arg7 m ρ c)
theorem W2_arg7 :
    W2 m ρ c (Proc.devRef .tc main_arg7) = A m c main_arg7 :=
  (W2_of_ne m ρ c main_arg7 (by decide)).trans (W1_arg7 m ρ c)
theorem W3_arg7 :
    W3 m ρ c (Proc.devRef .tc main_arg7) = A m c main_arg7 :=
  (StableHlo.after_of_writes_sub hostOps1 _ hostOps1_writes (by decide)).trans (W2_arg7 m ρ c)
theorem W4_arg7 :
    W4 m ρ c (Proc.devRef .tc main_arg7) = A m c main_arg7 :=
  (W4_of_ne m ρ c main_arg7 (by decide)).trans (W3_arg7 m ρ c)
theorem W5_arg7 :
    W5 m ρ c (Proc.devRef .tc main_arg7) = A m c main_arg7 :=
  (StableHlo.after_of_writes_sub hostOps2 _ hostOps2_writes (by decide)).trans (W4_arg7 m ρ c)
theorem W6_arg7 :
    W6 m ρ c (Proc.devRef .tc main_arg7) = A m c main_arg7 :=
  (W6_of_ne m ρ c main_arg7 (by decide)).trans (W5_arg7 m ρ c)
theorem W1_arg8 :
    W1 m ρ c (Proc.devRef .tc main_arg8) = A m c main_arg8 :=
  (StableHlo.after_of_writes_sub hostOps0 _ hostOps0_writes (by decide)).trans (W0_arg8 m ρ c)
theorem W2_arg8 :
    W2 m ρ c (Proc.devRef .tc main_arg8) = A m c main_arg8 :=
  (W2_of_ne m ρ c main_arg8 (by decide)).trans (W1_arg8 m ρ c)
theorem W3_arg8 :
    W3 m ρ c (Proc.devRef .tc main_arg8) = A m c main_arg8 :=
  (StableHlo.after_of_writes_sub hostOps1 _ hostOps1_writes (by decide)).trans (W2_arg8 m ρ c)
theorem W4_arg8 :
    W4 m ρ c (Proc.devRef .tc main_arg8) = A m c main_arg8 :=
  (W4_of_ne m ρ c main_arg8 (by decide)).trans (W3_arg8 m ρ c)
theorem W5_arg8 :
    W5 m ρ c (Proc.devRef .tc main_arg8) = A m c main_arg8 :=
  (StableHlo.after_of_writes_sub hostOps2 _ hostOps2_writes (by decide)).trans (W4_arg8 m ρ c)
theorem W6_arg8 :
    W6 m ρ c (Proc.devRef .tc main_arg8) = A m c main_arg8 :=
  (W6_of_ne m ρ c main_arg8 (by decide)).trans (W5_arg8 m ρ c)
theorem W7_arg8 :
    W7 m ρ c (Proc.devRef .tc main_arg8) = A m c main_arg8 :=
  (W7_of_ne m ρ c main_arg8 (by decide)).trans (W6_arg8 m ρ c)
theorem W1_arg9 :
    W1 m ρ c (Proc.devRef .tc main_arg9) = A m c main_arg9 :=
  (StableHlo.after_of_writes_sub hostOps0 _ hostOps0_writes (by decide)).trans (W0_arg9 m ρ c)
theorem W2_arg9 :
    W2 m ρ c (Proc.devRef .tc main_arg9) = A m c main_arg9 :=
  (W2_of_ne m ρ c main_arg9 (by decide)).trans (W1_arg9 m ρ c)
theorem W3_arg9 :
    W3 m ρ c (Proc.devRef .tc main_arg9) = A m c main_arg9 :=
  (StableHlo.after_of_writes_sub hostOps1 _ hostOps1_writes (by decide)).trans (W2_arg9 m ρ c)
theorem W4_arg9 :
    W4 m ρ c (Proc.devRef .tc main_arg9) = A m c main_arg9 :=
  (W4_of_ne m ρ c main_arg9 (by decide)).trans (W3_arg9 m ρ c)
theorem W5_arg9 :
    W5 m ρ c (Proc.devRef .tc main_arg9) = A m c main_arg9 :=
  (StableHlo.after_of_writes_sub hostOps2 _ hostOps2_writes (by decide)).trans (W4_arg9 m ρ c)
theorem W6_arg9 :
    W6 m ρ c (Proc.devRef .tc main_arg9) = A m c main_arg9 :=
  (W6_of_ne m ρ c main_arg9 (by decide)).trans (W5_arg9 m ρ c)
theorem W7_arg9 :
    W7 m ρ c (Proc.devRef .tc main_arg9) = A m c main_arg9 :=
  (W7_of_ne m ρ c main_arg9 (by decide)).trans (W6_arg9 m ρ c)
theorem W8_arg9 :
    W8 m ρ c (Proc.devRef .tc main_arg9) = A m c main_arg9 :=
  (StableHlo.after_of_writes_sub hostOps4 _ hostOps4_writes (by decide)).trans (W7_arg9 m ρ c)
theorem W9_arg9 :
    W9 m ρ c (Proc.devRef .tc main_arg9) = A m c main_arg9 :=
  (W9_of_ne m ρ c main_arg9 (by decide)).trans (W8_arg9 m ρ c)
theorem W1_arg10 :
    W1 m ρ c (Proc.devRef .tc main_arg10) = A m c main_arg10 :=
  (StableHlo.after_of_writes_sub hostOps0 _ hostOps0_writes (by decide)).trans (W0_arg10 m ρ c)
theorem W2_arg10 :
    W2 m ρ c (Proc.devRef .tc main_arg10) = A m c main_arg10 :=
  (W2_of_ne m ρ c main_arg10 (by decide)).trans (W1_arg10 m ρ c)
theorem W3_arg10 :
    W3 m ρ c (Proc.devRef .tc main_arg10) = A m c main_arg10 :=
  (StableHlo.after_of_writes_sub hostOps1 _ hostOps1_writes (by decide)).trans (W2_arg10 m ρ c)
theorem W4_arg10 :
    W4 m ρ c (Proc.devRef .tc main_arg10) = A m c main_arg10 :=
  (W4_of_ne m ρ c main_arg10 (by decide)).trans (W3_arg10 m ρ c)
theorem W5_arg10 :
    W5 m ρ c (Proc.devRef .tc main_arg10) = A m c main_arg10 :=
  (StableHlo.after_of_writes_sub hostOps2 _ hostOps2_writes (by decide)).trans (W4_arg10 m ρ c)
theorem W6_arg10 :
    W6 m ρ c (Proc.devRef .tc main_arg10) = A m c main_arg10 :=
  (W6_of_ne m ρ c main_arg10 (by decide)).trans (W5_arg10 m ρ c)
theorem W7_arg10 :
    W7 m ρ c (Proc.devRef .tc main_arg10) = A m c main_arg10 :=
  (W7_of_ne m ρ c main_arg10 (by decide)).trans (W6_arg10 m ρ c)
theorem W8_arg10 :
    W8 m ρ c (Proc.devRef .tc main_arg10) = A m c main_arg10 :=
  (StableHlo.after_of_writes_sub hostOps4 _ hostOps4_writes (by decide)).trans (W7_arg10 m ρ c)
theorem W9_arg10 :
    W9 m ρ c (Proc.devRef .tc main_arg10) = A m c main_arg10 :=
  (W9_of_ne m ρ c main_arg10 (by decide)).trans (W8_arg10 m ρ c)
theorem W1_arg2 :
    W1 m ρ c (Proc.devRef .tc main_arg2) = A m c main_arg2 :=
  (StableHlo.after_of_writes_sub hostOps0 _ hostOps0_writes (by decide)).trans (W0_arg2 m ρ c)
theorem W2_arg2 :
    W2 m ρ c (Proc.devRef .tc main_arg2) = A m c main_arg2 :=
  (W2_of_ne m ρ c main_arg2 (by decide)).trans (W1_arg2 m ρ c)
theorem W3_arg2 :
    W3 m ρ c (Proc.devRef .tc main_arg2) = A m c main_arg2 :=
  (StableHlo.after_of_writes_sub hostOps1 _ hostOps1_writes (by decide)).trans (W2_arg2 m ρ c)
theorem W4_arg2 :
    W4 m ρ c (Proc.devRef .tc main_arg2) = A m c main_arg2 :=
  (W4_of_ne m ρ c main_arg2 (by decide)).trans (W3_arg2 m ρ c)
theorem W5_arg2 :
    W5 m ρ c (Proc.devRef .tc main_arg2) = A m c main_arg2 :=
  (StableHlo.after_of_writes_sub hostOps2 _ hostOps2_writes (by decide)).trans (W4_arg2 m ρ c)
theorem W6_arg2 :
    W6 m ρ c (Proc.devRef .tc main_arg2) = A m c main_arg2 :=
  (W6_of_ne m ρ c main_arg2 (by decide)).trans (W5_arg2 m ρ c)
theorem W7_arg2 :
    W7 m ρ c (Proc.devRef .tc main_arg2) = A m c main_arg2 :=
  (W7_of_ne m ρ c main_arg2 (by decide)).trans (W6_arg2 m ρ c)
theorem W8_arg2 :
    W8 m ρ c (Proc.devRef .tc main_arg2) = A m c main_arg2 :=
  (StableHlo.after_of_writes_sub hostOps4 _ hostOps4_writes (by decide)).trans (W7_arg2 m ρ c)
theorem W9_arg2 :
    W9 m ρ c (Proc.devRef .tc main_arg2) = A m c main_arg2 :=
  (W9_of_ne m ρ c main_arg2 (by decide)).trans (W8_arg2 m ρ c)
theorem W10_arg2 :
    W10 m ρ c (Proc.devRef .tc main_arg2) = A m c main_arg2 :=
  (StableHlo.after_of_writes_sub hostOps5 _ hostOps5_writes (by decide)).trans (W9_arg2 m ρ c)
theorem W11_arg2 :
    W11 m ρ c (Proc.devRef .tc main_arg2) = A m c main_arg2 :=
  (W11_of_ne m ρ c main_arg2 (by decide)).trans (W10_arg2 m ρ c)

/-! ### After the first stretch: the edge ends and the edge weights -/

theorem W1_v3 :
    W1 m ρ c (Proc.devRef .tc main_v3) = kSrc (F := Ideal) (A m c main_arg1) :=
  hostOps0_v3 (W0 m ρ c)
theorem W1_v6 :
    W1 m ρ c (Proc.devRef .tc main_v6) = kDst (F := Ideal) (A m c main_arg1) :=
  hostOps0_v6 (W0 m ρ c)
theorem W1_v26 :
    W1 m ρ c (Proc.devRef .tc main_v26) = kNorm (F := Ideal) (A m c main_arg1) :=
  hostOps0_v26 (W0 m ρ c)

/-! ### They are read again by both aggregation stretches: carried to the entry of the second one -/

theorem W2_v3 :
    W2 m ρ c (Proc.devRef .tc main_v3) = kSrc (F := Ideal) (A m c main_arg1) :=
  (W2_of_ne m ρ c main_v3 (by decide)).trans (W1_v3 m ρ c)
theorem W3_v3 :
    W3 m ρ c (Proc.devRef .tc main_v3) = kSrc (F := Ideal) (A m c main_arg1) :=
  (StableHlo.after_of_writes_sub hostOps1 _ hostOps1_writes (by decide)).trans (W2_v3 m ρ c)
theorem W4_v3 :
    W4 m ρ c (Proc.devRef .tc main_v3) = kSrc (F := Ideal) (A m c main_arg1) :=
  (W4_of_ne m ρ c main_v3 (by decide)).trans (W3_v3 m ρ c)
theorem W5_v3 :
    W5 m ρ c (Proc.devRef .tc main_v3) = kSrc (F := Ideal) (A m c main_arg1) :=
  (StableHlo.after_of_writes_sub hostOps2 _ hostOps2_writes (by decide)).trans (W4_v3 m ρ c)
theorem W6_v3 :
    W6 m ρ c (Proc.devRef .tc main_v3) = kSrc (F := Ideal) (A m c main_arg1) :=
  (W6_of_ne m ρ c main_v3 (by decide)).trans (W5_v3 m ρ c)
theorem W7_v3 :
    W7 m ρ c (Proc.devRef .tc main_v3) = kSrc (F := Ideal) (A m c main_arg1) :=
  (W7_of_ne m ρ c main_v3 (by decide)).trans (W6_v3 m ρ c)
theorem W2_v6 :
    W2 m ρ c (Proc.devRef .tc main_v6) = kDst (F := Ideal) (A m c main_arg1) :=
  (W2_of_ne m ρ c main_v6 (by decide)).trans (W1_v6 m ρ c)
theorem W3_v6 :
    W3 m ρ c (Proc.devRef .tc main_v6) = kDst (F := Ideal) (A m c main_arg1) :=
  (StableHlo.after_of_writes_sub hostOps1 _ hostOps1_writes (by decide)).trans (W2_v6 m ρ c)
theorem W4_v6 :
    W4 m ρ c (Proc.devRef .tc main_v6) = kDst (F := Ideal) (A m c main_arg1) :=
  (W4_of_ne m ρ c main_v6 (by decide)).trans (W3_v6 m ρ c)
theorem W5_v6 :
    W5 m ρ c (Proc.devRef .tc main_v6) = kDst (F := Ideal) (A m c main_arg1) :=
  (StableHlo.after_of_writes_sub hostOps2 _ hostOps2_writes (by decide)).trans (W4_v6 m ρ c)
theorem W6_v6 :
    W6 m ρ c (Proc.devRef .tc main_v6) = kDst (F := Ideal) (A m c main_arg1) :=
  (W6_of_ne m ρ c main_v6 (by decide)).trans (W5_v6 m ρ c)
theorem W7_v6 :
    W7 m ρ c (Proc.devRef .tc main_v6) = kDst (F := Ideal) (A m c main_arg1) :=
  (W7_of_ne m ρ c main_v6 (by decide)).trans (W6_v6 m ρ c)
theorem W2_v26 :
    W2 m ρ c (Proc.devRef .tc main_v26) = kNorm (F := Ideal) (A m c main_arg1) :=
  (W2_of_ne m ρ c main_v26 (by decide)).trans (W1_v26 m ρ c)
theorem W3_v26 :
    W3 m ρ c (Proc.devRef .tc main_v26) = kNorm (F := Ideal) (A m c main_arg1) :=
  (StableHlo.after_of_writes_sub hostOps1 _ hostOps1_writes (by decide)).trans (W2_v26 m ρ c)
theorem W4_v26 :
    W4 m ρ c (Proc.devRef .tc main_v26) = kNorm (F := Ideal) (A m c main_arg1) :=
  (W4_of_ne m ρ c main_v26 (by decide)).trans (W3_v26 m ρ c)
theorem W5_v26 :
    W5 m ρ c (Proc.devRef .tc main_v26) = kNorm (F := Ideal) (A m c main_arg1) :=
  (StableHlo.after_of_writes_sub hostOps2 _ hostOps2_writes (by decide)).trans (W4_v26 m ρ c)
theorem W6_v26 :
    W6 m ρ c (Proc.devRef .tc main_v26) = kNorm (F := Ideal) (A m c main_arg1) :=
  (W6_of_ne m ρ c main_v26 (by decide)).trans (W5_v26 m ρ c)
theorem W7_v26 :
    W7 m ρ c (Proc.devRef .tc main_v26) = kNorm (F := Ideal) (A m c main_arg1) :=
  (W7_of_ne m ρ c main_v26 (by decide)).trans (W6_v26 m ρ c)

/-! ### First layer -/

/-- The first product region leaves the product of the features with the first weights. -/
theorem W2_v27 (hv0 : Hv0) :
    W2 m ρ c (Proc.devRef .tc main_v27) = Cert.Spec.mm (A m c main_arg0) (A m c main_arg3) :=
  (W2_arr m ρ c 2).trans ((hv0 (V1 m ρ) c).trans (congrArg₂ Cert.Spec.mm (W1_arg0 m ρ c) (W1_arg3 m ρ c)))
/-- The stretch after it leaves the first layer's aggregate. -/
theorem W3_v43 (hv0 : Hv0) :
    W3 m ρ c (Proc.devRef .tc main_v43) = kAgg1 m c :=
  (hostOps1_v43 (W2 m ρ c)).trans (congr5 (kAgg (F := Ideal)) (W2_v27 m ρ c hv0) (W2_v3 m ρ c) (W2_v6 m ρ c) (W2_v26 m ρ c) (W2_arg4 m ρ c))
theorem W4_v43 (hv0 : Hv0) :
    W4 m ρ c (Proc.devRef .tc main_v43) = kAgg1 m c :=
  (W4_in m ρ c 0 rfl).trans (W3_v43 m ρ c hv0)
theorem W5_v43 (hv0 : Hv0) :
    W5 m ρ c (Proc.devRef .tc main_v43) = kAgg1 m c :=
  (StableHlo.after_of_writes_sub hostOps2 _ hostOps2_writes (by decide)).trans (W4_v43 m ρ c hv0)
/-- The statistics region leaves the aggregate's column sums … -/
theorem W4_v44_0 (hv0 : Hv0) (hv1s : Hv1s) :
    W4 m ρ c (Proc.devRef .tc main_v44_0) = Cert.Spec.colSum (kAgg1 m c) :=
  (W4_arr m ρ c 1).trans ((hv1s (V3 m ρ) c).trans (congrArg Cert.Spec.colSum (W3_v43 m ρ c hv0)))
/-- … and its column sums of squares. -/
theorem W4_v44_1 (hv0 : Hv0) (hv1q : Hv1q) :
    W4 m ρ c (Proc.devRef .tc main_v44_1) = Cert.Spec.colSumSq (kAgg1 m c) :=
  (W4_arr m ρ c 2).trans ((hv1q (V3 m ρ) c).trans (congrArg Cert.Spec.colSumSq (W3_v43 m ρ c hv0)))
/-- The stretch after it leaves the columns' multipliers … -/
theorem W5_v55 (hv0 : Hv0) (hv1s : Hv1s) (hv1q : Hv1q) :
    W5 m ρ c (Proc.devRef .tc main_v55) = kScale (F := Ideal) (Cert.Spec.colSum (kAgg1 m c)) (Cert.Spec.colSumSq (kAgg1 m c)) (A m c main_arg5) :=
  (hostOps2_v55 (W4 m ρ c)).trans (congr3 (kScale (F := Ideal)) (W4_v44_0 m ρ c hv0 hv1s) (W4_v44_1 m ρ c hv0 hv1q) (W4_arg5 m ρ c))
/-- … and offsets. -/
theorem W5_v58 (hv0 : Hv0) (hv1s : Hv1s) (hv1q : Hv1q) :
    W5 m ρ c (Proc.devRef .tc main_v58) = kShift (F := Ideal) (Cert.Spec.colSum (kAgg1 m c)) (Cert.Spec.colSumSq (kAgg1 m c)) (A m c main_arg5) (A m c main_arg6) :=
  (hostOps2_v58 (W4 m ρ c)).trans (congr4 (kShift (F := Ideal)) (W4_v44_0 m ρ c hv0 hv1s) (W4_v44_1 m ρ c hv0 hv1q) (W4_arg5 m ρ c) (W4_arg6 m ρ c))
/-- The scale-shift-clamp region leaves the first layer's output. -/
theorem W6_v59 (hv0 : Hv0) (hv1s : Hv1s) (hv1q : Hv1q) (hv2 : Hv2) :
    W6 m ρ c (Proc.devRef .tc main_v59) = kH1 m c :=
  (W6_arr m ρ c 3).trans ((hv2 (V5 m ρ) c).trans (congr3 Cert.Spec.affRelu (W5_v43 m ρ c hv0) (W5_v55 m ρ c hv0 hv1s hv1q) (W5_v58 m ρ c hv0 hv1s hv1q)))

/-! ### Second layer -/

/-- The second product region leaves the product of the first layer's output with the second weights. -/
theorem W7_v60 (hv0 : Hv0) (hv1s : Hv1s) (hv1q : Hv1q) (hv2 : Hv2) (hv3 : Hv3) :
    W7 m ρ c (Proc.devRef .tc main_v60) = Cert.Spec.mm (kH1 m c) (A m c main_arg7) :=
  (W7_arr m ρ c 2).trans ((hv3 (V6 m ρ) c).trans (congrArg₂ Cert.Spec.mm (W6_v59 m ρ c hv0 hv1s hv1q hv2) (W6_arg7 m ρ c)))
/-- The stretch after it leaves the second layer's aggregate. -/
theorem W8_v76 (hv0 : Hv0) (hv1s : Hv1s) (hv1q : Hv1q) (hv2 : Hv2) (hv3 : Hv3) :
    W8 m ρ c (Proc.devRef .tc main_v76) = kAgg2 m c :=
  (hostOps4_v76 (W7 m ρ c)).trans (congr5 (kAgg (F := Ideal)) (W7_v60 m ρ c hv0 hv1s hv1q hv2 hv3) (W7_v3 m ρ c) (W7_v6 m ρ c) (W7_v26 m ρ c) (W7_arg8 m ρ c))
theorem W9_v76 (hv0 : Hv0) (hv1s : Hv1s) (hv1q : Hv1q) (hv2 : Hv2) (hv3 : Hv3) :
    W9 m ρ c (Proc.devRef .tc main_v76) = kAgg2 m c :=
  (W9_in m ρ c 0 rfl).trans (W8_v76 m ρ c hv0 hv1s hv1q hv2 hv3)
theorem W10_v76 (hv0 : Hv0) (hv1s : Hv1s) (hv1q : Hv1q) (hv2 : Hv2) (hv3 : Hv3) :
    W10 m ρ c (Proc.devRef .tc main_v76) = kAgg2 m c :=
  (StableHlo.after_of_writes_sub hostOps5 _ hostOps5_writes (by decide)).trans (W9_v76 m ρ c hv0 hv1s hv1q hv2 hv3)
theorem W9_v77_0 (hv0 : Hv0) (hv1s : Hv1s) (hv1q : Hv1q) (hv2 : Hv2) (hv3 : Hv3) (hv4s : Hv4s) :
    W9 m ρ c (Proc.devRef .tc main_v77_0) = Cert.Spec.colSum (kAgg2 m c) :=
  (W9_arr m ρ c 1).trans ((hv4s (V8 m ρ) c).trans (congrArg Cert.Spec.colSum (W8_v76 m ρ c hv0 hv1s hv1q hv2 hv3)))
theorem W9_v77_1 (hv0 : Hv0) (hv1s : Hv1s) (hv1q : Hv1q) (hv2 : Hv2) (hv3 : Hv3) (hv4q : Hv4q) :
    W9 m ρ c (Proc.devRef .tc main_v77_1) = Cert.Spec.colSumSq (kAgg2 m c) :=
  (W9_arr m ρ c 2).trans ((hv4q (V8 m ρ) c).trans (congrArg Cert.Spec.colSumSq (W8_v76 m ρ c hv0 hv1s hv1q hv2 hv3)))
theorem W10_v88 (hv0 : Hv0) (hv1s : Hv1s) (hv1q : Hv1q) (hv2 : Hv2) (hv3 : Hv3) (hv4s : Hv4s) (hv4q : Hv4q) :
    W10 m ρ c (Proc.devRef .tc main_v88) = kScale (F := Ideal) (Cert.Spec.colSum (kAgg2 m c)) (Cert.Spec.colSumSq (kAgg2 m c)) (A m c main_arg9) :=
  (hostOps5_v88 (W9 m ρ c)).trans (congr3 (kScale (F := Ideal)) (W9_v77_0 m ρ c hv0 hv1s hv1q hv2 hv3 hv4s) (W9_v77_1 m ρ c hv0 hv1s hv1q hv2 hv3 hv4q) (W9_arg9 m ρ c))
theorem W10_v91 (hv0 : Hv0) (hv1s : Hv1s) (hv1q : Hv1q) (hv2 : Hv2) (hv3 : Hv3) (hv4s : Hv4s) (hv4q : Hv4q) :
    W10 m ρ c (Proc.devRef .tc main_v91) = kShift (F := Ideal) (Cert.Spec.colSum (kAgg2 m c)) (Cert.Spec.colSumSq (kAgg2 m c)) (A m c main_arg9) (A m c main_arg10) :=
  (hostOps5_v91 (W9 m ρ c)).trans (congr4 (kShift (F := Ideal)) (W9_v77_0 m ρ c hv0 hv1s hv1q hv2 hv3 hv4s) (W9_v77_1 m ρ c hv0 hv1s hv1q hv2 hv3 hv4q) (W9_arg9 m ρ c) (W9_arg10 m ρ c))
/-- The second scale-shift-clamp region leaves the second layer's output. -/
theorem W11_v92 (hv0 : Hv0) (hv1s : Hv1s) (hv1q : Hv1q) (hv2 : Hv2) (hv3 : Hv3) (hv4s : Hv4s) (hv4q : Hv4q) (hv5 : Hv5) :
    W11 m ρ c (Proc.devRef .tc main_v92) = kH2 m c :=
  (W11_arr m ρ c 3).trans ((hv5 (V10 m ρ) c).trans (congr3 Cert.Spec.affRelu (W10_v76 m ρ c hv0 hv1s hv1q hv2 hv3) (W10_v88 m ρ c hv0 hv1s hv1q hv2 hv3 hv4s hv4q) (W10_v91 m ρ c hv0 hv1s hv1q hv2 hv3 hv4s hv4q)))

/-! ### The pooling -/

theorem W12_v92 (hv0 : Hv0) (hv1s : Hv1s) (hv1q : Hv1q) (hv2 : Hv2) (hv3 : Hv3) (hv4s : Hv4s) (hv4q : Hv4q) (hv5 : Hv5) :
    W12 m ρ c (Proc.devRef .tc main_v92) = kH2 m c :=
  (StableHlo.after_of_writes_sub hostOps6 _ hostOps6_writes (by decide)).trans (W11_v92 m ρ c hv0 hv1s hv1q hv2 hv3 hv4s hv4q hv5)
theorem W12_v99 :
    W12 m ρ c (Proc.devRef .tc main_v99) = kOnehot (F := Ideal) (A m c main_arg2) :=
  (hostOps6_v99 (W11 m ρ c)).trans (congrArg (kOnehot (F := Ideal)) (W11_arg2 m ρ c))
theorem W12_v100 :
    W12 m ρ c (Proc.devRef .tc main_v100) = kCnt (F := Ideal) (A m c main_arg2) :=
  (hostOps6_v100 (W11 m ρ c)).trans (congrArg (kCnt (F := Ideal)) (W11_arg2 m ρ c))
theorem W13_v100 :
    W13 m ρ c (Proc.devRef .tc main_v100) = kCnt (F := Ideal) (A m c main_arg2) :=
  (W13_of_ne m ρ c main_v100 (by decide)).trans (W12_v100 m ρ c)
/-- The pooling region leaves the per-graph sums of the second layer's output. -/
theorem W13_v101 (hv0 : Hv0) (hv1s : Hv1s) (hv1q : Hv1q) (hv2 : Hv2) (hv3 : Hv3) (hv4s : Hv4s) (hv4q : Hv4q) (hv5 : Hv5) (hv6 : Hv6) :
    W13 m ρ c (Proc.devRef .tc main_v101) = Cert.Spec.poolSum (kH2 m c) (kOnehot (F := Ideal) (A m c main_arg2)) :=
  (W13_arr m ρ c 2).trans ((hv6 (V12 m ρ) c).trans (congrArg₂ Cert.Spec.poolSum (W12_v92 m ρ c hv0 hv1s hv1q hv2 hv3 hv4s hv4q hv5) (W12_v99 m ρ c)))
/-- The last stretch leaves the sums divided by the clamped graph sizes. -/
theorem W14_v106 (hv0 : Hv0) (hv1s : Hv1s) (hv1q : Hv1q) (hv2 : Hv2) (hv3 : Hv3) (hv4s : Hv4s) (hv4q : Hv4q) (hv5 : Hv5) (hv6 : Hv6) :
    W14 m ρ c (Proc.devRef .tc main_v106) = kFinal (F := Ideal) (Cert.Spec.poolSum (kH2 m c) (kOnehot (F := Ideal) (A m c main_arg2))) (kCnt (F := Ideal) (A m c main_arg2)) :=
  (hostOps7_v106 (W13 m ρ c)).trans (congrArg₂ (kFinal (F := Ideal)) (W13_v101 m ρ c hv0 hv1s hv1q hv2 hv3 hv4s hv4q hv5 hv6) (W13_v100 m ρ c))

end Read

/-! ## The result -/

/-- Granted the regions' values, at the return the result array of every core is `kOut` of the launch contents
    of the eleven arguments. -/
theorem kernel_out
    (hv0 : ∀ (V : (c : Dev nD) → (b : Ref sig .tc) → Buf (Elt Ideal) ((c : Thread nD τ).loc b)) (c : Dev nD),
      (dat0 (F := Ideal) V c).arrAt 2 cfg0.N = Cert.Spec.mm (V c main_arg0) (V c main_arg3))
    (hv1s : ∀ (V : (c : Dev nD) → (b : Ref sig .tc) → Buf (Elt Ideal) ((c : Thread nD τ).loc b)) (c : Dev nD),
      (dat1 (F := Ideal) V c).arrAt 1 cfg1.N = Cert.Spec.colSum (V c main_v43))
    (hv1q : ∀ (V : (c : Dev nD) → (b : Ref sig .tc) → Buf (Elt Ideal) ((c : Thread nD τ).loc b)) (c : Dev nD),
      (dat1 (F := Ideal) V c).arrAt 2 cfg1.N = Cert.Spec.colSumSq (V c main_v43))
    (hv2 : ∀ (V : (c : Dev nD) → (b : Ref sig .tc) → Buf (Elt Ideal) ((c : Thread nD τ).loc b)) (c : Dev nD),
      (dat2 (F := Ideal) V c).arrAt 3 cfg2.N = Cert.Spec.affRelu (V c main_v43) (V c main_v55) (V c main_v58))
    (hv3 : ∀ (V : (c : Dev nD) → (b : Ref sig .tc) → Buf (Elt Ideal) ((c : Thread nD τ).loc b)) (c : Dev nD),
      (dat3 (F := Ideal) V c).arrAt 2 cfg3.N = Cert.Spec.mm (V c main_v59) (V c main_arg7))
    (hv4s : ∀ (V : (c : Dev nD) → (b : Ref sig .tc) → Buf (Elt Ideal) ((c : Thread nD τ).loc b)) (c : Dev nD),
      (dat4 (F := Ideal) V c).arrAt 1 cfg4.N = Cert.Spec.colSum (V c main_v76))
    (hv4q : ∀ (V : (c : Dev nD) → (b : Ref sig .tc) → Buf (Elt Ideal) ((c : Thread nD τ).loc b)) (c : Dev nD),
      (dat4 (F := Ideal) V c).arrAt 2 cfg4.N = Cert.Spec.colSumSq (V c main_v76))
    (hv5 : ∀ (V : (c : Dev nD) → (b : Ref sig .tc) → Buf (Elt Ideal) ((c : Thread nD τ).loc b)) (c : Dev nD),
      (dat5 (F := Ideal) V c).arrAt 3 cfg5.N = Cert.Spec.affRelu (V c main_v76) (V c main_v88) (V c main_v91))
    (hv6 : ∀ (V : (c : Dev nD) → (b : Ref sig .tc) → Buf (Elt Ideal) ((c : Thread nD τ).loc b)) (c : Dev nD),
      (dat6 (F := Ideal) V c).arrAt 2 cfg6.N = Cert.Spec.poolSum (V c main_v92) (V c main_v99))
    (m : (ℓ : Loc nD τ sig) → Buf (Elt Ideal) ℓ) (ρ : Dev nD → PrngReg) (c : Dev nD) :
    W14 (F := Ideal) m ρ c (Proc.devRef .tc main_v106)
      = kOut (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10)) :=
  W14_v106 m ρ c hv0 hv1s hv1q hv2 hv3 hv4s hv4q hv5 hv6

end Cert.KernelIdeal.Hand

end
-- ==== Proof.KI.Val0.lean ====
import proofs.«406782_j35519379538031_1_alg».proof.Proof.KI.Reg0
import proofs.«406782_j35519379538031_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # Region 0 over the extended reals: the result array is the matrix product of the two input arrays

Each grid point stores one block of 4000 rows of the product; the ten blocks tile the 40000 rows. -/

/-- The zero offsets of a whole-buffer rectangle, as the constant function. -/
theorem win0_hz : (![0, 0] : Fin 2 → Nat) = fun _ => 0 := funext fun a => by fin_cases a <;> rfl

/-! ## The product's operand indices: entry (r, c) at contraction position k reads (r, k) on the left and (k, c) on the right -/

theorem k0_pay1_lhs_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem k0_pay1_lhs_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem k0_pay1_rhs_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem k0_pay1_rhs_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-! ## The body's arithmetic at an entry -/

/-- Over the extended reals narrowing is the identity and the accumulator is zero, so entry (p, q) of what the body
    stores is the sum over k of x0[p, k] * x1[k, q]. -/
theorem k0_pay1_apply (x0 : Vec Ideal S4000x256 .f32) (x1 : Vec Ideal S256x256 .f32) (p : Fin 4000) (q : Fin 256) :
    k0_pay1 x0 x1 (ix2 p q) = ∑ k : Fin 256, x0 (ix2 p k) * x1 (ix2 k q) := by
  unfold k0_pay1
  try dsimp only
  try simp only [shapeCast_self]
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact k0_pay1_lhs_0 _ _
    | ⟨1, _⟩ => exact (k0_pay1_lhs_1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (k0_pay1_rhs_0 _ _).trans hk
    | ⟨1, _⟩ => exact k0_pay1_rhs_1 _ _)
  rw [el, er]
  rfl

/-- The same at any index of the block, through its two coordinates. -/
theorem k0_pay1_at (x0 : Vec Ideal S4000x256 .f32) (x1 : Vec Ideal S256x256 .f32) (j : S4000x256.Idx) :
    k0_pay1 x0 x1 j = ∑ k : Fin 256, x0 (ix2 (j 0) k) * x1 (ix2 k (j 1)) := by
  obtain ⟨p, q, rfl⟩ : ∃ (p : Fin 4000) (q : Fin 256), j = ix2 p q := ⟨j 0, j 1, eq_ix2 j⟩
  exact k0_pay1_apply x0 x1 p q

/-! ## From blocks to the array -/

variable (V : (c : Dev nD) → (b : Ref sig .tc) → Buf (Elt Ideal) ((c : Thread nD τ).loc b))

/-- The left array (40000 rows of 256 features) as the region finds it, at its literal type. -/
abbrev win0_0_arr (c : Dev nD) : S40000x256.Idx → EReal := V c main_arg0
/-- The right array (the 256 by 256 weights) as the region finds it, at its literal type. -/
abbrev win0_1_arr (c : Dev nD) : S256x256.Idx → EReal := V c main_arg3

/-- The block indices at point t, decided over the ten points: the row-block input and the result are at row block t
    and column block 0; the weight matrix is always at block (0, 0). -/
theorem win0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them: row r of the block
    is row 4000 t + r of the left array, and the weight block is the whole right array. -/
theorem dat0_flushed_eq (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero win0_hz]
  simp only [View.ld_unit_zero (S := S4000x256) win0_hz, View.ld_unit_zero (S := S256x256) win0_hz]
  obtain ⟨e0, e1, e2, e3, e4, e5⟩ := win0_idx_facts t
  funext j
  show k0_pay1 (iblk0 V c 0 t) (iblk0 V c 1 t) j
    = Cert.Spec.mm (V c main_arg0) (V c main_arg3) (((cfg0.win 2).blk t).view.emb j)
  refine (k0_pay1_at (iblk0 V c 0 t) (iblk0 V c 1 t) j).trans ?_
  show _ = ∑ k : Fin 256, win0_0_arr V c (ix2 ((((cfg0.win 2).blk t).view.emb j) 0) k) * win0_1_arr V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 256 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  show win0_0_arr V c (((cfg0.win 0).blk t).view.emb (ix2 (j 0) k)) * win0_1_arr V c (((cfg0.win 1).blk t).view.emb (ix2 k (j 1))) = _
  exact congrArg₂ (fun a b : EReal => a * b) (congrArg (win0_0_arr V c) h0) (congrArg (win0_1_arr V c) h1)

/-- An index of the result array is in point t's block iff each coordinate is in the block's range on its axis. -/
theorem win0_2_mem_blk (t : Fin cfg0.N) (i : S40000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v27).slice (win0_2.rect t)).set ↔ _
  rw [View.set_slice_whole, Rect.mem_set_unit]
  exact Iff.rfl

/-- Every row is in some point's block: row r is in the block of point r / 4000. -/
theorem win0_2_cover (i : S40000x256.Idx) :
    ∃ t : Fin cfg0.N, (cfg0.win 2).flush t = true ∧ i ∈ ((cfg0.win 2).blk t).view.set := by
  have hi0 : (i 0).val < 40000 := (i 0).isLt
  have hi1 : (i 1).val < 256 := (i 1).isLt
  have hN : cfg0.N = 10 := N_0
  refine ⟨⟨(i 0).val / 4000, by rw [hN]; omega⟩, flush0_2 _, ?_⟩
  obtain ⟨e0, e1, e2, e3, e4, e5⟩ := win0_idx_facts ⟨(i 0).val / 4000, by rw [hN]; omega⟩
  rw [win0_2_mem_blk]
  intro a
  match a with
  | ⟨0, _⟩ => show win0_2.index _ (0 : Fin 2) * 4000 ≤ (i 0).val ∧ (i 0).val < win0_2.index _ (0 : Fin 2) * 4000 + 4000; rw [e4]; show (i 0).val / 4000 * 4000 ≤ (i 0).val ∧ (i 0).val < (i 0).val / 4000 * 4000 + 4000; omega
  | ⟨1, _⟩ => show win0_2.index _ (1 : Fin 2) * 256 ≤ (i 1).val ∧ (i 1).val < win0_2.index _ (1 : Fin 2) * 256 + 256; rw [e5]; omega

/-- The result array after the region is the product of the two input arrays as the region finds them. -/
theorem arrAt0 (c : Dev nD) :
    (dat0 (F := Ideal) V c).arrAt 2 cfg0.N = Cert.Spec.mm (V c main_arg0) (V c main_arg3) :=
  (dat0 (F := Ideal) V c).arrAt_eq_of_cover 2 (Cert.Spec.mm (V c main_arg0) (V c main_arg3))
    (fun t _ => dat0_flushed_eq V c t) win0_2_cover

end Cert.KernelIdeal.Hand

end
-- ==== Proof.KI.Pay1.lean ====
import proofs.«406782_j35519379538031_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! # The column statistics' arithmetic over the extended reals, index by index

The kernel of region 1 keeps two rows of 256 running totals: the column sums of the row blocks seen so far, and
the column sums of their squares.  At the first point both rows are reset to zero; at every point the block's
column sums (of the entries, of their squares) are added onto what the rows held. -/

/-- The sum over the 4000 rows of a block, read at column j: the reduction over the row axis is the sum over the
    row coordinate, and the index it inserts is (row, column). -/
theorem rowAxisSum_apply (src : FVec Ideal S4000x256 .f32) (j : Fin 256) :
    multiReduction .add [0] S256 src 0x00000000#32 reduces_S4000x256_S256 (.inl rfl) rfl (ix1 j)
      = ∑ y : Fin 4000, src (ix2 y j) := by
  refine (Ideal.multiReduction_add_single src 0x00000000#32 reduces_S4000x256_S256 (.inl rfl) rfl (ix1 j)).trans ?_
  show ∑ y : Fin 4000, src (reduces_S4000x256_S256.lift (ix1 j) y) = _
  refine Finset.sum_congr rfl fun y _ => congrArg src ?_
  funext a
  match a with
  | ⟨0, _⟩ => rfl
  | ⟨1, _⟩ => rfl

/-- The reset value of the row of sums is zero at every column. -/
theorem pay1_1_apply (u : Fin 1) (j : Fin 256) : (k1_pay1 (F := Ideal)) (ix2 u j) = 0 := by
  unfold k1_pay1
  show shapeCast S1x256 (broadcast S1x256 (Ideal.ofBits .f32 0x00000000#32)) _ (ix2 u j) = _
  rw [shapeCast_self, broadcast_apply, Ideal.ofBits_zero_f32]

/-- The reset value of the row of sums of squares is zero at every column. -/
theorem pay1_2_apply (u : Fin 1) (j : Fin 256) : (k1_pay2 (F := Ideal)) (ix2 u j) = 0 := by
  unfold k1_pay2
  show shapeCast S1x256 (broadcast S1x256 (Ideal.ofBits .f32 0x00000000#32)) _ (ix2 u j) = _
  rw [shapeCast_self, broadcast_apply, Ideal.ofBits_zero_f32]

/-- The block as the body uses it is the block as loaded. -/
theorem pay1_3_eq (x : Vec Ideal S4000x256 .f32) : k1_pay3 (F := Ideal) x = x := by
  unfold k1_pay3
  exact shapeCast_self _ _

/-- The new row of sums at column j: what the row held there plus the sum of the block's column j. -/
theorem pay1_4_apply (x : Vec Ideal S4000x256 .f32) (acc : Vec Ideal S1x256 .f32) (u : Fin 1) (j : Fin 256) :
    k1_pay4 (F := Ideal) x acc (ix2 u j) = acc (ix2 u j) + ∑ y : Fin 4000, x (ix2 y j) := by
  unfold k1_pay4
  rw [pay1_3_eq]
  refine (congrFun (shapeCast_self _ _) (ix2 u j)).trans ?_
  show acc (ix2 u j) + shapeCast S1x256 _ shapeCasts_S256_S1x256 (ix2 u j) = _
  refine congrArg (acc (ix2 u j) + ·) ?_
  refine (shapeCast_a_1a_apply _ _ u j).trans ?_
  exact rowAxisSum_apply x j

/-- The new row of sums of squares at column j: what the row held there plus the sum of the squares of the
    block's column j. -/
theorem pay1_5_apply (x : Vec Ideal S4000x256 .f32) (acc2 : Vec Ideal S1x256 .f32) (u : Fin 1) (j : Fin 256) :
    k1_pay5 (F := Ideal) x acc2 (ix2 u j) = acc2 (ix2 u j) + ∑ y : Fin 4000, x (ix2 y j) * x (ix2 y j) := by
  unfold k1_pay5
  rw [pay1_3_eq]
  refine (congrFun (shapeCast_self _ _) (ix2 u j)).trans ?_
  show acc2 (ix2 u j) + shapeCast S1x256 _ shapeCasts_S256_S1x256 (ix2 u j) = _
  refine congrArg (acc2 (ix2 u j) + ·) ?_
  refine (shapeCast_a_1a_apply _ _ u j).trans ?_
  exact rowAxisSum_apply (mulf x x) j

end Cert.KernelIdeal.Hand

end
-- ==== Proof.Math.Blocks.lean ====
/-
  A sum over 40000 rows taken in ten blocks of 4000.

  `partialSum f t` is the sum of `f` over the rows below `4000 · t`, written as a sum over all rows of `f` masked by
  that condition. It starts at zero, step `t` adds exactly the rows `4000 · t + y` for `y < 4000`, and after ten steps
  every row is in. The step is the splitting of "below `4000 (t + 1)`" into "below `4000 t`" and "in block `t`", the
  second of which is the image of `y ↦ 4000 t + y`. The one-shot form follows by induction on the number of blocks.
-/
import Mathlib.Algebra.BigOperators.Fin

namespace Cert.Math

variable {M : Type*} [AddCommMonoid M]

/-- The sum of `f` over the rows below `4000 · t`. -/
def partialSum (f : Fin 40000 → M) (t : ℕ) : M := ∑ n : Fin 40000, if n.val < 4000 * t then f n else 0

/-- No row is below `0`. -/
theorem partialSum_zero (f : Fin 40000 → M) : partialSum f 0 = 0 := by
  unfold partialSum
  exact Finset.sum_eq_zero fun n _ => if_neg (by omega)

/-- A row is below `4000 (t + 1)` exactly when it is below `4000 t` or lies in block `t`, and never both. -/
theorem mask_succ (f : Fin 40000 → M) (t : ℕ) (n : Fin 40000) :
    (if n.val < 4000 * (t + 1) then f n else 0)
      = (if n.val < 4000 * t then f n else 0)
        + (if 4000 * t ≤ n.val ∧ n.val < 4000 * t + 4000 then f n else 0) := by
  by_cases h1 : n.val < 4000 * t
  · have h2 : n.val < 4000 * (t + 1) := by omega
    have h3 : ¬ (4000 * t ≤ n.val ∧ n.val < 4000 * t + 4000) := by omega
    rw [if_pos h1, if_pos h2, if_neg h3, add_zero]
  · by_cases h2 : n.val < 4000 * (t + 1)
    · have h3 : 4000 * t ≤ n.val ∧ n.val < 4000 * t + 4000 := by omega
      rw [if_neg h1, if_pos h2, if_pos h3, zero_add]
    · have h3 : ¬ (4000 * t ≤ n.val ∧ n.val < 4000 * t + 4000) := by omega
      rw [if_neg h1, if_neg h2, if_neg h3, add_zero]

/-- The rows of block `t` are the rows `4000 t + y`, each once: the masked sum over all rows is the sum over `y`. -/
theorem sum_block (f : Fin 40000 → M) (t : ℕ) (ht : t < 10) :
    (∑ n : Fin 40000, if 4000 * t ≤ n.val ∧ n.val < 4000 * t + 4000 then f n else 0)
      = ∑ y : Fin 4000, f ⟨4000 * t + y.val, by omega⟩ := by
  symm
  refine Fintype.sum_of_injective (fun y : Fin 4000 => (⟨4000 * t + y.val, by omega⟩ : Fin 40000)) ?_ _ _ ?_ ?_
  · intro a b hab
    have hv : 4000 * t + a.val = 4000 * t + b.val := congrArg Fin.val hab
    exact Fin.ext (by omega)
  · intro n hn
    refine if_neg fun hc => hn ⟨⟨n.val - 4000 * t, by omega⟩, Fin.ext ?_⟩
    show 4000 * t + (n.val - 4000 * t) = n.val
    omega
  · intro y
    have hc : 4000 * t ≤ 4000 * t + y.val ∧ 4000 * t + y.val < 4000 * t + 4000 := by omega
    exact (if_pos hc).symm

/-- Step `t` adds block `t`. -/
theorem partialSum_succ (f : Fin 40000 → M) (t : ℕ) (ht : t < 10) :
    partialSum f (t + 1) = partialSum f t + ∑ y : Fin 4000, f ⟨4000 * t + y.val, by omega⟩ := by
  unfold partialSum
  rw [Finset.sum_congr rfl (fun n _ => mask_succ f t n), Finset.sum_add_distrib, sum_block f t ht]

/-- After ten steps every row is in. -/
theorem partialSum_ten (f : Fin 40000 → M) : partialSum f 10 = ∑ n, f n := by
  unfold partialSum
  exact Finset.sum_congr rfl fun n _ => if_pos (by omega)

/-- After `t` steps the partial sum is the sum of the first `t` blocks. -/
theorem partialSum_eq_blocks (f : Fin 40000 → M) : ∀ (t : ℕ) (ht : t ≤ 10),
    partialSum f t = ∑ s : Fin t, ∑ y : Fin 4000, f ⟨4000 * s.val + y.val, by omega⟩
  | 0, _ => by rw [partialSum_zero, Fin.sum_univ_zero]
  | t + 1, ht => by
    rw [partialSum_succ f t (by omega), partialSum_eq_blocks f t (by omega)]
    symm
    exact Fin.sum_univ_castSucc (M := M) (n := t) _

/-- The whole sum, block by block. -/
theorem sum_blocks (f : Fin 40000 → M) :
    (∑ n, f n) = ∑ t : Fin 10, ∑ y : Fin 4000, f ⟨4000 * t.val + y.val, by omega⟩ :=
  (partialSum_ten f).symm.trans (partialSum_eq_blocks f 10 le_rfl)

end Cert.Math
-- ==== Proof.KI.Val1.lean ====
import proofs.«406782_j35519379538031_1_alg».proof.Proof.KI.Reg1
import proofs.«406782_j35519379538031_1_alg».proof.Proof.KI.Pay1
import proofs.«406782_j35519379538031_1_alg».proof.Proof.Math.Blocks
import proofs.«406782_j35519379538031_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The statistics region's results over the extended reals

The two running rows after `n` points hold, at column j, the sum over the rows below `4000 n` of the entry
(row, j), and of its square: by induction on the points, each point adding the rows of its block.  After the tenth
point every row is in; the last point copies the two rows to the two output blocks, each the whole of its array:
the arrays end holding the column sums and the column sums of squares. -/

section Blocks

variable {F : FTy → Type} [FloatOps F]
variable (V : (c : Dev nD) → (b : Ref sig .tc) → Buf (Elt F) ((c : Thread nD τ).loc b))

/-! ## The input block, read off its array -/

/-- Where the input window's block sits: row block `t`, column block 0. -/
theorem idx_facts1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The input window's block at point `t` is rows `4000 t … 4000 t + 3999` of the matrix. -/
theorem xblk1_apply (c : Dev nD) (t : Fin cfg1.N) (x : S4000x256.Idx) (k : S40000x256.Idx)
    (hk0 : (k 0).val = 4000 * t.val + (x 0).val) (hk1 : (k 1).val = (x 1).val) :
    (iblk1 V c t : Vec F S4000x256 .f32) x = (V c main_v43 : S40000x256.Idx → Elt F .f32) k := by
  have hi := idx_facts1 t
  unfold iblk1
  rw [View.read_apply]
  show V c main_v43 _ = V c main_v43 _
  congr 1
  funext a
  apply Fin.ext
  match a with
  | ⟨0, _⟩ => show win1_0.index t 0 * 4000 + 1 * (x 0).val = (k 0).val; rw [hi.1, hk0]; omega
  | ⟨1, _⟩ => show win1_0.index t 1 * 256 + 1 * (x 1).val = (k 1).val; rw [hi.2, hk1]; omega

end Blocks

section AtIdeal

variable (VI : (c : Dev nD) → (b : Ref sig .tc) → Buf (Elt Ideal) ((c : Thread nD τ).loc b))

/-! ## The two running rows, point by point -/

/-- The matrix as the region finds it. -/
abbrev xArr1 (c : Dev nD) : Vec Ideal S40000x256 .f32 := VI c main_v43

/-- Column j's entries, and their squares, row by row. -/
abbrev col1 (c : Dev nD) (j : Fin 256) : Fin 40000 → EReal := fun n => xArr1 VI c (ix2 n j)
abbrev colSq1 (c : Dev nD) (j : Fin 256) : Fin 40000 → EReal := fun n => xArr1 VI c (ix2 n j) * xArr1 VI c (ix2 n j)

/-- After `n` points the first row holds, at column j, the entries of column j summed over the rows below `4000 n`. -/
theorem scr1_0_eq (c : Dev nD) : ∀ (n : ℕ) (h : n ≤ cfg1.N) (u : Fin 1) (j : Fin 256),
    scr1_0 VI c n (ix2 u j) = Cert.Math.partialSum (col1 VI c j) n
  | 0, _, u, j => by
    rw [Cert.Math.partialSum_zero]
    exact pay1_1_apply u j
  | n + 1, h, u, j => by
    have hn : n < 10 := lt_of_lt_of_eq h N_1
    rw [Cert.Math.partialSum_succ _ n hn]
    refine (congrFun (scr1_0_succ VI c ⟨n, h⟩) (ix2 u j)).trans ?_
    refine (pay1_4_apply (xblk1 VI c ⟨n, h⟩) (scr1_0 VI c n) u j).trans ?_
    refine congrArg₂ (· + ·) (scr1_0_eq c n (Nat.le_of_lt h) u j) (Finset.sum_congr rfl fun y _ => ?_)
    exact xblk1_apply VI c ⟨n, h⟩ (ix2 y j) (ix2 ⟨4000 * n + y.val, by omega⟩ j) rfl rfl

/-- After `n` points the second row holds the same sums of the squares. -/
theorem scr1_1_eq (c : Dev nD) : ∀ (n : ℕ) (h : n ≤ cfg1.N) (u : Fin 1) (j : Fin 256),
    scr1_1 VI c n (ix2 u j) = Cert.Math.partialSum (colSq1 VI c j) n
  | 0, _, u, j => by
    rw [Cert.Math.partialSum_zero]
    exact pay1_2_apply u j
  | n + 1, h, u, j => by
    have hn : n < 10 := lt_of_lt_of_eq h N_1
    rw [Cert.Math.partialSum_succ _ n hn]
    refine (congrFun (scr1_1_succ VI c ⟨n, h⟩) (ix2 u j)).trans ?_
    refine (pay1_5_apply (xblk1 VI c ⟨n, h⟩) (scr1_1 VI c n) u j).trans ?_
    refine congrArg₂ (· + ·) (scr1_1_eq c n (Nat.le_of_lt h) u j) (Finset.sum_congr rfl fun y _ => ?_)
    have e := xblk1_apply VI c ⟨n, h⟩ (ix2 y j) (ix2 ⟨4000 * n + y.val, by omega⟩ j) rfl rfl
    exact congrArg₂ (· * ·) e e

/-! ## The result arrays -/

/-- The column sums, and the column sums of squares, as the two result buffers' contents. -/
abbrev sum1 (c : Dev nD) : Buf (Elt Ideal) ((c : Thread nD τ).loc main_v44_0) := Cert.Spec.colSum (VI c main_v43)
abbrev sumSq1 (c : Dev nD) : Buf (Elt Ideal) ((c : Thread nD τ).loc main_v44_1) := Cert.Spec.colSumSq (VI c main_v43)

/-- After the tenth point every row is in. -/
theorem scr1_0_ten (c : Dev nD) : scr1_0 VI c (t1_9.val + 1) = sum1 VI c := by
  funext (i : S1x256.Idx)
  obtain ⟨u, j, rfl⟩ : ∃ (u : Fin 1) (j : Fin 256), i = ix2 u j := ⟨i 0, i 1, eq_ix2 i⟩
  refine (scr1_0_eq VI c (t1_9.val + 1) t1_9.isLt u j).trans ?_
  show Cert.Math.partialSum (col1 VI c j) 10 = _
  rw [Cert.Math.partialSum_ten]
  rfl
theorem scr1_1_ten (c : Dev nD) : scr1_1 VI c (t1_9.val + 1) = sumSq1 VI c := by
  funext (i : S1x256.Idx)
  obtain ⟨u, j, rfl⟩ : ∃ (u : Fin 1) (j : Fin 256), i = ix2 u j := ⟨i 0, i 1, eq_ix2 i⟩
  refine (scr1_1_eq VI c (t1_9.val + 1) t1_9.isLt u j).trans ?_
  show Cert.Math.partialSum (colSq1 VI c j) 10 = _
  rw [Cert.Math.partialSum_ten]
  rfl

/-- The one write-back of each output, at the last point, writes the full sums: its one block is the whole array. -/
theorem flushed1_1 (c : Dev nD) (t : Fin cfg1.N) (hf : (cfg1.win 1).flush t = true) :
    (dat1 VI c).flushed 1 t = ((cfg1.win 1).blk t).view.read (Elt Ideal) (sum1 VI c) := by
  have hN : cfg1.N = 10 := N_1
  have h9 : t.val = 9 := by have := (flush1_1 t).mp hf; have := t.isLt; omega
  obtain rfl : t = t1_9 := Fin.ext h9
  show (cfg1.win 1).cut (grid1.coords t1_9) ((dat1 VI c).after 1 t1_9) = _
  rw [after1_1, scr1_0_ten]
  have hz' : (fun a => win1_1.index t1_9 a * main_v44_0.ty.shape.size a) = fun _ => 0 :=
    funext fun a => by fin_cases a <;> decide
  exact (Memref.read_access_unit_zero (Elt Ideal) main_v44_0 hz' (fun a => by rw [congrFun hz' a]; simp) (sum1 VI c)).symm
theorem flushed1_2 (c : Dev nD) (t : Fin cfg1.N) (hf : (cfg1.win 2).flush t = true) :
    (dat1 VI c).flushed 2 t = ((cfg1.win 2).blk t).view.read (Elt Ideal) (sumSq1 VI c) := by
  have hN : cfg1.N = 10 := N_1
  have h9 : t.val = 9 := by have := (flush1_2 t).mp hf; have := t.isLt; omega
  obtain rfl : t = t1_9 := Fin.ext h9
  show (cfg1.win 2).cut (grid1.coords t1_9) ((dat1 VI c).after 2 t1_9) = _
  rw [after1_2, scr1_1_ten]
  have hz' : (fun a => win1_2.index t1_9 a * main_v44_1.ty.shape.size a) = fun _ => 0 :=
    funext fun a => by fin_cases a <;> decide
  exact (Memref.read_access_unit_zero (Elt Ideal) main_v44_1 hz' (fun a => by rw [congrFun hz' a]; simp) (sumSq1 VI c)).symm

/-- So the first result array ends holding the column sums, -/
theorem arrAt1_sum (c : Dev nD) :
    (dat1 (F := Ideal) VI c).arrAt 1 cfg1.N = Cert.Spec.colSum (VI c main_v43) :=
  (dat1 VI c).arrAt_eq_of_cover 1 (sum1 VI c) (flushed1_1 VI c) fun i =>
    ⟨t1_9, (flush1_1 t1_9).mpr rfl, by
      show i ∈ ((View.whole main_v44_0).slice (win1_1.rect t1_9)).set
      rw [View.set_slice_whole, Rect.mem_set_unit]
      intro a
      have h0 : (i 0 : Nat) < 1 := (i 0).isLt
      have h1 : (i 1 : Nat) < 256 := (i 1).isLt
      match a with
      | ⟨0, _⟩ =>
        show win1_1.index t1_9 0 * win1_1.size 0 ≤ (i 0 : Nat) ∧ (i 0 : Nat) < win1_1.index t1_9 0 * win1_1.size 0 + win1_1.xsize (grid1.coords t1_9) 0
        rw [show win1_1.index t1_9 0 * win1_1.size 0 = 0 from by decide +kernel, show win1_1.xsize (grid1.coords t1_9) 0 = 1 from by decide +kernel]
        omega
      | ⟨1, _⟩ =>
        show win1_1.index t1_9 1 * win1_1.size 1 ≤ (i 1 : Nat) ∧ (i 1 : Nat) < win1_1.index t1_9 1 * win1_1.size 1 + win1_1.xsize (grid1.coords t1_9) 1
        rw [show win1_1.index t1_9 1 * win1_1.size 1 = 0 from by decide +kernel, show win1_1.xsize (grid1.coords t1_9) 1 = 256 from by decide +kernel]
        omega⟩

/-- and the second the column sums of squares. -/
theorem arrAt1_sumsq (c : Dev nD) :
    (dat1 (F := Ideal) VI c).arrAt 2 cfg1.N = Cert.Spec.colSumSq (VI c main_v43) :=
  (dat1 VI c).arrAt_eq_of_cover 2 (sumSq1 VI c) (flushed1_2 VI c) fun i =>
    ⟨t1_9, (flush1_2 t1_9).mpr rfl, by
      show i ∈ ((View.whole main_v44_1).slice (win1_2.rect t1_9)).set
      rw [View.set_slice_whole, Rect.mem_set_unit]
      intro a
      have h0 : (i 0 : Nat) < 1 := (i 0).isLt
      have h1 : (i 1 : Nat) < 256 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]
        omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 256 from by decide +kernel]
        omega⟩

end AtIdeal

end Cert.KernelIdeal.Hand

end
-- ==== Proof.KI.Val2.lean ====
import proofs.«406782_j35519379538031_1_alg».proof.Proof.KI.Reg2
import proofs.«406782_j35519379538031_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! # Region 2 over the extended reals: the array it leaves

Each grid point writes back one block of 4000 rows; row r of the result is written by point r / 4000, and its
entry in column j is max (x[r, j] * scale[0, j] + shift[0, j]) 0.  So the region leaves the whole-array function
of the specification. -/

variable (V : (c : Dev nD) → (b : Ref sig .tc) → Buf (Elt Ideal) ((c : Thread nD τ).loc b))

/-- The zero offset pair is the constant zero function. -/
theorem zeroOff2 : (![0, 0] : Fin 2 → Nat) = fun _ => 0 := funext fun a => by fin_cases a <;> rfl

/-! ## The body's arithmetic at an index -/

/-- The stored value at row p, column q of the block: the entry times the scale of its column plus the shift of
    its column, or zero if that is negative.  The two coefficient rows are read at their only row. -/
theorem pay2_apply (x0 : Vec Ideal S4000x256 .f32) (x1 x2 : Vec Ideal S1x256 .f32) (p : Fin 4000) (q : Fin 256) :
    k2_pay1 (F := Ideal) x0 x1 x2 (ix2 p q) = max (x0 (ix2 p q) * x1 (ix2 0 q) + x2 (ix2 0 q)) 0 := by
  unfold k2_pay1
  show max (shapeCast S4000x256 x0 _ (ix2 p q) * broadcastTo S4000x256 (shapeCast S1x256 x1 _) _ (ix2 p q)
      + broadcastTo S4000x256 (shapeCast S1x256 x2 _) _ (ix2 p q)) (Ideal.ofBits .f32 0x00000000#32) = _
  rw [shapeCast_self, shapeCast_self, shapeCast_self, broadcastTo_1b_ab_apply, broadcastTo_1b_ab_apply, Ideal.ofBits_zero_f32]

/-! ## The windows' blocks as parts of their arrays -/

/-- The block indices at each of the ten points: the two row-block windows sit at row block t, column block 0;
    the two coefficient rows never move. -/
theorem idxFacts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first operand's block at point t, at row p and column q, is the array at row 4000 t + p, column q. -/
theorem xblk2_apply (c : Dev nD) (t : Fin cfg2.N) (p : Fin 4000) (q : Fin 256) (k : S40000x256.Idx)
    (hk0 : (k 0).val = 4000 * t.val + p.val) (hk1 : (k 1).val = q.val) :
    (iblk2 V c 0 t : Vec Ideal S4000x256 .f32) (ix2 p q) = (V c main_v43 : S40000x256.Idx → Elt Ideal .f32) k := by
  obtain ⟨e0, e1, -⟩ := idxFacts2 t
  unfold iblk2
  rw [View.read_apply]
  show V c main_v43 _ = V c main_v43 _
  congr 1
  funext a
  apply Fin.ext
  match a with
  | ⟨0, _⟩ => show win2_0.index t (0 : Fin 2) * 4000 + 1 * p.val = (k 0).val; rw [e0, hk0]; omega
  | ⟨1, _⟩ => show win2_0.index t (1 : Fin 2) * 256 + 1 * q.val = (k 1).val; rw [e1, hk1]; omega

/-- The block of scales at any point is the whole row of scales. -/
theorem scblk2_apply (c : Dev nD) (t : Fin cfg2.N) (q : Fin 256) :
    (iblk2 V c 1 t : Vec Ideal S1x256 .f32) (ix2 0 q) = (V c main_v55 : S1x256.Idx → Elt Ideal .f32) (ix2 0 q) := by
  obtain ⟨-, -, e2, e3, -⟩ := idxFacts2 t
  unfold iblk2
  rw [View.read_apply]
  show V c main_v55 _ = V c main_v55 _
  congr 1
  funext a
  apply Fin.ext
  match a with
  | ⟨0, _⟩ => show win2_1.index t (0 : Fin 2) * 1 + 1 * 0 = 0; rw [e2]
  | ⟨1, _⟩ => show win2_1.index t (1 : Fin 2) * 256 + 1 * q.val = q.val; rw [e3]; omega

/-- The block of shifts at any point is the whole row of shifts. -/
theorem shblk2_apply (c : Dev nD) (t : Fin cfg2.N) (q : Fin 256) :
    (iblk2 V c 2 t : Vec Ideal S1x256 .f32) (ix2 0 q) = (V c main_v58 : S1x256.Idx → Elt Ideal .f32) (ix2 0 q) := by
  obtain ⟨-, -, -, -, e4, e5, -⟩ := idxFacts2 t
  unfold iblk2
  rw [View.read_apply]
  show V c main_v58 _ = V c main_v58 _
  congr 1
  funext a
  apply Fin.ext
  match a with
  | ⟨0, _⟩ => show win2_2.index t (0 : Fin 2) * 1 + 1 * 0 = 0; rw [e4]
  | ⟨1, _⟩ => show win2_2.index t (1 : Fin 2) * 256 + 1 * q.val = q.val; rw [e5]; omega

/-! ## What a point writes back -/

/-- Point t writes back block t of the specification's function of the three arrays. -/
theorem flushed2_eq (c : Dev nD) (t : Fin cfg2.N) :
    (dat2 (F := Ideal) V c).flushed 3 t
      = ((cfg2.win 3).blk t).view.read (Elt Ideal) (Cert.Spec.affRelu (V c main_v43) (V c main_v55) (V c main_v58)) := by
  show (cfg2.win 3).cut (grid2.coords t) ((dat2 (F := Ideal) V c).after 3 t) = _
  rw [after2_3]
  unfold out2_3
  rw [View.canon_unit_zero zeroOff2]
  simp only [View.ld_unit_zero (S := S4000x256) zeroOff2, View.ld_unit_zero (S := S1x256) zeroOff2]
  obtain ⟨-, -, -, -, -, -, e6, e7⟩ := idxFacts2 t
  funext j
  obtain ⟨p, q, rfl⟩ : ∃ (p : Fin 4000) (q : Fin 256), j = ix2 p q := ⟨j 0, j 1, eq_ix2 j⟩
  have hk0 : ((((cfg2.win 3).blk t).view.emb (ix2 p q)) 0).val = 4000 * t.val + p.val := by
    show win2_3.index t (0 : Fin 2) * 4000 + 1 * p.val = _; rw [e6]; omega
  have hk1 : ((((cfg2.win 3).blk t).view.emb (ix2 p q)) 1).val = q.val := by
    show win2_3.index t (1 : Fin 2) * 256 + 1 * q.val = _; rw [e7]; omega
  have hq : (((cfg2.win 3).blk t).view.emb (ix2 p q)) 1 = q := Fin.ext hk1
  refine (pay2_apply (iblk2 V c 0 t) (iblk2 V c 1 t) (iblk2 V c 2 t) p q).trans ?_
  rw [xblk2_apply V c t p q (((cfg2.win 3).blk t).view.emb (ix2 p q)) hk0 hk1, scblk2_apply V c t q, shblk2_apply V c t q]
  show _ = Cert.Spec.affRelu (V c main_v43) (V c main_v55) (V c main_v58) (((cfg2.win 3).blk t).view.emb (ix2 p q))
  unfold Cert.Spec.affRelu
  dsimp only
  rw [hq]

/-! ## The blocks cover the array -/

/-- An index of the result is in point t's block exactly when each coordinate is in the block's range. -/
theorem mem_blk2 (t : Fin cfg2.N) (i : S40000x256.Idx) :
    i ∈ ((cfg2.win 3).blk t).view.set ↔ ∀ a : Fin 2, win2_3.index t a * S4000x256.size a ≤ (i a).val ∧ (i a).val < win2_3.index t a * S4000x256.size a + S4000x256.size a := by
  show i ∈ ((View.whole main_v59).slice (win2_3.rect t)).set ↔ _
  rw [View.set_slice_whole, Rect.mem_set_unit]
  exact Iff.rfl

/-- Every index of the result lies in the block of the point its row divided by 4000 names. -/
theorem cover2 (i : S40000x256.Idx) : ∃ t : Fin cfg2.N, (cfg2.win 3).flush t = true ∧ i ∈ ((cfg2.win 3).blk t).view.set := by
  have hi0 : (i 0).val < 40000 := (i 0).isLt
  have hi1 : (i 1).val < 256 := (i 1).isLt
  have hN : cfg2.N = 10 := N_2
  let t : Fin cfg2.N := ⟨(i 0).val / 4000, by rw [hN]; omega⟩
  obtain ⟨-, -, -, -, -, -, e6, e7⟩ := idxFacts2 t
  have ht : t.val = (i 0).val / 4000 := rfl
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; rw [e6, ht]; omega
  | ⟨1, _⟩ => show win2_3.index t (1 : Fin 2) * 256 ≤ (i 1).val ∧ (i 1).val < win2_3.index t (1 : Fin 2) * 256 + 256; rw [e7]; omega

/-! ## The array the region leaves -/

/-- After the last point the result array is the specification's function of the three arrays the region found. -/
theorem arrAt2 (c : Dev nD) :
    (dat2 (F := Ideal) V c).arrAt 3 cfg2.N = Cert.Spec.affRelu (V c main_v43) (V c main_v55) (V c main_v58) :=
  (dat2 (F := Ideal) V c).arrAt_eq_of_cover 3 (Cert.Spec.affRelu (V c main_v43) (V c main_v55) (V c main_v58))
    (fun t _ => flushed2_eq V c t) cover2

end Cert.KernelIdeal.Hand

end
-- ==== Proof.KI.Val3.lean ====
import proofs.«406782_j35519379538031_1_alg».proof.Proof.KI.Reg3
import proofs.«406782_j35519379538031_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # Region 3 over the extended reals: the result array is the matrix product of the two input arrays

Each grid point stores one block of 4000 rows of the product; the ten blocks tile the 40000 rows. -/

/-- The zero offsets of a whole-buffer rectangle, as the constant function. -/
theorem win3_hz : (![0, 0] : Fin 2 → Nat) = fun _ => 0 := funext fun a => by fin_cases a <;> rfl

/-! ## The product's operand indices: entry (r, c) at contraction position k reads (r, k) on the left and (k, c) on the right -/

theorem k3_pay1_lhs_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem k3_pay1_lhs_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem k3_pay1_rhs_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem k3_pay1_rhs_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-! ## The body's arithmetic at an entry -/

/-- Over the extended reals narrowing is the identity and the accumulator is zero, so entry (p, q) of what the body
    stores is the sum over k of x0[p, k] * x1[k, q]. -/
theorem k3_pay1_apply (x0 : Vec Ideal S4000x256 .f32) (x1 : Vec Ideal S256x256 .f32) (p : Fin 4000) (q : Fin 256) :
    k3_pay1 x0 x1 (ix2 p q) = ∑ k : Fin 256, x0 (ix2 p k) * x1 (ix2 k q) := by
  unfold k3_pay1
  try dsimp only
  try simp only [shapeCast_self]
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact k3_pay1_lhs_0 _ _
    | ⟨1, _⟩ => exact (k3_pay1_lhs_1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (k3_pay1_rhs_0 _ _).trans hk
    | ⟨1, _⟩ => exact k3_pay1_rhs_1 _ _)
  rw [el, er]
  rfl

/-- The same at any index of the block, through its two coordinates. -/
theorem k3_pay1_at (x0 : Vec Ideal S4000x256 .f32) (x1 : Vec Ideal S256x256 .f32) (j : S4000x256.Idx) :
    k3_pay1 x0 x1 j = ∑ k : Fin 256, x0 (ix2 (j 0) k) * x1 (ix2 k (j 1)) := by
  obtain ⟨p, q, rfl⟩ : ∃ (p : Fin 4000) (q : Fin 256), j = ix2 p q := ⟨j 0, j 1, eq_ix2 j⟩
  exact k3_pay1_apply x0 x1 p q

/-! ## From blocks to the array -/

variable (V : (c : Dev nD) → (b : Ref sig .tc) → Buf (Elt Ideal) ((c : Thread nD τ).loc b))

/-- The left array (40000 rows of 256 features) as the region finds it, at its literal type. -/
abbrev win3_0_arr (c : Dev nD) : S40000x256.Idx → EReal := V c main_v59
/-- The right array (the 256 by 256 weights) as the region finds it, at its literal type. -/
abbrev win3_1_arr (c : Dev nD) : S256x256.Idx → EReal := V c main_arg7

/-- The block indices at point t, decided over the ten points: the row-block input and the result are at row block t
    and column block 0; the weight matrix is always at block (0, 0). -/
theorem win3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the two arrays as the region finds them: row r of the block
    is row 4000 t + r of the left array, and the weight block is the whole right array. -/
theorem dat3_flushed_eq (c : Dev nD) (t : Fin cfg3.N) :
    (dat3 (F := Ideal) V c).flushed 2 t
      = ((cfg3.win 2).blk t).view.read (Elt Ideal) (Cert.Spec.mm (V c main_v59) (V c main_arg7)) := by
  show (cfg3.win 2).cut (grid3.coords t) ((dat3 V c).after 2 t) = _
  rw [after3_2]
  unfold out3_2
  rw [View.canon_unit_zero win3_hz]
  simp only [View.ld_unit_zero (S := S4000x256) win3_hz, View.ld_unit_zero (S := S256x256) win3_hz]
  obtain ⟨e0, e1, e2, e3, e4, e5⟩ := win3_idx_facts t
  funext j
  show k3_pay1 (iblk3 V c 0 t) (iblk3 V c 1 t) j
    = Cert.Spec.mm (V c main_v59) (V c main_arg7) (((cfg3.win 2).blk t).view.emb j)
  refine (k3_pay1_at (iblk3 V c 0 t) (iblk3 V c 1 t) j).trans ?_
  show _ = ∑ k : Fin 256, win3_0_arr V c (ix2 ((((cfg3.win 2).blk t).view.emb j) 0) k) * win3_1_arr V c (ix2 k ((((cfg3.win 2).blk t).view.emb j) 1))
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 256 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 256 + 1 * k.val = k.val; omega
    | ⟨1, _⟩ => show win3_1.index t (1 : Fin 2) * 256 + 1 * (j 1).val = win3_2.index t (1 : Fin 2) * 256 + 1 * (j 1).val; omega
  show win3_0_arr V c (((cfg3.win 0).blk t).view.emb (ix2 (j 0) k)) * win3_1_arr V c (((cfg3.win 1).blk t).view.emb (ix2 k (j 1))) = _
  exact congrArg₂ (fun a b : EReal => a * b) (congrArg (win3_0_arr V c) h0) (congrArg (win3_1_arr V c) h1)

/-- An index of the result array is in point t's block iff each coordinate is in the block's range on its axis. -/
theorem win3_2_mem_blk (t : Fin cfg3.N) (i : S40000x256.Idx) :
    i ∈ ((cfg3.win 2).blk t).view.set ↔ ∀ a : Fin 2, win3_2.index t a * S4000x256.size a ≤ (i a).val ∧ (i a).val < win3_2.index t a * S4000x256.size a + S4000x256.size a := by
  show i ∈ ((View.whole main_v60).slice (win3_2.rect t)).set ↔ _
  rw [View.set_slice_whole, Rect.mem_set_unit]
  exact Iff.rfl

/-- Every row is in some point's block: row r is in the block of point r / 4000. -/
theorem win3_2_cover (i : S40000x256.Idx) :
    ∃ t : Fin cfg3.N, (cfg3.win 2).flush t = true ∧ i ∈ ((cfg3.win 2).blk t).view.set := by
  have hi0 : (i 0).val < 40000 := (i 0).isLt
  have hi1 : (i 1).val < 256 := (i 1).isLt
  have hN : cfg3.N = 10 := N_3
  refine ⟨⟨(i 0).val / 4000, by rw [hN]; omega⟩, flush3_2 _, ?_⟩
  obtain ⟨e0, e1, e2, e3, e4, e5⟩ := win3_idx_facts ⟨(i 0).val / 4000, by rw [hN]; omega⟩
  rw [win3_2_mem_blk]
  intro a
  match a with
  | ⟨0, _⟩ => show win3_2.index _ (0 : Fin 2) * 4000 ≤ (i 0).val ∧ (i 0).val < win3_2.index _ (0 : Fin 2) * 4000 + 4000; rw [e4]; show (i 0).val / 4000 * 4000 ≤ (i 0).val ∧ (i 0).val < (i 0).val / 4000 * 4000 + 4000; omega
  | ⟨1, _⟩ => show win3_2.index _ (1 : Fin 2) * 256 ≤ (i 1).val ∧ (i 1).val < win3_2.index _ (1 : Fin 2) * 256 + 256; rw [e5]; omega

/-- The result array after the region is the product of the two input arrays as the region finds them. -/
theorem arrAt3 (c : Dev nD) :
    (dat3 (F := Ideal) V c).arrAt 2 cfg3.N = Cert.Spec.mm (V c main_v59) (V c main_arg7) :=
  (dat3 (F := Ideal) V c).arrAt_eq_of_cover 2 (Cert.Spec.mm (V c main_v59) (V c main_arg7))
    (fun t _ => dat3_flushed_eq V c t) win3_2_cover

end Cert.KernelIdeal.Hand

end
-- ==== Proof.KI.Pay4.lean ====
import proofs.«406782_j35519379538031_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! # The column statistics' arithmetic over the extended reals, index by index

The kernel of region 4 keeps two rows of 256 running totals: the column sums of the row blocks seen so far, and
the column sums of their squares.  At the first point both rows are reset to zero; at every point the block's
column sums (of the entries, of their squares) are added onto what the rows held. -/

/-- The sum over the 4000 rows of a block, read at column j: the reduction over the row axis is the sum over the
    row coordinate, and the index it inserts is (row, column). -/
theorem rowAxisSum4_apply (src : FVec Ideal S4000x256 .f32) (j : Fin 256) :
    multiReduction .add [0] S256 src 0x00000000#32 reduces_S4000x256_S256 (.inl rfl) rfl (ix1 j)
      = ∑ y : Fin 4000, src (ix2 y j) := by
  refine (Ideal.multiReduction_add_single src 0x00000000#32 reduces_S4000x256_S256 (.inl rfl) rfl (ix1 j)).trans ?_
  show ∑ y : Fin 4000, src (reduces_S4000x256_S256.lift (ix1 j) y) = _
  refine Finset.sum_congr rfl fun y _ => congrArg src ?_
  funext a
  match a with
  | ⟨0, _⟩ => rfl
  | ⟨1, _⟩ => rfl

/-- The reset value of the row of sums is zero at every column. -/
theorem pay4_1_apply (u : Fin 1) (j : Fin 256) : (k4_pay1 (F := Ideal)) (ix2 u j) = 0 := by
  unfold k4_pay1
  show shapeCast S1x256 (broadcast S1x256 (Ideal.ofBits .f32 0x00000000#32)) _ (ix2 u j) = _
  rw [shapeCast_self, broadcast_apply, Ideal.ofBits_zero_f32]

/-- The reset value of the row of sums of squares is zero at every column. -/
theorem pay4_2_apply (u : Fin 1) (j : Fin 256) : (k4_pay2 (F := Ideal)) (ix2 u j) = 0 := by
  unfold k4_pay2
  show shapeCast S1x256 (broadcast S1x256 (Ideal.ofBits .f32 0x00000000#32)) _ (ix2 u j) = _
  rw [shapeCast_self, broadcast_apply, Ideal.ofBits_zero_f32]

/-- The block as the body uses it is the block as loaded. -/
theorem pay4_3_eq (x : Vec Ideal S4000x256 .f32) : k4_pay3 (F := Ideal) x = x := by
  unfold k4_pay3
  exact shapeCast_self _ _

/-- The new row of sums at column j: what the row held there plus the sum of the block's column j. -/
theorem pay4_4_apply (x : Vec Ideal S4000x256 .f32) (acc : Vec Ideal S1x256 .f32) (u : Fin 1) (j : Fin 256) :
    k4_pay4 (F := Ideal) x acc (ix2 u j) = acc (ix2 u j) + ∑ y : Fin 4000, x (ix2 y j) := by
  unfold k4_pay4
  rw [pay4_3_eq]
  refine (congrFun (shapeCast_self _ _) (ix2 u j)).trans ?_
  show acc (ix2 u j) + shapeCast S1x256 _ shapeCasts_S256_S1x256 (ix2 u j) = _
  refine congrArg (acc (ix2 u j) + ·) ?_
  refine (shapeCast_a_1a_apply _ _ u j).trans ?_
  exact rowAxisSum4_apply x j

/-- The new row of sums of squares at column j: what the row held there plus the sum of the squares of the
    block's column j. -/
theorem pay4_5_apply (x : Vec Ideal S4000x256 .f32) (acc2 : Vec Ideal S1x256 .f32) (u : Fin 1) (j : Fin 256) :
    k4_pay5 (F := Ideal) x acc2 (ix2 u j) = acc2 (ix2 u j) + ∑ y : Fin 4000, x (ix2 y j) * x (ix2 y j) := by
  unfold k4_pay5
  rw [pay4_3_eq]
  refine (congrFun (shapeCast_self _ _) (ix2 u j)).trans ?_
  show acc2 (ix2 u j) + shapeCast S1x256 _ shapeCasts_S256_S1x256 (ix2 u j) = _
  refine congrArg (acc2 (ix2 u j) + ·) ?_
  refine (shapeCast_a_1a_apply _ _ u j).trans ?_
  exact rowAxisSum4_apply (mulf x x) j

end Cert.KernelIdeal.Hand

end
-- ==== Proof.KI.Val4.lean ====
import proofs.«406782_j35519379538031_1_alg».proof.Proof.KI.Reg4
import proofs.«406782_j35519379538031_1_alg».proof.Proof.KI.Pay4
import proofs.«406782_j35519379538031_1_alg».proof.Proof.Math.Blocks
import proofs.«406782_j35519379538031_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The statistics region's results over the extended reals

The two running rows after `n` points hold, at column j, the sum over the rows below `4000 n` of the entry
(row, j), and of its square: by induction on the points, each point adding the rows of its block.  After the tenth
point every row is in; the last point copies the two rows to the two output blocks, each the whole of its array:
the arrays end holding the column sums and the column sums of squares. -/

section Blocks

variable {F : FTy → Type} [FloatOps F]
variable (V : (c : Dev nD) → (b : Ref sig .tc) → Buf (Elt F) ((c : Thread nD τ).loc b))

/-! ## The input block, read off its array -/

/-- Where the input window's block sits: row block `t`, column block 0. -/
theorem idx_facts4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- The input window's block at point `t` is rows `4000 t … 4000 t + 3999` of the matrix. -/
theorem xblk4_apply (c : Dev nD) (t : Fin cfg4.N) (x : S4000x256.Idx) (k : S40000x256.Idx)
    (hk0 : (k 0).val = 4000 * t.val + (x 0).val) (hk1 : (k 1).val = (x 1).val) :
    (iblk4 V c t : Vec F S4000x256 .f32) x = (V c main_v76 : S40000x256.Idx → Elt F .f32) k := by
  have hi := idx_facts4 t
  unfold iblk4
  rw [View.read_apply]
  show V c main_v76 _ = V c main_v76 _
  congr 1
  funext a
  apply Fin.ext
  match a with
  | ⟨0, _⟩ => show win4_0.index t 0 * 4000 + 1 * (x 0).val = (k 0).val; rw [hi.1, hk0]; omega
  | ⟨1, _⟩ => show win4_0.index t 1 * 256 + 1 * (x 1).val = (k 1).val; rw [hi.2, hk1]; omega

end Blocks

section AtIdeal

variable (VI : (c : Dev nD) → (b : Ref sig .tc) → Buf (Elt Ideal) ((c : Thread nD τ).loc b))

/-! ## The two running rows, point by point -/

/-- The matrix as the region finds it. -/
abbrev xArr4 (c : Dev nD) : Vec Ideal S40000x256 .f32 := VI c main_v76

/-- Column j's entries, and their squares, row by row. -/
abbrev col4 (c : Dev nD) (j : Fin 256) : Fin 40000 → EReal := fun n => xArr4 VI c (ix2 n j)
abbrev colSq4 (c : Dev nD) (j : Fin 256) : Fin 40000 → EReal := fun n => xArr4 VI c (ix2 n j) * xArr4 VI c (ix2 n j)

/-- After `n` points the first row holds, at column j, the entries of column j summed over the rows below `4000 n`. -/
theorem scr4_0_eq (c : Dev nD) : ∀ (n : ℕ) (h : n ≤ cfg4.N) (u : Fin 1) (j : Fin 256),
    scr4_0 VI c n (ix2 u j) = Cert.Math.partialSum (col4 VI c j) n
  | 0, _, u, j => by
    rw [Cert.Math.partialSum_zero]
    exact pay4_1_apply u j
  | n + 1, h, u, j => by
    have hn : n < 10 := lt_of_lt_of_eq h N_4
    rw [Cert.Math.partialSum_succ _ n hn]
    refine (congrFun (scr4_0_succ VI c ⟨n, h⟩) (ix2 u j)).trans ?_
    refine (pay4_4_apply (xblk4 VI c ⟨n, h⟩) (scr4_0 VI c n) u j).trans ?_
    refine congrArg₂ (· + ·) (scr4_0_eq c n (Nat.le_of_lt h) u j) (Finset.sum_congr rfl fun y _ => ?_)
    exact xblk4_apply VI c ⟨n, h⟩ (ix2 y j) (ix2 ⟨4000 * n + y.val, by omega⟩ j) rfl rfl

/-- After `n` points the second row holds the same sums of the squares. -/
theorem scr4_1_eq (c : Dev nD) : ∀ (n : ℕ) (h : n ≤ cfg4.N) (u : Fin 1) (j : Fin 256),
    scr4_1 VI c n (ix2 u j) = Cert.Math.partialSum (colSq4 VI c j) n
  | 0, _, u, j => by
    rw [Cert.Math.partialSum_zero]
    exact pay4_2_apply u j
  | n + 1, h, u, j => by
    have hn : n < 10 := lt_of_lt_of_eq h N_4
    rw [Cert.Math.partialSum_succ _ n hn]
    refine (congrFun (scr4_1_succ VI c ⟨n, h⟩) (ix2 u j)).trans ?_
    refine (pay4_5_apply (xblk4 VI c ⟨n, h⟩) (scr4_1 VI c n) u j).trans ?_
    refine congrArg₂ (· + ·) (scr4_1_eq c n (Nat.le_of_lt h) u j) (Finset.sum_congr rfl fun y _ => ?_)
    have e := xblk4_apply VI c ⟨n, h⟩ (ix2 y j) (ix2 ⟨4000 * n + y.val, by omega⟩ j) rfl rfl
    exact congrArg₂ (· * ·) e e

/-! ## The result arrays -/

/-- The column sums, and the column sums of squares, as the two result buffers' contents. -/
abbrev sum4 (c : Dev nD) : Buf (Elt Ideal) ((c : Thread nD τ).loc main_v77_0) := Cert.Spec.colSum (VI c main_v76)
abbrev sumSq4 (c : Dev nD) : Buf (Elt Ideal) ((c : Thread nD τ).loc main_v77_1) := Cert.Spec.colSumSq (VI c main_v76)

/-- After the tenth point every row is in. -/
theorem scr4_0_ten (c : Dev nD) : scr4_0 VI c (t4_9.val + 1) = sum4 VI c := by
  funext (i : S1x256.Idx)
  obtain ⟨u, j, rfl⟩ : ∃ (u : Fin 1) (j : Fin 256), i = ix2 u j := ⟨i 0, i 1, eq_ix2 i⟩
  refine (scr4_0_eq VI c (t4_9.val + 1) t4_9.isLt u j).trans ?_
  show Cert.Math.partialSum (col4 VI c j) 10 = _
  rw [Cert.Math.partialSum_ten]
  rfl
theorem scr4_1_ten (c : Dev nD) : scr4_1 VI c (t4_9.val + 1) = sumSq4 VI c := by
  funext (i : S1x256.Idx)
  obtain ⟨u, j, rfl⟩ : ∃ (u : Fin 1) (j : Fin 256), i = ix2 u j := ⟨i 0, i 1, eq_ix2 i⟩
  refine (scr4_1_eq VI c (t4_9.val + 1) t4_9.isLt u j).trans ?_
  show Cert.Math.partialSum (colSq4 VI c j) 10 = _
  rw [Cert.Math.partialSum_ten]
  rfl

/-- The one write-back of each output, at the last point, writes the full sums: its one block is the whole array. -/
theorem flushed4_1 (c : Dev nD) (t : Fin cfg4.N) (hf : (cfg4.win 1).flush t = true) :
    (dat4 VI c).flushed 1 t = ((cfg4.win 1).blk t).view.read (Elt Ideal) (sum4 VI c) := by
  have hN : cfg4.N = 10 := N_4
  have h9 : t.val = 9 := by have := (flush4_1 t).mp hf; have := t.isLt; omega
  obtain rfl : t = t4_9 := Fin.ext h9
  show (cfg4.win 1).cut (grid4.coords t4_9) ((dat4 VI c).after 1 t4_9) = _
  rw [after4_1, scr4_0_ten]
  have hz' : (fun a => win4_1.index t4_9 a * main_v77_0.ty.shape.size a) = fun _ => 0 :=
    funext fun a => by fin_cases a <;> decide
  exact (Memref.read_access_unit_zero (Elt Ideal) main_v77_0 hz' (fun a => by rw [congrFun hz' a]; simp) (sum4 VI c)).symm
theorem flushed4_2 (c : Dev nD) (t : Fin cfg4.N) (hf : (cfg4.win 2).flush t = true) :
    (dat4 VI c).flushed 2 t = ((cfg4.win 2).blk t).view.read (Elt Ideal) (sumSq4 VI c) := by
  have hN : cfg4.N = 10 := N_4
  have h9 : t.val = 9 := by have := (flush4_2 t).mp hf; have := t.isLt; omega
  obtain rfl : t = t4_9 := Fin.ext h9
  show (cfg4.win 2).cut (grid4.coords t4_9) ((dat4 VI c).after 2 t4_9) = _
  rw [after4_2, scr4_1_ten]
  have hz' : (fun a => win4_2.index t4_9 a * main_v77_1.ty.shape.size a) = fun _ => 0 :=
    funext fun a => by fin_cases a <;> decide
  exact (Memref.read_access_unit_zero (Elt Ideal) main_v77_1 hz' (fun a => by rw [congrFun hz' a]; simp) (sumSq4 VI c)).symm

/-- So the first result array ends holding the column sums, -/
theorem arrAt4_sum (c : Dev nD) :
    (dat4 (F := Ideal) VI c).arrAt 1 cfg4.N = Cert.Spec.colSum (VI c main_v76) :=
  (dat4 VI c).arrAt_eq_of_cover 1 (sum4 VI c) (flushed4_1 VI c) fun i =>
    ⟨t4_9, (flush4_1 t4_9).mpr rfl, by
      show i ∈ ((View.whole main_v77_0).slice (win4_1.rect t4_9)).set
      rw [View.set_slice_whole, Rect.mem_set_unit]
      intro a
      have h0 : (i 0 : Nat) < 1 := (i 0).isLt
      have h1 : (i 1 : Nat) < 256 := (i 1).isLt
      match a with
      | ⟨0, _⟩ =>
        show win4_1.index t4_9 0 * win4_1.size 0 ≤ (i 0 : Nat) ∧ (i 0 : Nat) < win4_1.index t4_9 0 * win4_1.size 0 + win4_1.xsize (grid4.coords t4_9) 0
        rw [show win4_1.index t4_9 0 * win4_1.size 0 = 0 from by decide +kernel, show win4_1.xsize (grid4.coords t4_9) 0 = 1 from by decide +kernel]
        omega
      | ⟨1, _⟩ =>
        show win4_1.index t4_9 1 * win4_1.size 1 ≤ (i 1 : Nat) ∧ (i 1 : Nat) < win4_1.index t4_9 1 * win4_1.size 1 + win4_1.xsize (grid4.coords t4_9) 1
        rw [show win4_1.index t4_9 1 * win4_1.size 1 = 0 from by decide +kernel, show win4_1.xsize (grid4.coords t4_9) 1 = 256 from by decide +kernel]
        omega⟩

/-- and the second the column sums of squares. -/
theorem arrAt4_sumsq (c : Dev nD) :
    (dat4 (F := Ideal) VI c).arrAt 2 cfg4.N = Cert.Spec.colSumSq (VI c main_v76) :=
  (dat4 VI c).arrAt_eq_of_cover 2 (sumSq4 VI c) (flushed4_2 VI c) fun i =>
    ⟨t4_9, (flush4_2 t4_9).mpr rfl, by
      show i ∈ ((View.whole main_v77_1).slice (win4_2.rect t4_9)).set
      rw [View.set_slice_whole, Rect.mem_set_unit]
      intro a
      have h0 : (i 0 : Nat) < 1 := (i 0).isLt
      have h1 : (i 1 : Nat) < 256 := (i 1).isLt
      match a with
      | ⟨0, _⟩ =>
        show win4_2.index t4_9 0 * win4_2.size 0 ≤ (i 0 : Nat) ∧ (i 0 : Nat) < win4_2.index t4_9 0 * win4_2.size 0 + win4_2.xsize (grid4.coords t4_9) 0
        rw [show win4_2.index t4_9 0 * win4_2.size 0 = 0 from by decide +kernel, show win4_2.xsize (grid4.coords t4_9) 0 = 1 from by decide +kernel]
        omega
      | ⟨1, _⟩ =>
        show win4_2.index t4_9 1 * win4_2.size 1 ≤ (i 1 : Nat) ∧ (i 1 : Nat) < win4_2.index t4_9 1 * win4_2.size 1 + win4_2.xsize (grid4.coords t4_9) 1
        rw [show win4_2.index t4_9 1 * win4_2.size 1 = 0 from by decide +kernel, show win4_2.xsize (grid4.coords t4_9) 1 = 256 from by decide +kernel]
        omega⟩

end AtIdeal

end Cert.KernelIdeal.Hand

end
-- ==== Proof.KI.Val5.lean ====
import proofs.«406782_j35519379538031_1_alg».proof.Proof.KI.Reg5
import proofs.«406782_j35519379538031_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! # Region 5 over the extended reals: the array it leaves

Each grid point writes back one block of 4000 rows; row r of the result is written by point r / 4000, and its
entry in column j is max (x[r, j] * scale[0, j] + shift[0, j]) 0.  So the region leaves the whole-array function
of the specification. -/

variable (V : (c : Dev nD) → (b : Ref sig .tc) → Buf (Elt Ideal) ((c : Thread nD τ).loc b))

/-- The zero offset pair is the constant zero function. -/
theorem zeroOff5 : (![0, 0] : Fin 2 → Nat) = fun _ => 0 := funext fun a => by fin_cases a <;> rfl

/-! ## The body's arithmetic at an index -/

/-- The stored value at row p, column q of the block: the entry times the scale of its column plus the shift of
    its column, or zero if that is negative.  The two coefficient rows are read at their only row. -/
theorem pay5_apply (x0 : Vec Ideal S4000x256 .f32) (x1 x2 : Vec Ideal S1x256 .f32) (p : Fin 4000) (q : Fin 256) :
    k5_pay1 (F := Ideal) x0 x1 x2 (ix2 p q) = max (x0 (ix2 p q) * x1 (ix2 0 q) + x2 (ix2 0 q)) 0 := by
  unfold k5_pay1
  show max (shapeCast S4000x256 x0 _ (ix2 p q) * broadcastTo S4000x256 (shapeCast S1x256 x1 _) _ (ix2 p q)
      + broadcastTo S4000x256 (shapeCast S1x256 x2 _) _ (ix2 p q)) (Ideal.ofBits .f32 0x00000000#32) = _
  rw [shapeCast_self, shapeCast_self, shapeCast_self, broadcastTo_1b_ab_apply, broadcastTo_1b_ab_apply, Ideal.ofBits_zero_f32]

/-! ## The windows' blocks as parts of their arrays -/

/-- The block indices at each of the ten points: the two row-block windows sit at row block t, column block 0;
    the two coefficient rows never move. -/
theorem idxFacts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The first operand's block at point t, at row p and column q, is the array at row 4000 t + p, column q. -/
theorem xblk5_apply (c : Dev nD) (t : Fin cfg5.N) (p : Fin 4000) (q : Fin 256) (k : S40000x256.Idx)
    (hk0 : (k 0).val = 4000 * t.val + p.val) (hk1 : (k 1).val = q.val) :
    (iblk5 V c 0 t : Vec Ideal S4000x256 .f32) (ix2 p q) = (V c main_v76 : S40000x256.Idx → Elt Ideal .f32) k := by
  obtain ⟨e0, e1, -⟩ := idxFacts5 t
  unfold iblk5
  rw [View.read_apply]
  show V c main_v76 _ = V c main_v76 _
  congr 1
  funext a
  apply Fin.ext
  match a with
  | ⟨0, _⟩ => show win5_0.index t (0 : Fin 2) * 4000 + 1 * p.val = (k 0).val; rw [e0, hk0]; omega
  | ⟨1, _⟩ => show win5_0.index t (1 : Fin 2) * 256 + 1 * q.val = (k 1).val; rw [e1, hk1]; omega

/-- The block of scales at any point is the whole row of scales. -/
theorem scblk5_apply (c : Dev nD) (t : Fin cfg5.N) (q : Fin 256) :
    (iblk5 V c 1 t : Vec Ideal S1x256 .f32) (ix2 0 q) = (V c main_v88 : S1x256.Idx → Elt Ideal .f32) (ix2 0 q) := by
  obtain ⟨-, -, e2, e3, -⟩ := idxFacts5 t
  unfold iblk5
  rw [View.read_apply]
  show V c main_v88 _ = V c main_v88 _
  congr 1
  funext a
  apply Fin.ext
  match a with
  | ⟨0, _⟩ => show win5_1.index t (0 : Fin 2) * 1 + 1 * 0 = 0; rw [e2]
  | ⟨1, _⟩ => show win5_1.index t (1 : Fin 2) * 256 + 1 * q.val = q.val; rw [e3]; omega

/-- The block of shifts at any point is the whole row of shifts. -/
theorem shblk5_apply (c : Dev nD) (t : Fin cfg5.N) (q : Fin 256) :
    (iblk5 V c 2 t : Vec Ideal S1x256 .f32) (ix2 0 q) = (V c main_v91 : S1x256.Idx → Elt Ideal .f32) (ix2 0 q) := by
  obtain ⟨-, -, -, -, e4, e5, -⟩ := idxFacts5 t
  unfold iblk5
  rw [View.read_apply]
  show V c main_v91 _ = V c main_v91 _
  congr 1
  funext a
  apply Fin.ext
  match a with
  | ⟨0, _⟩ => show win5_2.index t (0 : Fin 2) * 1 + 1 * 0 = 0; rw [e4]
  | ⟨1, _⟩ => show win5_2.index t (1 : Fin 2) * 256 + 1 * q.val = q.val; rw [e5]; omega

/-! ## What a point writes back -/

/-- Point t writes back block t of the specification's function of the three arrays. -/
theorem flushed5_eq (c : Dev nD) (t : Fin cfg5.N) :
    (dat5 (F := Ideal) V c).flushed 3 t
      = ((cfg5.win 3).blk t).view.read (Elt Ideal) (Cert.Spec.affRelu (V c main_v76) (V c main_v88) (V c main_v91)) := by
  show (cfg5.win 3).cut (grid5.coords t) ((dat5 (F := Ideal) V c).after 3 t) = _
  rw [after5_3]
  unfold out5_3
  rw [View.canon_unit_zero zeroOff5]
  simp only [View.ld_unit_zero (S := S4000x256) zeroOff5, View.ld_unit_zero (S := S1x256) zeroOff5]
  obtain ⟨-, -, -, -, -, -, e6, e7⟩ := idxFacts5 t
  funext j
  obtain ⟨p, q, rfl⟩ : ∃ (p : Fin 4000) (q : Fin 256), j = ix2 p q := ⟨j 0, j 1, eq_ix2 j⟩
  have hk0 : ((((cfg5.win 3).blk t).view.emb (ix2 p q)) 0).val = 4000 * t.val + p.val := by
    show win5_3.index t (0 : Fin 2) * 4000 + 1 * p.val = _; rw [e6]; omega
  have hk1 : ((((cfg5.win 3).blk t).view.emb (ix2 p q)) 1).val = q.val := by
    show win5_3.index t (1 : Fin 2) * 256 + 1 * q.val = _; rw [e7]; omega
  have hq : (((cfg5.win 3).blk t).view.emb (ix2 p q)) 1 = q := Fin.ext hk1
  refine (pay5_apply (iblk5 V c 0 t) (iblk5 V c 1 t) (iblk5 V c 2 t) p q).trans ?_
  rw [xblk5_apply V c t p q (((cfg5.win 3).blk t).view.emb (ix2 p q)) hk0 hk1, scblk5_apply V c t q, shblk5_apply V c t q]
  show _ = Cert.Spec.affRelu (V c main_v76) (V c main_v88) (V c main_v91) (((cfg5.win 3).blk t).view.emb (ix2 p q))
  unfold Cert.Spec.affRelu
  dsimp only
  rw [hq]

/-! ## The blocks cover the array -/

/-- An index of the result is in point t's block exactly when each coordinate is in the block's range. -/
theorem mem_blk5 (t : Fin cfg5.N) (i : S40000x256.Idx) :
    i ∈ ((cfg5.win 3).blk t).view.set ↔ ∀ a : Fin 2, win5_3.index t a * S4000x256.size a ≤ (i a).val ∧ (i a).val < win5_3.index t a * S4000x256.size a + S4000x256.size a := by
  show i ∈ ((View.whole main_v92).slice (win5_3.rect t)).set ↔ _
  rw [View.set_slice_whole, Rect.mem_set_unit]
  exact Iff.rfl

/-- Every index of the result lies in the block of the point its row divided by 4000 names. -/
theorem cover5 (i : S40000x256.Idx) : ∃ t : Fin cfg5.N, (cfg5.win 3).flush t = true ∧ i ∈ ((cfg5.win 3).blk t).view.set := by
  have hi0 : (i 0).val < 40000 := (i 0).isLt
  have hi1 : (i 1).val < 256 := (i 1).isLt
  have hN : cfg5.N = 10 := N_5
  let t : Fin cfg5.N := ⟨(i 0).val / 4000, by rw [hN]; omega⟩
  obtain ⟨-, -, -, -, -, -, e6, e7⟩ := idxFacts5 t
  have ht : t.val = (i 0).val / 4000 := rfl
  refine ⟨t, flush5_3 t, ?_⟩
  rw [mem_blk5]
  intro a
  match a with
  | ⟨0, _⟩ => show win5_3.index t (0 : Fin 2) * 4000 ≤ (i 0).val ∧ (i 0).val < win5_3.index t (0 : Fin 2) * 4000 + 4000; rw [e6, ht]; omega
  | ⟨1, _⟩ => show win5_3.index t (1 : Fin 2) * 256 ≤ (i 1).val ∧ (i 1).val < win5_3.index t (1 : Fin 2) * 256 + 256; rw [e7]; omega

/-! ## The array the region leaves -/

/-- After the last point the result array is the specification's function of the three arrays the region found. -/
theorem arrAt5 (c : Dev nD) :
    (dat5 (F := Ideal) V c).arrAt 3 cfg5.N = Cert.Spec.affRelu (V c main_v76) (V c main_v88) (V c main_v91) :=
  (dat5 (F := Ideal) V c).arrAt_eq_of_cover 3 (Cert.Spec.affRelu (V c main_v76) (V c main_v88) (V c main_v91))
    (fun t _ => flushed5_eq V c t) cover5

end Cert.KernelIdeal.Hand

end
-- ==== Proof.KI.Pay6.lean ====
import proofs.«406782_j35519379538031_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! # The per-graph sums' arithmetic over the extended reals, index by index

The kernel of region 6 keeps a 64 by 256 table of running totals.  At the first point the table is reset to zero;
at every point the product of the transposed block of the membership matrix (4000 by 64) with the block of node
features (4000 by 256) is added onto it: entry (g, j) gains the sum over the block's rows y of oh[y, g] * h[y, j]. -/

/-- The contraction sums over the row axis of both operands: the left operand's row coordinate is the summation
    index, -/
theorem lhs_pool_0 (i : S64x256.Idx) (q : dot_S4000x64_S4000x256_S64x256_0_0_1_1_n_n.contr.Idx) :
    (dot_S4000x64_S4000x256_S64x256_0_0_1_1_n_n.lhsIdx i q 0).val = (q ⟨0, Nat.one_pos⟩).val :=
  dot_S4000x64_S4000x256_S64x256_0_0_1_1_n_n.lhsIdx_val_of_single rfl i q

/-- its column coordinate is the result's row coordinate, -/
theorem lhs_pool_1 (i : S64x256.Idx) (q : dot_S4000x64_S4000x256_S64x256_0_0_1_1_n_n.contr.Idx) :
    (dot_S4000x64_S4000x256_S64x256_0_0_1_1_n_n.lhsIdx i q 1).val = (i 0).val := by
  unfold DotDims.lhsIdx
  rw [dif_neg (show ¬(1 : Fin S4000x64.rank) ∈ dot_S4000x64_S4000x256_S64x256_0_0_1_1_n_n.lhsBatch from (by decide : ¬(1 : Fin 2) ∈ ([] : List (Fin 2)))),
    dif_pos (show (1 : Fin S4000x64.rank) ∈ dot_S4000x64_S4000x256_S64x256_0_0_1_1_n_n.lhsNonContracting from (by decide : (1 : Fin 2) ∈ ([1] : List (Fin 2))))]
  rfl

/-- the right operand's row coordinate is the summation index, -/
theorem rhs_pool_0 (i : S64x256.Idx) (q : dot_S4000x64_S4000x256_S64x256_0_0_1_1_n_n.contr.Idx) :
    (dot_S4000x64_S4000x256_S64x256_0_0_1_1_n_n.rhsIdx i q 0).val = (q ⟨0, Nat.one_pos⟩).val :=
  dot_S4000x64_S4000x256_S64x256_0_0_1_1_n_n.rhsIdx_val_of_single rfl i q

/-- and its column coordinate is the result's column coordinate. -/
theorem rhs_pool_1 (i : S64x256.Idx) (q : dot_S4000x64_S4000x256_S64x256_0_0_1_1_n_n.contr.Idx) :
    (dot_S4000x64_S4000x256_S64x256_0_0_1_1_n_n.rhsIdx i q 1).val = (i 1).val := by
  unfold DotDims.rhsIdx
  rw [dif_neg (show ¬(1 : Fin S4000x256.rank) ∈ dot_S4000x64_S4000x256_S64x256_0_0_1_1_n_n.rhsBatch from (by decide : ¬(1 : Fin 2) ∈ ([] : List (Fin 2)))),
    dif_pos (show (1 : Fin S4000x256.rank) ∈ dot_S4000x64_S4000x256_S64x256_0_0_1_1_n_n.rhsNonContracting from (by decide : (1 : Fin 2) ∈ ([1] : List (Fin 2))))]
  rfl

/-- The product into a zero table, read at (g, j): the sum over the rows y of the left operand at (y, g) times
    the right operand at (y, j). -/
theorem poolDot_apply {φ₁ φ₂ : FTy} (l : FVec Ideal S4000x64 φ₁) (r : FVec Ideal S4000x256 φ₂) (g : Fin 64) (j : Fin 256) :
    FloatOps.matmul dot_S4000x64_S4000x256_S64x256_0_0_1_1_n_n none l r (constant (F := Ideal) S64x256 .f32 0x00000000#32) (ix2 g j)
      = ∑ y : Fin 4000, l (ix2 y g) * r (ix2 y j) := by
  refine (Ideal.matmul_constant_zero_apply dot_S4000x64_S4000x256_S64x256_0_0_1_1_n_n none l r (ix2 g j)).trans ?_
  rw [← Equiv.sum_comp (contrEquiv1 dot_S4000x64_S4000x256_S64x256_0_0_1_1_n_n 4000 rfl rfl).symm]
  refine Finset.sum_congr rfl fun y _ => ?_
  have hk := contrEquiv1_symm_val dot_S4000x64_S4000x256_S64x256_0_0_1_1_n_n 4000 rfl rfl y
  have el : dot_S4000x64_S4000x256_S64x256_0_0_1_1_n_n.lhsIdx (ix2 g j) ((contrEquiv1 dot_S4000x64_S4000x256_S64x256_0_0_1_1_n_n 4000 rfl rfl).symm y) = ix2 y g := funext fun a => Fin.ext (by
    match a with
    | ⟨0, _⟩ => exact (lhs_pool_0 _ _).trans hk
    | ⟨1, _⟩ => exact lhs_pool_1 _ _)
  have er : dot_S4000x64_S4000x256_S64x256_0_0_1_1_n_n.rhsIdx (ix2 g j) ((contrEquiv1 dot_S4000x64_S4000x256_S64x256_0_0_1_1_n_n 4000 rfl rfl).symm y) = ix2 y j := funext fun a => Fin.ext (by
    match a with
    | ⟨0, _⟩ => exact (rhs_pool_0 _ _).trans hk
    | ⟨1, _⟩ => exact rhs_pool_1 _ _)
  rw [el, er]

/-- The reset value of the table is zero at every entry. -/
theorem pay6_1_apply (g : Fin 64) (j : Fin 256) : (k6_pay1 (F := Ideal)) (ix2 g j) = 0 := by
  unfold k6_pay1
  show shapeCast S64x256 (broadcast S64x256 (Ideal.ofBits .f32 0x00000000#32)) _ (ix2 g j) = _
  rw [shapeCast_self, broadcast_apply, Ideal.ofBits_zero_f32]

/-- The new table at (g, j): what it held there plus the sum over the block's rows y of oh[y, g] * h[y, j].
    Narrowing the operands to the shorter float format changes nothing over the extended reals. -/
theorem pay6_2_apply (h : Vec Ideal S4000x256 .f32) (oh : Vec Ideal S4000x64 .f32) (acc : Vec Ideal S64x256 .f32)
    (g : Fin 64) (j : Fin 256) :
    k6_pay2 (F := Ideal) h oh acc (ix2 g j) = acc (ix2 g j) + ∑ y : Fin 4000, oh (ix2 y g) * h (ix2 y j) := by
  unfold k6_pay2
  refine (congrFun (shapeCast_self _ _) (ix2 g j)).trans ?_
  show acc (ix2 g j) + _ = _
  refine congrArg (acc (ix2 g j) + ·) ?_
  refine (poolDot_apply _ _ g j).trans ?_
  refine Finset.sum_congr rfl fun y _ => ?_
  show shapeCast S4000x64 oh _ (ix2 y g) * shapeCast S4000x256 h _ (ix2 y j) = _
  rw [shapeCast_self, shapeCast_self]

end Cert.KernelIdeal.Hand

end
-- ==== Proof.KI.Val6.lean ====
import proofs.«406782_j35519379538031_1_alg».proof.Proof.KI.Reg6
import proofs.«406782_j35519379538031_1_alg».proof.Proof.KI.Pay6
import proofs.«406782_j35519379538031_1_alg».proof.Proof.Math.Blocks
import proofs.«406782_j35519379538031_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The pooling region's result over the extended reals

The accumulator after `n` points holds, at (g, j), the sum over the rows below `4000 n` of the membership entry
(row, g) times the feature entry (row, j): by induction on the points, each point adding the rows of its block.
After the tenth point every row is in, the last point copies the accumulator to the output block, and that block
is the whole result array: the array ends holding the per-graph sums. -/

section Blocks

variable {F : FTy → Type} [FloatOps F]
variable (V : (c : Dev nD) → (b : Ref sig .tc) → Buf (Elt F) ((c : Thread nD τ).loc b))

/-! ## The input blocks, read off their arrays -/
/-- Where the input windows' blocks sit: row block `t`, column block 0. -/
theorem idx_facts6 : ∀ t : Fin cfg6.N,
    (win6_0.index t (0 : Fin 2) = t.val ∧ win6_0.index t (1 : Fin 2) = 0)
      ∧ (win6_1.index t (0 : Fin 2) = t.val ∧ win6_1.index t (1 : Fin 2) = 0) :=
  (by decide +kernel : ∀ t : Fin grid6.N,
    (win6_0.index t (0 : Fin 2) = t.val ∧ win6_0.index t (1 : Fin 2) = 0)
      ∧ (win6_1.index t (0 : Fin 2) = t.val ∧ win6_1.index t (1 : Fin 2) = 0))

/-- The feature window's block at point `t` is rows `4000 t … 4000 t + 3999` of the feature matrix. -/
theorem hBlk6_apply (c : Dev nD) (t : Fin cfg6.N) (x : S4000x256.Idx) (k : S40000x256.Idx)
    (hk0 : (k 0).val = 4000 * t.val + (x 0).val) (hk1 : (k 1).val = (x 1).val) :
    (iblk6 V c 0 t : Vec F S4000x256 .f32) x = (V c main_v92 : S40000x256.Idx → Elt F .f32) k := by
  have hi := (idx_facts6 t).1
  unfold iblk6
  rw [View.read_apply]
  show V c main_v92 _ = V c main_v92 _
  congr 1
  funext a
  apply Fin.ext
  match a with
  | ⟨0, _⟩ => show win6_0.index t 0 * 4000 + 1 * (x 0).val = (k 0).val; rw [hi.1, hk0]; omega
  | ⟨1, _⟩ => show win6_0.index t 1 * 256 + 1 * (x 1).val = (k 1).val; rw [hi.2, hk1]; omega

/-- The membership window's block at point `t` is the same rows of the membership matrix. -/
theorem ohBlk6_apply (c : Dev nD) (t : Fin cfg6.N) (x : S4000x64.Idx) (k : S40000x64.Idx)
    (hk0 : (k 0).val = 4000 * t.val + (x 0).val) (hk1 : (k 1).val = (x 1).val) :
    (iblk6 V c 1 t : Vec F S4000x64 .f32) x = (V c main_v99 : S40000x64.Idx → Elt F .f32) k := by
  have hi := (idx_facts6 t).2
  unfold iblk6
  rw [View.read_apply]
  show V c main_v99 _ = V c main_v99 _
  congr 1
  funext a
  apply Fin.ext
  match a with
  | ⟨0, _⟩ => show win6_1.index t 0 * 4000 + 1 * (x 0).val = (k 0).val; rw [hi.1, hk0]; omega
  | ⟨1, _⟩ => show win6_1.index t 1 * 64 + 1 * (x 1).val = (k 1).val; rw [hi.2, hk1]; omega

end Blocks

section AtIdeal

variable (VI : (c : Dev nD) → (b : Ref sig .tc) → Buf (Elt Ideal) ((c : Thread nD τ).loc b))

/-! ## The accumulator, point by point -/

/-- The feature matrix and the membership matrix as the region finds them. -/
abbrev hArr6 (c : Dev nD) : Vec Ideal S40000x256 .f32 := VI c main_v92
abbrev ohArr6 (c : Dev nD) : Vec Ideal S40000x64 .f32 := VI c main_v99

/-- The summand of entry (g, j): row `n`'s membership in graph `g` times row `n`'s feature `j`. -/
abbrev term6 (c : Dev nD) (g : Fin 64) (j : Fin 256) : Fin 40000 → EReal :=
  fun n => ohArr6 VI c (ix2 n g) * hArr6 VI c (ix2 n j)

/-- After `n` points the accumulator holds, at (g, j), the summand summed over the rows below `4000 n`. -/
theorem acc6_eq (c : Dev nD) : ∀ (n : ℕ) (h : n ≤ cfg6.N) (g : Fin 64) (j : Fin 256),
    acc6 VI c n h (ix2 g j) = Cert.Math.partialSum (term6 VI c g j) n
  | 0, _, g, j => by
    rw [Cert.Math.partialSum_zero]
    exact pay6_1_apply g j
  | n + 1, h, g, j => by
    have hn : n < 10 := lt_of_lt_of_eq h N_6
    rw [acc6_succ, Cert.Math.partialSum_succ _ n hn]
    refine (pay6_2_apply (iblk6 VI c 0 ⟨n, h⟩) (iblk6 VI c 1 ⟨n, h⟩) (acc6 VI c n (Nat.le_of_lt h)) g j).trans ?_
    refine congrArg₂ (· + ·) (acc6_eq c n (Nat.le_of_lt h) g j) (Finset.sum_congr rfl fun y _ => ?_)
    exact congrArg₂ (· * ·)
      (ohBlk6_apply VI c ⟨n, h⟩ (ix2 y g) (ix2 ⟨4000 * n + y.val, by omega⟩ g) rfl rfl)
      (hBlk6_apply VI c ⟨n, h⟩ (ix2 y j) (ix2 ⟨4000 * n + y.val, by omega⟩ j) rfl rfl)

/-! ## The result array -/

/-- The per-graph sums of the whole feature matrix through the whole membership matrix, as the result buffer's contents. -/
abbrev pool6 (c : Dev nD) : Buf (Elt Ideal) ((c : Thread nD τ).loc main_v101) :=
  Cert.Spec.poolSum (VI c main_v92) (VI c main_v99)

/-- After the tenth point every row is in: the accumulator holds the per-graph sums. -/
theorem acc6_ten (c : Dev nD) : acc6 VI c (t6_9.val + 1) t6_9.isLt = pool6 VI c := by
  funext (i : S64x256.Idx)
  obtain ⟨g, j, rfl⟩ : ∃ (g : Fin 64) (j : Fin 256), i = ix2 g j := ⟨i 0, i 1, eq_ix2 i⟩
  refine (acc6_eq VI c (t6_9.val + 1) t6_9.isLt g j).trans ?_
  show Cert.Math.partialSum (term6 VI c g j) 10 = _
  rw [Cert.Math.partialSum_ten]
  rfl

/-- The one write-back, at the last point, writes the full sums: the output's one block is the whole array. -/
theorem flushed6_2 (c : Dev nD) (t : Fin cfg6.N) (hf : (cfg6.win 2).flush t = true) :
    (dat6 VI c).flushed 2 t = ((cfg6.win 2).blk t).view.read (Elt Ideal) (pool6 VI c) := by
  have hN : cfg6.N = 10 := N_6
  have h9 : t.val = 9 := by have := (flush6_2 t).mp hf; have := t.isLt; omega
  obtain rfl : t = t6_9 := Fin.ext h9
  show (cfg6.win 2).cut (grid6.coords t6_9) ((dat6 VI c).after 2 t6_9) = _
  rw [after6_2, acc6_ten]
  have hz' : (fun a => win6_2.index t6_9 a * main_v101.ty.shape.size a) = fun _ => 0 :=
    funext fun a => by fin_cases a <;> decide
  exact (Memref.read_access_unit_zero (Elt Ideal) main_v101 hz' (fun a => by rw [congrFun hz' a]; simp) (pool6 VI c)).symm

/-- So the result array ends holding the per-graph sums. -/
theorem arrAt6 (c : Dev nD) :
    (dat6 (F := Ideal) VI c).arrAt 2 cfg6.N = Cert.Spec.poolSum (VI c main_v92) (VI c main_v99) :=
  (dat6 VI c).arrAt_eq_of_cover 2 (pool6 VI c) (flushed6_2 VI c) fun i =>
    ⟨t6_9, (flush6_2 t6_9).mpr rfl, by
      show i ∈ ((View.whole main_v101).slice (win6_2.rect t6_9)).set
      rw [View.set_slice_whole, Rect.mem_set_unit]
      intro a
      have h0 : (i 0 : Nat) < 64 := (i 0).isLt
      have h1 : (i 1 : Nat) < 256 := (i 1).isLt
      match a with
      | ⟨0, _⟩ =>
        show win6_2.index t6_9 0 * win6_2.size 0 ≤ (i 0 : Nat) ∧ (i 0 : Nat) < win6_2.index t6_9 0 * win6_2.size 0 + win6_2.xsize (grid6.coords t6_9) 0
        rw [show win6_2.index t6_9 0 * win6_2.size 0 = 0 from by decide +kernel, show win6_2.xsize (grid6.coords t6_9) 0 = 64 from by decide +kernel]
        omega
      | ⟨1, _⟩ =>
        show win6_2.index t6_9 1 * win6_2.size 1 ≤ (i 1 : Nat) ∧ (i 1 : Nat) < win6_2.index t6_9 1 * win6_2.size 1 + win6_2.xsize (grid6.coords t6_9) 1
        rw [show win6_2.index t6_9 1 * win6_2.size 1 = 0 from by decide +kernel, show win6_2.xsize (grid6.coords t6_9) 1 = 256 from by decide +kernel]
        omega⟩

end AtIdeal

end Cert.KernelIdeal.Hand

end
-- ==== Proof.Ref.Stages.lean ====
/-
  The reference function of the two-layer graph convolution, stage by stage, as pure functions of array contents.

  With n = 40000 nodes, E = 640000 edges and feature width 256:
  * `rSrc`, `rDst`: the edge sources and targets with one self-loop per node appended (n + E = 680000 entries);
  * `rAgg h src dst b`: the symmetric-normalised neighbourhood sum of the rows of `h`,
      out[v] = Σ_{e : dst e = v} h[src e] · deg[src e]^(-1/2) · deg[dst e]^(-1/2) + b,   deg[v] = #{e : dst e = v};
  * `rConv x W b src dst = rAgg (x · W) src dst b`;
  * `rBN a g be`: per column, (a - mean) · (var + ε)^(-1/2) · g + be with the biased variance over the rows, then max(·, 0);
  * `rPool h batch`: per graph, the sum of its nodes' rows divided by max(number of its nodes, 1);
  * `refOut`: two convolution + normalisation layers over the same edges, then the pooling.
  Each definition applies the program's elementary operations in the program's order.
-/
import proofs.«406782_j35519379538031_1_alg».proof.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F] [Facts]

/-- The edge sources followed by the nodes 0 … n-1: row 0 of the edge table, then the self-loops. -/
def rSrc (ei : (⟨S2x640000, .i32⟩ : BufTy).Contents (Elt F)) : (⟨S680000, .i32⟩ : BufTy).Contents (Elt F) :=
  (concatenate S680000 0 [⟨S640000,
    (shapeCast S640000
      (extractStridedSlice S1x640000 ![0, 0] ei slices_S2x640000_S1x640000_0_0 : (⟨S1x640000, .i32⟩ : BufTy).Contents (Elt F)) shapeCasts_S1x640000_S640000 : (⟨S640000, .i32⟩ : BufTy).Contents (Elt F))⟩, ⟨S40000, (iotaInDim S40000 32 0 : (⟨S40000, .i32⟩ : BufTy).Contents (Elt F))⟩] concatenates_S640000_S40000_S680000_d0 : (⟨S680000, .i32⟩ : BufTy).Contents (Elt F))

/-- The edge targets followed by the nodes 0 … n-1: row 1 of the edge table, then the self-loops. -/
def rDst (ei : (⟨S2x640000, .i32⟩ : BufTy).Contents (Elt F)) : (⟨S680000, .i32⟩ : BufTy).Contents (Elt F) :=
  (concatenate S680000 0 [⟨S640000,
    (shapeCast S640000
      (extractStridedSlice S1x640000 ![1, 0] ei slices_S2x640000_S1x640000_1_0 : (⟨S1x640000, .i32⟩ : BufTy).Contents (Elt F)) shapeCasts_S1x640000_S640000 : (⟨S640000, .i32⟩ : BufTy).Contents (Elt F))⟩, ⟨S40000, (iotaInDim S40000 32 0 : (⟨S40000, .i32⟩ : BufTy).Contents (Elt F))⟩] concatenates_S640000_S40000_S680000_d0 : (⟨S680000, .i32⟩ : BufTy).Contents (Elt F))

/-- The normalised aggregation of the rows of `h` along the edges: the in-degree of every node (a sum of ones over the
    targets), its inverse square root, the product of the two ends' factors per edge (an index below zero wraps by n),
    the source's row of `h` scaled by it, the sum of the scaled rows at each target, and the bias added to every row. -/
def rAgg (h : (⟨S40000x256, .f32⟩ : BufTy).Contents (Elt F)) (src : (⟨S680000, .i32⟩ : BufTy).Contents (Elt F)) (dst : (⟨S680000, .i32⟩ : BufTy).Contents (Elt F)) (b : (⟨S256, .f32⟩ : BufTy).Contents (Elt F)) : (⟨S40000x256, .f32⟩ : BufTy).Contents (Elt F) :=
  ((addf : (⟨S40000x256, .f32⟩ : BufTy).Contents (Elt F) → (⟨S40000x256, .f32⟩ : BufTy).Contents (Elt F) → (⟨S40000x256, .f32⟩ : BufTy).Contents (Elt F))
    (Host.scatterAdd scatter_S40000x256_S680000x1_S680000x256_1_0_0_1
      ((broadcastInDim S40000x256 ![] bcast_S_S40000x256 : (⟨S_, .f32⟩ : BufTy).Contents (Elt F) → (⟨S40000x256, .f32⟩ : BufTy).Contents (Elt F)) (constant S_ .f32 0x00000000#32 : (⟨S_, .f32⟩ : BufTy).Contents (Elt F)))
      ((broadcastInDim S680000x1 ![0] bcast_S680000_S680000x1_0 : (⟨S680000, .i32⟩ : BufTy).Contents (Elt F) → (⟨S680000x1, .i32⟩ : BufTy).Contents (Elt F)) dst)
      ((mulf : (⟨S680000x256, .f32⟩ : BufTy).Contents (Elt F) → (⟨S680000x256, .f32⟩ : BufTy).Contents (Elt F) → (⟨S680000x256, .f32⟩ : BufTy).Contents (Elt F))
        (Host.gather gather_S40000x256_S680000x1_S680000x256_1_0_n_n_0_1_1256 h
          ((broadcastInDim S680000x1 ![0] bcast_S680000_S680000x1_0 : (⟨S680000, .i32⟩ : BufTy).Contents (Elt F) → (⟨S680000x1, .i32⟩ : BufTy).Contents (Elt F))
            ((select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
              ((cmpi .slt : (⟨S680000, .i32⟩ : BufTy).Contents (Elt F) → (⟨S680000, .i32⟩ : BufTy).Contents (Elt F) → (⟨S680000, .i1⟩ : BufTy).Contents (Elt F)) src
                ((broadcastInDim S680000 ![] bcast_S_S680000 : (⟨S_, .i32⟩ : BufTy).Contents (Elt F) → (⟨S680000, .i32⟩ : BufTy).Contents (Elt F)) (constantI S_ 32 0#32 : (⟨S_, .i32⟩ : BufTy).Contents (Elt F))))
              ((addi : (⟨S680000, .i32⟩ : BufTy).Contents (Elt F) → (⟨S680000, .i32⟩ : BufTy).Contents (Elt F) → (⟨S680000, .i32⟩ : BufTy).Contents (Elt F)) src
                ((broadcastInDim S680000 ![] bcast_S_S680000 : (⟨S_, .i32⟩ : BufTy).Contents (Elt F) → (⟨S680000, .i32⟩ : BufTy).Contents (Elt F)) (constantI S_ 32 40000#32 : (⟨S_, .i32⟩ : BufTy).Contents (Elt F)))) src)) : (⟨S680000x256, .f32⟩ : BufTy).Contents (Elt F))
        ((broadcastInDim S680000x256 ![0, 1] bcast_S680000x1_S680000x256_0_1 : (⟨S680000x1, .f32⟩ : BufTy).Contents (Elt F) → (⟨S680000x256, .f32⟩ : BufTy).Contents (Elt F))
          ((broadcastInDim S680000x1 ![0] bcast_S680000_S680000x1_0 : (⟨S680000, .f32⟩ : BufTy).Contents (Elt F) → (⟨S680000x1, .f32⟩ : BufTy).Contents (Elt F))
            ((mulf : (⟨S680000, .f32⟩ : BufTy).Contents (Elt F) → (⟨S680000, .f32⟩ : BufTy).Contents (Elt F) → (⟨S680000, .f32⟩ : BufTy).Contents (Elt F))
              (Host.gather gather_S40000_S680000x1_S680000_n_0_n_n_0_1_1
                ((Host.rsqrt : (⟨S40000, .f32⟩ : BufTy).Contents (Elt F) → (⟨S40000, .f32⟩ : BufTy).Contents (Elt F))
                  (Host.scatterAdd scatter_S40000_S680000x1_S680000_n_0_0_1
                    ((broadcastInDim S40000 ![] bcast_S_S40000 : (⟨S_, .f32⟩ : BufTy).Contents (Elt F) → (⟨S40000, .f32⟩ : BufTy).Contents (Elt F)) (constant S_ .f32 0x00000000#32 : (⟨S_, .f32⟩ : BufTy).Contents (Elt F)))
                    ((broadcastInDim S680000x1 ![0] bcast_S680000_S680000x1_0 : (⟨S680000, .i32⟩ : BufTy).Contents (Elt F) → (⟨S680000x1, .i32⟩ : BufTy).Contents (Elt F)) dst)
                    ((broadcastInDim S680000 ![] bcast_S_S680000 : (⟨S_, .f32⟩ : BufTy).Contents (Elt F) → (⟨S680000, .f32⟩ : BufTy).Contents (Elt F)) (constant S_ .f32 0x3F800000#32 : (⟨S_, .f32⟩ : BufTy).Contents (Elt F))) : (⟨S40000, .f32⟩ : BufTy).Contents (Elt F)))
                ((broadcastInDim S680000x1 ![0] bcast_S680000_S680000x1_0 : (⟨S680000, .i32⟩ : BufTy).Contents (Elt F) → (⟨S680000x1, .i32⟩ : BufTy).Contents (Elt F))
                  ((select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
                    ((cmpi .slt : (⟨S680000, .i32⟩ : BufTy).Contents (Elt F) → (⟨S680000, .i32⟩ : BufTy).Contents (Elt F) → (⟨S680000, .i1⟩ : BufTy).Contents (Elt F)) src
                      ((broadcastInDim S680000 ![] bcast_S_S680000 : (⟨S_, .i32⟩ : BufTy).Contents (Elt F) → (⟨S680000, .i32⟩ : BufTy).Contents (Elt F)) (constantI S_ 32 0#32 : (⟨S_, .i32⟩ : BufTy).Contents (Elt F))))
                    ((addi : (⟨S680000, .i32⟩ : BufTy).Contents (Elt F) → (⟨S680000, .i32⟩ : BufTy).Contents (Elt F) → (⟨S680000, .i32⟩ : BufTy).Contents (Elt F)) src
                      ((broadcastInDim S680000 ![] bcast_S_S680000 : (⟨S_, .i32⟩ : BufTy).Contents (Elt F) → (⟨S680000, .i32⟩ : BufTy).Contents (Elt F)) (constantI S_ 32 40000#32 : (⟨S_, .i32⟩ : BufTy).Contents (Elt F)))) src)) : (⟨S680000, .f32⟩ : BufTy).Contents (Elt F))
              (Host.gather gather_S40000_S680000x1_S680000_n_0_n_n_0_1_1
                ((Host.rsqrt : (⟨S40000, .f32⟩ : BufTy).Contents (Elt F) → (⟨S40000, .f32⟩ : BufTy).Contents (Elt F))
                  (Host.scatterAdd scatter_S40000_S680000x1_S680000_n_0_0_1
                    ((broadcastInDim S40000 ![] bcast_S_S40000 : (⟨S_, .f32⟩ : BufTy).Contents (Elt F) → (⟨S40000, .f32⟩ : BufTy).Contents (Elt F)) (constant S_ .f32 0x00000000#32 : (⟨S_, .f32⟩ : BufTy).Contents (Elt F)))
                    ((broadcastInDim S680000x1 ![0] bcast_S680000_S680000x1_0 : (⟨S680000, .i32⟩ : BufTy).Contents (Elt F) → (⟨S680000x1, .i32⟩ : BufTy).Contents (Elt F)) dst)
                    ((broadcastInDim S680000 ![] bcast_S_S680000 : (⟨S_, .f32⟩ : BufTy).Contents (Elt F) → (⟨S680000, .f32⟩ : BufTy).Contents (Elt F)) (constant S_ .f32 0x3F800000#32 : (⟨S_, .f32⟩ : BufTy).Contents (Elt F))) : (⟨S40000, .f32⟩ : BufTy).Contents (Elt F)))
                ((broadcastInDim S680000x1 ![0] bcast_S680000_S680000x1_0 : (⟨S680000, .i32⟩ : BufTy).Contents (Elt F) → (⟨S680000x1, .i32⟩ : BufTy).Contents (Elt F))
                  ((select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
                    ((cmpi .slt : (⟨S680000, .i32⟩ : BufTy).Contents (Elt F) → (⟨S680000, .i32⟩ : BufTy).Contents (Elt F) → (⟨S680000, .i1⟩ : BufTy).Contents (Elt F)) dst
                      ((broadcastInDim S680000 ![] bcast_S_S680000 : (⟨S_, .i32⟩ : BufTy).Contents (Elt F) → (⟨S680000, .i32⟩ : BufTy).Contents (Elt F)) (constantI S_ 32 0#32 : (⟨S_, .i32⟩ : BufTy).Contents (Elt F))))
                    ((addi : (⟨S680000, .i32⟩ : BufTy).Contents (Elt F) → (⟨S680000, .i32⟩ : BufTy).Contents (Elt F) → (⟨S680000, .i32⟩ : BufTy).Contents (Elt F)) dst
                      ((broadcastInDim S680000 ![] bcast_S_S680000 : (⟨S_, .i32⟩ : BufTy).Contents (Elt F) → (⟨S680000, .i32⟩ : BufTy).Contents (Elt F)) (constantI S_ 32 40000#32 : (⟨S_, .i32⟩ : BufTy).Contents (Elt F)))) dst)) : (⟨S680000, .f32⟩ : BufTy).Contents (Elt F)))))) : (⟨S40000x256, .f32⟩ : BufTy).Contents (Elt F))
    ((broadcastInDim S40000x256 ![0, 1] bcast_S1x256_S40000x256_0_1 : (⟨S1x256, .f32⟩ : BufTy).Contents (Elt F) → (⟨S40000x256, .f32⟩ : BufTy).Contents (Elt F))
      ((broadcastInDim S1x256 ![1] bcast_S256_S1x256_1 : (⟨S256, .f32⟩ : BufTy).Contents (Elt F) → (⟨S1x256, .f32⟩ : BufTy).Contents (Elt F)) b)))

/-- One graph convolution: the aggregation of the rows of `x · W`. -/
def rConv (x : (⟨S40000x256, .f32⟩ : BufTy).Contents (Elt F)) (W : (⟨S256x256, .f32⟩ : BufTy).Contents (Elt F)) (b : (⟨S256, .f32⟩ : BufTy).Contents (Elt F)) (src : (⟨S680000, .i32⟩ : BufTy).Contents (Elt F)) (dst : (⟨S680000, .i32⟩ : BufTy).Contents (Elt F)) : (⟨S40000x256, .f32⟩ : BufTy).Contents (Elt F) :=
  rAgg (Host.dotGeneral dot_S40000x256_S256x256_S40000x256_1_0_0_1_n_n none x W : (⟨S40000x256, .f32⟩ : BufTy).Contents (Elt F)) src dst b

/-- Column-wise normalisation over the rows followed by the positive part: the column means, the biased column variances
    (the mean of the squared deviations; the divisor n - 0 is positive, so the guarded branch is never taken),
    `(a - mean) · (var + ε)^(-1/2) · g + be`, and `max(·, 0)`. -/
def rBN (a : (⟨S40000x256, .f32⟩ : BufTy).Contents (Elt F)) (g : (⟨S256, .f32⟩ : BufTy).Contents (Elt F)) (be : (⟨S256, .f32⟩ : BufTy).Contents (Elt F)) : (⟨S40000x256, .f32⟩ : BufTy).Contents (Elt F) :=
  ((maximumf : (⟨S40000x256, .f32⟩ : BufTy).Contents (Elt F) → (⟨S40000x256, .f32⟩ : BufTy).Contents (Elt F) → (⟨S40000x256, .f32⟩ : BufTy).Contents (Elt F))
    ((addf : (⟨S40000x256, .f32⟩ : BufTy).Contents (Elt F) → (⟨S40000x256, .f32⟩ : BufTy).Contents (Elt F) → (⟨S40000x256, .f32⟩ : BufTy).Contents (Elt F))
      ((mulf : (⟨S40000x256, .f32⟩ : BufTy).Contents (Elt F) → (⟨S40000x256, .f32⟩ : BufTy).Contents (Elt F) → (⟨S40000x256, .f32⟩ : BufTy).Contents (Elt F))
        ((mulf : (⟨S40000x256, .f32⟩ : BufTy).Contents (Elt F) → (⟨S40000x256, .f32⟩ : BufTy).Contents (Elt F) → (⟨S40000x256, .f32⟩ : BufTy).Contents (Elt F))
          ((subf : (⟨S40000x256, .f32⟩ : BufTy).Contents (Elt F) → (⟨S40000x256, .f32⟩ : BufTy).Contents (Elt F) → (⟨S40000x256, .f32⟩ : BufTy).Contents (Elt F)) a
            ((broadcastInDim S40000x256 ![0, 1] bcast_S1x256_S40000x256_0_1 : (⟨S1x256, .f32⟩ : BufTy).Contents (Elt F) → (⟨S40000x256, .f32⟩ : BufTy).Contents (Elt F))
              ((broadcastInDim S1x256 ![1] bcast_S256_S1x256_1 : (⟨S256, .f32⟩ : BufTy).Contents (Elt F) → (⟨S1x256, .f32⟩ : BufTy).Contents (Elt F))
                ((Host.divf : (⟨S256, .f32⟩ : BufTy).Contents (Elt F) → (⟨S256, .f32⟩ : BufTy).Contents (Elt F) → (⟨S256, .f32⟩ : BufTy).Contents (Elt F))
                  (Host.reduceAdd a (constant S_ .f32 0x00000000#32 : (⟨S_, .f32⟩ : BufTy).Contents (Elt F)) reducesTo_S40000x256_S256_d0 h_S_ : (⟨S256, .f32⟩ : BufTy).Contents (Elt F))
                  ((broadcastInDim S256 ![] bcast_S_S256 : (⟨S_, .f32⟩ : BufTy).Contents (Elt F) → (⟨S256, .f32⟩ : BufTy).Contents (Elt F)) (constant S_ .f32 0x471C4000#32 : (⟨S_, .f32⟩ : BufTy).Contents (Elt F)))))))
          ((broadcastInDim S40000x256 ![0, 1] bcast_S1x256_S40000x256_0_1 : (⟨S1x256, .f32⟩ : BufTy).Contents (Elt F) → (⟨S40000x256, .f32⟩ : BufTy).Contents (Elt F))
            ((broadcastInDim S1x256 ![1] bcast_S256_S1x256_1 : (⟨S256, .f32⟩ : BufTy).Contents (Elt F) → (⟨S1x256, .f32⟩ : BufTy).Contents (Elt F))
              ((Host.rsqrt : (⟨S256, .f32⟩ : BufTy).Contents (Elt F) → (⟨S256, .f32⟩ : BufTy).Contents (Elt F))
                ((addf : (⟨S256, .f32⟩ : BufTy).Contents (Elt F) → (⟨S256, .f32⟩ : BufTy).Contents (Elt F) → (⟨S256, .f32⟩ : BufTy).Contents (Elt F))
                  (select (broadcastInDim S256 ![] bcast_S_S256
                    ((cmpf .ogt : (⟨S_, .f32⟩ : BufTy).Contents (Elt F) → (⟨S_, .f32⟩ : BufTy).Contents (Elt F) → (⟨S_, .i1⟩ : BufTy).Contents (Elt F))
                      ((subf : (⟨S_, .f32⟩ : BufTy).Contents (Elt F) → (⟨S_, .f32⟩ : BufTy).Contents (Elt F) → (⟨S_, .f32⟩ : BufTy).Contents (Elt F)) (constant S_ .f32 0x471C4000#32 : (⟨S_, .f32⟩ : BufTy).Contents (Elt F))
                        ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))))
                    ((Host.divf : (⟨S256, .f32⟩ : BufTy).Contents (Elt F) → (⟨S256, .f32⟩ : BufTy).Contents (Elt F) → (⟨S256, .f32⟩ : BufTy).Contents (Elt F))
                      (Host.reduceAdd
                        ((mulf : (⟨S40000x256, .f32⟩ : BufTy).Contents (Elt F) → (⟨S40000x256, .f32⟩ : BufTy).Contents (Elt F) → (⟨S40000x256, .f32⟩ : BufTy).Contents (Elt F))
                          ((subf : (⟨S40000x256, .f32⟩ : BufTy).Contents (Elt F) → (⟨S40000x256, .f32⟩ : BufTy).Contents (Elt F) → (⟨S40000x256, .f32⟩ : BufTy).Contents (Elt F)) a
                            ((broadcastInDim S40000x256 ![0, 1] bcast_S1x256_S40000x256_0_1 : (⟨S1x256, .f32⟩ : BufTy).Contents (Elt F) → (⟨S40000x256, .f32⟩ : BufTy).Contents (Elt F))
                              ((Host.divf : (⟨S1x256, .f32⟩ : BufTy).Contents (Elt F) → (⟨S1x256, .f32⟩ : BufTy).Contents (Elt F) → (⟨S1x256, .f32⟩ : BufTy).Contents (Elt F))
                                ((broadcastInDim S1x256 ![1] bcast_S256_S1x256_1 : (⟨S256, .f32⟩ : BufTy).Contents (Elt F) → (⟨S1x256, .f32⟩ : BufTy).Contents (Elt F))
                                  (Host.reduceAdd a (constant S_ .f32 0x00000000#32 : (⟨S_, .f32⟩ : BufTy).Contents (Elt F)) reducesTo_S40000x256_S256_d0 h_S_ : (⟨S256, .f32⟩ : BufTy).Contents (Elt F)))
                                ((broadcastInDim S1x256 ![] bcast_S_S1x256 : (⟨S_, .f32⟩ : BufTy).Contents (Elt F) → (⟨S1x256, .f32⟩ : BufTy).Contents (Elt F)) (constant S_ .f32 0x471C4000#32 : (⟨S_, .f32⟩ : BufTy).Contents (Elt F))))))
                          ((subf : (⟨S40000x256, .f32⟩ : BufTy).Contents (Elt F) → (⟨S40000x256, .f32⟩ : BufTy).Contents (Elt F) → (⟨S40000x256, .f32⟩ : BufTy).Contents (Elt F)) a
                            ((broadcastInDim S40000x256 ![0, 1] bcast_S1x256_S40000x256_0_1 : (⟨S1x256, .f32⟩ : BufTy).Contents (Elt F) → (⟨S40000x256, .f32⟩ : BufTy).Contents (Elt F))
                              ((Host.divf : (⟨S1x256, .f32⟩ : BufTy).Contents (Elt F) → (⟨S1x256, .f32⟩ : BufTy).Contents (Elt F) → (⟨S1x256, .f32⟩ : BufTy).Contents (Elt F))
                                ((broadcastInDim S1x256 ![1] bcast_S256_S1x256_1 : (⟨S256, .f32⟩ : BufTy).Contents (Elt F) → (⟨S1x256, .f32⟩ : BufTy).Contents (Elt F))
                                  (Host.reduceAdd a (constant S_ .f32 0x00000000#32 : (⟨S_, .f32⟩ : BufTy).Contents (Elt F)) reducesTo_S40000x256_S256_d0 h_S_ : (⟨S256, .f32⟩ : BufTy).Contents (Elt F)))
                                ((broadcastInDim S1x256 ![] bcast_S_S1x256 : (⟨S_, .f32⟩ : BufTy).Contents (Elt F) → (⟨S1x256, .f32⟩ : BufTy).Contents (Elt F)) (constant S_ .f32 0x471C4000#32 : (⟨S_, .f32⟩ : BufTy).Contents (Elt F))))))) (constant S_ .f32 0x00000000#32 : (⟨S_, .f32⟩ : BufTy).Contents (Elt F)) reducesTo_S40000x256_S256_d0 h_S_ : (⟨S256, .f32⟩ : BufTy).Contents (Elt F))
                      ((broadcastInDim S256 ![] bcast_S_S256 : (⟨S_, .f32⟩ : BufTy).Contents (Elt F) → (⟨S256, .f32⟩ : BufTy).Contents (Elt F))
                        ((subf : (⟨S_, .f32⟩ : BufTy).Contents (Elt F) → (⟨S_, .f32⟩ : BufTy).Contents (Elt F) → (⟨S_, .f32⟩ : BufTy).Contents (Elt F)) (constant S_ .f32 0x471C4000#32 : (⟨S_, .f32⟩ : BufTy).Contents (Elt F))
                          ((sitofp .f32 : (⟨S_, .i32⟩ : BufTy).Contents (Elt F) → (⟨S_, .f32⟩ : BufTy).Contents (Elt F)) (constantI S_ 32 0#32 : (⟨S_, .i32⟩ : BufTy).Contents (Elt F))))))
                    ((broadcastInDim S256 ![] bcast_S_S256 : (⟨S_, .f32⟩ : BufTy).Contents (Elt F) → (⟨S256, .f32⟩ : BufTy).Contents (Elt F))
                      ((id : (⟨S_, .f32⟩ : BufTy).Contents (Elt F) → (⟨S_, .f32⟩ : BufTy).Contents (Elt F)) (constant S_ .f32 0x7FC00000#32 : (⟨S_, .f32⟩ : BufTy).Contents (Elt F)))) : (⟨S256, .f32⟩ : BufTy).Contents (Elt F))
                  ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F))))))))
        ((broadcastInDim S40000x256 ![0, 1] bcast_S1x256_S40000x256_0_1 : (⟨S1x256, .f32⟩ : BufTy).Contents (Elt F) → (⟨S40000x256, .f32⟩ : BufTy).Contents (Elt F))
          ((broadcastInDim S1x256 ![1] bcast_S256_S1x256_1 : (⟨S256, .f32⟩ : BufTy).Contents (Elt F) → (⟨S1x256, .f32⟩ : BufTy).Contents (Elt F)) g)))
      ((broadcastInDim S40000x256 ![0, 1] bcast_S1x256_S40000x256_0_1 : (⟨S1x256, .f32⟩ : BufTy).Contents (Elt F) → (⟨S40000x256, .f32⟩ : BufTy).Contents (Elt F))
        ((broadcastInDim S1x256 ![1] bcast_S256_S1x256_1 : (⟨S256, .f32⟩ : BufTy).Contents (Elt F) → (⟨S1x256, .f32⟩ : BufTy).Contents (Elt F)) be)))
    ((broadcastInDim S40000x256 ![] bcast_S_S40000x256 : (⟨S_, .f32⟩ : BufTy).Contents (Elt F) → (⟨S40000x256, .f32⟩ : BufTy).Contents (Elt F)) (constant S_ .f32 0x00000000#32 : (⟨S_, .f32⟩ : BufTy).Contents (Elt F))))

/-- Mean pooling per graph: the sum of the rows of each graph's nodes over `max(count, 1)`, the count a sum of ones. -/
def rPool (h : (⟨S40000x256, .f32⟩ : BufTy).Contents (Elt F)) (batch : (⟨S40000, .i32⟩ : BufTy).Contents (Elt F)) : (⟨S64x256, .f32⟩ : BufTy).Contents (Elt F) :=
  ((Host.divf : (⟨S64x256, .f32⟩ : BufTy).Contents (Elt F) → (⟨S64x256, .f32⟩ : BufTy).Contents (Elt F) → (⟨S64x256, .f32⟩ : BufTy).Contents (Elt F))
    (Host.scatterAdd scatter_S64x256_S40000x1_S40000x256_1_0_0_1
      ((broadcastInDim S64x256 ![] bcast_S_S64x256 : (⟨S_, .f32⟩ : BufTy).Contents (Elt F) → (⟨S64x256, .f32⟩ : BufTy).Contents (Elt F)) (constant S_ .f32 0x00000000#32 : (⟨S_, .f32⟩ : BufTy).Contents (Elt F)))
      ((broadcastInDim S40000x1 ![0] bcast_S40000_S40000x1_0 : (⟨S40000, .i32⟩ : BufTy).Contents (Elt F) → (⟨S40000x1, .i32⟩ : BufTy).Contents (Elt F)) batch) h : (⟨S64x256, .f32⟩ : BufTy).Contents (Elt F))
    ((broadcastInDim S64x256 ![0, 1] bcast_S64x1_S64x256_0_1 : (⟨S64x1, .f32⟩ : BufTy).Contents (Elt F) → (⟨S64x256, .f32⟩ : BufTy).Contents (Elt F))
      ((broadcastInDim S64x1 ![0] bcast_S64_S64x1_0 : (⟨S64, .f32⟩ : BufTy).Contents (Elt F) → (⟨S64x1, .f32⟩ : BufTy).Contents (Elt F))
        ((maximumf : (⟨S64, .f32⟩ : BufTy).Contents (Elt F) → (⟨S64, .f32⟩ : BufTy).Contents (Elt F) → (⟨S64, .f32⟩ : BufTy).Contents (Elt F))
          (Host.scatterAdd scatter_S64_S40000x1_S40000_n_0_0_1
            ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F)))
            ((broadcastInDim S40000x1 ![0] bcast_S40000_S40000x1_0 : (⟨S40000, .i32⟩ : BufTy).Contents (Elt F) → (⟨S40000x1, .i32⟩ : BufTy).Contents (Elt F)) batch)
            ((broadcastInDim S40000 ![] bcast_S_S40000 : (⟨S_, .f32⟩ : BufTy).Contents (Elt F) → (⟨S40000, .f32⟩ : BufTy).Contents (Elt F)) (constant S_ .f32 0x3F800000#32 : (⟨S_, .f32⟩ : BufTy).Contents (Elt F))) : (⟨S64, .f32⟩ : BufTy).Contents (Elt F))
          ((broadcastInDim S64 ![] bcast_S_S64 : (⟨S_, .f32⟩ : BufTy).Contents (Elt F) → (⟨S64, .f32⟩ : BufTy).Contents (Elt F)) (constant S_ .f32 0x3F800000#32 : (⟨S_, .f32⟩ : BufTy).Contents (Elt F)))))))

/-- The whole reference: two layers of convolution and normalisation over the same edge lists, then the pooling. -/
def refOut (x : (⟨S40000x256, .f32⟩ : BufTy).Contents (Elt F)) (ei : (⟨S2x640000, .i32⟩ : BufTy).Contents (Elt F)) (batch : (⟨S40000, .i32⟩ : BufTy).Contents (Elt F))
    (W1 : (⟨S256x256, .f32⟩ : BufTy).Contents (Elt F)) (b1 : (⟨S256, .f32⟩ : BufTy).Contents (Elt F)) (g1 : (⟨S256, .f32⟩ : BufTy).Contents (Elt F)) (be1 : (⟨S256, .f32⟩ : BufTy).Contents (Elt F))
    (W2 : (⟨S256x256, .f32⟩ : BufTy).Contents (Elt F)) (b2 : (⟨S256, .f32⟩ : BufTy).Contents (Elt F)) (g2 : (⟨S256, .f32⟩ : BufTy).Contents (Elt F)) (be2 : (⟨S256, .f32⟩ : BufTy).Contents (Elt F)) : (⟨S64x256, .f32⟩ : BufTy).Contents (Elt F) :=
  rPool (rBN (rConv (rBN (rConv x W1 b1 (rSrc ei) (rDst ei)) g1 be1) W2 b2 (rSrc ei) (rDst ei)) g2 be2) batch

end Cert.ReferenceIdeal.Hand

end
-- ==== Proof.Ref.RunLib.lean ====
/-
  Three general facts about a straight line of array operations, used by the reference's run:
  the contents after two lines run one after the other are the second line's contents from the first line's;
  an operation that writes exactly one buffer of a list writes inside the list; and a property of every
  element of two lists holds of every element of their concatenation.
-/
import Idealize.ShloMosaic.Lib.StableHlo.Run

noncomputable section

namespace Cert.ReferenceIdeal.Hand

open Idealize.ShloMosaic Idealize.ShloMosaic.StableHlo

variable {τ : Topo} {sig : RefSig} {Val : EltTy → Type}

/-- Running `l₁ ++ l₂` from `V` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A single written buffer that is in the list `W` is inside `W` as a set of device buffers. -/
theorem writes_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- What holds of every element of `l₁` and of `l₂` holds of every element of `l₁ ++ l₂`. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A buffer that neither of two lines writes keeps its contents through both. -/
theorem keep_append {l₁ l₂ : List (HloOp τ sig Val)} {b : DevRef τ sig} (V : Valuation τ sig Val)
    (h₁ : ∀ V, after l₁ V b = V b) (h₂ : ∀ V, after l₂ V b = V b) : after (l₁ ++ l₂) V b = V b := by
  rw [after_append, h₂, h₁]

end Cert.ReferenceIdeal.Hand

end
-- ==== Proof.Ref.Run0.lean ====
/-
  The first third of the reference program as a list of its elementary array operations, in three consecutive
  stretches, and what each stretch computes:
  * the edge lists with the self-loops appended (from the edge table);
  * the first graph convolution (from the features, the weight, the bias and the edge lists);
  * the column means and biased column variances of the output of the convolution.
  For each stretch: the list, the buffers it writes (every other buffer keeps its contents), and the contents of
  the buffers later stretches read, as functions of the contents before the stretch.
-/
import proofs.«406782_j35519379538031_1_alg».proof.Proof.Ref.Stages
import proofs.«406782_j35519379538031_1_alg».proof.Proof.Ref.RunLib
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]
/-- Row 0 and row 1 of the edge table, each flattened and followed by the node numbers 0 … n-1. -/
def opsA : List (HloOp τ sig (Elt F)) :=
  [ StableHlo.nullary main_v0 (iotaInDim S40000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)) ]

/-- The first convolution: the product with the weight; the in-degrees (ones summed at the targets) and their inverse square roots; per edge the factors of its two ends (an index below zero wrapped by n) and their product; the source rows scaled and summed at the targets; the bias added. -/
def opsB : List (HloOp τ sig (Elt F)) :=
  [ StableHlo.binary main_arg0 main_arg3 main_v7 ((fun l r => Host.dotGeneral dot_S40000x256_S256x256_S40000x256_1_0_0_1_n_n none l r) : (⟨S40000x256, .f32⟩ : BufTy).Contents (Elt F) → (⟨S256x256, .f32⟩ : BufTy).Contents (Elt F) → (⟨S40000x256, .f32⟩ : BufTy).Contents (Elt F)),
    StableHlo.nullary main_cst (constant S_ .f32 0x3F800000#32),
    StableHlo.unary main_cst main_v8 (broadcastInDim S680000 ![] bcast_S_S680000 : (⟨S_, .f32⟩ : BufTy).Contents (Elt F) → (⟨S680000, .f32⟩ : BufTy).Contents (Elt F)),
    StableHlo.nullary main_cst_0 (constant S_ .f32 0x00000000#32),
    StableHlo.unary main_cst_0 main_v9 (broadcastInDim S40000 ![] bcast_S_S40000 : (⟨S_, .f32⟩ : BufTy).Contents (Elt F) → (⟨S40000, .f32⟩ : BufTy).Contents (Elt F)),
    StableHlo.unary main_v6 main_v10 (broadcastInDim S680000x1 ![0] bcast_S680000_S680000x1_0 : (⟨S680000, .i32⟩ : BufTy).Contents (Elt F) → (⟨S680000x1, .i32⟩ : BufTy).Contents (Elt F)),
    StableHlo.ternary main_v9 main_v10 main_v8 main_v11 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.unary main_v11 main_v12 (Host.rsqrt : (⟨S40000, .f32⟩ : BufTy).Contents (Elt F) → (⟨S40000, .f32⟩ : BufTy).Contents (Elt F)),
    StableHlo.nullary main_c (constantI S_ 32 0#32),
    StableHlo.unary main_c main_v13 (broadcastInDim S680000 ![] bcast_S_S680000 : (⟨S_, .i32⟩ : BufTy).Contents (Elt F) → (⟨S680000, .i32⟩ : BufTy).Contents (Elt F)),
    StableHlo.binary main_v3 main_v13 main_v14 (cmpi .slt : (⟨S680000, .i32⟩ : BufTy).Contents (Elt F) → (⟨S680000, .i32⟩ : BufTy).Contents (Elt F) → (⟨S680000, .i1⟩ : BufTy).Contents (Elt F)),
    StableHlo.nullary main_c_1 (constantI S_ 32 40000#32),
    StableHlo.unary main_c_1 main_v15 (broadcastInDim S680000 ![] bcast_S_S680000 : (⟨S_, .i32⟩ : BufTy).Contents (Elt F) → (⟨S680000, .i32⟩ : BufTy).Contents (Elt F)),
    StableHlo.binary main_v3 main_v15 main_v16 (addi : (⟨S680000, .i32⟩ : BufTy).Contents (Elt F) → (⟨S680000, .i32⟩ : BufTy).Contents (Elt F) → (⟨S680000, .i32⟩ : BufTy).Contents (Elt F)),
    StableHlo.ternary main_v14 main_v16 main_v3 main_v17 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v17 main_v18 (broadcastInDim S680000x1 ![0] bcast_S680000_S680000x1_0 : (⟨S680000, .i32⟩ : BufTy).Contents (Elt F) → (⟨S680000x1, .i32⟩ : BufTy).Contents (Elt F)),
    StableHlo.binary main_v12 main_v18 main_v19 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_2 (constantI S_ 32 0#32),
    StableHlo.unary main_c_2 main_v20 (broadcastInDim S680000 ![] bcast_S_S680000 : (⟨S_, .i32⟩ : BufTy).Contents (Elt F) → (⟨S680000, .i32⟩ : BufTy).Contents (Elt F)),
    StableHlo.binary main_v6 main_v20 main_v21 (cmpi .slt : (⟨S680000, .i32⟩ : BufTy).Contents (Elt F) → (⟨S680000, .i32⟩ : BufTy).Contents (Elt F) → (⟨S680000, .i1⟩ : BufTy).Contents (Elt F)),
    StableHlo.nullary main_c_3 (constantI S_ 32 40000#32),
    StableHlo.unary main_c_3 main_v22 (broadcastInDim S680000 ![] bcast_S_S680000 : (⟨S_, .i32⟩ : BufTy).Contents (Elt F) → (⟨S680000, .i32⟩ : BufTy).Contents (Elt F)),
    StableHlo.binary main_v6 main_v22 main_v23 (addi : (⟨S680000, .i32⟩ : BufTy).Contents (Elt F) → (⟨S680000, .i32⟩ : BufTy).Contents (Elt F) → (⟨S680000, .i32⟩ : BufTy).Contents (Elt F)),
    StableHlo.ternary main_v21 main_v23 main_v6 main_v24 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v24 main_v25 (broadcastInDim S680000x1 ![0] bcast_S680000_S680000x1_0 : (⟨S680000, .i32⟩ : BufTy).Contents (Elt F) → (⟨S680000x1, .i32⟩ : BufTy).Contents (Elt F)),
    StableHlo.binary main_v12 main_v25 main_v26 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v19 main_v26 main_v27 (mulf : (⟨S680000, .f32⟩ : BufTy).Contents (Elt F) → (⟨S680000, .f32⟩ : BufTy).Contents (Elt F) → (⟨S680000, .f32⟩ : BufTy).Contents (Elt F)),
    StableHlo.nullary main_c_4 (constantI S_ 32 0#32),
    StableHlo.unary main_c_4 main_v28 (broadcastInDim S680000 ![] bcast_S_S680000 : (⟨S_, .i32⟩ : BufTy).Contents (Elt F) → (⟨S680000, .i32⟩ : BufTy).Contents (Elt F)),
    StableHlo.binary main_v3 main_v28 main_v29 (cmpi .slt : (⟨S680000, .i32⟩ : BufTy).Contents (Elt F) → (⟨S680000, .i32⟩ : BufTy).Contents (Elt F) → (⟨S680000, .i1⟩ : BufTy).Contents (Elt F)),
    StableHlo.nullary main_c_5 (constantI S_ 32 40000#32),
    StableHlo.unary main_c_5 main_v30 (broadcastInDim S680000 ![] bcast_S_S680000 : (⟨S_, .i32⟩ : BufTy).Contents (Elt F) → (⟨S680000, .i32⟩ : BufTy).Contents (Elt F)),
    StableHlo.binary main_v3 main_v30 main_v31 (addi : (⟨S680000, .i32⟩ : BufTy).Contents (Elt F) → (⟨S680000, .i32⟩ : BufTy).Contents (Elt F) → (⟨S680000, .i32⟩ : BufTy).Contents (Elt F)),
    StableHlo.ternary main_v29 main_v31 main_v3 main_v32 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v32 main_v33 (broadcastInDim S680000x1 ![0] bcast_S680000_S680000x1_0 : (⟨S680000, .i32⟩ : BufTy).Contents (Elt F) → (⟨S680000x1, .i32⟩ : BufTy).Contents (Elt F)),
    StableHlo.binary main_v7 main_v33 main_v34 ((fun x i => Host.gather gather_S40000x256_S680000x1_S680000x256_1_0_n_n_0_1_1256 x i) : (⟨S40000x256, .f32⟩ : BufTy).Contents (Elt F) → (⟨S680000x1, .i32⟩ : BufTy).Contents (Elt F) → (⟨S680000x256, .f32⟩ : BufTy).Contents (Elt F)),
    StableHlo.unary main_v27 main_v35 (broadcastInDim S680000x1 ![0] bcast_S680000_S680000x1_0 : (⟨S680000, .f32⟩ : BufTy).Contents (Elt F) → (⟨S680000x1, .f32⟩ : BufTy).Contents (Elt F)),
    StableHlo.unary main_v35 main_v36 (broadcastInDim S680000x256 ![0, 1] bcast_S680000x1_S680000x256_0_1 : (⟨S680000x1, .f32⟩ : BufTy).Contents (Elt F) → (⟨S680000x256, .f32⟩ : BufTy).Contents (Elt F)),
    StableHlo.binary main_v34 main_v36 main_v37 (mulf : (⟨S680000x256, .f32⟩ : BufTy).Contents (Elt F) → (⟨S680000x256, .f32⟩ : BufTy).Contents (Elt F) → (⟨S680000x256, .f32⟩ : BufTy).Contents (Elt F)),
    StableHlo.nullary main_cst_6 (constant S_ .f32 0x00000000#32),
    StableHlo.unary main_cst_6 main_v38 (broadcastInDim S40000x256 ![] bcast_S_S40000x256 : (⟨S_, .f32⟩ : BufTy).Contents (Elt F) → (⟨S40000x256, .f32⟩ : BufTy).Contents (Elt F)),
    StableHlo.unary main_v6 main_v39 (broadcastInDim S680000x1 ![0] bcast_S680000_S680000x1_0 : (⟨S680000, .i32⟩ : BufTy).Contents (Elt F) → (⟨S680000x1, .i32⟩ : BufTy).Contents (Elt F)),
    StableHlo.ternary main_v38 main_v39 main_v37 main_v40 ((fun x i u => Host.scatterAdd scatter_S40000x256_S680000x1_S680000x256_1_0_0_1 x i u) : (⟨S40000x256, .f32⟩ : BufTy).Contents (Elt F) → (⟨S680000x1, .i32⟩ : BufTy).Contents (Elt F) → (⟨S680000x256, .f32⟩ : BufTy).Contents (Elt F) → (⟨S40000x256, .f32⟩ : BufTy).Contents (Elt F)),
    StableHlo.unary main_arg4 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S40000x256 ![0, 1] bcast_S1x256_S40000x256_0_1 : (⟨S1x256, .f32⟩ : BufTy).Contents (Elt F) → (⟨S40000x256, .f32⟩ : BufTy).Contents (Elt F)),
    StableHlo.binary main_v40 main_v42 main_v43 (addf : (⟨S40000x256, .f32⟩ : BufTy).Contents (Elt F) → (⟨S40000x256, .f32⟩ : BufTy).Contents (Elt F) → (⟨S40000x256, .f32⟩ : BufTy).Contents (Elt F)) ]

/-- The column means of the output of the convolution and its biased column variances: the sum of squared deviations from the mean over n - 0, selected over a NaN row because n - 0 > 0. -/
def opsC : List (HloOp τ sig (Elt F)) :=
  [ StableHlo.nullary main_cst_7 (constant S_ .f32 0x00000000#32),
    StableHlo.binary main_v43 main_cst_7 main_v44 ((fun x v => Host.reduceAdd x v reducesTo_S40000x256_S256_d0 h_S_) : (⟨S40000x256, .f32⟩ : BufTy).Contents (Elt F) → (⟨S_, .f32⟩ : BufTy).Contents (Elt F) → (⟨S256, .f32⟩ : BufTy).Contents (Elt F)),
    StableHlo.nullary main_cst_8 (constant S_ .f32 0x471C4000#32),
    StableHlo.unary main_cst_8 main_v45 (broadcastInDim S256 ![] bcast_S_S256 : (⟨S_, .f32⟩ : BufTy).Contents (Elt F) → (⟨S256, .f32⟩ : BufTy).Contents (Elt F)),
    StableHlo.binary main_v44 main_v45 main_v46 (Host.divf : (⟨S256, .f32⟩ : BufTy).Contents (Elt F) → (⟨S256, .f32⟩ : BufTy).Contents (Elt F) → (⟨S256, .f32⟩ : BufTy).Contents (Elt F)),
    StableHlo.nullary main_c_9 (constantI S_ 32 0#32),
    StableHlo.TRef.nullary main_call0.cst (constant S_ .f32 0x00000000#32),
    StableHlo.TRef.binary (.of main_v43 : StableHlo.TRef sig ⟨S40000x256, .f32⟩) main_call0.cst main_call0.v0 (fun x v => Host.reduceAdd x v reducesTo_S40000x256_S256_d0 h_S_),
    StableHlo.TRef.unary main_call0.v0 main_call0.v1 (broadcastInDim S1x256 ![1] bcast_S256_S1x256_1),
    StableHlo.TRef.nullary main_call0.cst_0 (constant S_ .f32 0x471C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S40000x256 ![0, 1] bcast_S1x256_S40000x256_0_1),
    StableHlo.TRef.binary (.of main_v43 : StableHlo.TRef sig ⟨S40000x256, .f32⟩) main_call0.v4 main_call0.v5 subf,
    StableHlo.TRef.binary main_call0.v5 main_call0.v5 main_call0.v6 mulf,
    StableHlo.TRef.unary (.of main_c_9 : StableHlo.TRef sig ⟨S_, .i32⟩) main_call0.v7 (sitofp .f32),
    StableHlo.TRef.nullary main_call0.cst_1 (constant S_ .f32 0x471C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

-- the operations of the called functions are re-associated into one line: one rewrite per statement
set_option maxRecDepth 4096 in
set_option maxHeartbeats 4000000 in
/-- The first 60 statements of the program are these three lists run one after the other: the called functions
    unfolded at their calls, sequencing re-associated. -/
theorem part0_eq (c : Dev nD) : main_part0 (F := F) c = seq (opsA ++ (opsB ++ opsC)) := by
  simp only [main_part0, fn_var.body, fn_where.body, opsA, opsB, opsC, List.cons_append, List.nil_append, seq,
    bind_assoc, pure_bind]
  all_goals rfl

/-- The buffers the operations of `opsA` write, in order. -/
abbrev opsA_W : List (Ref sig .tc) := [main_v0, main_v1, main_v2, main_v3, main_v4, main_v5, main_v6]

theorem opsA_writes : (opsA : List (HloOp τ sig (Elt F))).Forall fun op => op.writes ⊆ (opsA_W.map (Proc.devRef (τ := τ) .tc)).toFinset :=
  ⟨writes_of_mem (by decide), writes_of_mem (by decide), writes_of_mem (by decide), writes_of_mem (by decide),
    writes_of_mem (by decide), writes_of_mem (by decide), writes_of_mem (by decide)⟩

/-- A buffer none of them writes holds afterwards what it held before. -/
theorem opsA_keep (V : Valuation τ sig (Elt F)) (r : Ref sig .tc) (h : r ∉ opsA_W) :
    after opsA V (no_index (Proc.devRef .tc r)) = V (Proc.devRef .tc r) :=
  after_of_writes_sub opsA V opsA_writes h

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub ..⟩

theorem opsA_fresh : (opsA : List (HloOp τ sig (Elt F))).Forall fun op => op.fresh = ∅ :=
  ⟨rfl, rfl, rfl, rfl, rfl, rfl, rfl⟩

/-- The buffers the operations of `opsB` write, in order. -/
abbrev opsB_W : List (Ref sig .tc) := [main_v7, main_cst, main_v8, main_cst_0, main_v9, main_v10, main_v11, main_v12, main_c, main_v13, main_v14, main_c_1, main_v15, main_v16, main_v17, main_v18, main_v19, main_c_2, main_v20, main_v21, main_c_3, main_v22, main_v23, main_v24, main_v25, main_v26, main_v27, main_c_4, main_v28, main_v29, main_c_5, main_v30, main_v31, main_v32, main_v33, main_v34, main_v35, main_v36, main_v37, main_cst_6, main_v38, main_v39, main_v40, main_v41, main_v42, main_v43]

theorem opsB_writes : (opsB : List (HloOp τ sig (Elt F))).Forall fun op => op.writes ⊆ (opsB_W.map (Proc.devRef (τ := τ) .tc)).toFinset :=
  ⟨writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide)⟩

/-- A buffer none of them writes holds afterwards what it held before. -/
theorem opsB_keep (V : Valuation τ sig (Elt F)) (r : Ref sig .tc) (h : r ∉ opsB_W) :
    after opsB V (no_index (Proc.devRef .tc r)) = V (Proc.devRef .tc r) :=
  after_of_writes_sub opsB V opsB_writes h

theorem opsB_sub : (opsB : List (HloOp τ sig (Elt F))).Forall fun op => op.bufs ⊆ tcRefs τ sig :=
  ⟨binary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The buffers the operations of `opsC` write, in order. -/
abbrev opsC_W : List (Ref sig .tc) := [main_cst_7, main_v44, main_cst_8, main_v45, main_v46, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]

theorem opsC_writes : (opsC : List (HloOp τ sig (Elt F))).Forall fun op => op.writes ⊆ (opsC_W.map (Proc.devRef (τ := τ) .tc)).toFinset :=
  ⟨writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide)⟩

/-- A buffer none of them writes holds afterwards what it held before. -/
theorem opsC_keep (V : Valuation τ sig (Elt F)) (r : Ref sig .tc) (h : r ∉ opsC_W) :
    after opsC V (no_index (Proc.devRef .tc r)) = V (Proc.devRef .tc r) :=
  after_of_writes_sub opsC V opsC_writes h

theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

theorem opsA_v3 (V : Valuation τ sig (Elt F)) :
    after opsA V (no_index (Proc.devRef .tc main_v3)) = rSrc (V (Proc.devRef .tc main_arg1)) := by
  simp only [opsA]
  after_results_simp
  all_goals rfl

theorem opsA_v6 (V : Valuation τ sig (Elt F)) :
    after opsA V (no_index (Proc.devRef .tc main_v6)) = rDst (V (Proc.devRef .tc main_arg1)) := by
  simp only [opsA]
  after_results_simp
  all_goals rfl

set_option maxHeartbeats 4000000 in
theorem opsB_v43 (V : Valuation τ sig (Elt F)) :
    after opsB V (no_index (Proc.devRef .tc main_v43)) = rConv (V (Proc.devRef .tc main_arg0)) (V (Proc.devRef .tc main_arg3)) (V (Proc.devRef .tc main_arg4)) (V (Proc.devRef .tc main_v3)) (V (Proc.devRef .tc main_v6)) := by
  simp only [opsB]
  after_results_simp
  all_goals rfl

theorem opsC_v46 (V : Valuation τ sig (Elt F)) :
    after opsC V (no_index (Proc.devRef .tc main_v46)) =
      ((Host.divf : (⟨S256, .f32⟩ : BufTy).Contents (Elt F) → (⟨S256, .f32⟩ : BufTy).Contents (Elt F) → (⟨S256, .f32⟩ : BufTy).Contents (Elt F))
        (Host.reduceAdd (V (Proc.devRef .tc main_v43)) (constant S_ .f32 0x00000000#32 : (⟨S_, .f32⟩ : BufTy).Contents (Elt F)) reducesTo_S40000x256_S256_d0 h_S_ : (⟨S256, .f32⟩ : BufTy).Contents (Elt F))
        ((broadcastInDim S256 ![] bcast_S_S256 : (⟨S_, .f32⟩ : BufTy).Contents (Elt F) → (⟨S256, .f32⟩ : BufTy).Contents (Elt F)) (constant S_ .f32 0x471C4000#32 : (⟨S_, .f32⟩ : BufTy).Contents (Elt F)))) := by
  simp only [opsC]
  after_results_simp
  all_goals rfl

theorem opsC_v47 (V : Valuation τ sig (Elt F)) :
    after opsC V (no_index (Proc.devRef .tc main_v47)) =
      (select (broadcastInDim S256 ![] bcast_S_S256
        ((cmpf .ogt : (⟨S_, .f32⟩ : BufTy).Contents (Elt F) → (⟨S_, .f32⟩ : BufTy).Contents (Elt F) → (⟨S_, .i1⟩ : BufTy).Contents (Elt F))
          ((subf : (⟨S_, .f32⟩ : BufTy).Contents (Elt F) → (⟨S_, .f32⟩ : BufTy).Contents (Elt F) → (⟨S_, .f32⟩ : BufTy).Contents (Elt F)) (constant S_ .f32 0x471C4000#32 : (⟨S_, .f32⟩ : BufTy).Contents (Elt F))
            ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))))
        ((Host.divf : (⟨S256, .f32⟩ : BufTy).Contents (Elt F) → (⟨S256, .f32⟩ : BufTy).Contents (Elt F) → (⟨S256, .f32⟩ : BufTy).Contents (Elt F))
          (Host.reduceAdd
            ((mulf : (⟨S40000x256, .f32⟩ : BufTy).Contents (Elt F) → (⟨S40000x256, .f32⟩ : BufTy).Contents (Elt F) → (⟨S40000x256, .f32⟩ : BufTy).Contents (Elt F))
              ((subf : (⟨S40000x256, .f32⟩ : BufTy).Contents (Elt F) → (⟨S40000x256, .f32⟩ : BufTy).Contents (Elt F) → (⟨S40000x256, .f32⟩ : BufTy).Contents (Elt F)) (V (Proc.devRef .tc main_v43))
                ((broadcastInDim S40000x256 ![0, 1] bcast_S1x256_S40000x256_0_1 : (⟨S1x256, .f32⟩ : BufTy).Contents (Elt F) → (⟨S40000x256, .f32⟩ : BufTy).Contents (Elt F))
                  ((Host.divf : (⟨S1x256, .f32⟩ : BufTy).Contents (Elt F) → (⟨S1x256, .f32⟩ : BufTy).Contents (Elt F) → (⟨S1x256, .f32⟩ : BufTy).Contents (Elt F))
                    ((broadcastInDim S1x256 ![1] bcast_S256_S1x256_1 : (⟨S256, .f32⟩ : BufTy).Contents (Elt F) → (⟨S1x256, .f32⟩ : BufTy).Contents (Elt F))
                      (Host.reduceAdd (V (Proc.devRef .tc main_v43)) (constant S_ .f32 0x00000000#32 : (⟨S_, .f32⟩ : BufTy).Contents (Elt F)) reducesTo_S40000x256_S256_d0 h_S_ : (⟨S256, .f32⟩ : BufTy).Contents (Elt F)))
                    ((broadcastInDim S1x256 ![] bcast_S_S1x256 : (⟨S_, .f32⟩ : BufTy).Contents (Elt F) → (⟨S1x256, .f32⟩ : BufTy).Contents (Elt F)) (constant S_ .f32 0x471C4000#32 : (⟨S_, .f32⟩ : BufTy).Contents (Elt F))))))
              ((subf : (⟨S40000x256, .f32⟩ : BufTy).Contents (Elt F) → (⟨S40000x256, .f32⟩ : BufTy).Contents (Elt F) → (⟨S40000x256, .f32⟩ : BufTy).Contents (Elt F)) (V (Proc.devRef .tc main_v43))
                ((broadcastInDim S40000x256 ![0, 1] bcast_S1x256_S40000x256_0_1 : (⟨S1x256, .f32⟩ : BufTy).Contents (Elt F) → (⟨S40000x256, .f32⟩ : BufTy).Contents (Elt F))
                  ((Host.divf : (⟨S1x256, .f32⟩ : BufTy).Contents (Elt F) → (⟨S1x256, .f32⟩ : BufTy).Contents (Elt F) → (⟨S1x256, .f32⟩ : BufTy).Contents (Elt F))
                    ((broadcastInDim S1x256 ![1] bcast_S256_S1x256_1 : (⟨S256, .f32⟩ : BufTy).Contents (Elt F) → (⟨S1x256, .f32⟩ : BufTy).Contents (Elt F))
                      (Host.reduceAdd (V (Proc.devRef .tc main_v43)) (constant S_ .f32 0x00000000#32 : (⟨S_, .f32⟩ : BufTy).Contents (Elt F)) reducesTo_S40000x256_S256_d0 h_S_ : (⟨S256, .f32⟩ : BufTy).Contents (Elt F)))
                    ((broadcastInDim S1x256 ![] bcast_S_S1x256 : (⟨S_, .f32⟩ : BufTy).Contents (Elt F) → (⟨S1x256, .f32⟩ : BufTy).Contents (Elt F)) (constant S_ .f32 0x471C4000#32 : (⟨S_, .f32⟩ : BufTy).Contents (Elt F))))))) (constant S_ .f32 0x00000000#32 : (⟨S_, .f32⟩ : BufTy).Contents (Elt F)) reducesTo_S40000x256_S256_d0 h_S_ : (⟨S256, .f32⟩ : BufTy).Contents (Elt F))
          ((broadcastInDim S256 ![] bcast_S_S256 : (⟨S_, .f32⟩ : BufTy).Contents (Elt F) → (⟨S256, .f32⟩ : BufTy).Contents (Elt F))
            ((subf : (⟨S_, .f32⟩ : BufTy).Contents (Elt F) → (⟨S_, .f32⟩ : BufTy).Contents (Elt F) → (⟨S_, .f32⟩ : BufTy).Contents (Elt F)) (constant S_ .f32 0x471C4000#32 : (⟨S_, .f32⟩ : BufTy).Contents (Elt F))
              ((sitofp .f32 : (⟨S_, .i32⟩ : BufTy).Contents (Elt F) → (⟨S_, .f32⟩ : BufTy).Contents (Elt F)) (constantI S_ 32 0#32 : (⟨S_, .i32⟩ : BufTy).Contents (Elt F))))))
        ((broadcastInDim S256 ![] bcast_S_S256 : (⟨S_, .f32⟩ : BufTy).Contents (Elt F) → (⟨S256, .f32⟩ : BufTy).Contents (Elt F))
          ((id : (⟨S_, .f32⟩ : BufTy).Contents (Elt F) → (⟨S_, .f32⟩ : BufTy).Contents (Elt F)) (constant S_ .f32 0x7FC00000#32 : (⟨S_, .f32⟩ : BufTy).Contents (Elt F)))) : (⟨S256, .f32⟩ : BufTy).Contents (Elt F)) := by
  simp only [opsC]
  after_results_simp
  all_goals rfl

end Cert.ReferenceIdeal.Hand

end
-- ==== Proof.Ref.Run1.lean ====
/-
  The middle third of the reference program as a list of its elementary array operations, in two consecutive
  stretches, and what each computes: the first layer's normalisation and positive part from the column statistics,
  and the second graph convolution up to (not including) its bias.
  For each stretch: the list, the buffers it writes (every other buffer keeps its contents), and the contents of
  the buffer later stretches read, as a function of the contents before the stretch.
-/
import proofs.«406782_j35519379538031_1_alg».proof.Proof.Ref.Stages
import proofs.«406782_j35519379538031_1_alg».proof.Proof.Ref.RunLib
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]
/-- The normalisation of the first layer from the column means and variances: the deviation from the mean times (variance + ε)^(-1/2), times the scale, plus the shift, then the maximum with zero. -/
def opsD : List (HloOp τ sig (Elt F)) :=
  [ StableHlo.unary main_v46 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S40000x256 ![0, 1] bcast_S1x256_S40000x256_0_1 : (⟨S1x256, .f32⟩ : BufTy).Contents (Elt F) → (⟨S40000x256, .f32⟩ : BufTy).Contents (Elt F)),
    StableHlo.binary main_v43 main_v49 main_v50 (subf : (⟨S40000x256, .f32⟩ : BufTy).Contents (Elt F) → (⟨S40000x256, .f32⟩ : BufTy).Contents (Elt F) → (⟨S40000x256, .f32⟩ : BufTy).Contents (Elt F)),
    StableHlo.nullary main_cst_10 (constant S_ .f32 0x3727C5AC#32),
    StableHlo.unary main_cst_10 main_v51 (broadcastInDim S256 ![] bcast_S_S256 : (⟨S_, .f32⟩ : BufTy).Contents (Elt F) → (⟨S256, .f32⟩ : BufTy).Contents (Elt F)),
    StableHlo.binary main_v47 main_v51 main_v52 (addf : (⟨S256, .f32⟩ : BufTy).Contents (Elt F) → (⟨S256, .f32⟩ : BufTy).Contents (Elt F) → (⟨S256, .f32⟩ : BufTy).Contents (Elt F)),
    StableHlo.unary main_v52 main_v53 (Host.rsqrt : (⟨S256, .f32⟩ : BufTy).Contents (Elt F) → (⟨S256, .f32⟩ : BufTy).Contents (Elt F)),
    StableHlo.unary main_v53 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S40000x256 ![0, 1] bcast_S1x256_S40000x256_0_1 : (⟨S1x256, .f32⟩ : BufTy).Contents (Elt F) → (⟨S40000x256, .f32⟩ : BufTy).Contents (Elt F)),
    StableHlo.binary main_v50 main_v55 main_v56 (mulf : (⟨S40000x256, .f32⟩ : BufTy).Contents (Elt F) → (⟨S40000x256, .f32⟩ : BufTy).Contents (Elt F) → (⟨S40000x256, .f32⟩ : BufTy).Contents (Elt F)),
    StableHlo.unary main_arg5 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S40000x256 ![0, 1] bcast_S1x256_S40000x256_0_1 : (⟨S1x256, .f32⟩ : BufTy).Contents (Elt F) → (⟨S40000x256, .f32⟩ : BufTy).Contents (Elt F)),
    StableHlo.binary main_v56 main_v58 main_v59 (mulf : (⟨S40000x256, .f32⟩ : BufTy).Contents (Elt F) → (⟨S40000x256, .f32⟩ : BufTy).Contents (Elt F) → (⟨S40000x256, .f32⟩ : BufTy).Contents (Elt F)),
    StableHlo.unary main_arg6 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S40000x256 ![0, 1] bcast_S1x256_S40000x256_0_1 : (⟨S1x256, .f32⟩ : BufTy).Contents (Elt F) → (⟨S40000x256, .f32⟩ : BufTy).Contents (Elt F)),
    StableHlo.binary main_v59 main_v61 main_v62 (addf : (⟨S40000x256, .f32⟩ : BufTy).Contents (Elt F) → (⟨S40000x256, .f32⟩ : BufTy).Contents (Elt F) → (⟨S40000x256, .f32⟩ : BufTy).Contents (Elt F)),
    StableHlo.TRef.nullary main_call1.cst (constant S_ .f32 0x00000000#32),
    StableHlo.TRef.unary main_call1.cst main_call1.v0 (broadcastInDim S40000x256 ![] bcast_S_S40000x256),
    StableHlo.TRef.binary (.of main_v62 : StableHlo.TRef sig ⟨S40000x256, .f32⟩) main_call1.v0 main_call1.v1 maximumf ]

/-- The second convolution up to its sum over the edges: the product with the weight; the in-degrees and their inverse square roots; per edge the product of the factors of its two ends; the source rows scaled and summed at the targets. -/
def opsE : List (HloOp τ sig (Elt F)) :=
  [ StableHlo.binary main_v63 main_arg7 main_v64 ((fun l r => Host.dotGeneral dot_S40000x256_S256x256_S40000x256_1_0_0_1_n_n none l r) : (⟨S40000x256, .f32⟩ : BufTy).Contents (Elt F) → (⟨S256x256, .f32⟩ : BufTy).Contents (Elt F) → (⟨S40000x256, .f32⟩ : BufTy).Contents (Elt F)),
    StableHlo.nullary main_cst_11 (constant S_ .f32 0x3F800000#32),
    StableHlo.unary main_cst_11 main_v65 (broadcastInDim S680000 ![] bcast_S_S680000 : (⟨S_, .f32⟩ : BufTy).Contents (Elt F) → (⟨S680000, .f32⟩ : BufTy).Contents (Elt F)),
    StableHlo.nullary main_cst_12 (constant S_ .f32 0x00000000#32),
    StableHlo.unary main_cst_12 main_v66 (broadcastInDim S40000 ![] bcast_S_S40000 : (⟨S_, .f32⟩ : BufTy).Contents (Elt F) → (⟨S40000, .f32⟩ : BufTy).Contents (Elt F)),
    StableHlo.unary main_v6 main_v67 (broadcastInDim S680000x1 ![0] bcast_S680000_S680000x1_0 : (⟨S680000, .i32⟩ : BufTy).Contents (Elt F) → (⟨S680000x1, .i32⟩ : BufTy).Contents (Elt F)),
    StableHlo.ternary main_v66 main_v67 main_v65 main_v68 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.unary main_v68 main_v69 (Host.rsqrt : (⟨S40000, .f32⟩ : BufTy).Contents (Elt F) → (⟨S40000, .f32⟩ : BufTy).Contents (Elt F)),
    StableHlo.nullary main_c_13 (constantI S_ 32 0#32),
    StableHlo.unary main_c_13 main_v70 (broadcastInDim S680000 ![] bcast_S_S680000 : (⟨S_, .i32⟩ : BufTy).Contents (Elt F) → (⟨S680000, .i32⟩ : BufTy).Contents (Elt F)),
    StableHlo.binary main_v3 main_v70 main_v71 (cmpi .slt : (⟨S680000, .i32⟩ : BufTy).Contents (Elt F) → (⟨S680000, .i32⟩ : BufTy).Contents (Elt F) → (⟨S680000, .i1⟩ : BufTy).Contents (Elt F)),
    StableHlo.nullary main_c_14 (constantI S_ 32 40000#32),
    StableHlo.unary main_c_14 main_v72 (broadcastInDim S680000 ![] bcast_S_S680000 : (⟨S_, .i32⟩ : BufTy).Contents (Elt F) → (⟨S680000, .i32⟩ : BufTy).Contents (Elt F)),
    StableHlo.binary main_v3 main_v72 main_v73 (addi : (⟨S680000, .i32⟩ : BufTy).Contents (Elt F) → (⟨S680000, .i32⟩ : BufTy).Contents (Elt F) → (⟨S680000, .i32⟩ : BufTy).Contents (Elt F)),
    StableHlo.ternary main_v71 main_v73 main_v3 main_v74 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v74 main_v75 (broadcastInDim S680000x1 ![0] bcast_S680000_S680000x1_0 : (⟨S680000, .i32⟩ : BufTy).Contents (Elt F) → (⟨S680000x1, .i32⟩ : BufTy).Contents (Elt F)),
    StableHlo.binary main_v69 main_v75 main_v76 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_15 (constantI S_ 32 0#32),
    StableHlo.unary main_c_15 main_v77 (broadcastInDim S680000 ![] bcast_S_S680000 : (⟨S_, .i32⟩ : BufTy).Contents (Elt F) → (⟨S680000, .i32⟩ : BufTy).Contents (Elt F)),
    StableHlo.binary main_v6 main_v77 main_v78 (cmpi .slt : (⟨S680000, .i32⟩ : BufTy).Contents (Elt F) → (⟨S680000, .i32⟩ : BufTy).Contents (Elt F) → (⟨S680000, .i1⟩ : BufTy).Contents (Elt F)),
    StableHlo.nullary main_c_16 (constantI S_ 32 40000#32),
    StableHlo.unary main_c_16 main_v79 (broadcastInDim S680000 ![] bcast_S_S680000 : (⟨S_, .i32⟩ : BufTy).Contents (Elt F) → (⟨S680000, .i32⟩ : BufTy).Contents (Elt F)),
    StableHlo.binary main_v6 main_v79 main_v80 (addi : (⟨S680000, .i32⟩ : BufTy).Contents (Elt F) → (⟨S680000, .i32⟩ : BufTy).Contents (Elt F) → (⟨S680000, .i32⟩ : BufTy).Contents (Elt F)),
    StableHlo.ternary main_v78 main_v80 main_v6 main_v81 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v81 main_v82 (broadcastInDim S680000x1 ![0] bcast_S680000_S680000x1_0 : (⟨S680000, .i32⟩ : BufTy).Contents (Elt F) → (⟨S680000x1, .i32⟩ : BufTy).Contents (Elt F)),
    StableHlo.binary main_v69 main_v82 main_v83 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v76 main_v83 main_v84 (mulf : (⟨S680000, .f32⟩ : BufTy).Contents (Elt F) → (⟨S680000, .f32⟩ : BufTy).Contents (Elt F) → (⟨S680000, .f32⟩ : BufTy).Contents (Elt F)),
    StableHlo.nullary main_c_17 (constantI S_ 32 0#32),
    StableHlo.unary main_c_17 main_v85 (broadcastInDim S680000 ![] bcast_S_S680000 : (⟨S_, .i32⟩ : BufTy).Contents (Elt F) → (⟨S680000, .i32⟩ : BufTy).Contents (Elt F)),
    StableHlo.binary main_v3 main_v85 main_v86 (cmpi .slt : (⟨S680000, .i32⟩ : BufTy).Contents (Elt F) → (⟨S680000, .i32⟩ : BufTy).Contents (Elt F) → (⟨S680000, .i1⟩ : BufTy).Contents (Elt F)),
    StableHlo.nullary main_c_18 (constantI S_ 32 40000#32),
    StableHlo.unary main_c_18 main_v87 (broadcastInDim S680000 ![] bcast_S_S680000 : (⟨S_, .i32⟩ : BufTy).Contents (Elt F) → (⟨S680000, .i32⟩ : BufTy).Contents (Elt F)),
    StableHlo.binary main_v3 main_v87 main_v88 (addi : (⟨S680000, .i32⟩ : BufTy).Contents (Elt F) → (⟨S680000, .i32⟩ : BufTy).Contents (Elt F) → (⟨S680000, .i32⟩ : BufTy).Contents (Elt F)),
    StableHlo.ternary main_v86 main_v88 main_v3 main_v89 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v89 main_v90 (broadcastInDim S680000x1 ![0] bcast_S680000_S680000x1_0 : (⟨S680000, .i32⟩ : BufTy).Contents (Elt F) → (⟨S680000x1, .i32⟩ : BufTy).Contents (Elt F)),
    StableHlo.binary main_v64 main_v90 main_v91 ((fun x i => Host.gather gather_S40000x256_S680000x1_S680000x256_1_0_n_n_0_1_1256 x i) : (⟨S40000x256, .f32⟩ : BufTy).Contents (Elt F) → (⟨S680000x1, .i32⟩ : BufTy).Contents (Elt F) → (⟨S680000x256, .f32⟩ : BufTy).Contents (Elt F)),
    StableHlo.unary main_v84 main_v92 (broadcastInDim S680000x1 ![0] bcast_S680000_S680000x1_0 : (⟨S680000, .f32⟩ : BufTy).Contents (Elt F) → (⟨S680000x1, .f32⟩ : BufTy).Contents (Elt F)),
    StableHlo.unary main_v92 main_v93 (broadcastInDim S680000x256 ![0, 1] bcast_S680000x1_S680000x256_0_1 : (⟨S680000x1, .f32⟩ : BufTy).Contents (Elt F) → (⟨S680000x256, .f32⟩ : BufTy).Contents (Elt F)),
    StableHlo.binary main_v91 main_v93 main_v94 (mulf : (⟨S680000x256, .f32⟩ : BufTy).Contents (Elt F) → (⟨S680000x256, .f32⟩ : BufTy).Contents (Elt F) → (⟨S680000x256, .f32⟩ : BufTy).Contents (Elt F)),
    StableHlo.nullary main_cst_19 (constant S_ .f32 0x00000000#32),
    StableHlo.unary main_cst_19 main_v95 (broadcastInDim S40000x256 ![] bcast_S_S40000x256 : (⟨S_, .f32⟩ : BufTy).Contents (Elt F) → (⟨S40000x256, .f32⟩ : BufTy).Contents (Elt F)),
    StableHlo.unary main_v6 main_v96 (broadcastInDim S680000x1 ![0] bcast_S680000_S680000x1_0 : (⟨S680000, .i32⟩ : BufTy).Contents (Elt F) → (⟨S680000x1, .i32⟩ : BufTy).Contents (Elt F)),
    StableHlo.ternary main_v95 main_v96 main_v94 main_v97 ((fun x i u => Host.scatterAdd scatter_S40000x256_S680000x1_S680000x256_1_0_0_1 x i u) : (⟨S40000x256, .f32⟩ : BufTy).Contents (Elt F) → (⟨S680000x1, .i32⟩ : BufTy).Contents (Elt F) → (⟨S680000x256, .f32⟩ : BufTy).Contents (Elt F) → (⟨S40000x256, .f32⟩ : BufTy).Contents (Elt F)) ]

set_option maxRecDepth 4096 in
set_option maxHeartbeats 4000000 in
/-- Statements 61 … 120 of the program are these two lists run one after the other: the called function unfolded at
    its call, sequencing re-associated. -/
theorem part1_eq (c : Dev nD) : main_part1 (F := F) c = seq (opsD ++ opsE) := by
  simp only [main_part1, fn_relu.body, opsD, opsE, List.cons_append, List.nil_append, seq, bind_assoc, pure_bind]
  all_goals rfl

/-- The buffers the operations of `opsD` write, in order. -/
abbrev opsD_W : List (Ref sig .tc) := [main_v48, main_v49, main_v50, main_cst_10, main_v51, main_v52, main_v53, main_v54, main_v55, main_v56, main_v57, main_v58, main_v59, main_v60, main_v61, main_v62, main_call1_cst, main_call1_v0, main_v63]

theorem opsD_writes : (opsD : List (HloOp τ sig (Elt F))).Forall fun op => op.writes ⊆ (opsD_W.map (Proc.devRef (τ := τ) .tc)).toFinset :=
  ⟨writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide)⟩

/-- A buffer none of them writes holds afterwards what it held before. -/
theorem opsD_keep (V : Valuation τ sig (Elt F)) (r : Ref sig .tc) (h : r ∉ opsD_W) :
    after opsD V (no_index (Proc.devRef .tc r)) = V (Proc.devRef .tc r) :=
  after_of_writes_sub opsD V opsD_writes h

theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers the operations of `opsE` write, in order. -/
abbrev opsE_W : List (Ref sig .tc) := [main_v64, main_cst_11, main_v65, main_cst_12, main_v66, main_v67, main_v68, main_v69, main_c_13, main_v70, main_v71, main_c_14, main_v72, main_v73, main_v74, main_v75, main_v76, main_c_15, main_v77, main_v78, main_c_16, main_v79, main_v80, main_v81, main_v82, main_v83, main_v84, main_c_17, main_v85, main_v86, main_c_18, main_v87, main_v88, main_v89, main_v90, main_v91, main_v92, main_v93, main_v94, main_cst_19, main_v95, main_v96, main_v97]

theorem opsE_writes : (opsE : List (HloOp τ sig (Elt F))).Forall fun op => op.writes ⊆ (opsE_W.map (Proc.devRef (τ := τ) .tc)).toFinset :=
  ⟨writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide)⟩

/-- A buffer none of them writes holds afterwards what it held before. -/
theorem opsE_keep (V : Valuation τ sig (Elt F)) (r : Ref sig .tc) (h : r ∉ opsE_W) :
    after opsE V (no_index (Proc.devRef .tc r)) = V (Proc.devRef .tc r) :=
  after_of_writes_sub opsE V opsE_writes h

theorem opsE_sub : (opsE : List (HloOp τ sig (Elt F))).Forall fun op => op.bufs ⊆ tcRefs τ sig :=
  ⟨binary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub ..⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem opsD_v63 (V : Valuation τ sig (Elt F)) :
    after opsD V (no_index (Proc.devRef .tc main_v63)) =
      ((maximumf : (⟨S40000x256, .f32⟩ : BufTy).Contents (Elt F) → (⟨S40000x256, .f32⟩ : BufTy).Contents (Elt F) → (⟨S40000x256, .f32⟩ : BufTy).Contents (Elt F))
        ((addf : (⟨S40000x256, .f32⟩ : BufTy).Contents (Elt F) → (⟨S40000x256, .f32⟩ : BufTy).Contents (Elt F) → (⟨S40000x256, .f32⟩ : BufTy).Contents (Elt F))
          ((mulf : (⟨S40000x256, .f32⟩ : BufTy).Contents (Elt F) → (⟨S40000x256, .f32⟩ : BufTy).Contents (Elt F) → (⟨S40000x256, .f32⟩ : BufTy).Contents (Elt F))
            ((mulf : (⟨S40000x256, .f32⟩ : BufTy).Contents (Elt F) → (⟨S40000x256, .f32⟩ : BufTy).Contents (Elt F) → (⟨S40000x256, .f32⟩ : BufTy).Contents (Elt F))
              ((subf : (⟨S40000x256, .f32⟩ : BufTy).Contents (Elt F) → (⟨S40000x256, .f32⟩ : BufTy).Contents (Elt F) → (⟨S40000x256, .f32⟩ : BufTy).Contents (Elt F)) (V (Proc.devRef .tc main_v43))
                ((broadcastInDim S40000x256 ![0, 1] bcast_S1x256_S40000x256_0_1 : (⟨S1x256, .f32⟩ : BufTy).Contents (Elt F) → (⟨S40000x256, .f32⟩ : BufTy).Contents (Elt F))
                  ((broadcastInDim S1x256 ![1] bcast_S256_S1x256_1 : (⟨S256, .f32⟩ : BufTy).Contents (Elt F) → (⟨S1x256, .f32⟩ : BufTy).Contents (Elt F)) (V (Proc.devRef .tc main_v46)))))
              ((broadcastInDim S40000x256 ![0, 1] bcast_S1x256_S40000x256_0_1 : (⟨S1x256, .f32⟩ : BufTy).Contents (Elt F) → (⟨S40000x256, .f32⟩ : BufTy).Contents (Elt F))
                ((broadcastInDim S1x256 ![1] bcast_S256_S1x256_1 : (⟨S256, .f32⟩ : BufTy).Contents (Elt F) → (⟨S1x256, .f32⟩ : BufTy).Contents (Elt F))
                  ((Host.rsqrt : (⟨S256, .f32⟩ : BufTy).Contents (Elt F) → (⟨S256, .f32⟩ : BufTy).Contents (Elt F))
                    ((addf : (⟨S256, .f32⟩ : BufTy).Contents (Elt F) → (⟨S256, .f32⟩ : BufTy).Contents (Elt F) → (⟨S256, .f32⟩ : BufTy).Contents (Elt F)) (V (Proc.devRef .tc main_v47))
                      ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F))))))))
            ((broadcastInDim S40000x256 ![0, 1] bcast_S1x256_S40000x256_0_1 : (⟨S1x256, .f32⟩ : BufTy).Contents (Elt F) → (⟨S40000x256, .f32⟩ : BufTy).Contents (Elt F))
              ((broadcastInDim S1x256 ![1] bcast_S256_S1x256_1 : (⟨S256, .f32⟩ : BufTy).Contents (Elt F) → (⟨S1x256, .f32⟩ : BufTy).Contents (Elt F)) (V (Proc.devRef .tc main_arg5)))))
          ((broadcastInDim S40000x256 ![0, 1] bcast_S1x256_S40000x256_0_1 : (⟨S1x256, .f32⟩ : BufTy).Contents (Elt F) → (⟨S40000x256, .f32⟩ : BufTy).Contents (Elt F))
            ((broadcastInDim S1x256 ![1] bcast_S256_S1x256_1 : (⟨S256, .f32⟩ : BufTy).Contents (Elt F) → (⟨S1x256, .f32⟩ : BufTy).Contents (Elt F)) (V (Proc.devRef .tc main_arg6)))))
        ((broadcastInDim S40000x256 ![] bcast_S_S40000x256 : (⟨S_, .f32⟩ : BufTy).Contents (Elt F) → (⟨S40000x256, .f32⟩ : BufTy).Contents (Elt F)) (constant S_ .f32 0x00000000#32 : (⟨S_, .f32⟩ : BufTy).Contents (Elt F)))) := by
  simp only [opsD]
  after_results_simp
  all_goals rfl

set_option maxHeartbeats 4000000 in
theorem opsE_v97 (V : Valuation τ sig (Elt F)) :
    after opsE V (no_index (Proc.devRef .tc main_v97)) =
      (Host.scatterAdd scatter_S40000x256_S680000x1_S680000x256_1_0_0_1
        ((broadcastInDim S40000x256 ![] bcast_S_S40000x256 : (⟨S_, .f32⟩ : BufTy).Contents (Elt F) → (⟨S40000x256, .f32⟩ : BufTy).Contents (Elt F)) (constant S_ .f32 0x00000000#32 : (⟨S_, .f32⟩ : BufTy).Contents (Elt F)))
        ((broadcastInDim S680000x1 ![0] bcast_S680000_S680000x1_0 : (⟨S680000, .i32⟩ : BufTy).Contents (Elt F) → (⟨S680000x1, .i32⟩ : BufTy).Contents (Elt F)) (V (Proc.devRef .tc main_v6)))
        ((mulf : (⟨S680000x256, .f32⟩ : BufTy).Contents (Elt F) → (⟨S680000x256, .f32⟩ : BufTy).Contents (Elt F) → (⟨S680000x256, .f32⟩ : BufTy).Contents (Elt F))
          (Host.gather gather_S40000x256_S680000x1_S680000x256_1_0_n_n_0_1_1256
            (Host.dotGeneral dot_S40000x256_S256x256_S40000x256_1_0_0_1_n_n none (V (Proc.devRef .tc main_v63)) (V (Proc.devRef .tc main_arg7)) : (⟨S40000x256, .f32⟩ : BufTy).Contents (Elt F))
            ((broadcastInDim S680000x1 ![0] bcast_S680000_S680000x1_0 : (⟨S680000, .i32⟩ : BufTy).Contents (Elt F) → (⟨S680000x1, .i32⟩ : BufTy).Contents (Elt F))
              ((select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
                ((cmpi .slt : (⟨S680000, .i32⟩ : BufTy).Contents (Elt F) → (⟨S680000, .i32⟩ : BufTy).Contents (Elt F) → (⟨S680000, .i1⟩ : BufTy).Contents (Elt F)) (V (Proc.devRef .tc main_v3))
                  ((broadcastInDim S680000 ![] bcast_S_S680000 : (⟨S_, .i32⟩ : BufTy).Contents (Elt F) → (⟨S680000, .i32⟩ : BufTy).Contents (Elt F)) (constantI S_ 32 0#32 : (⟨S_, .i32⟩ : BufTy).Contents (Elt F))))
                ((addi : (⟨S680000, .i32⟩ : BufTy).Contents (Elt F) → (⟨S680000, .i32⟩ : BufTy).Contents (Elt F) → (⟨S680000, .i32⟩ : BufTy).Contents (Elt F)) (V (Proc.devRef .tc main_v3))
                  ((broadcastInDim S680000 ![] bcast_S_S680000 : (⟨S_, .i32⟩ : BufTy).Contents (Elt F) → (⟨S680000, .i32⟩ : BufTy).Contents (Elt F)) (constantI S_ 32 40000#32 : (⟨S_, .i32⟩ : BufTy).Contents (Elt F)))) (V (Proc.devRef .tc main_v3)))) : (⟨S680000x256, .f32⟩ : BufTy).Contents (Elt F))
          ((broadcastInDim S680000x256 ![0, 1] bcast_S680000x1_S680000x256_0_1 : (⟨S680000x1, .f32⟩ : BufTy).Contents (Elt F) → (⟨S680000x256, .f32⟩ : BufTy).Contents (Elt F))
            ((broadcastInDim S680000x1 ![0] bcast_S680000_S680000x1_0 : (⟨S680000, .f32⟩ : BufTy).Contents (Elt F) → (⟨S680000x1, .f32⟩ : BufTy).Contents (Elt F))
              ((mulf : (⟨S680000, .f32⟩ : BufTy).Contents (Elt F) → (⟨S680000, .f32⟩ : BufTy).Contents (Elt F) → (⟨S680000, .f32⟩ : BufTy).Contents (Elt F))
                (Host.gather gather_S40000_S680000x1_S680000_n_0_n_n_0_1_1
                  ((Host.rsqrt : (⟨S40000, .f32⟩ : BufTy).Contents (Elt F) → (⟨S40000, .f32⟩ : BufTy).Contents (Elt F))
                    (Host.scatterAdd scatter_S40000_S680000x1_S680000_n_0_0_1
                      ((broadcastInDim S40000 ![] bcast_S_S40000 : (⟨S_, .f32⟩ : BufTy).Contents (Elt F) → (⟨S40000, .f32⟩ : BufTy).Contents (Elt F)) (constant S_ .f32 0x00000000#32 : (⟨S_, .f32⟩ : BufTy).Contents (Elt F)))
                      ((broadcastInDim S680000x1 ![0] bcast_S680000_S680000x1_0 : (⟨S680000, .i32⟩ : BufTy).Contents (Elt F) → (⟨S680000x1, .i32⟩ : BufTy).Contents (Elt F)) (V (Proc.devRef .tc main_v6)))
                      ((broadcastInDim S680000 ![] bcast_S_S680000 : (⟨S_, .f32⟩ : BufTy).Contents (Elt F) → (⟨S680000, .f32⟩ : BufTy).Contents (Elt F)) (constant S_ .f32 0x3F800000#32 : (⟨S_, .f32⟩ : BufTy).Contents (Elt F))) : (⟨S40000, .f32⟩ : BufTy).Contents (Elt F)))
                  ((broadcastInDim S680000x1 ![0] bcast_S680000_S680000x1_0 : (⟨S680000, .i32⟩ : BufTy).Contents (Elt F) → (⟨S680000x1, .i32⟩ : BufTy).Contents (Elt F))
                    ((select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
                      ((cmpi .slt : (⟨S680000, .i32⟩ : BufTy).Contents (Elt F) → (⟨S680000, .i32⟩ : BufTy).Contents (Elt F) → (⟨S680000, .i1⟩ : BufTy).Contents (Elt F)) (V (Proc.devRef .tc main_v3))
                        ((broadcastInDim S680000 ![] bcast_S_S680000 : (⟨S_, .i32⟩ : BufTy).Contents (Elt F) → (⟨S680000, .i32⟩ : BufTy).Contents (Elt F)) (constantI S_ 32 0#32 : (⟨S_, .i32⟩ : BufTy).Contents (Elt F))))
                      ((addi : (⟨S680000, .i32⟩ : BufTy).Contents (Elt F) → (⟨S680000, .i32⟩ : BufTy).Contents (Elt F) → (⟨S680000, .i32⟩ : BufTy).Contents (Elt F)) (V (Proc.devRef .tc main_v3))
                        ((broadcastInDim S680000 ![] bcast_S_S680000 : (⟨S_, .i32⟩ : BufTy).Contents (Elt F) → (⟨S680000, .i32⟩ : BufTy).Contents (Elt F)) (constantI S_ 32 40000#32 : (⟨S_, .i32⟩ : BufTy).Contents (Elt F)))) (V (Proc.devRef .tc main_v3)))) : (⟨S680000, .f32⟩ : BufTy).Contents (Elt F))
                (Host.gather gather_S40000_S680000x1_S680000_n_0_n_n_0_1_1
                  ((Host.rsqrt : (⟨S40000, .f32⟩ : BufTy).Contents (Elt F) → (⟨S40000, .f32⟩ : BufTy).Contents (Elt F))
                    (Host.scatterAdd scatter_S40000_S680000x1_S680000_n_0_0_1
                      ((broadcastInDim S40000 ![] bcast_S_S40000 : (⟨S_, .f32⟩ : BufTy).Contents (Elt F) → (⟨S40000, .f32⟩ : BufTy).Contents (Elt F)) (constant S_ .f32 0x00000000#32 : (⟨S_, .f32⟩ : BufTy).Contents (Elt F)))
                      ((broadcastInDim S680000x1 ![0] bcast_S680000_S680000x1_0 : (⟨S680000, .i32⟩ : BufTy).Contents (Elt F) → (⟨S680000x1, .i32⟩ : BufTy).Contents (Elt F)) (V (Proc.devRef .tc main_v6)))
                      ((broadcastInDim S680000 ![] bcast_S_S680000 : (⟨S_, .f32⟩ : BufTy).Contents (Elt F) → (⟨S680000, .f32⟩ : BufTy).Contents (Elt F)) (constant S_ .f32 0x3F800000#32 : (⟨S_, .f32⟩ : BufTy).Contents (Elt F))) : (⟨S40000, .f32⟩ : BufTy).Contents (Elt F)))
                  ((broadcastInDim S680000x1 ![0] bcast_S680000_S680000x1_0 : (⟨S680000, .i32⟩ : BufTy).Contents (Elt F) → (⟨S680000x1, .i32⟩ : BufTy).Contents (Elt F))
                    ((select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
                      ((cmpi .slt : (⟨S680000, .i32⟩ : BufTy).Contents (Elt F) → (⟨S680000, .i32⟩ : BufTy).Contents (Elt F) → (⟨S680000, .i1⟩ : BufTy).Contents (Elt F)) (V (Proc.devRef .tc main_v6))
                        ((broadcastInDim S680000 ![] bcast_S_S680000 : (⟨S_, .i32⟩ : BufTy).Contents (Elt F) → (⟨S680000, .i32⟩ : BufTy).Contents (Elt F)) (constantI S_ 32 0#32 : (⟨S_, .i32⟩ : BufTy).Contents (Elt F))))
                      ((addi : (⟨S680000, .i32⟩ : BufTy).Contents (Elt F) → (⟨S680000, .i32⟩ : BufTy).Contents (Elt F) → (⟨S680000, .i32⟩ : BufTy).Contents (Elt F)) (V (Proc.devRef .tc main_v6))
                        ((broadcastInDim S680000 ![] bcast_S_S680000 : (⟨S_, .i32⟩ : BufTy).Contents (Elt F) → (⟨S680000, .i32⟩ : BufTy).Contents (Elt F)) (constantI S_ 32 40000#32 : (⟨S_, .i32⟩ : BufTy).Contents (Elt F)))) (V (Proc.devRef .tc main_v6)))) : (⟨S680000, .f32⟩ : BufTy).Contents (Elt F)))))) : (⟨S40000x256, .f32⟩ : BufTy).Contents (Elt F)) := by
  simp only [opsE]
  after_results_simp
  all_goals rfl

end Cert.ReferenceIdeal.Hand

end
-- ==== Proof.Ref.Run2.lean ====
/-
  The last third of the reference program as a list of its elementary array operations, in four consecutive
  stretches, and what each computes: the second convolution's bias; the column statistics of its output; the second
  layer's normalisation and positive part; the mean pooling per graph.
  For each stretch: the list, the buffers it writes (every other buffer keeps its contents), and the contents of
  the buffers later stretches read, as functions of the contents before the stretch.
-/
import proofs.«406782_j35519379538031_1_alg».proof.Proof.Ref.Stages
import proofs.«406782_j35519379538031_1_alg».proof.Proof.Ref.RunLib
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]
/-- The bias of the second convolution added to every row. -/
def opsG : List (HloOp τ sig (Elt F)) :=
  [ StableHlo.unary main_arg8 main_v98 (broadcastInDim S1x256 ![1] bcast_S256_S1x256_1 : (⟨S256, .f32⟩ : BufTy).Contents (Elt F) → (⟨S1x256, .f32⟩ : BufTy).Contents (Elt F)),
    StableHlo.unary main_v98 main_v99 (broadcastInDim S40000x256 ![0, 1] bcast_S1x256_S40000x256_0_1 : (⟨S1x256, .f32⟩ : BufTy).Contents (Elt F) → (⟨S40000x256, .f32⟩ : BufTy).Contents (Elt F)),
    StableHlo.binary main_v97 main_v99 main_v100 (addf : (⟨S40000x256, .f32⟩ : BufTy).Contents (Elt F) → (⟨S40000x256, .f32⟩ : BufTy).Contents (Elt F) → (⟨S40000x256, .f32⟩ : BufTy).Contents (Elt F)) ]

/-- The column means and biased column variances of the output of the second convolution. -/
def opsH : List (HloOp τ sig (Elt F)) :=
  [ StableHlo.nullary main_cst_20 (constant S_ .f32 0x00000000#32),
    StableHlo.binary main_v100 main_cst_20 main_v101 ((fun x v => Host.reduceAdd x v reducesTo_S40000x256_S256_d0 h_S_) : (⟨S40000x256, .f32⟩ : BufTy).Contents (Elt F) → (⟨S_, .f32⟩ : BufTy).Contents (Elt F) → (⟨S256, .f32⟩ : BufTy).Contents (Elt F)),
    StableHlo.nullary main_cst_21 (constant S_ .f32 0x471C4000#32),
    StableHlo.unary main_cst_21 main_v102 (broadcastInDim S256 ![] bcast_S_S256 : (⟨S_, .f32⟩ : BufTy).Contents (Elt F) → (⟨S256, .f32⟩ : BufTy).Contents (Elt F)),
    StableHlo.binary main_v101 main_v102 main_v103 (Host.divf : (⟨S256, .f32⟩ : BufTy).Contents (Elt F) → (⟨S256, .f32⟩ : BufTy).Contents (Elt F) → (⟨S256, .f32⟩ : BufTy).Contents (Elt F)),
    StableHlo.nullary main_c_22 (constantI S_ 32 0#32),
    StableHlo.TRef.nullary main_call2.cst (constant S_ .f32 0x00000000#32),
    StableHlo.TRef.binary (.of main_v100 : StableHlo.TRef sig ⟨S40000x256, .f32⟩) main_call2.cst main_call2.v0 (fun x v => Host.reduceAdd x v reducesTo_S40000x256_S256_d0 h_S_),
    StableHlo.TRef.unary main_call2.v0 main_call2.v1 (broadcastInDim S1x256 ![1] bcast_S256_S1x256_1),
    StableHlo.TRef.nullary main_call2.cst_0 (constant S_ .f32 0x471C4000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S40000x256 ![0, 1] bcast_S1x256_S40000x256_0_1),
    StableHlo.TRef.binary (.of main_v100 : StableHlo.TRef sig ⟨S40000x256, .f32⟩) main_call2.v4 main_call2.v5 subf,
    StableHlo.TRef.binary main_call2.v5 main_call2.v5 main_call2.v6 mulf,
    StableHlo.TRef.unary (.of main_c_22 : StableHlo.TRef sig ⟨S_, .i32⟩) main_call2.v7 (sitofp .f32),
    StableHlo.TRef.nullary main_call2.cst_1 (constant S_ .f32 0x471C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S40000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

/-- The normalisation of the second layer from the column means and variances, then the maximum with zero. -/
def opsI : List (HloOp τ sig (Elt F)) :=
  [ StableHlo.unary main_v103 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S40000x256 ![0, 1] bcast_S1x256_S40000x256_0_1 : (⟨S1x256, .f32⟩ : BufTy).Contents (Elt F) → (⟨S40000x256, .f32⟩ : BufTy).Contents (Elt F)),
    StableHlo.binary main_v100 main_v106 main_v107 (subf : (⟨S40000x256, .f32⟩ : BufTy).Contents (Elt F) → (⟨S40000x256, .f32⟩ : BufTy).Contents (Elt F) → (⟨S40000x256, .f32⟩ : BufTy).Contents (Elt F)),
    StableHlo.nullary main_cst_23 (constant S_ .f32 0x3727C5AC#32),
    StableHlo.unary main_cst_23 main_v108 (broadcastInDim S256 ![] bcast_S_S256 : (⟨S_, .f32⟩ : BufTy).Contents (Elt F) → (⟨S256, .f32⟩ : BufTy).Contents (Elt F)),
    StableHlo.binary main_v104 main_v108 main_v109 (addf : (⟨S256, .f32⟩ : BufTy).Contents (Elt F) → (⟨S256, .f32⟩ : BufTy).Contents (Elt F) → (⟨S256, .f32⟩ : BufTy).Contents (Elt F)),
    StableHlo.unary main_v109 main_v110 (Host.rsqrt : (⟨S256, .f32⟩ : BufTy).Contents (Elt F) → (⟨S256, .f32⟩ : BufTy).Contents (Elt F)),
    StableHlo.unary main_v110 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S40000x256 ![0, 1] bcast_S1x256_S40000x256_0_1 : (⟨S1x256, .f32⟩ : BufTy).Contents (Elt F) → (⟨S40000x256, .f32⟩ : BufTy).Contents (Elt F)),
    StableHlo.binary main_v107 main_v112 main_v113 (mulf : (⟨S40000x256, .f32⟩ : BufTy).Contents (Elt F) → (⟨S40000x256, .f32⟩ : BufTy).Contents (Elt F) → (⟨S40000x256, .f32⟩ : BufTy).Contents (Elt F)),
    StableHlo.unary main_arg9 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S40000x256 ![0, 1] bcast_S1x256_S40000x256_0_1 : (⟨S1x256, .f32⟩ : BufTy).Contents (Elt F) → (⟨S40000x256, .f32⟩ : BufTy).Contents (Elt F)),
    StableHlo.binary main_v113 main_v115 main_v116 (mulf : (⟨S40000x256, .f32⟩ : BufTy).Contents (Elt F) → (⟨S40000x256, .f32⟩ : BufTy).Contents (Elt F) → (⟨S40000x256, .f32⟩ : BufTy).Contents (Elt F)),
    StableHlo.unary main_arg10 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S40000x256 ![0, 1] bcast_S1x256_S40000x256_0_1 : (⟨S1x256, .f32⟩ : BufTy).Contents (Elt F) → (⟨S40000x256, .f32⟩ : BufTy).Contents (Elt F)),
    StableHlo.binary main_v116 main_v118 main_v119 (addf : (⟨S40000x256, .f32⟩ : BufTy).Contents (Elt F) → (⟨S40000x256, .f32⟩ : BufTy).Contents (Elt F) → (⟨S40000x256, .f32⟩ : BufTy).Contents (Elt F)),
    StableHlo.TRef.nullary main_call3.cst (constant S_ .f32 0x00000000#32),
    StableHlo.TRef.unary main_call3.cst main_call3.v0 (broadcastInDim S40000x256 ![] bcast_S_S40000x256),
    StableHlo.TRef.binary (.of main_v119 : StableHlo.TRef sig ⟨S40000x256, .f32⟩) main_call3.v0 main_call3.v1 maximumf ]

/-- Mean pooling: the rows summed per graph, the nodes counted per graph (ones summed), the sums over max(count, 1). -/
def opsJ : List (HloOp τ sig (Elt F)) :=
  [ StableHlo.nullary main_cst_24 (constant S_ .f32 0x00000000#32),
    StableHlo.unary main_cst_24 main_v121 (broadcastInDim S64x256 ![] bcast_S_S64x256 : (⟨S_, .f32⟩ : BufTy).Contents (Elt F) → (⟨S64x256, .f32⟩ : BufTy).Contents (Elt F)),
    StableHlo.unary main_arg2 main_v122 (broadcastInDim S40000x1 ![0] bcast_S40000_S40000x1_0 : (⟨S40000, .i32⟩ : BufTy).Contents (Elt F) → (⟨S40000x1, .i32⟩ : BufTy).Contents (Elt F)),
    StableHlo.ternary main_v121 main_v122 main_v120 main_v123 ((fun x i u => Host.scatterAdd scatter_S64x256_S40000x1_S40000x256_1_0_0_1 x i u) : (⟨S64x256, .f32⟩ : BufTy).Contents (Elt F) → (⟨S40000x1, .i32⟩ : BufTy).Contents (Elt F) → (⟨S40000x256, .f32⟩ : BufTy).Contents (Elt F) → (⟨S64x256, .f32⟩ : BufTy).Contents (Elt F)),
    StableHlo.nullary main_cst_25 (constant S_ .f32 0x3F800000#32),
    StableHlo.unary main_cst_25 main_v124 (broadcastInDim S40000 ![] bcast_S_S40000 : (⟨S_, .f32⟩ : BufTy).Contents (Elt F) → (⟨S40000, .f32⟩ : BufTy).Contents (Elt F)),
    StableHlo.nullary main_cst_26 (constant S_ .f32 0x00000000#32),
    StableHlo.unary main_cst_26 main_v125 (broadcastInDim S64 ![] bcast_S_S64 : (⟨S_, .f32⟩ : BufTy).Contents (Elt F) → (⟨S64, .f32⟩ : BufTy).Contents (Elt F)),
    StableHlo.unary main_arg2 main_v126 (broadcastInDim S40000x1 ![0] bcast_S40000_S40000x1_0 : (⟨S40000, .i32⟩ : BufTy).Contents (Elt F) → (⟨S40000x1, .i32⟩ : BufTy).Contents (Elt F)),
    StableHlo.ternary main_v125 main_v126 main_v124 main_v127 ((fun x i u => Host.scatterAdd scatter_S64_S40000x1_S40000_n_0_0_1 x i u) : (⟨S64, .f32⟩ : BufTy).Contents (Elt F) → (⟨S40000x1, .i32⟩ : BufTy).Contents (Elt F) → (⟨S40000, .f32⟩ : BufTy).Contents (Elt F) → (⟨S64, .f32⟩ : BufTy).Contents (Elt F)),
    StableHlo.nullary main_cst_27 (constant S_ .f32 0x3F800000#32),
    StableHlo.unary main_cst_27 main_v128 (broadcastInDim S64 ![] bcast_S_S64 : (⟨S_, .f32⟩ : BufTy).Contents (Elt F) → (⟨S64, .f32⟩ : BufTy).Contents (Elt F)),
    StableHlo.binary main_v127 main_v128 main_v129 (maximumf : (⟨S64, .f32⟩ : BufTy).Contents (Elt F) → (⟨S64, .f32⟩ : BufTy).Contents (Elt F) → (⟨S64, .f32⟩ : BufTy).Contents (Elt F)),
    StableHlo.unary main_v129 main_v130 (broadcastInDim S64x1 ![0] bcast_S64_S64x1_0 : (⟨S64, .f32⟩ : BufTy).Contents (Elt F) → (⟨S64x1, .f32⟩ : BufTy).Contents (Elt F)),
    StableHlo.unary main_v130 main_v131 (broadcastInDim S64x256 ![0, 1] bcast_S64x1_S64x256_0_1 : (⟨S64x1, .f32⟩ : BufTy).Contents (Elt F) → (⟨S64x256, .f32⟩ : BufTy).Contents (Elt F)),
    StableHlo.binary main_v123 main_v131 main_v132 (Host.divf : (⟨S64x256, .f32⟩ : BufTy).Contents (Elt F) → (⟨S64x256, .f32⟩ : BufTy).Contents (Elt F) → (⟨S64x256, .f32⟩ : BufTy).Contents (Elt F)) ]

set_option maxRecDepth 4096 in
set_option maxHeartbeats 4000000 in
/-- Statements 121 … 164 of the program are these four lists run one after the other: the called functions unfolded
    at their calls, sequencing re-associated. -/
theorem part2_eq (c : Dev nD) : main_part2 (F := F) c = seq (opsG ++ (opsH ++ (opsI ++ opsJ))) := by
  simp only [main_part2, fn_var.body, fn_where.body, fn_relu.body, opsG, opsH, opsI, opsJ, List.cons_append,
    List.nil_append, seq, bind_assoc, pure_bind]
  all_goals rfl

/-- The buffers the operations of `opsG` write, in order. -/
abbrev opsG_W : List (Ref sig .tc) := [main_v98, main_v99, main_v100]

theorem opsG_writes : (opsG : List (HloOp τ sig (Elt F))).Forall fun op => op.writes ⊆ (opsG_W.map (Proc.devRef (τ := τ) .tc)).toFinset :=
  ⟨writes_of_mem (by decide), writes_of_mem (by decide), writes_of_mem (by decide)⟩

/-- A buffer none of them writes holds afterwards what it held before. -/
theorem opsG_keep (V : Valuation τ sig (Elt F)) (r : Ref sig .tc) (h : r ∉ opsG_W) :
    after opsG V (no_index (Proc.devRef .tc r)) = V (Proc.devRef .tc r) :=
  after_of_writes_sub opsG V opsG_writes h

theorem opsG_sub : (opsG : List (HloOp τ sig (Elt F))).Forall fun op => op.bufs ⊆ tcRefs τ sig :=
  ⟨unary_bufs_sub .., unary_bufs_sub .., binary_bufs_sub ..⟩

theorem opsG_fresh : (opsG : List (HloOp τ sig (Elt F))).Forall fun op => op.fresh = ∅ :=
  ⟨rfl, rfl, rfl⟩

/-- The buffers the operations of `opsH` write, in order. -/
abbrev opsH_W : List (Ref sig .tc) := [main_cst_20, main_v101, main_cst_21, main_v102, main_v103, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v104]

theorem opsH_writes : (opsH : List (HloOp τ sig (Elt F))).Forall fun op => op.writes ⊆ (opsH_W.map (Proc.devRef (τ := τ) .tc)).toFinset :=
  ⟨writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide)⟩

/-- A buffer none of them writes holds afterwards what it held before. -/
theorem opsH_keep (V : Valuation τ sig (Elt F)) (r : Ref sig .tc) (h : r ∉ opsH_W) :
    after opsH V (no_index (Proc.devRef .tc r)) = V (Proc.devRef .tc r) :=
  after_of_writes_sub opsH V opsH_writes h

theorem opsH_sub : (opsH : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the operations of `opsI` write, in order. -/
abbrev opsI_W : List (Ref sig .tc) := [main_v105, main_v106, main_v107, main_cst_23, main_v108, main_v109, main_v110, main_v111, main_v112, main_v113, main_v114, main_v115, main_v116, main_v117, main_v118, main_v119, main_call3_cst, main_call3_v0, main_v120]

theorem opsI_writes : (opsI : List (HloOp τ sig (Elt F))).Forall fun op => op.writes ⊆ (opsI_W.map (Proc.devRef (τ := τ) .tc)).toFinset :=
  ⟨writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide)⟩

/-- A buffer none of them writes holds afterwards what it held before. -/
theorem opsI_keep (V : Valuation τ sig (Elt F)) (r : Ref sig .tc) (h : r ∉ opsI_W) :
    after opsI V (no_index (Proc.devRef .tc r)) = V (Proc.devRef .tc r) :=
  after_of_writes_sub opsI V opsI_writes h

theorem opsI_sub : (opsI : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

theorem opsI_fresh : (opsI : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers the operations of `opsJ` write, in order. -/
abbrev opsJ_W : List (Ref sig .tc) := [main_cst_24, main_v121, main_v122, main_v123, main_cst_25, main_v124, main_cst_26, main_v125, main_v126, main_v127, main_cst_27, main_v128, main_v129, main_v130, main_v131, main_v132]

theorem opsJ_writes : (opsJ : List (HloOp τ sig (Elt F))).Forall fun op => op.writes ⊆ (opsJ_W.map (Proc.devRef (τ := τ) .tc)).toFinset :=
  ⟨writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide),
    writes_of_mem (by decide), writes_of_mem (by decide), writes_of_mem (by decide), writes_of_mem (by decide)⟩

/-- A buffer none of them writes holds afterwards what it held before. -/
theorem opsJ_keep (V : Valuation τ sig (Elt F)) (r : Ref sig .tc) (h : r ∉ opsJ_W) :
    after opsJ V (no_index (Proc.devRef .tc r)) = V (Proc.devRef .tc r) :=
  after_of_writes_sub opsJ V opsJ_writes h

theorem opsJ_sub : (opsJ : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..⟩

theorem opsJ_fresh : (opsJ : List (HloOp τ sig (Elt F))).Forall fun op => op.fresh = ∅ :=
  ⟨rfl, rfl, rfl, rfl, rfl, rfl, rfl, rfl, rfl, rfl, rfl, rfl, rfl, rfl, rfl, rfl⟩

theorem opsG_v100 (V : Valuation τ sig (Elt F)) :
    after opsG V (no_index (Proc.devRef .tc main_v100)) =
      ((addf : (⟨S40000x256, .f32⟩ : BufTy).Contents (Elt F) → (⟨S40000x256, .f32⟩ : BufTy).Contents (Elt F) → (⟨S40000x256, .f32⟩ : BufTy).Contents (Elt F)) (V (Proc.devRef .tc main_v97))
        ((broadcastInDim S40000x256 ![0, 1] bcast_S1x256_S40000x256_0_1 : (⟨S1x256, .f32⟩ : BufTy).Contents (Elt F) → (⟨S40000x256, .f32⟩ : BufTy).Contents (Elt F))
          ((broadcastInDim S1x256 ![1] bcast_S256_S1x256_1 : (⟨S256, .f32⟩ : BufTy).Contents (Elt F) → (⟨S1x256, .f32⟩ : BufTy).Contents (Elt F)) (V (Proc.devRef .tc main_arg8))))) := by
  simp only [opsG]
  after_results_simp
  all_goals rfl

theorem opsH_v103 (V : Valuation τ sig (Elt F)) :
    after opsH V (no_index (Proc.devRef .tc main_v103)) =
      ((Host.divf : (⟨S256, .f32⟩ : BufTy).Contents (Elt F) → (⟨S256, .f32⟩ : BufTy).Contents (Elt F) → (⟨S256, .f32⟩ : BufTy).Contents (Elt F))
        (Host.reduceAdd (V (Proc.devRef .tc main_v100)) (constant S_ .f32 0x00000000#32 : (⟨S_, .f32⟩ : BufTy).Contents (Elt F)) reducesTo_S40000x256_S256_d0 h_S_ : (⟨S256, .f32⟩ : BufTy).Contents (Elt F))
        ((broadcastInDim S256 ![] bcast_S_S256 : (⟨S_, .f32⟩ : BufTy).Contents (Elt F) → (⟨S256, .f32⟩ : BufTy).Contents (Elt F)) (constant S_ .f32 0x471C4000#32 : (⟨S_, .f32⟩ : BufTy).Contents (Elt F)))) := by
  simp only [opsH]
  after_results_simp
  all_goals rfl

theorem opsH_v104 (V : Valuation τ sig (Elt F)) :
    after opsH V (no_index (Proc.devRef .tc main_v104)) =
      (select (broadcastInDim S256 ![] bcast_S_S256
        ((cmpf .ogt : (⟨S_, .f32⟩ : BufTy).Contents (Elt F) → (⟨S_, .f32⟩ : BufTy).Contents (Elt F) → (⟨S_, .i1⟩ : BufTy).Contents (Elt F))
          ((subf : (⟨S_, .f32⟩ : BufTy).Contents (Elt F) → (⟨S_, .f32⟩ : BufTy).Contents (Elt F) → (⟨S_, .f32⟩ : BufTy).Contents (Elt F)) (constant S_ .f32 0x471C4000#32 : (⟨S_, .f32⟩ : BufTy).Contents (Elt F))
            ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))))
        ((Host.divf : (⟨S256, .f32⟩ : BufTy).Contents (Elt F) → (⟨S256, .f32⟩ : BufTy).Contents (Elt F) → (⟨S256, .f32⟩ : BufTy).Contents (Elt F))
          (Host.reduceAdd
            ((mulf : (⟨S40000x256, .f32⟩ : BufTy).Contents (Elt F) → (⟨S40000x256, .f32⟩ : BufTy).Contents (Elt F) → (⟨S40000x256, .f32⟩ : BufTy).Contents (Elt F))
              ((subf : (⟨S40000x256, .f32⟩ : BufTy).Contents (Elt F) → (⟨S40000x256, .f32⟩ : BufTy).Contents (Elt F) → (⟨S40000x256, .f32⟩ : BufTy).Contents (Elt F)) (V (Proc.devRef .tc main_v100))
                ((broadcastInDim S40000x256 ![0, 1] bcast_S1x256_S40000x256_0_1 : (⟨S1x256, .f32⟩ : BufTy).Contents (Elt F) → (⟨S40000x256, .f32⟩ : BufTy).Contents (Elt F))
                  ((Host.divf : (⟨S1x256, .f32⟩ : BufTy).Contents (Elt F) → (⟨S1x256, .f32⟩ : BufTy).Contents (Elt F) → (⟨S1x256, .f32⟩ : BufTy).Contents (Elt F))
                    ((broadcastInDim S1x256 ![1] bcast_S256_S1x256_1 : (⟨S256, .f32⟩ : BufTy).Contents (Elt F) → (⟨S1x256, .f32⟩ : BufTy).Contents (Elt F))
                      (Host.reduceAdd (V (Proc.devRef .tc main_v100)) (constant S_ .f32 0x00000000#32 : (⟨S_, .f32⟩ : BufTy).Contents (Elt F)) reducesTo_S40000x256_S256_d0 h_S_ : (⟨S256, .f32⟩ : BufTy).Contents (Elt F)))
                    ((broadcastInDim S1x256 ![] bcast_S_S1x256 : (⟨S_, .f32⟩ : BufTy).Contents (Elt F) → (⟨S1x256, .f32⟩ : BufTy).Contents (Elt F)) (constant S_ .f32 0x471C4000#32 : (⟨S_, .f32⟩ : BufTy).Contents (Elt F))))))
              ((subf : (⟨S40000x256, .f32⟩ : BufTy).Contents (Elt F) → (⟨S40000x256, .f32⟩ : BufTy).Contents (Elt F) → (⟨S40000x256, .f32⟩ : BufTy).Contents (Elt F)) (V (Proc.devRef .tc main_v100))
                ((broadcastInDim S40000x256 ![0, 1] bcast_S1x256_S40000x256_0_1 : (⟨S1x256, .f32⟩ : BufTy).Contents (Elt F) → (⟨S40000x256, .f32⟩ : BufTy).Contents (Elt F))
                  ((Host.divf : (⟨S1x256, .f32⟩ : BufTy).Contents (Elt F) → (⟨S1x256, .f32⟩ : BufTy).Contents (Elt F) → (⟨S1x256, .f32⟩ : BufTy).Contents (Elt F))
                    ((broadcastInDim S1x256 ![1] bcast_S256_S1x256_1 : (⟨S256, .f32⟩ : BufTy).Contents (Elt F) → (⟨S1x256, .f32⟩ : BufTy).Contents (Elt F))
                      (Host.reduceAdd (V (Proc.devRef .tc main_v100)) (constant S_ .f32 0x00000000#32 : (⟨S_, .f32⟩ : BufTy).Contents (Elt F)) reducesTo_S40000x256_S256_d0 h_S_ : (⟨S256, .f32⟩ : BufTy).Contents (Elt F)))
                    ((broadcastInDim S1x256 ![] bcast_S_S1x256 : (⟨S_, .f32⟩ : BufTy).Contents (Elt F) → (⟨S1x256, .f32⟩ : BufTy).Contents (Elt F)) (constant S_ .f32 0x471C4000#32 : (⟨S_, .f32⟩ : BufTy).Contents (Elt F))))))) (constant S_ .f32 0x00000000#32 : (⟨S_, .f32⟩ : BufTy).Contents (Elt F)) reducesTo_S40000x256_S256_d0 h_S_ : (⟨S256, .f32⟩ : BufTy).Contents (Elt F))
          ((broadcastInDim S256 ![] bcast_S_S256 : (⟨S_, .f32⟩ : BufTy).Contents (Elt F) → (⟨S256, .f32⟩ : BufTy).Contents (Elt F))
            ((subf : (⟨S_, .f32⟩ : BufTy).Contents (Elt F) → (⟨S_, .f32⟩ : BufTy).Contents (Elt F) → (⟨S_, .f32⟩ : BufTy).Contents (Elt F)) (constant S_ .f32 0x471C4000#32 : (⟨S_, .f32⟩ : BufTy).Contents (Elt F))
              ((sitofp .f32 : (⟨S_, .i32⟩ : BufTy).Contents (Elt F) → (⟨S_, .f32⟩ : BufTy).Contents (Elt F)) (constantI S_ 32 0#32 : (⟨S_, .i32⟩ : BufTy).Contents (Elt F))))))
        ((broadcastInDim S256 ![] bcast_S_S256 : (⟨S_, .f32⟩ : BufTy).Contents (Elt F) → (⟨S256, .f32⟩ : BufTy).Contents (Elt F))
          ((id : (⟨S_, .f32⟩ : BufTy).Contents (Elt F) → (⟨S_, .f32⟩ : BufTy).Contents (Elt F)) (constant S_ .f32 0x7FC00000#32 : (⟨S_, .f32⟩ : BufTy).Contents (Elt F)))) : (⟨S256, .f32⟩ : BufTy).Contents (Elt F)) := by
  simp only [opsH]
  after_results_simp
  all_goals rfl

theorem opsI_v120 (V : Valuation τ sig (Elt F)) :
    after opsI V (no_index (Proc.devRef .tc main_v120)) =
      ((maximumf : (⟨S40000x256, .f32⟩ : BufTy).Contents (Elt F) → (⟨S40000x256, .f32⟩ : BufTy).Contents (Elt F) → (⟨S40000x256, .f32⟩ : BufTy).Contents (Elt F))
        ((addf : (⟨S40000x256, .f32⟩ : BufTy).Contents (Elt F) → (⟨S40000x256, .f32⟩ : BufTy).Contents (Elt F) → (⟨S40000x256, .f32⟩ : BufTy).Contents (Elt F))
          ((mulf : (⟨S40000x256, .f32⟩ : BufTy).Contents (Elt F) → (⟨S40000x256, .f32⟩ : BufTy).Contents (Elt F) → (⟨S40000x256, .f32⟩ : BufTy).Contents (Elt F))
            ((mulf : (⟨S40000x256, .f32⟩ : BufTy).Contents (Elt F) → (⟨S40000x256, .f32⟩ : BufTy).Contents (Elt F) → (⟨S40000x256, .f32⟩ : BufTy).Contents (Elt F))
              ((subf : (⟨S40000x256, .f32⟩ : BufTy).Contents (Elt F) → (⟨S40000x256, .f32⟩ : BufTy).Contents (Elt F) → (⟨S40000x256, .f32⟩ : BufTy).Contents (Elt F)) (V (Proc.devRef .tc main_v100))
                ((broadcastInDim S40000x256 ![0, 1] bcast_S1x256_S40000x256_0_1 : (⟨S1x256, .f32⟩ : BufTy).Contents (Elt F) → (⟨S40000x256, .f32⟩ : BufTy).Contents (Elt F))
                  ((broadcastInDim S1x256 ![1] bcast_S256_S1x256_1 : (⟨S256, .f32⟩ : BufTy).Contents (Elt F) → (⟨S1x256, .f32⟩ : BufTy).Contents (Elt F)) (V (Proc.devRef .tc main_v103)))))
              ((broadcastInDim S40000x256 ![0, 1] bcast_S1x256_S40000x256_0_1 : (⟨S1x256, .f32⟩ : BufTy).Contents (Elt F) → (⟨S40000x256, .f32⟩ : BufTy).Contents (Elt F))
                ((broadcastInDim S1x256 ![1] bcast_S256_S1x256_1 : (⟨S256, .f32⟩ : BufTy).Contents (Elt F) → (⟨S1x256, .f32⟩ : BufTy).Contents (Elt F))
                  ((Host.rsqrt : (⟨S256, .f32⟩ : BufTy).Contents (Elt F) → (⟨S256, .f32⟩ : BufTy).Contents (Elt F))
                    ((addf : (⟨S256, .f32⟩ : BufTy).Contents (Elt F) → (⟨S256, .f32⟩ : BufTy).Contents (Elt F) → (⟨S256, .f32⟩ : BufTy).Contents (Elt F)) (V (Proc.devRef .tc main_v104))
                      ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F))))))))
            ((broadcastInDim S40000x256 ![0, 1] bcast_S1x256_S40000x256_0_1 : (⟨S1x256, .f32⟩ : BufTy).Contents (Elt F) → (⟨S40000x256, .f32⟩ : BufTy).Contents (Elt F))
              ((broadcastInDim S1x256 ![1] bcast_S256_S1x256_1 : (⟨S256, .f32⟩ : BufTy).Contents (Elt F) → (⟨S1x256, .f32⟩ : BufTy).Contents (Elt F)) (V (Proc.devRef .tc main_arg9)))))
          ((broadcastInDim S40000x256 ![0, 1] bcast_S1x256_S40000x256_0_1 : (⟨S1x256, .f32⟩ : BufTy).Contents (Elt F) → (⟨S40000x256, .f32⟩ : BufTy).Contents (Elt F))
            ((broadcastInDim S1x256 ![1] bcast_S256_S1x256_1 : (⟨S256, .f32⟩ : BufTy).Contents (Elt F) → (⟨S1x256, .f32⟩ : BufTy).Contents (Elt F)) (V (Proc.devRef .tc main_arg10)))))
        ((broadcastInDim S40000x256 ![] bcast_S_S40000x256 : (⟨S_, .f32⟩ : BufTy).Contents (Elt F) → (⟨S40000x256, .f32⟩ : BufTy).Contents (Elt F)) (constant S_ .f32 0x00000000#32 : (⟨S_, .f32⟩ : BufTy).Contents (Elt F)))) := by
  simp only [opsI]
  after_results_simp
  all_goals rfl

theorem opsJ_v132 (V : Valuation τ sig (Elt F)) :
    after opsJ V (no_index (Proc.devRef .tc main_v132)) = rPool (V (Proc.devRef .tc main_v120)) (V (Proc.devRef .tc main_arg2)) := by
  simp only [opsJ]
  after_results_simp
  all_goals rfl

end Cert.ReferenceIdeal.Hand

end
-- ==== Proof.Ref.Run.lean ====
/-
  The whole reference program as one list of elementary array operations, and its run: from any memory with zero
  counters every weakly fair execution terminates, the result buffer holds `refOut` of the eleven arguments' launch
  contents — two layers of graph convolution and column normalisation over the edge lists with self-loops, then
  mean pooling per graph — and the arguments are unchanged.
  The list is the nine stretches of the three parts in order; stretches that together make one stage are grouped
  (the column statistics with the normalisation; the sum over the edges with the bias), and the result is read off
  stage by stage.
-/
import proofs.«406782_j35519379538031_1_alg».proof.Proof.Ref.Stages
import proofs.«406782_j35519379538031_1_alg».proof.Proof.Ref.RunLib
import proofs.«406782_j35519379538031_1_alg».proof.Proof.Ref.Run0
import proofs.«406782_j35519379538031_1_alg».proof.Proof.Ref.Run1
import proofs.«406782_j35519379538031_1_alg».proof.Proof.Ref.Run2
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]
/-- A layer's column statistics followed by its normalisation (first layer). -/
def opsCD : List (HloOp τ sig (Elt F)) := opsC ++ opsD
/-- The second convolution: its sum over the edges followed by its bias. -/
def opsEG : List (HloOp τ sig (Elt F)) := opsE ++ opsG
/-- A layer's column statistics followed by its normalisation (second layer). -/
def opsHI : List (HloOp τ sig (Elt F)) := opsH ++ opsI
/-- The program's operations, in order, grouped by stage. -/
def ops : List (HloOp τ sig (Elt F)) := opsA ++ (opsB ++ (opsCD ++ (opsEG ++ (opsHI ++ opsJ))))

/-- The same list grouped as the program's three parts. -/
theorem ops_eq : (ops : List (HloOp τ sig (Elt F)))
    = (opsA ++ (opsB ++ opsC)) ++ ((opsD ++ opsE) ++ (opsG ++ (opsH ++ (opsI ++ opsJ)))) := by
  simp only [ops, opsCD, opsEG, opsHI, List.append_assoc]

/-- The program is that list run in order. -/
theorem main_eq (c : Dev nD) : main (F := F) c = seq ops := by
  rw [ops_eq, seq_append (opsA ++ (opsB ++ opsC)), seq_append (opsD ++ opsE), ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append opsA_sub (forall_append opsB_sub (forall_append (forall_append opsC_sub opsD_sub)
    (forall_append (forall_append opsE_sub opsG_sub) (forall_append (forall_append opsH_sub opsI_sub) opsJ_sub))))

theorem ops_fresh : (ops : List (HloOp τ sig (Elt F))).Forall fun op => op.fresh = ∅ :=
  forall_append opsA_fresh (forall_append opsB_fresh (forall_append (forall_append opsC_fresh opsD_fresh)
    (forall_append (forall_append opsE_fresh opsG_fresh) (forall_append (forall_append opsH_fresh opsI_fresh) opsJ_fresh))))

/-- A buffer neither half writes keeps its contents through `opsCD`. -/
theorem opsCD_keep (V : Valuation τ sig (Elt F)) (r : Ref sig .tc) (h₁ : r ∉ opsC_W) (h₂ : r ∉ opsD_W) :
    after opsCD V (no_index (Proc.devRef .tc r)) = V (Proc.devRef .tc r) := by
  simp only [opsCD, after_append]
  rw [opsD_keep _ r h₂, opsC_keep _ r h₁]

/-- A buffer neither half writes keeps its contents through `opsEG`. -/
theorem opsEG_keep (V : Valuation τ sig (Elt F)) (r : Ref sig .tc) (h₁ : r ∉ opsE_W) (h₂ : r ∉ opsG_W) :
    after opsEG V (no_index (Proc.devRef .tc r)) = V (Proc.devRef .tc r) := by
  simp only [opsEG, after_append]
  rw [opsG_keep _ r h₂, opsE_keep _ r h₁]

/-- A buffer neither half writes keeps its contents through `opsHI`. -/
theorem opsHI_keep (V : Valuation τ sig (Elt F)) (r : Ref sig .tc) (h₁ : r ∉ opsH_W) (h₂ : r ∉ opsI_W) :
    after opsHI V (no_index (Proc.devRef .tc r)) = V (Proc.devRef .tc r) := by
  simp only [opsHI, after_append]
  rw [opsI_keep _ r h₂, opsH_keep _ r h₁]

/-- A buffer no stretch writes — each argument — keeps its contents through the whole program. -/
theorem ops_keep (V : Valuation τ sig (Elt F)) (r : Ref sig .tc) (hA : r ∉ opsA_W) (hB : r ∉ opsB_W) (hC : r ∉ opsC_W)
    (hD : r ∉ opsD_W) (hE : r ∉ opsE_W) (hG : r ∉ opsG_W) (hH : r ∉ opsH_W) (hI : r ∉ opsI_W) (hJ : r ∉ opsJ_W) :
    after ops V (Proc.devRef .tc r) = V (Proc.devRef .tc r) := by
  simp only [ops, opsCD, opsEG, opsHI, after_append]
  rw [opsJ_keep _ r hJ, opsI_keep _ r hI, opsH_keep _ r hH, opsG_keep _ r hG, opsE_keep _ r hE, opsD_keep _ r hD,
    opsC_keep _ r hC, opsB_keep _ r hB, opsA_keep _ r hA]

/-! The buffers each stage reads and an earlier stretch leaves alone. -/
theorem keep_A_arg0 (V : Valuation τ sig (Elt F)) :
    after opsA V (no_index (Proc.devRef .tc main_arg0)) = V (Proc.devRef .tc main_arg0) := opsA_keep V main_arg0 (by decide)
theorem keep_A_arg2 (V : Valuation τ sig (Elt F)) :
    after opsA V (no_index (Proc.devRef .tc main_arg2)) = V (Proc.devRef .tc main_arg2) := opsA_keep V main_arg2 (by decide)
theorem keep_A_arg3 (V : Valuation τ sig (Elt F)) :
    after opsA V (no_index (Proc.devRef .tc main_arg3)) = V (Proc.devRef .tc main_arg3) := opsA_keep V main_arg3 (by decide)
theorem keep_A_arg4 (V : Valuation τ sig (Elt F)) :
    after opsA V (no_index (Proc.devRef .tc main_arg4)) = V (Proc.devRef .tc main_arg4) := opsA_keep V main_arg4 (by decide)
theorem keep_A_arg5 (V : Valuation τ sig (Elt F)) :
    after opsA V (no_index (Proc.devRef .tc main_arg5)) = V (Proc.devRef .tc main_arg5) := opsA_keep V main_arg5 (by decide)
theorem keep_A_arg6 (V : Valuation τ sig (Elt F)) :
    after opsA V (no_index (Proc.devRef .tc main_arg6)) = V (Proc.devRef .tc main_arg6) := opsA_keep V main_arg6 (by decide)
theorem keep_A_arg7 (V : Valuation τ sig (Elt F)) :
    after opsA V (no_index (Proc.devRef .tc main_arg7)) = V (Proc.devRef .tc main_arg7) := opsA_keep V main_arg7 (by decide)
theorem keep_A_arg8 (V : Valuation τ sig (Elt F)) :
    after opsA V (no_index (Proc.devRef .tc main_arg8)) = V (Proc.devRef .tc main_arg8) := opsA_keep V main_arg8 (by decide)
theorem keep_A_arg9 (V : Valuation τ sig (Elt F)) :
    after opsA V (no_index (Proc.devRef .tc main_arg9)) = V (Proc.devRef .tc main_arg9) := opsA_keep V main_arg9 (by decide)
theorem keep_A_arg10 (V : Valuation τ sig (Elt F)) :
    after opsA V (no_index (Proc.devRef .tc main_arg10)) = V (Proc.devRef .tc main_arg10) := opsA_keep V main_arg10 (by decide)
theorem keep_B_arg2 (V : Valuation τ sig (Elt F)) :
    after opsB V (no_index (Proc.devRef .tc main_arg2)) = V (Proc.devRef .tc main_arg2) := opsB_keep V main_arg2 (by decide)
theorem keep_B_arg5 (V : Valuation τ sig (Elt F)) :
    after opsB V (no_index (Proc.devRef .tc main_arg5)) = V (Proc.devRef .tc main_arg5) := opsB_keep V main_arg5 (by decide)
theorem keep_B_arg6 (V : Valuation τ sig (Elt F)) :
    after opsB V (no_index (Proc.devRef .tc main_arg6)) = V (Proc.devRef .tc main_arg6) := opsB_keep V main_arg6 (by decide)
theorem keep_B_arg7 (V : Valuation τ sig (Elt F)) :
    after opsB V (no_index (Proc.devRef .tc main_arg7)) = V (Proc.devRef .tc main_arg7) := opsB_keep V main_arg7 (by decide)
theorem keep_B_arg8 (V : Valuation τ sig (Elt F)) :
    after opsB V (no_index (Proc.devRef .tc main_arg8)) = V (Proc.devRef .tc main_arg8) := opsB_keep V main_arg8 (by decide)
theorem keep_B_arg9 (V : Valuation τ sig (Elt F)) :
    after opsB V (no_index (Proc.devRef .tc main_arg9)) = V (Proc.devRef .tc main_arg9) := opsB_keep V main_arg9 (by decide)
theorem keep_B_arg10 (V : Valuation τ sig (Elt F)) :
    after opsB V (no_index (Proc.devRef .tc main_arg10)) = V (Proc.devRef .tc main_arg10) := opsB_keep V main_arg10 (by decide)
theorem keep_B_v3 (V : Valuation τ sig (Elt F)) :
    after opsB V (no_index (Proc.devRef .tc main_v3)) = V (Proc.devRef .tc main_v3) := opsB_keep V main_v3 (by decide)
theorem keep_B_v6 (V : Valuation τ sig (Elt F)) :
    after opsB V (no_index (Proc.devRef .tc main_v6)) = V (Proc.devRef .tc main_v6) := opsB_keep V main_v6 (by decide)
theorem keep_C_v43 (V : Valuation τ sig (Elt F)) :
    after opsC V (no_index (Proc.devRef .tc main_v43)) = V (Proc.devRef .tc main_v43) := opsC_keep V main_v43 (by decide)
theorem keep_C_arg5 (V : Valuation τ sig (Elt F)) :
    after opsC V (no_index (Proc.devRef .tc main_arg5)) = V (Proc.devRef .tc main_arg5) := opsC_keep V main_arg5 (by decide)
theorem keep_C_arg6 (V : Valuation τ sig (Elt F)) :
    after opsC V (no_index (Proc.devRef .tc main_arg6)) = V (Proc.devRef .tc main_arg6) := opsC_keep V main_arg6 (by decide)
theorem keep_CD_arg2 (V : Valuation τ sig (Elt F)) :
    after opsCD V (no_index (Proc.devRef .tc main_arg2)) = V (Proc.devRef .tc main_arg2) := opsCD_keep V main_arg2 (by decide) (by decide)
theorem keep_CD_arg7 (V : Valuation τ sig (Elt F)) :
    after opsCD V (no_index (Proc.devRef .tc main_arg7)) = V (Proc.devRef .tc main_arg7) := opsCD_keep V main_arg7 (by decide) (by decide)
theorem keep_CD_arg8 (V : Valuation τ sig (Elt F)) :
    after opsCD V (no_index (Proc.devRef .tc main_arg8)) = V (Proc.devRef .tc main_arg8) := opsCD_keep V main_arg8 (by decide) (by decide)
theorem keep_CD_arg9 (V : Valuation τ sig (Elt F)) :
    after opsCD V (no_index (Proc.devRef .tc main_arg9)) = V (Proc.devRef .tc main_arg9) := opsCD_keep V main_arg9 (by decide) (by decide)
theorem keep_CD_arg10 (V : Valuation τ sig (Elt F)) :
    after opsCD V (no_index (Proc.devRef .tc main_arg10)) = V (Proc.devRef .tc main_arg10) := opsCD_keep V main_arg10 (by decide) (by decide)
theorem keep_CD_v3 (V : Valuation τ sig (Elt F)) :
    after opsCD V (no_index (Proc.devRef .tc main_v3)) = V (Proc.devRef .tc main_v3) := opsCD_keep V main_v3 (by decide) (by decide)
theorem keep_CD_v6 (V : Valuation τ sig (Elt F)) :
    after opsCD V (no_index (Proc.devRef .tc main_v6)) = V (Proc.devRef .tc main_v6) := opsCD_keep V main_v6 (by decide) (by decide)
theorem keep_E_arg8 (V : Valuation τ sig (Elt F)) :
    after opsE V (no_index (Proc.devRef .tc main_arg8)) = V (Proc.devRef .tc main_arg8) := opsE_keep V main_arg8 (by decide)
theorem keep_EG_arg2 (V : Valuation τ sig (Elt F)) :
    after opsEG V (no_index (Proc.devRef .tc main_arg2)) = V (Proc.devRef .tc main_arg2) := opsEG_keep V main_arg2 (by decide) (by decide)
theorem keep_EG_arg9 (V : Valuation τ sig (Elt F)) :
    after opsEG V (no_index (Proc.devRef .tc main_arg9)) = V (Proc.devRef .tc main_arg9) := opsEG_keep V main_arg9 (by decide) (by decide)
theorem keep_EG_arg10 (V : Valuation τ sig (Elt F)) :
    after opsEG V (no_index (Proc.devRef .tc main_arg10)) = V (Proc.devRef .tc main_arg10) := opsEG_keep V main_arg10 (by decide) (by decide)
theorem keep_H_v100 (V : Valuation τ sig (Elt F)) :
    after opsH V (no_index (Proc.devRef .tc main_v100)) = V (Proc.devRef .tc main_v100) := opsH_keep V main_v100 (by decide)
theorem keep_H_arg9 (V : Valuation τ sig (Elt F)) :
    after opsH V (no_index (Proc.devRef .tc main_arg9)) = V (Proc.devRef .tc main_arg9) := opsH_keep V main_arg9 (by decide)
theorem keep_H_arg10 (V : Valuation τ sig (Elt F)) :
    after opsH V (no_index (Proc.devRef .tc main_arg10)) = V (Proc.devRef .tc main_arg10) := opsH_keep V main_arg10 (by decide)
theorem keep_HI_arg2 (V : Valuation τ sig (Elt F)) :
    after opsHI V (no_index (Proc.devRef .tc main_arg2)) = V (Proc.devRef .tc main_arg2) := opsHI_keep V main_arg2 (by decide) (by decide)

/-- The first layer's normalisation: the statistics' stretch hands the mean and variance to the normalisation's. -/
theorem opsCD_v63 (V : Valuation τ sig (Elt F)) :
    after opsCD V (no_index (Proc.devRef .tc main_v63)) = rBN (V (Proc.devRef .tc main_v43)) (V (Proc.devRef .tc main_arg5)) (V (Proc.devRef .tc main_arg6)) := by
  simp only [opsCD, after_append, opsD_v63, opsC_v46, opsC_v47, keep_C_v43, keep_C_arg5, keep_C_arg6]
  all_goals rfl

/-- The second convolution: the sum over the edges, then the bias. -/
theorem opsEG_v100 (V : Valuation τ sig (Elt F)) :
    after opsEG V (no_index (Proc.devRef .tc main_v100)) =
      rConv (V (Proc.devRef .tc main_v63)) (V (Proc.devRef .tc main_arg7)) (V (Proc.devRef .tc main_arg8)) (V (Proc.devRef .tc main_v3)) (V (Proc.devRef .tc main_v6)) := by
  simp only [opsEG, after_append, opsG_v100, opsE_v97, keep_E_arg8]
  all_goals rfl

/-- The second layer's normalisation. -/
theorem opsHI_v120 (V : Valuation τ sig (Elt F)) :
    after opsHI V (no_index (Proc.devRef .tc main_v120)) = rBN (V (Proc.devRef .tc main_v100)) (V (Proc.devRef .tc main_arg9)) (V (Proc.devRef .tc main_arg10)) := by
  simp only [opsHI, after_append, opsI_v120, opsH_v103, opsH_v104, keep_H_v100, keep_H_arg9, keep_H_arg10]
  all_goals rfl

/-- The result buffer after the whole program: the stages composed. -/
theorem out_eq (V : Valuation τ sig (Elt F)) :
    after ops V (Proc.devRef .tc main_v132) =
      refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp only [ops, after_append, opsJ_v132, opsHI_v120, opsEG_v100, opsCD_v63, opsB_v43, opsA_v3, opsA_v6,
    keep_A_arg0, keep_A_arg2, keep_A_arg3, keep_A_arg4, keep_A_arg5, keep_A_arg6, keep_A_arg7, keep_A_arg8, keep_A_arg9, keep_A_arg10, keep_B_arg2, keep_B_arg5, keep_B_arg6, keep_B_arg7, keep_B_arg8, keep_B_arg9, keep_B_arg10, keep_B_v3, keep_B_v6, keep_CD_arg2, keep_CD_arg7, keep_CD_arg8, keep_CD_arg9, keep_CD_arg10, keep_CD_v3, keep_CD_v6, keep_EG_arg2, keep_EG_arg9, keep_EG_arg10, keep_HI_arg2]
  all_goals rfl

/-- On every device, for any float values, from any memory with zero counters: every weakly fair execution of the
    program terminates with the result at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v132) =
        refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v132).trans (out_eq _),
      (h c main_arg0).trans (ops_keep _ main_arg0 (by decide) (by decide) (by decide) (by decide) (by decide) (by decide) (by decide) (by decide) (by decide)),
      (h c main_arg1).trans (ops_keep _ main_arg1 (by decide) (by decide) (by decide) (by decide) (by decide) (by decide) (by decide) (by decide) (by decide)),
      (h c main_arg2).trans (ops_keep _ main_arg2 (by decide) (by decide) (by decide) (by decide) (by decide) (by decide) (by decide) (by decide) (by decide)),
      (h c main_arg3).trans (ops_keep _ main_arg3 (by decide) (by decide) (by decide) (by decide) (by decide) (by decide) (by decide) (by decide) (by decide)),
      (h c main_arg4).trans (ops_keep _ main_arg4 (by decide) (by decide) (by decide) (by decide) (by decide) (by decide) (by decide) (by decide) (by decide)),
      (h c main_arg5).trans (ops_keep _ main_arg5 (by decide) (by decide) (by decide) (by decide) (by decide) (by decide) (by decide) (by decide) (by decide)),
      (h c main_arg6).trans (ops_keep _ main_arg6 (by decide) (by decide) (by decide) (by decide) (by decide) (by decide) (by decide) (by decide) (by decide)),
      (h c main_arg7).trans (ops_keep _ main_arg7 (by decide) (by decide) (by decide) (by decide) (by decide) (by decide) (by decide) (by decide) (by decide)),
      (h c main_arg8).trans (ops_keep _ main_arg8 (by decide) (by decide) (by decide) (by decide) (by decide) (by decide) (by decide) (by decide) (by decide)),
      (h c main_arg9).trans (ops_keep _ main_arg9 (by decide) (by decide) (by decide) (by decide) (by decide) (by decide) (by decide) (by decide) (by decide)),
      (h c main_arg10).trans (ops_keep _ main_arg10 (by decide) (by decide) (by decide) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.Hand

end
-- ==== Proof.Math.BN.lean ====
/- Batch normalisation of one column of real data, written two ways over the extended reals.
   One way keeps the raw moments: mean `m = (Σ a)/n`, variance `(Σ a²)/n − m²`, and applies the affine map
   `a ↦ a·(γ r) + (β − m·(γ r))`. The other centres first: variance `(Σ (a − m)²)/n`, and applies
   `a ↦ ((a − m)·r)·γ + β`. Here `r` is the reciprocal square root of the variance plus a positive `e`.
   Both variances are the same nonnegative real, so both `r` are the same positive real, and the two affine
   maps agree by algebra in the reals. -/
import Idealize.ShloMosaic.PureOps.Ideal
import Mathlib.Algebra.Order.BigOperators.Group.Finset
import Mathlib.Tactic.Ring
import Mathlib.Tactic.Linarith
import Mathlib.Tactic.NormNum

noncomputable section

namespace Cert.Math

open Idealize.ShloMosaic
open scoped BigOperators

/-- A finite sum of reals, each read as an extended real, is the real sum read as an extended real. -/
theorem sum_coe_finset {ι : Type*} (s : Finset ι) (f : ι → ℝ) :
    (∑ i ∈ s, (f i : EReal)) = ((∑ i ∈ s, f i : ℝ) : EReal) := by
  classical
  refine Finset.induction_on s (by simp) ?_
  intro x t hx ih
  rw [Finset.sum_insert hx, Finset.sum_insert hx, ih, EReal.coe_add]

theorem sum_coe {ι : Type*} [Fintype ι] (f : ι → ℝ) :
    (∑ i, (f i : EReal)) = ((∑ i, f i : ℝ) : EReal) :=
  sum_coe_finset _ f

/-- The same for a sum of products of two real families. -/
theorem sum_mul_coe {ι : Type*} [Fintype ι] (f g : ι → ℝ) :
    (∑ i, (f i : EReal) * (g i : EReal)) = ((∑ i, f i * g i : ℝ) : EReal) := by
  rw [← sum_coe]
  exact Finset.sum_congr rfl fun i _ => (EReal.coe_mul _ _).symm

/-- The same for a sum of squared deviations from a real `m`. -/
theorem sum_dev_coe {ι : Type*} [Fintype ι] (f : ι → ℝ) (m : ℝ) :
    (∑ i, ((f i : EReal) - (m : EReal)) * ((f i : EReal) - (m : EReal)))
      = ((∑ i, (f i - m) * (f i - m) : ℝ) : EReal) := by
  rw [← sum_coe]
  exact Finset.sum_congr rfl fun i _ => by rw [← EReal.coe_sub, ← EReal.coe_mul]

/-- Mean of squares minus squared mean is the mean squared deviation: with `m = (Σ a)/n`,
    `Σ (a − m)² = Σ a² − 2 m Σ a + n m² = Σ a² − n m²`. -/
theorem var_eq (a : Fin 40000 → ℝ) (m : ℝ) (hm : m = (∑ i, a i) * (1 / 40000)) :
    (∑ i, a i * a i) * (1 / 40000) - m * m = (∑ i, (a i - m) * (a i - m)) * (1 / 40000) := by
  have hS : ∑ i, a i = 40000 * m := by rw [hm]; ring
  have h : ∑ i, (a i - m) * (a i - m)
      = (∑ i, a i * a i) - 2 * m * (∑ i, a i) + 40000 * (m * m) := by
    calc ∑ i, (a i - m) * (a i - m)
        = ∑ i, (a i * a i - 2 * m * a i + m * m) := Finset.sum_congr rfl fun i _ => by ring
      _ = (∑ i, a i * a i) - 2 * m * (∑ i, a i) + 40000 * (m * m) := by
        rw [Finset.sum_add_distrib, Finset.sum_sub_distrib, ← Finset.mul_sum, Finset.sum_const,
          Finset.card_univ, Fintype.card_fin, nsmul_eq_mul]
        norm_num
  rw [h, hS]; ring

/-- The real numbers behind one column: its mean `m` and the common reciprocal square root `r`. -/
theorem bn_facts (a : Fin 40000 → ℝ) (e : ℝ) (he : 0 < e) :
    ∃ m r : ℝ,
      Ideal.div (∑ i, (a i : EReal)) ((40000 : ℝ) : EReal) = (m : EReal) ∧
      Ideal.rsqrt (Ideal.div (∑ i, (a i : EReal) * (a i : EReal)) ((40000 : ℝ) : EReal)
          - (m : EReal) * (m : EReal) + (e : EReal)) = (r : EReal) ∧
      Ideal.rsqrt (Ideal.div (0 + ∑ i, ((a i : EReal) - (m : EReal)) * ((a i : EReal) - (m : EReal)))
          (((40000 : ℝ) : EReal) - 0) + (e : EReal)) = (r : EReal) := by
  have hN : (40000 : ℝ) ≠ 0 := by norm_num
  obtain ⟨m, hm⟩ : ∃ m : ℝ, m = (∑ i, a i) * (1 / 40000) := ⟨_, rfl⟩
  obtain ⟨v, hv⟩ : ∃ v : ℝ, v = (∑ i, (a i - m) * (a i - m)) * (1 / 40000) := ⟨_, rfl⟩
  have hv0 : 0 ≤ v := by
    rw [hv]; exact mul_nonneg (Finset.sum_nonneg fun i _ => mul_self_nonneg _) (by norm_num)
  have hpos : 0 < v + e := by linarith
  have hrs : Ideal.rsqrt ((v + e : ℝ) : EReal) = (((Real.sqrt (v + e))⁻¹ : ℝ) : EReal) := by
    rw [Ideal.rsqrt_coe, if_neg (not_lt.mpr hpos.le), if_neg hpos.ne']
  refine ⟨m, (Real.sqrt (v + e))⁻¹, ?_, ?_, ?_⟩
  · rw [sum_coe, Ideal.div_coe hN, ← EReal.coe_mul, hm]
  · rw [sum_mul_coe, Ideal.div_coe hN, ← EReal.coe_mul, ← EReal.coe_mul, ← EReal.coe_sub,
      ← EReal.coe_add, var_eq a m hm, ← hv]
    exact hrs
  · rw [zero_add, sum_dev_coe, sub_zero, Ideal.div_coe hN, ← EReal.coe_mul, ← EReal.coe_add, ← hv]
    exact hrs

theorem bn_col (a : Fin 40000 → ℝ) (γ β e : ℝ) (he : 0 < e) (k : Fin 40000) :
    let s : EReal := ∑ i, (a i : EReal)
    let q : EReal := ∑ i, (a i : EReal) * (a i : EReal)
    let N : EReal := ((40000 : ℝ) : EReal)
    let meanK := Ideal.div s N
    let varK := Ideal.div q N - meanK * meanK
    let rK := Ideal.rsqrt (varK + (e : EReal))
    let mu := Ideal.div (0 + s) N
    let varR := Ideal.div (0 + ∑ i, ((a i : EReal) - mu) * ((a i : EReal) - mu)) (N - 0)
    let rR := Ideal.rsqrt (varR + (e : EReal))
    max ((a k : EReal) * ((γ : EReal) * rK) + ((β : EReal) - meanK * ((γ : EReal) * rK))) 0
      = max ((((a k : EReal) - mu) * rR) * (γ : EReal) + (β : EReal)) 0 := by
  intro s q N meanK varK rK mu varR rR
  obtain ⟨m, r, h1, h2, h3⟩ := bn_facts a e he
  have hmeanK : meanK = (m : EReal) := h1
  have hmu : mu = (m : EReal) := by
    show Ideal.div (0 + s) N = (m : EReal)
    rw [zero_add]; exact h1
  have hrK : rK = (r : EReal) := by
    show Ideal.rsqrt (Ideal.div q N - meanK * meanK + (e : EReal)) = (r : EReal)
    rw [hmeanK]; exact h2
  have hrR : rR = (r : EReal) := by
    show Ideal.rsqrt (Ideal.div (0 + ∑ i, ((a i : EReal) - mu) * ((a i : EReal) - mu)) (N - 0)
      + (e : EReal)) = (r : EReal)
    rw [hmu]; exact h3
  rw [hmeanK, hmu, hrK, hrR]
  congr 1
  norm_cast
  ring

theorem bn_col_real (a : Fin 40000 → ℝ) (γ β e : ℝ) (he : 0 < e) (k : Fin 40000) :
    let s : EReal := ∑ i, (a i : EReal)
    let N : EReal := ((40000 : ℝ) : EReal)
    let mu := Ideal.div (0 + s) N
    let varR := Ideal.div (0 + ∑ i, ((a i : EReal) - mu) * ((a i : EReal) - mu)) (N - 0)
    let rR := Ideal.rsqrt (varR + (e : EReal))
    ∃ x : ℝ, max ((((a k : EReal) - mu) * rR) * (γ : EReal) + (β : EReal)) 0 = (x : EReal) := by
  intro s N mu varR rR
  obtain ⟨m, r, h1, _, h3⟩ := bn_facts a e he
  have hmu : mu = (m : EReal) := by
    show Ideal.div (0 + s) N = (m : EReal)
    rw [zero_add]; exact h1
  have hrR : rR = (r : EReal) := by
    show Ideal.rsqrt (Ideal.div (0 + ∑ i, ((a i : EReal) - mu) * ((a i : EReal) - mu)) (N - 0)
      + (e : EReal)) = (r : EReal)
    rw [hmu]; exact h3
  rw [hmu, hrR]
  have hx : (((a k : EReal) - (m : EReal)) * (r : EReal)) * (γ : EReal) + (β : EReal)
      = (((a k - m) * r * γ + β : ℝ) : EReal) := by norm_cast
  rw [hx]
  rcases le_total ((a k - m) * r * γ + β) 0 with h | h
  · exact ⟨0, by rw [max_eq_right (by exact_mod_cast h)]; rfl⟩
  · exact ⟨(a k - m) * r * γ + β, by rw [max_eq_left (by exact_mod_cast h)]⟩

end Cert.Math

end
-- ==== Proof.Bridge.MM.lean ====
/- The dense product of a 40000 by 256 matrix with a 256 by 256 matrix, entry (i, j) the sum over k of
   x[i, k] * w[k, j], is what the host's contraction of axis 1 of the left operand against axis 0 of the
   right operand computes over the extended reals; and a product of real matrices is real. -/
import proofs.«406782_j35519379538031_1_alg».proof.Proof.Spec
import proofs.«406782_j35519379538031_1_alg».proof.Proof.Math.BN
import proofs.«406782_j35519379538031_1_alg».proof.ReferenceIdeal
import Idealize.ShloMosaic.PureOps.Ideal.Laws
import Idealize.ShloMosaic.Lib.ValueIdx

noncomputable section

open scoped BigOperators

namespace Cert.Bridge

open Idealize.ShloMosaic Idealize.ShloMosaic.ValueIdx
open Cert.ReferenceIdeal

variable [Cert.ReferenceIdeal.Facts]

/-- The left operand's row coordinate is the result's row coordinate. -/
theorem lhs_mm_0 (i : S40000x256.Idx) (q : dot_S40000x256_S256x256_S40000x256_1_0_0_1_n_n.contr.Idx) :
    (dot_S40000x256_S256x256_S40000x256_1_0_0_1_n_n.lhsIdx i q 0).val = (i 0).val := by
  unfold DotDims.lhsIdx
  rw [dif_neg (show ¬(0 : Fin S40000x256.rank) ∈ dot_S40000x256_S256x256_S40000x256_1_0_0_1_n_n.lhsBatch from (by decide : ¬(0 : Fin 2) ∈ ([] : List (Fin 2)))),
    dif_pos (show (0 : Fin S40000x256.rank) ∈ dot_S40000x256_S256x256_S40000x256_1_0_0_1_n_n.lhsNonContracting from (by decide : (0 : Fin 2) ∈ ([0] : List (Fin 2))))]
  rfl

/-- The left operand's column coordinate is the summation index. -/
theorem lhs_mm_1 (i : S40000x256.Idx) (q : dot_S40000x256_S256x256_S40000x256_1_0_0_1_n_n.contr.Idx) :
    (dot_S40000x256_S256x256_S40000x256_1_0_0_1_n_n.lhsIdx i q 1).val = (q ⟨0, Nat.one_pos⟩).val :=
  dot_S40000x256_S256x256_S40000x256_1_0_0_1_n_n.lhsIdx_val_of_single rfl i q

/-- The right operand's row coordinate is the summation index. -/
theorem rhs_mm_0 (i : S40000x256.Idx) (q : dot_S40000x256_S256x256_S40000x256_1_0_0_1_n_n.contr.Idx) :
    (dot_S40000x256_S256x256_S40000x256_1_0_0_1_n_n.rhsIdx i q 0).val = (q ⟨0, Nat.one_pos⟩).val :=
  dot_S40000x256_S256x256_S40000x256_1_0_0_1_n_n.rhsIdx_val_of_single rfl i q

/-- The right operand's column coordinate is the result's column coordinate. -/
theorem rhs_mm_1 (i : S40000x256.Idx) (q : dot_S40000x256_S256x256_S40000x256_1_0_0_1_n_n.contr.Idx) :
    (dot_S40000x256_S256x256_S40000x256_1_0_0_1_n_n.rhsIdx i q 1).val = (i 1).val := by
  unfold DotDims.rhsIdx
  rw [dif_neg (show ¬(1 : Fin S256x256.rank) ∈ dot_S40000x256_S256x256_S40000x256_1_0_0_1_n_n.rhsBatch from (by decide : ¬(1 : Fin 2) ∈ ([] : List (Fin 2)))),
    dif_pos (show (1 : Fin S256x256.rank) ∈ dot_S40000x256_S256x256_S40000x256_1_0_0_1_n_n.rhsNonContracting from (by decide : (1 : Fin 2) ∈ ([1] : List (Fin 2))))]
  rfl

/-- The host's contraction at the extended reals is the matrix product. -/
theorem mm_eq_dot (x : Cert.Spec.SNH.Idx → EReal) (w : Cert.Spec.SHH.Idx → EReal) :
    Cert.Spec.mm x w
      = Host.dotGeneral (F := Ideal) (φ₁ := .f32) (φ₂ := .f32)
          dot_S40000x256_S256x256_S40000x256_1_0_0_1_n_n none x w := by
  funext i
  symm
  simp only [Host.dotGeneral]
  rw [Ideal.dotGeneral_apply, ← Equiv.sum_comp (contrEquiv1 dot_S40000x256_S256x256_S40000x256_1_0_0_1_n_n 256 rfl rfl).symm]
  unfold Cert.Spec.mm
  refine Finset.sum_congr rfl fun k _ => ?_
  have hk := contrEquiv1_symm_val dot_S40000x256_S256x256_S40000x256_1_0_0_1_n_n 256 rfl rfl k
  have el : dot_S40000x256_S256x256_S40000x256_1_0_0_1_n_n.lhsIdx i ((contrEquiv1 dot_S40000x256_S256x256_S40000x256_1_0_0_1_n_n 256 rfl rfl).symm k) = ix2 (i 0) k := funext fun a => Fin.ext (by
    match a with
    | ⟨0, _⟩ => exact lhs_mm_0 _ _
    | ⟨1, _⟩ => exact (lhs_mm_1 _ _).trans hk)
  have er : dot_S40000x256_S256x256_S40000x256_1_0_0_1_n_n.rhsIdx i ((contrEquiv1 dot_S40000x256_S256x256_S40000x256_1_0_0_1_n_n 256 rfl rfl).symm k) = ix2 k (i 1) := funext fun a => Fin.ext (by
    match a with
    | ⟨0, _⟩ => exact (rhs_mm_0 _ _).trans hk
    | ⟨1, _⟩ => exact rhs_mm_1 _ _)
  rw [el, er]
  rfl

/-- A product of real matrices is real. -/
theorem mm_real (x : Cert.Spec.SNH.Idx → EReal) (w : Cert.Spec.SHH.Idx → EReal)
    (hx : ∀ i, ∃ r : ℝ, x i = (r : EReal)) (hw : ∀ i, ∃ r : ℝ, w i = (r : EReal)) :
    ∀ i, ∃ r : ℝ, Cert.Spec.mm x w i = (r : EReal) := by
  intro i
  choose xr hxr using hx
  choose wr hwr using hw
  refine ⟨∑ k : Fin 256, xr (ix2 (i 0) k) * wr (ix2 k (i 1)), ?_⟩
  unfold Cert.Spec.mm
  rw [← Cert.Math.sum_mul_coe]
  exact Finset.sum_congr rfl fun k _ => by rw [hxr, hwr]

end Cert.Bridge

end
-- ==== Proof.Math.Consts.lean ====
/- The three float constants the batch-norm step spells, read as extended reals: the row count
   40000, the unit 1, and the small positive number added to the variance under the square root. -/
import Idealize.ShloMosaic.PureOps.Ideal

noncomputable section

namespace Cert.Math

open Idealize.ShloMosaic

/-- The pattern `0x471C4000` is `(2^23 + 1851392) · 2^(142 - 150) = 10240000 / 256 = 40000`. -/
theorem c40000 : Ideal.ofBits .f32 0x471C4000#32 = ((40000 : ℝ) : EReal) := by
  simp [Ideal.ofBits, Ideal.ieee, -EReal.coe_mul]; norm_num

/-- The pattern `0x3F800000` is `2^23 · 2^(127 - 150) = 1`. -/
theorem c_one : Ideal.ofBits .f32 0x3F800000#32 = ((1 : ℝ) : EReal) := by
  simp [Ideal.ofBits, Ideal.ieee, -EReal.coe_mul]; norm_num

/-- The pattern `0x3727C5AC` is `(2^23 + 2606508) · 2^(110 - 150)`, a positive real (close to `10⁻⁵`). -/
theorem eps_pos : ∃ e : ℝ, 0 < e ∧ Ideal.ofBits .f32 0x3727C5AC#32 = (e : EReal) := by
  refine ⟨((2 ^ 23 + 2606508 : ℕ) : ℝ) * (2 : ℝ) ^ ((110 : ℤ) - 127 - 23), by positivity, ?_⟩
  simp [Ideal.ofBits, Ideal.ieee, -EReal.coe_mul]

end Cert.Math

end
-- ==== Proof.Bridge.BN.lean ====
/- The batch-norm step written two ways over the extended reals, at whole arrays.
   One way takes the column sums and the column sums of squares of a real array, forms per column the mean
   `m = s / n`, the variance `q / n − m²`, the multiplier `g · (variance + ε)^(-1/2)` and the offset
   `be − m · multiplier`, and applies `max (a · multiplier + offset) 0` entrywise. The other way centres the array
   by its column means, takes the mean squared deviation as the variance, and applies
   `max ((a − m) · (variance + ε)^(-1/2) · g + be) 0`. Read at an entry (row, column), each is one of the two
   sides of the one-column identity, so the arrays are equal; and the common value is real. -/
import proofs.«406782_j35519379538031_1_alg».proof.Proof.Spec
import proofs.«406782_j35519379538031_1_alg».proof.Proof.Math.BN
import proofs.«406782_j35519379538031_1_alg».proof.Proof.Math.Consts
import proofs.«406782_j35519379538031_1_alg».proof.Proof.KI.Host
import proofs.«406782_j35519379538031_1_alg».proof.Proof.Ref.Stages
import Idealize.ShloMosaic.Lib.IdealHost
import Idealize.ShloMosaic.Lib.KernelVsHost

noncomputable section

open scoped BigOperators

namespace Cert.Bridge

open Idealize.ShloMosaic Idealize.ShloMosaic.ValueIdx
open Cert.KernelIdeal.Hand (kMean kScale kShift)
open Cert.ReferenceIdeal.Hand (rBN)

/-! ## Single operations read at an entry -/

/-- A vector of 256 entries laid along the one row of a 1 by 256 matrix reads the vector. -/
theorem bcRow_apply {α : Type} (h : (⟨1, ![256]⟩ : Shape).BroadcastsInDim ⟨2, ![1, 256]⟩ ![1])
    (y : (⟨1, ![256]⟩ : Shape).Idx → α) (r : Fin 1) (c : Fin 256) :
    broadcastInDim ⟨2, ![1, 256]⟩ ![1] h y (ix2 r c) = y (ix1 c) := by
  refine broadcastInDim_apply ![1] h y (ix2 r c) (ix1 c) ?_
  intro a
  match a with
  | ⟨0, _⟩ => rfl

/-- The sum over the 40000 rows from an initial value, read at column `c`. -/
theorem colReduce_apply (h' : (⟨2, ![40000, 256]⟩ : Shape).ReducesTo [0] ⟨1, ![256]⟩)
    (hu : 0 < (⟨0, ![]⟩ : Shape).numel) (x : (⟨2, ![40000, 256]⟩ : Shape).Idx → EReal)
    (init : (⟨0, ![]⟩ : Shape).Idx → EReal) (c : Fin 256) :
    Host.reduceAdd (F := Ideal) (φ := .f32) x init h' hu (ix1 c) = init ix0 + ∑ m : Fin 40000, x (ix2 m c) := by
  show Ideal.hostReduceAdd h' x (init (Shape.Idx.first hu)) (ix1 c) = _
  rw [Ideal.hostReduceAdd_single h' (by decide) x _ (ix1 c)]
  have e0 : init (Shape.Idx.first hu) = init ix0 := congrArg init (eq_ix0 _)
  rw [e0]
  refine congrArg (init ix0 + ·) (Finset.sum_congr rfl fun m _ => congrArg x (funext fun a => Fin.ext ?_))
  match a with
  | ⟨0, _⟩ => rfl
  | ⟨1, _⟩ => rfl

/-- The reciprocal square root, entry by entry. -/
theorem hostRsqrt_apply {s : Shape} {φ : FTy} (x : FVec Ideal s φ) (i : s.Idx) :
    Host.rsqrt x i = Ideal.rsqrt (x i) := rfl

/-- A constant word array reads its word. -/
theorem constantI_apply {s : Shape} {w : Nat} (b : BitVec w) (i : s.Idx) : constantI s w b i = b := rfl

/-- The positive part of a column-wise affine map, read at (row, column). -/
theorem affRelu_apply (x : Cert.Spec.SNH.Idx → EReal) (sc sh : Cert.Spec.S1H.Idx → EReal) (n : Fin 40000)
    (c : Fin 256) :
    Cert.Spec.affRelu x sc sh (ix2 n c) = max (x (ix2 n c) * sc (ix2 0 c) + sh (ix2 0 c)) 0 := rfl

theorem colSum_apply (x : Cert.Spec.SNH.Idx → EReal) (c : Fin 256) :
    Cert.Spec.colSum x (ix2 0 c) = ∑ m : Fin 40000, x (ix2 m c) := rfl

theorem colSumSq_apply (x : Cert.Spec.SNH.Idx → EReal) (c : Fin 256) :
    Cert.Spec.colSumSq x (ix2 0 c) = ∑ m : Fin 40000, x (ix2 m c) * x (ix2 m c) := rfl

/-! ## The coefficients from the sums, read at a column -/

theorem kMean_apply (s : Cert.Spec.S1H.Idx → EReal) (c : Fin 256) :
    kMean (F := Ideal) s (ix2 0 c) = Ideal.div (s (ix2 0 c)) (Ideal.ofBits .f32 0x471C4000#32) := rfl

theorem kScale_apply (s q : Cert.Spec.S1H.Idx → EReal) (g : (⟨1, ![256]⟩ : Shape).Idx → EReal) (c : Fin 256) :
    kScale (F := Ideal) s q g (ix2 0 c)
      = g (ix1 c) * Ideal.rsqrt (Ideal.div (q (ix2 0 c)) (Ideal.ofBits .f32 0x471C4000#32)
          - Ideal.div (s (ix2 0 c)) (Ideal.ofBits .f32 0x471C4000#32)
            * Ideal.div (s (ix2 0 c)) (Ideal.ofBits .f32 0x471C4000#32)
          + Ideal.ofBits .f32 0x3727C5AC#32) := by
  unfold kScale
  rw [mulf_apply, bcRow_apply]
  rfl

theorem kShift_apply (s q : Cert.Spec.S1H.Idx → EReal) (g be : (⟨1, ![256]⟩ : Shape).Idx → EReal) (c : Fin 256) :
    kShift (F := Ideal) s q g be (ix2 0 c)
      = be (ix1 c) - Ideal.div (s (ix2 0 c)) (Ideal.ofBits .f32 0x471C4000#32) * kScale (F := Ideal) s q g (ix2 0 c) := by
  unfold kShift
  rw [subf_apply, bcRow_apply]
  rfl

/-- An array less a one-row matrix copied down the rows, read at (row, column). -/
theorem dev_apply (h : (⟨2, ![1, 256]⟩ : Shape).BroadcastsInDim ⟨2, ![40000, 256]⟩ ![0, 1])
    (a : (⟨2, ![40000, 256]⟩ : Shape).Idx → EReal) (y : (⟨2, ![1, 256]⟩ : Shape).Idx → EReal) (m : Fin 40000)
    (c : Fin 256) :
    subf (F := Ideal) (φ := .f32) a (broadcastInDim ⟨2, ![40000, 256]⟩ ![0, 1] h y) (ix2 m c)
      = a (ix2 m c) - y (ix2 0 c) := by
  rw [subf_apply, broadcastInDim_oneRow_apply]

/-- The column sums of the squared deviations from a row `y`, from an initial value. -/
theorem sqdev_apply (h : (⟨2, ![1, 256]⟩ : Shape).BroadcastsInDim ⟨2, ![40000, 256]⟩ ![0, 1])
    (h' : (⟨2, ![40000, 256]⟩ : Shape).ReducesTo [0] ⟨1, ![256]⟩) (hu : 0 < (⟨0, ![]⟩ : Shape).numel)
    (a : (⟨2, ![40000, 256]⟩ : Shape).Idx → EReal) (y : (⟨2, ![1, 256]⟩ : Shape).Idx → EReal)
    (init : (⟨0, ![]⟩ : Shape).Idx → EReal) (c : Fin 256) :
    Host.reduceAdd (F := Ideal) (φ := .f32)
        (mulf (F := Ideal) (φ := .f32)
          (subf (F := Ideal) (φ := .f32) a (broadcastInDim ⟨2, ![40000, 256]⟩ ![0, 1] h y))
          (subf (F := Ideal) (φ := .f32) a (broadcastInDim ⟨2, ![40000, 256]⟩ ![0, 1] h y)))
        init h' hu (ix1 c)
      = init ix0 + ∑ m : Fin 40000, (a (ix2 m c) - y (ix2 0 c)) * (a (ix2 m c) - y (ix2 0 c)) := by
  rw [colReduce_apply]
  refine congrArg (init ix0 + ·) (Finset.sum_congr rfl fun m _ => ?_)
  rw [mulf_apply, dev_apply]

/-! ## The guard of the variance's divisor -/

/-- The word zero read as a signed integer is the number zero. -/
theorem sitofp_zero : FloatOps.sitofp (F := Ideal) .f32 (0#32 : BitVec 32) = (0 : EReal) := by
  show (((0#32 : BitVec 32).toInt : ℝ) : EReal) = 0
  simp

/-- The divisor `40000 − 0` is positive, so the comparison that guards the quotient answers the bit one. -/
theorem guard_true :
    FloatOps.cmpf (F := Ideal) (φ := .f32) .ogt
      (Ideal.ofBits .f32 0x471C4000#32 - FloatOps.sitofp (F := Ideal) .f32 (0#32 : BitVec 32))
      (Ideal.ofBits .f32 0x00000000#32) = 1#1 := by
  rw [sitofp_zero, Cert.Math.c40000, Ideal.ofBits_zero_f32, sub_zero]
  show Ideal.cmp .ogt _ _ = 1#1
  unfold Ideal.cmp
  have h : (0 : EReal) < ((40000 : ℝ) : EReal) := EReal.coe_pos.mpr (by norm_num)
  simp only [decide_eq_true h]
  rfl

variable [Cert.ReferenceIdeal.Facts]

/-! ## The centred form read at (row, column) -/

theorem rBN_apply (a : Cert.Spec.SNH.Idx → EReal) (g be : (⟨1, ![256]⟩ : Shape).Idx → EReal) (n : Fin 40000)
    (c : Fin 256) :
    rBN (F := Ideal) a g be (ix2 n c)
      = max (((a (ix2 n c)
              - Ideal.div (Ideal.ofBits .f32 0x00000000#32 + ∑ m : Fin 40000, a (ix2 m c))
                  (Ideal.ofBits .f32 0x471C4000#32))
            * Ideal.rsqrt
                (Ideal.div
                    (Ideal.ofBits .f32 0x00000000#32
                      + ∑ m : Fin 40000,
                          (a (ix2 m c)
                            - Ideal.div (Ideal.ofBits .f32 0x00000000#32 + ∑ m : Fin 40000, a (ix2 m c))
                                (Ideal.ofBits .f32 0x471C4000#32))
                          * (a (ix2 m c)
                            - Ideal.div (Ideal.ofBits .f32 0x00000000#32 + ∑ m : Fin 40000, a (ix2 m c))
                                (Ideal.ofBits .f32 0x471C4000#32)))
                    (Ideal.ofBits .f32 0x471C4000#32 - 0)
                  + Ideal.ofBits .f32 0x3727C5AC#32))
            * g (ix1 c)
          + be (ix1 c))
          (Ideal.ofBits .f32 0x00000000#32) := by
  unfold rBN
  rw [maximumf_apply, addf_apply, mulf_apply, mulf_apply, dev_apply]
  rw [broadcastInDim_oneRow_apply, broadcastInDim_oneRow_apply, broadcastInDim_oneRow_apply,
    broadcastInDim_scalar_apply, constant_apply]
  rw [bcRow_apply, bcRow_apply, bcRow_apply, bcRow_apply]
  rw [hostDivf_apply, colReduce_apply, broadcastInDim_scalar_apply, constant_apply, constant_apply]
  rw [hostRsqrt_apply, addf_apply, select_apply, broadcastInDim_scalar_apply, cmpf_apply, subf_apply,
    constant_apply, sitofp_apply, constantI_apply, constant_apply, guard_true, select_one]
  rw [hostDivf_apply, sqdev_apply]
  rw [constant_apply, hostDivf_apply, bcRow_apply, colReduce_apply]
  rw [broadcastInDim_scalar_apply, broadcastInDim_scalar_apply, broadcastInDim_scalar_apply, subf_apply]
  rw [constant_apply, constant_apply, constant_apply, sitofp_apply, constantI_apply, sitofp_zero]

/-! ## The two forms agree, and the common value is real -/

theorem bn_bridge (a : Cert.Spec.SNH.Idx → EReal) (g be : (⟨1, ![256]⟩ : Shape).Idx → EReal)
    (ha : ∀ i, ∃ r : ℝ, a i = (r : EReal)) (hg : ∀ i, ∃ r : ℝ, g i = (r : EReal))
    (hbe : ∀ i, ∃ r : ℝ, be i = (r : EReal)) :
    Cert.Spec.affRelu a (kScale (F := Ideal) (Cert.Spec.colSum a) (Cert.Spec.colSumSq a) g)
        (kShift (F := Ideal) (Cert.Spec.colSum a) (Cert.Spec.colSumSq a) g be)
      = rBN (F := Ideal) a g be := by
  funext i
  obtain ⟨n, c, rfl⟩ : ∃ (n : Fin 40000) (c : Fin 256), i = ix2 n c := ⟨i 0, i 1, eq_ix2 i⟩
  choose ar har using ha
  obtain ⟨γ, hγ⟩ := hg (ix1 c)
  obtain ⟨β, hβ⟩ := hbe (ix1 c)
  obtain ⟨e, he, hE⟩ := Cert.Math.eps_pos
  rw [affRelu_apply, kShift_apply, kScale_apply, colSum_apply, colSumSq_apply, rBN_apply]
  rw [Cert.Math.c40000, hE, Ideal.ofBits_zero_f32, hγ, hβ]
  simp only [har]
  exact Cert.Math.bn_col (fun m => ar (ix2 m c)) γ β e he n

theorem bn_real (a : Cert.Spec.SNH.Idx → EReal) (g be : (⟨1, ![256]⟩ : Shape).Idx → EReal)
    (ha : ∀ i, ∃ r : ℝ, a i = (r : EReal)) (hg : ∀ i, ∃ r : ℝ, g i = (r : EReal))
    (hbe : ∀ i, ∃ r : ℝ, be i = (r : EReal)) :
    ∀ i, ∃ r : ℝ, rBN (F := Ideal) a g be i = (r : EReal) := by
  intro i
  obtain ⟨n, c, rfl⟩ : ∃ (n : Fin 40000) (c : Fin 256), i = ix2 n c := ⟨i 0, i 1, eq_ix2 i⟩
  choose ar har using ha
  obtain ⟨γ, hγ⟩ := hg (ix1 c)
  obtain ⟨β, hβ⟩ := hbe (ix1 c)
  obtain ⟨e, he, hE⟩ := Cert.Math.eps_pos
  rw [rBN_apply]
  rw [Cert.Math.c40000, hE, Ideal.ofBits_zero_f32, hγ, hβ]
  simp only [har]
  exact Cert.Math.bn_col_real (fun m => ar (ix2 m c)) γ β e he n

end Cert.Bridge

end
-- ==== Proof.Bridge.Graph.lean ====
/-
  The graph part of the two programs is one computation.  Both append one self-loop per node to the edge sources and to
  the edge destinations; both count the edges arriving at each node, take the reciprocal square root of the count, weigh
  each edge by the product of the two factors at its ends (a negative node number counting from the end of the table),
  scale the source's feature row by the weight, add the scaled rows into a table of zeros at the destinations, and add
  the bias to every row.  The two texts spell the same operations in the same order with the same dimension numbers; they
  differ only in which proofs of the shape side conditions they cite, and any two proofs of one statement are equal.
-/
import proofs.«406782_j35519379538031_1_alg».proof.Proof.KI.Host
import proofs.«406782_j35519379538031_1_alg».proof.Proof.Ref.Stages

noncomputable section

namespace Cert.Bridge

open Idealize.ShloMosaic
open Cert.KernelIdeal.Hand (kSrc kDst kWrap kDeg kDinv kNormOf kNorm kAgg)
open Cert.ReferenceIdeal.Hand (rSrc rDst rAgg)

section Graph
variable {F : FTy → Type} [FloatOps F] [Cert.ReferenceIdeal.Facts]

/-- The edge sources with the self-loops appended: one list in both programs. -/
theorem src_eq (ei : (⟨Cert.ReferenceIdeal.S2x640000, .i32⟩ : BufTy).Contents (Elt F)) :
    kSrc (F := F) ei = rSrc (F := F) ei := rfl

/-- The edge destinations with the self-loops appended: one list in both programs. -/
theorem dst_eq (ei : (⟨Cert.ReferenceIdeal.S2x640000, .i32⟩ : BufTy).Contents (Elt F)) :
    kDst (F := F) ei = rDst (F := F) ei := rfl

/-- The neighbourhood sum over any edge lists: the first program's, given the edge weights it computes from those lists,
    is the second program's. -/
theorem agg_eq_of (h : (⟨Cert.ReferenceIdeal.S40000x256, .f32⟩ : BufTy).Contents (Elt F))
    (src dst : (⟨Cert.ReferenceIdeal.S680000, .i32⟩ : BufTy).Contents (Elt F))
    (b : (⟨Cert.ReferenceIdeal.S256, .f32⟩ : BufTy).Contents (Elt F)) :
    kAgg (F := F) h src dst (kNormOf src dst) b = rAgg (F := F) h src dst b := rfl

/-- THE NEIGHBOURHOOD SUM: the first program's, fed its own edge lists and weights, is the second program's on its own. -/
theorem agg_eq (h : (⟨Cert.ReferenceIdeal.S40000x256, .f32⟩ : BufTy).Contents (Elt F))
    (ei : (⟨Cert.ReferenceIdeal.S2x640000, .i32⟩ : BufTy).Contents (Elt F))
    (b : (⟨Cert.ReferenceIdeal.S256, .f32⟩ : BufTy).Contents (Elt F)) :
    kAgg (F := F) h (kSrc ei) (kDst ei) (kNorm ei) b = rAgg (F := F) h (rSrc ei) (rDst ei) b := by
  rw [← src_eq, ← dst_eq]
  exact agg_eq_of h (kSrc ei) (kDst ei) b

end Graph

end Cert.Bridge

end
-- ==== Proof.Math.Scatter.lean ====
/-
  Reading an accumulating scatter at one index.  A scatter whose every update carries a single start index
  (one signed word per update row, naming the destination row of the operand) adds each update element to the
  operand element at (start row, same column); an update whose start row is negative or beyond the operand is
  dropped.  Here the landing index of an update is decoded from the dimension numbers, the scatter is rewritten
  as a sum over update rows guarded by "this row's word names the destination row", the result is shown real when
  the operand and the updates are, and a count of all-ones updates is shown to be a natural number that is at
  least one when some update is known to land on the row.
-/
import proofs.«406782_j35519379538031_1_alg».proof.ReferenceIdeal
import proofs.«406782_j35519379538031_1_alg».proof.Proof.Spec

noncomputable section

open scoped BigOperators

namespace Cert.Math

open Idealize.ShloMosaic Idealize.ShloMosaic.ValueIdx

/-! ## The landing index, for any dimension numbers -/

section Generic
variable {s si u : Shape} (d : ScatterDims s si u)

/-- An update lands at operand index i exactly when, on every axis, start plus window coordinate is i's coordinate. -/
theorem resultIdx?_eq_some_iff {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have := h a
      rw [← e']
      simp only
      omega
    · intro e
      congr 1
      funext a
      refine Fin.ext ?_
      have := e a
      simp only
      omega
  · constructor
    · intro e; exact absurd e (by simp)
    · intro e
      exfalso; apply h; intro a
      have := e a; have := (i a).isLt
      omega

end Generic

/-! ## Rank-one index sets -/

/-- A rank-one index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Row scatter of a matrix: one start word per update row, the whole row as the window -/

section Rows
variable {G N H : Nat}

/-- The dimension numbers: operand G by H, one start word per update row (indices N by 1), updates N by H; the start
    word names the operand row, the update's second axis is the window over the operand's second axis. -/
abbrev rowDims (G N H : Nat) (wf : ScatterDims.WF ⟨2, ![G, H]⟩ ⟨2, ![N, 1]⟩ ⟨2, ![N, H]⟩ [1] [0] [0] 1) :
    ScatterDims ⟨2, ![G, H]⟩ ⟨2, ![N, 1]⟩ ⟨2, ![N, H]⟩ where
  updateWindowDims := [1]
  insertedWindowDims := [0]
  scatterDimsToOperandDims := [0]
  indexVectorDim := 1
  wf := wf

variable (wf : ScatterDims.WF ⟨2, ![G, H]⟩ ⟨2, ![N, 1]⟩ ⟨2, ![N, H]⟩ [1] [0] [0] 1)

/-- On the row axis the start is the update row's word, read signed. -/
theorem rowDims_start0 {w : Nat} (j : (⟨2, ![N, H]⟩ : Shape).Idx) (idx : IVec ⟨2, ![N, 1]⟩ w) :
    (rowDims G N H wf).start j idx 0 = (idx (ix2 (j 0) 0)).toInt := by
  unfold ScatterDims.start
  rw [dif_pos (show (0 : Fin 2) ∈ (rowDims G N H wf).scatterDimsToOperandDims from List.mem_singleton.mpr rfl)]
  have hsi : (rowDims G N H wf).siIdx j ⟨List.idxOf (0 : Fin 2) (rowDims G N H wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the start is zero. -/
theorem rowDims_start1 {w : Nat} (j : (⟨2, ![N, H]⟩ : Shape).Idx) (idx : IVec ⟨2, ![N, 1]⟩ w) :
    (rowDims G N H wf).start j idx 1 = 0 := by
  unfold ScatterDims.start
  rw [dif_neg (show (1 : Fin 2) ∉ (rowDims G N H wf).scatterDimsToOperandDims by
    show (1 : Fin 2) ∉ [(0 : Fin 2)]; decide)]

/-- The row axis is inserted: no window coordinate there. -/
theorem rowDims_window0 (j : (⟨2, ![N, H]⟩ : Shape).Idx) : (rowDims G N H wf).window j 0 = 0 := by
  unfold ScatterDims.window
  rw [dif_neg (show (0 : Fin 2) ∉ (rowDims G N H wf).sKept by
    show (0 : Fin 2) ∉ (List.finRange 2).filter (fun a => a ∉ [(0 : Fin 2)]); decide)]

/-- The window coordinate on the column axis is the update's column. -/
theorem rowDims_window1 (j : (⟨2, ![N, H]⟩ : Shape).Idx) : (rowDims G N H wf).window j 1 = (j 1).val := by
  unfold ScatterDims.window
  rw [dif_pos (show (1 : Fin 2) ∈ (rowDims G N H wf).sKept by
    show (1 : Fin 2) ∈ (List.finRange 2).filter (fun a => a ∉ [(0 : Fin 2)]); decide)]
  rfl

/-- THE DECODING. Update (n, c') lands at operand (g, c) exactly when the columns agree and row n's start word, read
    signed, is g (so a negative word, or one at or beyond G, lands nowhere). -/
theorem rowDims_resultIdx? {w : Nat} (idx : IVec ⟨2, ![N, 1]⟩ w) (n : Fin N) (c' : Fin H) (g : Fin G) (c : Fin H) :
    (rowDims G N H wf).resultIdx? (ix2 n c') idx = some (ix2 g c) ↔ c' = c ∧ (idx (ix2 n 0)).toInt = (g.val : ℤ) := by
  rw [resultIdx?_eq_some_iff]
  constructor
  · intro h
    have h0 := h 0
    have h1 := h 1
    rw [rowDims_start0, rowDims_window0] at h0
    rw [rowDims_start1, rowDims_window1] at h1
    have h0' : (idx (ix2 n 0)).toInt + ((0 : ℕ) : ℤ) = (g.val : ℤ) := h0
    have h1' : (0 : ℤ) + ((c'.val : ℕ) : ℤ) = (c.val : ℤ) := h1
    refine ⟨Fin.ext ?_, ?_⟩
    · omega
    · omega
  · rintro ⟨rfl, h0⟩ a
    match a with
    | ⟨0, _⟩ =>
      show (rowDims G N H wf).start (ix2 n c') idx 0 + ((rowDims G N H wf).window (ix2 n c') 0 : ℤ) = (g.val : ℤ)
      rw [rowDims_start0, rowDims_window0]
      show (idx (ix2 n 0)).toInt + ((0 : ℕ) : ℤ) = (g.val : ℤ)
      omega
    | ⟨1, _⟩ =>
      show (rowDims G N H wf).start (ix2 n c') idx 1 + ((rowDims G N H wf).window (ix2 n c') 1 : ℤ) = (c'.val : ℤ)
      rw [rowDims_start1, rowDims_window1]
      show (0 : ℤ) + ((c'.val : ℕ) : ℤ) = (c'.val : ℤ)
      omega

/-- THE SCATTER INTO ZEROS, READ AT (g, c): the sum over the update rows whose word is g of the update's entry in column c. -/
theorem rowDims_scatter {w : Nat} (idx : IVec ⟨2, ![N, 1]⟩ w) (h : (⟨2, ![N, H]⟩ : Shape).Idx → EReal) :
    Ideal.hostScatterAdd (rowDims G N H wf) (fun _ => 0) idx h
      = fun gj => ∑ n : Fin N, (if (idx (ix2 n 0)).toInt = ((gj 0).val : ℤ) then h (ix2 n (gj 1)) else 0) := by
  funext gj
  obtain ⟨g, c, rfl⟩ : ∃ g c, gj = ix2 g c := ⟨gj 0, gj 1, eq_ix2 gj⟩
  show _ = ∑ n : Fin N, (if (idx (ix2 n 0)).toInt = (g.val : ℤ) then h (ix2 n c) else 0)
  unfold Ideal.hostScatterAdd
  rw [zero_add, Finset.sum_filter, sum_idx2]
  refine Finset.sum_congr rfl (fun n _ => ?_)
  have hc : ∀ b : Fin H,
      (if (rowDims G N H wf).resultIdx? (ix2 n b) idx = some (ix2 g c) then h (ix2 n b) else 0)
        = if b = c then (if (idx (ix2 n 0)).toInt = (g.val : ℤ) then h (ix2 n c) else 0) else 0 := by
    intro b
    have hiff := rowDims_resultIdx? wf idx n b g c
    by_cases hb : b = c
    · subst hb
      rw [if_pos rfl]
      exact if_congr (hiff.trans (and_iff_right rfl)) rfl rfl
    · rw [if_neg hb, if_neg (fun e => hb (hiff.mp e).1)]
  rw [Finset.sum_congr rfl (fun b _ => hc b), Finset.sum_ite_eq' Finset.univ c, if_pos (Finset.mem_univ _)]

end Rows

/-! ## Scatter of a vector: one start word per update, no window -/

section Vec
variable {G N : Nat}

/-- The dimension numbers: operand of length G, one start word per update (indices N by 1), N updates; the start word
    names the operand position. -/
abbrev vecDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable (wf : ScatterDims.WF ⟨1, ![G]⟩ ⟨2, ![N, 1]⟩ ⟨1, ![N]⟩ [] [0] [0] 1)

/-- The start is the update's word, read signed. -/
theorem vecDims_start0 {w : Nat} (j : (⟨1, ![N]⟩ : Shape).Idx) (idx : IVec ⟨2, ![N, 1]⟩ w) :
    (vecDims G N wf).start j idx 0 = (idx (ix2 (j 0) 0)).toInt := by
  unfold ScatterDims.start
  rw [dif_pos (show (0 : Fin 1) ∈ (vecDims G N wf).scatterDimsToOperandDims from List.mem_singleton.mpr rfl)]
  have hsi : (vecDims G N wf).siIdx j ⟨List.idxOf (0 : Fin 1) (vecDims G N wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The one operand axis is inserted: no window coordinate. -/
theorem vecDims_window0 (j : (⟨1, ![N]⟩ : Shape).Idx) : (vecDims G N wf).window j 0 = 0 := by
  unfold ScatterDims.window
  rw [dif_neg (show (0 : Fin 1) ∉ (vecDims G N wf).sKept by
    show (0 : Fin 1) ∉ (List.finRange 1).filter (fun a => a ∉ [(0 : Fin 1)]); decide)]

/-- THE DECODING. Update n lands at operand position g exactly when its start word, read signed, is g. -/
theorem vecDims_resultIdx? {w : Nat} (idx : IVec ⟨2, ![N, 1]⟩ w) (n : Fin N) (g : Fin G) :
    (vecDims G N wf).resultIdx? (ix1 n) idx = some (ix1 g) ↔ (idx (ix2 n 0)).toInt = (g.val : ℤ) := by
  rw [resultIdx?_eq_some_iff]
  constructor
  · intro h
    have h0 := h 0
    rw [vecDims_start0, vecDims_window0] at h0
    have h0' : (idx (ix2 n 0)).toInt + ((0 : ℕ) : ℤ) = (g.val : ℤ) := h0
    omega
  · intro h0 a
    match a with
    | ⟨0, _⟩ =>
      show (vecDims G N wf).start (ix1 n) idx 0 + ((vecDims G N wf).window (ix1 n) 0 : ℤ) = (g.val : ℤ)
      rw [vecDims_start0, vecDims_window0]
      show (idx (ix2 n 0)).toInt + ((0 : ℕ) : ℤ) = (g.val : ℤ)
      omega

/-- THE SCATTER INTO ZEROS, READ AT g: the sum of the updates whose word is g. -/
theorem vecDims_scatter {w : Nat} (idx : IVec ⟨2, ![N, 1]⟩ w) (u : (⟨1, ![N]⟩ : Shape).Idx → EReal) :
    Ideal.hostScatterAdd (vecDims G N wf) (fun _ => 0) idx u
      = fun g => ∑ n : Fin N, (if (idx (ix2 n 0)).toInt = ((g 0).val : ℤ) then u (ix1 n) else 0) := by
  funext gi
  obtain ⟨g, rfl⟩ : ∃ g, gi = ix1 g := ⟨gi 0, eq_ix1 gi⟩
  show _ = ∑ n : Fin N, (if (idx (ix2 n 0)).toInt = (g.val : ℤ) then u (ix1 n) else 0)
  unfold Ideal.hostScatterAdd
  rw [zero_add, Finset.sum_filter, sum_idx1]
  refine Finset.sum_congr rfl (fun n _ => ?_)
  exact if_congr (vecDims_resultIdx? wf idx n g) rfl rfl

end Vec

/-! ## A scatter of reals into reals is real -/

/-- A finite sum of reals, taken among the extended reals, is a real. -/
theorem exists_real_sum {ι : Type*} (S : Finset ι) (f : ι → EReal) (hf : ∀ j, ∃ r : ℝ, f j = r) :
    ∃ r : ℝ, ∑ j ∈ S, f j = r := by
  classical
  induction S using Finset.induction_on with
  | empty => exact ⟨0, by simp⟩
  | insert a S ha ih =>
    obtain ⟨r, hr⟩ := ih
    obtain ⟨q, hq⟩ := hf a
    exact ⟨q + r, by rw [Finset.sum_insert ha, hr, hq, EReal.coe_add]⟩

/-- Whatever the dimension numbers and the start words: if every operand element and every update is real, so is every
    element of the accumulating scatter. -/
theorem hostScatterAdd_real {s si su : Shape} (d : ScatterDims s si su) {w : Nat} (x : s.Idx → EReal) (idx : IVec si w)
    (upd : su.Idx → EReal) (hx : ∀ i, ∃ r : ℝ, x i = r) (hu : ∀ j, ∃ r : ℝ, upd j = r) :
    ∀ i, ∃ r : ℝ, Ideal.hostScatterAdd d x idx upd i = r := by
  intro i
  unfold Ideal.hostScatterAdd
  obtain ⟨a, ha⟩ := hx i
  obtain ⟨b, hb⟩ := exists_real_sum (Finset.univ.filter (fun j => d.resultIdx? j idx = some i)) upd hu
  exact ⟨a + b, by rw [ha, hb, EReal.coe_add]⟩

/-! ## A count of landing updates -/

/-- A scatter of ones into zeros counts, at each position, the updates that land there: a natural number, and at least
    one when some update is known to land there. -/
theorem hostScatterAdd_ones_count {s si su : Shape} (d : ScatterDims s si su) {w : Nat} (idx : IVec si w) (i : s.Idx)
    (j₀ : su.Idx) (hj₀ : d.resultIdx? j₀ idx = some i) :
    ∃ k : ℕ, 1 ≤ k ∧ Ideal.hostScatterAdd d (fun _ => 0) idx (fun _ => 1) i = ((k : ℝ) : EReal) := by
  refine ⟨(Finset.univ.filter (fun j => d.resultIdx? j idx = some i)).card, ?_, ?_⟩
  · exact Finset.card_pos.mpr ⟨j₀, Finset.mem_filter.mpr ⟨Finset.mem_univ _, hj₀⟩⟩
  · unfold Ideal.hostScatterAdd
    rw [zero_add, Finset.sum_const, nsmul_one, EReal.coe_natCast]

/-! ## The four scatters of the reference program -/

section Concrete
variable [Cert.ReferenceIdeal.Facts]

open Cert.ReferenceIdeal (S64x256 S40000x1 S40000x256 S64 S40000 S680000x1 S680000 S680000x256)

/-- Per-graph sums of node rows: operand 64 by 256, one graph word per node, updates 40000 by 256. -/
abbrev dPool : ScatterDims S64x256 S40000x1 S40000x256 := Cert.ReferenceIdeal.scatter_S64x256_S40000x1_S40000x256_1_0_0_1
/-- Per-graph node counts: operand of length 64, one graph word per node, 40000 updates. -/
abbrev dCnt : ScatterDims S64 S40000x1 S40000 := Cert.ReferenceIdeal.scatter_S64_S40000x1_S40000_n_0_0_1
/-- Per-node sums of edge rows: operand 40000 by 256, one destination word per edge, updates 680000 by 256. -/
abbrev dAgg : ScatterDims S40000x256 S680000x1 S680000x256 := Cert.ReferenceIdeal.scatter_S40000x256_S680000x1_S680000x256_1_0_0_1
/-- Per-node in-degrees: operand of length 40000, one destination word per edge, 680000 updates. -/
abbrev dDeg : ScatterDims S40000 S680000x1 S680000 := Cert.ReferenceIdeal.scatter_S40000_S680000x1_S680000_n_0_0_1

theorem dPool_eq : dPool = rowDims 64 40000 256 Cert.ReferenceIdeal.Facts₀.scatter_S64x256_S40000x1_S40000x256_1_0_0_1_wf := rfl
theorem dCnt_eq : dCnt = vecDims 64 40000 Cert.ReferenceIdeal.Facts₀.scatter_S64_S40000x1_S40000_n_0_0_1_wf := rfl
theorem dAgg_eq : dAgg = rowDims 40000 680000 256 Cert.ReferenceIdeal.Facts₀.scatter_S40000x256_S680000x1_S680000x256_1_0_0_1_wf := rfl
theorem dDeg_eq : dDeg = vecDims 40000 680000 Cert.ReferenceIdeal.Facts₀.scatter_S40000_S680000x1_S680000_n_0_0_1_wf := rfl

/-- Node n's row entry in column c' lands at (g, c) exactly when c' = c and node n's graph word, read as a signed integer,
    is g; a negative word or one at or beyond 64 lands nowhere. -/
theorem dPool_resultIdx? (idx : IVec S40000x1 32) (n : Fin 40000) (c' : Fin 256) (g : Fin 64) (c : Fin 256) :
    dPool.resultIdx? (ix2 n c') idx = some (ix2 g c) ↔ c' = c ∧ (idx (ix2 n 0)).toInt = (g.val : ℤ) :=
  rowDims_resultIdx? _ idx n c' g c

/-- Node n's unit lands at graph g exactly when node n's graph word, read as a signed integer, is g. -/
theorem dCnt_resultIdx? (idx : IVec S40000x1 32) (n : Fin 40000) (g : Fin 64) :
    dCnt.resultIdx? (ix1 n) idx = some (ix1 g) ↔ (idx (ix2 n 0)).toInt = (g.val : ℤ) :=
  vecDims_resultIdx? _ idx n g

/-- Edge e's row entry in column c' lands at (i, c) exactly when c' = c and edge e's destination word is i. -/
theorem dAgg_resultIdx? (idx : IVec S680000x1 32) (e : Fin 680000) (c' : Fin 256) (i : Fin 40000) (c : Fin 256) :
    dAgg.resultIdx? (ix2 e c') idx = some (ix2 i c) ↔ c' = c ∧ (idx (ix2 e 0)).toInt = (i.val : ℤ) :=
  rowDims_resultIdx? _ idx e c' i c

/-- Edge e's unit lands at node i exactly when edge e's destination word is i. -/
theorem dDeg_resultIdx? (idx : IVec S680000x1 32) (e : Fin 680000) (i : Fin 40000) :
    dDeg.resultIdx? (ix1 e) idx = some (ix1 i) ↔ (idx (ix2 e 0)).toInt = (i.val : ℤ) :=
  vecDims_resultIdx? _ idx e i

/-- The pooled sums: entry (g, c) is the sum over the nodes whose graph word is g of the node's entry in column c. -/
theorem pool_scatter (idx : IVec S40000x1 32) (h : Cert.Spec.SNH.Idx → EReal) :
    Ideal.hostScatterAdd dPool (fun _ => 0) idx h
      = fun gj => ∑ n : Fin 40000, (if (idx (ix2 n 0)).toInt = ((gj 0).val : ℤ) then h (ix2 n (gj 1)) else 0) :=
  rowDims_scatter _ idx h

/-- The pooled counts: entry g is the sum over the nodes whose graph word is g of the node's update. -/
theorem cnt_scatter (idx : IVec S40000x1 32) (u : S40000.Idx → EReal) :
    Ideal.hostScatterAdd dCnt (fun _ => 0) idx u
      = fun g => ∑ n : Fin 40000, (if (idx (ix2 n 0)).toInt = ((g 0).val : ℤ) then u (ix1 n) else 0) :=
  vecDims_scatter _ idx u

/-- The aggregated rows: entry (i, c) is the sum over the edges whose destination word is i of the edge's entry in column c. -/
theorem agg_scatter (idx : IVec S680000x1 32) (h : S680000x256.Idx → EReal) :
    Ideal.hostScatterAdd dAgg (fun _ => 0) idx h
      = fun ic => ∑ e : Fin 680000, (if (idx (ix2 e 0)).toInt = ((ic 0).val : ℤ) then h (ix2 e (ic 1)) else 0) :=
  rowDims_scatter _ idx h

/-- The degrees: entry i is the sum over the edges whose destination word is i of the edge's update. -/
theorem deg_scatter (idx : IVec S680000x1 32) (u : S680000.Idx → EReal) :
    Ideal.hostScatterAdd dDeg (fun _ => 0) idx u
      = fun i => ∑ e : Fin 680000, (if (idx (ix2 e 0)).toInt = ((i 0).val : ℤ) then u (ix1 e) else 0) :=
  vecDims_scatter _ idx u

/-- A word holding a natural number below 2^31 reads, signed, as that number. -/
theorem toInt_ofNat32 (i : ℕ) (hi : i < 2147483648) : (BitVec.ofNat 32 i).toInt = (i : ℤ) := by
  rw [BitVec.toInt_eq_toNat_of_lt (by rw [BitVec.toNat_ofNat]; omega), BitVec.toNat_ofNat]
  omega

/-- THE DEGREE IS AT LEAST ONE. When the last 40000 destination words are 0, 1, …, 39999 in order (one self-loop per
    node), the degree of every node is a natural number that is at least one. -/
theorem deg_pos (idx : IVec S680000x1 32)
    (hself : ∀ (i : ℕ) (hi : i < 40000), idx (ix2 ⟨640000 + i, by omega⟩ 0) = BitVec.ofNat 32 i) (i : Fin 40000) :
    ∃ k : ℕ, 1 ≤ k ∧ Ideal.hostScatterAdd dDeg (fun _ => 0) idx (fun _ => 1) (ix1 i) = ((k : ℝ) : EReal) := by
  refine hostScatterAdd_ones_count dDeg idx (ix1 i) (ix1 ⟨640000 + i.val, by omega⟩) ?_
  rw [dDeg_resultIdx?, hself i.val i.isLt]
  exact toInt_ofNat32 i.val (by omega)

end Concrete

end Cert.Math

end
-- ==== Proof.Bridge.GraphReal.lean ====
/-
  The neighbourhood sum of a real-valued feature table is real-valued, whatever the edge table holds.
  Every node has its own self-loop among the edges, so its in-degree — a count of edges — is a natural number that
  is at least one; the reciprocal square root of such a number is a real; an edge weight, the product of two of them
  read at clamped positions, is a real; a row of the table read at a clamped position is real; so every update of the
  accumulating scatter is a real, the scatter into zeros is real, and adding a real bias keeps it real.
-/
import proofs.«406782_j35519379538031_1_alg».proof.Proof.KI.Host
import proofs.«406782_j35519379538031_1_alg».proof.Proof.Math.Scatter
import Idealize.ShloMosaic.Lib.Pipeline.Value
import Idealize.ShloMosaic.Lib.StableHlo.Predicate
import Idealize.ShloMosaic.Lib.ValueIdx
import Idealize.ShloMosaic.Lib.IdealHost

noncomputable section

namespace Cert.Bridge.GReal

open Cert.KernelIdeal Cert.KernelIdeal.Gen Cert.KernelIdeal.Hand
open Idealize.ShloMosaic Idealize.ShloMosaic.ValueIdx

/-! ## Reals survive a read -/

section Reads

/-- A broadcast reads its operand somewhere: over a real-valued operand it is real-valued. -/
theorem broadcastInDim_real {s t : Shape} (dims : Fin s.rank → Fin t.rank) (h : s.BroadcastsInDim t dims)
    (x : s.Idx → EReal) (hx : ∀ k, ∃ r : ℝ, x k = (r : EReal)) :
    ∀ j, ∃ r : ℝ, broadcastInDim t dims h x j = (r : EReal) := fun _ => hx _

/-- A gather reads its operand somewhere, whatever the start indices: over a real-valued operand it is real-valued. -/
theorem gather_real {s si t : Shape} {w : Nat} (d : GatherDims s si t) (x : s.Idx → EReal) (idx : IVec si w)
    (hx : ∀ k, ∃ r : ℝ, x k = (r : EReal)) :
    ∀ j, ∃ r : ℝ, Host.gather d x idx j = (r : EReal) := fun _ => hx _

end Reads

/-! ## Reals under the elementwise operations -/

section Arith
variable {s : Shape} {φ : FTy}

/-- The elementwise product of two real-valued arrays is real-valued. -/
theorem mulf_real (x y : FVec Ideal s φ) (hx : ∀ i, ∃ r : ℝ, x i = (r : EReal)) (hy : ∀ i, ∃ r : ℝ, y i = (r : EReal)) :
    ∀ i, ∃ r : ℝ, mulf x y i = (r : EReal) := by
  intro i
  obtain ⟨a, ha⟩ := hx i
  obtain ⟨b, hb⟩ := hy i
  exact ⟨a * b, by rw [mulf_apply, ha, hb, EReal.coe_mul]⟩

/-- The elementwise sum of two real-valued arrays is real-valued. -/
theorem addf_real (x y : FVec Ideal s φ) (hx : ∀ i, ∃ r : ℝ, x i = (r : EReal)) (hy : ∀ i, ∃ r : ℝ, y i = (r : EReal)) :
    ∀ i, ∃ r : ℝ, addf x y i = (r : EReal) := by
  intro i
  obtain ⟨a, ha⟩ := hx i
  obtain ⟨b, hb⟩ := hy i
  exact ⟨a + b, by rw [addf_apply, ha, hb, EReal.coe_add]⟩

/-- The reciprocal square root of an array, read at one element. -/
theorem hostRsqrt_apply (x : FVec Ideal s φ) (i : s.Idx) : Host.rsqrt x i = Ideal.rsqrt (x i) := rfl

/-- The accumulating scatter over the extended reals is exact: each element plus the sum of the updates that land on it. -/
theorem hostScatterAdd_eq {si u : Shape} {w : Nat} (d : ScatterDims s si u) (x : FVec Ideal s φ) (idx : IVec si w)
    (upd : FVec Ideal u φ) : Host.scatterAdd d x idx upd = Ideal.hostScatterAdd d x idx upd := rfl

/-- The reciprocal square root of a positive real is a real. -/
theorem rsqrt_real_of_pos (r : ℝ) (hr : 0 < r) : ∃ q : ℝ, Ideal.rsqrt (r : EReal) = (q : EReal) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Arith

/-! ## The self-loops: the appended positions of the destination list -/

section Graph

/-- Position 640000 + i of the destination list holds the node number i. -/
theorem kDst_loop (ei : (⟨S2x640000, .i32⟩ : BufTy).Contents (Elt Ideal)) (i : Fin 40000) :
    kDst (F := Ideal) ei (ix1 (⟨640000 + i.val, by omega⟩ : Fin 680000)) = BitVec.ofNat 32 i.val := by
  unfold kDst
  exact concatenate_pair_apply_right (0 : Fin 1) _ _ concatenates_S640000_S40000_S680000_d0
    (ix1 (⟨640000 + i.val, by omega⟩ : Fin 680000)) rfl rfl (ix1 i)
    (fun b hb => absurd (Subsingleton.elim _ _) hb) (by show i.val + 640000 = 640000 + i.val; omega)

/-- The same position of the destination list laid out as a column. -/
theorem dstCol_loop (ei : (⟨S2x640000, .i32⟩ : BufTy).Contents (Elt Ideal)) (i : Fin 40000) :
    broadcastInDim S680000x1 ![0] bcast_S680000_S680000x1_0 (kDst (F := Ideal) ei)
      (ix2 (⟨640000 + i.val, by omega⟩ : Fin 680000) 0) = BitVec.ofNat 32 i.val := by
  refine (broadcastInDim_apply ![0] bcast_S680000_S680000x1_0 (kDst (F := Ideal) ei)
    (ix2 (⟨640000 + i.val, by omega⟩ : Fin 680000) 0) (ix1 (⟨640000 + i.val, by omega⟩ : Fin 680000)) (fun a => ?_)).trans (kDst_loop ei i)
  match a with
  | ⟨0, _⟩ => rfl

/-! ## The in-degrees, their reciprocal square roots, the edge weights -/

/-- Every node's in-degree is a natural number, at least one: its own self-loop lands on it. -/
theorem kDeg_count (ei : (⟨S2x640000, .i32⟩ : BufTy).Contents (Elt Ideal)) (i : S40000.Idx) :
    ∃ k : ℕ, 1 ≤ k ∧ kDeg (F := Ideal) (kDst ei) i = ((k : ℝ) : EReal) := by
  obtain ⟨a, rfl⟩ : ∃ a, i = ix1 a := ⟨i 0, eq_ix1 i⟩
  have hz : broadcastInDim S40000 ![] bcast_S_S40000 (constant (F := Ideal) S_ .f32 0x00000000#32)
      = fun _ => (0 : EReal) := funext fun _ => Ideal.ofBits_zero_f32
  have ho : broadcastInDim S680000 ![] bcast_S_S680000 (constant (F := Ideal) S_ .f32 0x3F800000#32)
      = fun _ => (1 : EReal) := funext fun _ => Ideal.ofBits_one_f32
  have hland : (Cert.Math.vecDims 40000 680000 scatter_S40000_S680000x1_S680000_n_0_0_1_wf).resultIdx?
      (ix1 (⟨640000 + a.val, by omega⟩ : Fin 680000))
      (broadcastInDim S680000x1 ![0] bcast_S680000_S680000x1_0 (kDst (F := Ideal) ei)) = some (ix1 a) := by
    refine (Cert.Math.vecDims_resultIdx? scatter_S40000_S680000x1_S680000_n_0_0_1_wf _
      (⟨640000 + a.val, by omega⟩ : Fin 680000) a).mpr ?_
    rw [dstCol_loop ei a]
    exact Idealize.ShloMosaic.StableHlo.Predicate.toInt_ofNat_small a.val (by omega)
  obtain ⟨k, hk, he⟩ := Cert.Math.hostScatterAdd_ones_count _ _ (ix1 a) _ hland
  have hd : scatter_S40000_S680000x1_S680000_n_0_0_1
      = Cert.Math.vecDims 40000 680000 scatter_S40000_S680000x1_S680000_n_0_0_1_wf := rfl
  refine ⟨k, hk, ?_⟩
  unfold kDeg
  rw [hostScatterAdd_eq, hz, ho, hd]
  exact he

/-- So its reciprocal square root is a real. -/
theorem kDinv_real (ei : (⟨S2x640000, .i32⟩ : BufTy).Contents (Elt Ideal)) :
    ∀ i, ∃ r : ℝ, kDinv (F := Ideal) (kDst ei) i = (r : EReal) := by
  intro i
  obtain ⟨k, hk, hd⟩ := kDeg_count ei i
  unfold kDinv
  rw [hostRsqrt_apply, hd]
  exact rsqrt_real_of_pos (k : ℝ) (by exact_mod_cast hk)

/-- Every edge weight, a product of two of them read at clamped positions, is a real. -/
theorem kNorm_real (ei : (⟨S2x640000, .i32⟩ : BufTy).Contents (Elt Ideal)) :
    ∀ i, ∃ r : ℝ, kNorm (F := Ideal) ei i = (r : EReal) := by
  unfold kNorm kNormOf
  exact mulf_real _ _ (gather_real _ _ _ (kDinv_real ei)) (gather_real _ _ _ (kDinv_real ei))

end Graph

end Cert.Bridge.GReal

namespace Cert.Bridge

open Cert.KernelIdeal Cert.KernelIdeal.Gen Cert.KernelIdeal.Hand
open Idealize.ShloMosaic Idealize.ShloMosaic.ValueIdx
open Cert.Bridge.GReal

section Graph

/-! ## The neighbourhood sum -/

/-- The reciprocal square root of every node's in-degree is a real, whatever the edge table holds. -/
theorem dinv_real (ei : (⟨S2x640000, .i32⟩ : BufTy).Contents (Elt Ideal)) :
    ∀ i, ∃ r : ℝ, kDinv (F := Ideal) (kDst ei) i = (r : EReal) := kDinv_real ei

/-- The neighbourhood sum of a real-valued table over any edge table, with a real-valued bias, is real-valued. -/
theorem agg_real (h : (⟨S40000x256, .f32⟩ : BufTy).Contents (Elt Ideal))
    (ei : (⟨S2x640000, .i32⟩ : BufTy).Contents (Elt Ideal)) (b : (⟨S256, .f32⟩ : BufTy).Contents (Elt Ideal))
    (hh : ∀ i, ∃ r : ℝ, h i = (r : EReal)) (hb : ∀ i, ∃ r : ℝ, b i = (r : EReal)) :
    ∀ i, ∃ r : ℝ, kAgg (F := Ideal) h (kSrc ei) (kDst ei) (kNorm ei) b i = (r : EReal) := by
  unfold kAgg
  refine addf_real _ _ ?_ ?_
  · rw [hostScatterAdd_eq]
    refine Cert.Math.hostScatterAdd_real _ _ _ _ ?_ ?_
    · intro i
      exact ⟨0, Ideal.ofBits_zero_f32⟩
    · exact mulf_real _ _ (gather_real _ _ _ hh)
        (broadcastInDim_real _ _ _ (broadcastInDim_real _ _ _ (kNorm_real ei)))
  · exact broadcastInDim_real _ _ _ (broadcastInDim_real _ _ _ hb)

end Graph

end Cert.Bridge

end
-- ==== Proof.Bridge.Pool.lean ====
/-
  The mean pooling, two ways.  One side multiplies the transposed membership table (entry (n, g) is one when node n's
  graph number is g, zero otherwise) into the node features and divides row g by the larger of the table's g-th column
  sum and one.  The other side adds every node's feature row into row (graph number of the node) of a table of zeros,
  adds a one per node into a vector of zeros the same way, and divides by the larger of that count and one.  Both
  numerators are, at (g, c), the sum over the nodes whose graph number is g of the node's entry in column c; both counts
  are the number of such nodes; so the quotients are one array.  Nothing is asked of the features: one times x is x and
  zero times x is zero for every extended real x.
-/
import proofs.«406782_j35519379538031_1_alg».proof.Proof.KI.Host
import proofs.«406782_j35519379538031_1_alg».proof.Proof.Ref.Stages
import proofs.«406782_j35519379538031_1_alg».proof.Proof.Spec
import proofs.«406782_j35519379538031_1_alg».proof.Proof.Math.Scatter
import Idealize.ShloMosaic.Lib.IdealHost
import Idealize.ShloMosaic.Lib.StableHlo.Predicate

noncomputable section

open scoped BigOperators

namespace Cert.Bridge

open Idealize.ShloMosaic Idealize.ShloMosaic.ValueIdx Idealize.ShloMosaic.StableHlo.Predicate

/-! ## Indices written two ways -/

theorem ij_eq_ix2 {n m : Nat} (p : Fin n) (q : Fin m) : ij p q = ix2 p q := by
  funext b; match b with | ⟨0, _⟩ => rfl | ⟨1, _⟩ => rfl
theorem ixP_eq_ix2 {n : Nat} (p : Fin n) : ixP p = ix2 p (0 : Fin 1) := by
  funext b; match b with | ⟨0, _⟩ => rfl | ⟨1, _⟩ => rfl
theorem ofFin_eq_ix1 {n : Nat} (p : Fin n) : Shape.Idx.ofFin p = ix1 p := by
  funext b; match b with | ⟨0, _⟩ => rfl

/-! ## Words -/

/-- A word equals the word of a natural number below 2^31 exactly when, read signed, it is that number. -/
theorem eq_ofNat_iff_toInt (b : BitVec 32) (g : ℕ) (hg : g < 2 ^ 31) : b = BitVec.ofNat 32 g ↔ b.toInt = (g : ℤ) := by
  constructor
  · rintro rfl; exact toInt_ofNat_small g hg
  · intro e; exact BitVec.eq_of_toInt_eq (e.trans (toInt_ofNat_small g hg).symm)

/-! ## The membership table at an entry -/

/-- The comparison of the graph numbers laid along the rows with 0, 1, … laid along the columns, read as a float, is at
    (n, g) one when node n's graph number, read signed, is g, and zero otherwise. -/
theorem onehot_read {N G : Nat} (hG : G ≤ 2 ^ 31)
    (h1 : (⟨1, ![N]⟩ : Shape).BroadcastsInDim ⟨2, ![N, 1]⟩ ![0])
    (h2 : (⟨2, ![N, 1]⟩ : Shape).BroadcastsInDim ⟨2, ![N, G]⟩ ![0, 1])
    (h3 : (⟨1, ![G]⟩ : Shape).BroadcastsInDim ⟨2, ![1, G]⟩ ![1])
    (h4 : (⟨2, ![1, G]⟩ : Shape).BroadcastsInDim ⟨2, ![N, G]⟩ ![0, 1])
    (batch : IVec ⟨1, ![N]⟩ 32) (n : Fin N) (g : Fin G) :
    (uitofp .f32 (cmpi .eq (broadcastInDim ⟨2, ![N, G]⟩ ![0, 1] h2 (broadcastInDim ⟨2, ![N, 1]⟩ ![0] h1 batch))
        (broadcastInDim ⟨2, ![N, G]⟩ ![0, 1] h4 (broadcastInDim ⟨2, ![1, G]⟩ ![1] h3 (iotaInDim ⟨1, ![G]⟩ 32 0)))) :
        FVec Ideal ⟨2, ![N, G]⟩ .f32) (ix2 n g)
      = if (batch (ix1 n)).toInt = (g.val : ℤ) then 1 else 0 := by
  show (((IntOp.cmpi .eq (broadcastInDim ⟨2, ![N, G]⟩ ![0, 1] h2 (broadcastInDim ⟨2, ![N, 1]⟩ ![0] h1 batch) (ix2 n g))
      (broadcastInDim ⟨2, ![N, G]⟩ ![0, 1] h4 (broadcastInDim ⟨2, ![1, G]⟩ ![1] h3 (iotaInDim ⟨1, ![G]⟩ 32 0)) (ix2 n g))).toNat : ℝ) : EReal) = _
  rw [← ij_eq_ix2 n g, bcast_rows, bcast_cols, iota_apply, ofFin_eq_ix1]
  have hg : g.val < 2 ^ 31 := lt_of_lt_of_le g.isLt hG
  by_cases hb : batch (ix1 n) = BitVec.ofNat 32 g.val
  · rw [cmpi_eq_iff.mpr hb, if_pos ((eq_ofNat_iff_toInt _ _ hg).mp hb)]
    simp
  · rw [eq_zero_of_ne_one (fun h => hb (cmpi_eq_iff.mp h)), if_neg (fun h => hb ((eq_ofNat_iff_toInt _ _ hg).mpr h))]
    simp

/-- A float constant broadcast to any shape reads the extended real its word encodes. -/
theorem bcast_constant_apply {T : Shape} (hb : (⟨0, ![]⟩ : Shape).BroadcastsInDim T ![]) (b : BitVec 32) (j : T.Idx) :
    broadcastInDim T ![] hb (constant (F := Ideal) ⟨0, ![]⟩ .f32 b) j = Ideal.ofBits .f32 b := by
  rw [broadcastInDim_scalar_apply]; rfl

/-- A vector laid out as a one-column matrix reads, at (n, 0), the vector at n. -/
theorem bcast_column_apply {α : Type} {N : Nat} (h1 : (⟨1, ![N]⟩ : Shape).BroadcastsInDim ⟨2, ![N, 1]⟩ ![0])
    (v : (⟨1, ![N]⟩ : Shape).Idx → α) (n : Fin N) :
    broadcastInDim ⟨2, ![N, 1]⟩ ![0] h1 v (ix2 n (0 : Fin 1)) = v (ix1 n) := by
  rw [← ixP_eq_ix2, bcast_col1, ofFin_eq_ix1]

/-! ## The two sides of the pooling -/

section Pool
variable [Cert.ReferenceIdeal.Facts]

open Cert.KernelIdeal.Hand (kOnehot kCnt kFinal)
open Cert.ReferenceIdeal.Hand (rPool)
open Cert.Math (dPool dCnt)

/-- The membership table at (n, g): one when node n's graph number is g, zero otherwise. -/
theorem kOnehot_apply (batch : IVec Cert.ReferenceIdeal.S40000 32) (n : Fin 40000) (g : Fin 64) :
    kOnehot (F := Ideal) batch (ix2 n g) = if (batch (ix1 n)).toInt = (g.val : ℤ) then 1 else 0 :=
  onehot_read (by norm_num) _ _ _ _ batch n g

/-- The zero constant broadcast to any shape is the zero function. -/
theorem zeros_eq {T : Shape} (hb : (⟨0, ![]⟩ : Shape).BroadcastsInDim T ![]) :
    broadcastInDim T ![] hb (constant (F := Ideal) ⟨0, ![]⟩ .f32 0x00000000#32) = fun _ => (0 : EReal) := by
  funext j; rw [bcast_constant_apply, Ideal.ofBits_zero_f32]

/-- The one constant broadcast to any shape is the function one. -/
theorem ones_eq {T : Shape} (hb : (⟨0, ![]⟩ : Shape).BroadcastsInDim T ![]) :
    broadcastInDim T ![] hb (constant (F := Ideal) ⟨0, ![]⟩ .f32 0x3F800000#32) = fun _ => (1 : EReal) := by
  funext j; rw [bcast_constant_apply, Ideal.ofBits_one_f32]

/-- THE NUMERATORS. The membership table's transpose times the features is the features' rows added into a table of
    zeros at their graph numbers: both are, at (g, c), the sum of column c over the nodes of graph g. -/
theorem poolSum_eq_scatter (h : Cert.Spec.SNH.Idx → EReal) (batch : IVec Cert.ReferenceIdeal.S40000 32) :
    Cert.Spec.poolSum h (kOnehot (F := Ideal) batch)
      = Ideal.hostScatterAdd dPool (fun _ => 0)
          (broadcastInDim Cert.ReferenceIdeal.S40000x1 ![0] Cert.ReferenceIdeal.Facts₀.bcast_S40000_S40000x1_0 batch) h := by
  rw [Cert.Math.pool_scatter]
  funext gj
  obtain ⟨g, c, rfl⟩ : ∃ g c, gj = ix2 g c := ⟨gj 0, gj 1, eq_ix2 gj⟩
  show ∑ n : Fin 40000, kOnehot (F := Ideal) batch (ix2 n g) * h (ix2 n c) = ∑ n : Fin 40000, _
  refine Finset.sum_congr rfl (fun n _ => ?_)
  rw [kOnehot_apply, bcast_column_apply]
  show _ = if (batch (ix1 n)).toInt = (g.val : ℤ) then h (ix2 n c) else 0
  split_ifs
  · rw [one_mul]
  · rw [zero_mul]

/-- THE COUNTS. Column g of the membership table summed over the nodes is a one per node added into a vector of zeros at
    the node's graph number: both are the number of nodes of graph g. -/
theorem kCnt_eq_scatter (batch : IVec Cert.ReferenceIdeal.S40000 32) :
    kCnt (F := Ideal) batch
      = Ideal.hostScatterAdd dCnt (fun _ => 0)
          (broadcastInDim Cert.ReferenceIdeal.S40000x1 ![0] Cert.ReferenceIdeal.Facts₀.bcast_S40000_S40000x1_0 batch) (fun _ => 1) := by
  rw [Cert.Math.cnt_scatter]
  funext gi
  obtain ⟨g, rfl⟩ : ∃ g, gi = ix1 g := ⟨gi 0, eq_ix1 gi⟩
  have hred : Shape.Reduces (⟨2, ![40000, 64]⟩ : Shape) [0] ⟨1, ![64]⟩ := by decide
  unfold Cert.KernelIdeal.Hand.kCnt
  rw [hostReduceAdd_apply, Ideal.hostReduceAdd_single _ hred, constant_apply, Ideal.ofBits_zero_f32, zero_add]
  show ∑ n : Fin 40000, kOnehot (F := Ideal) batch (hred.lift (ix1 g) n) = ∑ n : Fin 40000, _
  refine Finset.sum_congr rfl (fun n _ => ?_)
  have hl : hred.lift (ix1 g) n = ix2 n g := by
    funext a; refine Fin.ext ?_
    match a with
    | ⟨0, _⟩ => rfl
    | ⟨1, _⟩ => rfl
  rw [hl, kOnehot_apply, bcast_column_apply]

/-- A quotient by a vector laid along the rows and repeated across the columns, read at (g, c): the numerator there over
    the vector at g. -/
theorem div_rows_read {G H : Nat} (h1 : (⟨1, ![G]⟩ : Shape).BroadcastsInDim ⟨2, ![G, 1]⟩ ![0])
    (h2 : (⟨2, ![G, 1]⟩ : Shape).BroadcastsInDim ⟨2, ![G, H]⟩ ![0, 1])
    (s : FVec Ideal ⟨2, ![G, H]⟩ .f32) (m : FVec Ideal ⟨1, ![G]⟩ .f32) (g : Fin G) (c : Fin H) :
    Host.divf s (broadcastInDim ⟨2, ![G, H]⟩ ![0, 1] h2 (broadcastInDim ⟨2, ![G, 1]⟩ ![0] h1 m)) (ix2 g c)
      = Ideal.div (s (ix2 g c)) (m (ix1 g)) := by
  rw [hostDivf_apply, ← ij_eq_ix2, bcast_rows, ofFin_eq_ix1]

/-- The first side at (g, c): the pooled sum there over the larger of the g-th count and one. -/
theorem kFinal_apply (s : FVec Ideal Cert.ReferenceIdeal.S64x256 .f32) (cnt : FVec Ideal Cert.ReferenceIdeal.S64 .f32)
    (g : Fin 64) (c : Fin 256) :
    kFinal (F := Ideal) s cnt (ix2 g c) = Ideal.div (s (ix2 g c)) (max (cnt (ix1 g)) 1) := by
  refine (div_rows_read _ _ s _ g c).trans ?_
  refine congrArg₂ Ideal.div rfl ?_
  refine congrArg₂ max rfl ?_
  exact (bcast_constant_apply _ _ _).trans Ideal.ofBits_one_f32

/-- The second side at (g, c): the scattered sum there over the larger of the g-th scattered count and one. -/
theorem rPool_apply (h : Cert.Spec.SNH.Idx → EReal) (batch : IVec Cert.ReferenceIdeal.S40000 32) (g : Fin 64) (c : Fin 256) :
    rPool (F := Ideal) h batch (ix2 g c)
      = Ideal.div
          (Ideal.hostScatterAdd dPool (fun _ => 0)
            (broadcastInDim Cert.ReferenceIdeal.S40000x1 ![0] Cert.ReferenceIdeal.Facts₀.bcast_S40000_S40000x1_0 batch) h (ix2 g c))
          (max (Ideal.hostScatterAdd dCnt (fun _ => 0)
            (broadcastInDim Cert.ReferenceIdeal.S40000x1 ![0] Cert.ReferenceIdeal.Facts₀.bcast_S40000_S40000x1_0 batch) (fun _ => 1) (ix1 g)) 1) := by
  refine (div_rows_read _ _ _ _ g c).trans ?_
  refine congrArg₂ Ideal.div ?_ ?_
  · exact congrArg (fun z => Ideal.hostScatterAdd dPool z _ h (ix2 g c)) (zeros_eq _)
  · refine congrArg₂ max ?_ ?_
    · exact congrArg₂ (fun z o => Ideal.hostScatterAdd dCnt z _ o (ix1 g)) (zeros_eq _) (ones_eq _)
    · exact (bcast_constant_apply _ _ _).trans Ideal.ofBits_one_f32

/-- THE POOLING BRIDGE: the membership-table pooling divided by the clamped column sums is the scatter pooling divided by
    the clamped scattered counts, for any features and any graph numbers. -/
theorem pool_bridge (h : Cert.Spec.SNH.Idx → EReal) (batch : IVec Cert.ReferenceIdeal.S40000 32) :
    kFinal (F := Ideal) (Cert.Spec.poolSum h (kOnehot (F := Ideal) batch)) (kCnt (F := Ideal) batch)
      = rPool (F := Ideal) h batch := by
  funext gj
  obtain ⟨g, c, rfl⟩ : ∃ g c, gj = ix2 g c := ⟨gj 0, gj 1, eq_ix2 gj⟩
  rw [kFinal_apply, rPool_apply, poolSum_eq_scatter, kCnt_eq_scatter]

end Pool

end Cert.Bridge

end
-- ==== Proof.Bridge.Final.lean ====
/-
  The kernel program and the reference compute the same function of the eleven arguments, over the extended
  reals, when the float arguments are real-valued.  Layer by layer: the dense product is the host's contraction;
  the degree-normalised aggregation is the same host arithmetic on both sides; with a real-valued aggregate the
  per-column scale and shift built from the column sum and sum of squares is batch normalisation (the two
  variances are one real number, and the reciprocal square root of it plus a positive constant is a positive
  real); each layer's output is again real-valued.  The membership sums divided by the clamped graph sizes are
  the reference's two accumulating scatters and their quotient.
-/
import proofs.«406782_j35519379538031_1_alg».proof.Proof.Bridge.KOut
import proofs.«406782_j35519379538031_1_alg».proof.Proof.Bridge.MM
import proofs.«406782_j35519379538031_1_alg».proof.Proof.Bridge.BN
import proofs.«406782_j35519379538031_1_alg».proof.Proof.Bridge.Graph
import proofs.«406782_j35519379538031_1_alg».proof.Proof.Bridge.GraphReal
import proofs.«406782_j35519379538031_1_alg».proof.Proof.Bridge.Pool
import proofs.«406782_j35519379538031_1_alg».proof.Proof.Ref.Stages

noncomputable section

namespace Cert.Bridge

open Idealize.ShloMosaic
open Cert.KernelIdeal.Hand Cert.ReferenceIdeal.Hand

variable [Cert.KernelIdeal.Facts] [Cert.ReferenceIdeal.Facts]

/-- One layer of the kernel program is the reference's layer, and its output is real-valued, when the input
    features, the weights, the bias and the two normalisation vectors are real-valued. -/
theorem layer_bridge
    (hin : (⟨Cert.KernelIdeal.S40000x256, .f32⟩ : BufTy).Contents (Elt Ideal))
    (W : (⟨Cert.KernelIdeal.S256x256, .f32⟩ : BufTy).Contents (Elt Ideal))
    (b g be : (⟨Cert.KernelIdeal.S256, .f32⟩ : BufTy).Contents (Elt Ideal))
    (ei : (⟨Cert.KernelIdeal.S2x640000, .i32⟩ : BufTy).Contents (Elt Ideal))
    (hh : ∀ i, ∃ r : ℝ, hin i = (r : EReal)) (hW : ∀ i, ∃ r : ℝ, W i = (r : EReal))
    (hb : ∀ i, ∃ r : ℝ, b i = (r : EReal)) (hg : ∀ i, ∃ r : ℝ, g i = (r : EReal))
    (hbe : ∀ i, ∃ r : ℝ, be i = (r : EReal)) :
    kLayer hin W b g be ei = rBN (F := Ideal) (rConv (F := Ideal) hin W b (rSrc ei) (rDst ei)) g be
      ∧ ∀ i, ∃ r : ℝ, kLayer hin W b g be ei i = (r : EReal) := by
  have hmm := mm_real hin W hh hW
  have hagg := agg_real (Cert.Spec.mm hin W) ei b hmm hb
  have e1 : kAggOf hin W b ei = rConv (F := Ideal) hin W b (rSrc ei) (rDst ei) := by
    unfold kAggOf rConv
    rw [agg_eq, mm_eq_dot]
  have e2 : kLayer hin W b g be ei = rBN (F := Ideal) (kAggOf hin W b ei) g be := by
    unfold kLayer
    exact bn_bridge (kAggOf hin W b ei) g be hagg hg hbe
  refine ⟨by rw [e2, e1], fun i => ?_⟩
  rw [e2]
  exact bn_real (kAggOf hin W b ei) g be hagg hg hbe i

/-- The whole kernel program is the reference, on real-valued float arguments (the edge table and the graph
    numbers are arbitrary 32-bit words). -/
theorem final
    (x : (⟨Cert.KernelIdeal.S40000x256, .f32⟩ : BufTy).Contents (Elt Ideal))
    (ei : (⟨Cert.KernelIdeal.S2x640000, .i32⟩ : BufTy).Contents (Elt Ideal))
    (batch : (⟨Cert.KernelIdeal.S40000, .i32⟩ : BufTy).Contents (Elt Ideal))
    (W1 : (⟨Cert.KernelIdeal.S256x256, .f32⟩ : BufTy).Contents (Elt Ideal))
    (b1 g1 be1 : (⟨Cert.KernelIdeal.S256, .f32⟩ : BufTy).Contents (Elt Ideal))
    (W2 : (⟨Cert.KernelIdeal.S256x256, .f32⟩ : BufTy).Contents (Elt Ideal))
    (b2 g2 be2 : (⟨Cert.KernelIdeal.S256, .f32⟩ : BufTy).Contents (Elt Ideal))
    (hx : ∀ i, ∃ r : ℝ, x i = (r : EReal)) (hW1 : ∀ i, ∃ r : ℝ, W1 i = (r : EReal))
    (hb1 : ∀ i, ∃ r : ℝ, b1 i = (r : EReal)) (hg1 : ∀ i, ∃ r : ℝ, g1 i = (r : EReal))
    (hbe1 : ∀ i, ∃ r : ℝ, be1 i = (r : EReal)) (hW2 : ∀ i, ∃ r : ℝ, W2 i = (r : EReal))
    (hb2 : ∀ i, ∃ r : ℝ, b2 i = (r : EReal)) (hg2 : ∀ i, ∃ r : ℝ, g2 i = (r : EReal))
    (hbe2 : ∀ i, ∃ r : ℝ, be2 i = (r : EReal)) :
    kOut x ei batch W1 b1 g1 be1 W2 b2 g2 be2 = refOut (F := Ideal) x ei batch W1 b1 g1 be1 W2 b2 g2 be2 := by
  obtain ⟨l1, r1⟩ := layer_bridge x W1 b1 g1 be1 ei hx hW1 hb1 hg1 hbe1
  obtain ⟨l2, -⟩ := layer_bridge (kLayer x W1 b1 g1 be1 ei) W2 b2 g2 be2 ei r1 hW2 hb2 hg2 hbe2
  unfold kOut refOut
  rw [pool_bridge, l2, l1]

end Cert.Bridge

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Bridge.Finite.lean ====
/-
  The finiteness precondition read back.

  The precondition takes, for each of the nine float argument arrays, the absolute value of every entry, compares it
  below `+∞`, and conjoins all the comparisons of the array; the nine results are conjoined in turn, and the hypothesis
  says the outcome is 1. A conjunction that is 1 has both sides 1, a conjunction over a whole array that is 1 has every
  comparison 1, and an extended real `x` with `max x (−x) < +∞` is neither infinity. So every entry of every float
  argument array is a real number.
-/
import proofs.«406782_j35519379538031_1_alg».proof.Defs
import proofs.«406782_j35519379538031_1_alg».proof.Proof.Gen.Pre_finite_inputs
import proofs.«406782_j35519379538031_1_alg».proof.Proof.LibERealRows
import Idealize.ShloMosaic.Lib.ReduceAll
import Idealize.ShloMosaic.Lib.ValueIdx

noncomputable section

namespace Cert.Bridge

open Idealize.ShloMosaic Idealize.SL.Sem

/-- The shape of a scalar has one index. -/
instance : Subsingleton Cert.Pre_finite_inputs.S_.Idx := ⟨fun a b => funext fun d => d.elim0⟩

/-- One array: if the conjunction over all axes of the comparisons `|x i| < +∞` is 1, every `x i` is a real. The
    absolute value at exact arithmetic is `max (x i) (−(x i))`, and the bound is the scalar `+∞` spread over the
    array's shape, so each comparison is literally the hypothesis of the element fact. -/
theorem real_of_all_abs_lt_inf {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim S ![] hb (constant (F := Ideal) Cert.Pre_finite_inputs.S_ .f32 0x7F800000#32)))
          init hr hu j = 1#1)
    (i : S.Idx) : ∃ r : ℝ, x i = (r : EReal) :=
  Cert.ERealRows.real_of_abs_lt_inf (x i) (Host.reduce_andi_all _ init hr hu j e i)

/-- Under the precondition every entry of every float argument array is a real number. The nine conjuncts are peeled
    off from the last (`arg10`) to the first (`arg0`), the order in which the precondition nests them. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal)) := by
  have h0 := congrFun (h c) ValueIdx.ix0
  dsimp only [Cert.Pre_finite_inputs.fn, Cert.Pre_finite_inputs.fn_part1, Cert.Pre_finite_inputs.fn_part2,
    Idealize.ShloMosaic.andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all_abs_lt_inf _ _ _ _ _ _ e0, real_of_all_abs_lt_inf _ _ _ _ _ _ e3,
    real_of_all_abs_lt_inf _ _ _ _ _ _ e4, real_of_all_abs_lt_inf _ _ _ _ _ _ e5,
    real_of_all_abs_lt_inf _ _ _ _ _ _ e6, real_of_all_abs_lt_inf _ _ _ _ _ _ e7,
    real_of_all_abs_lt_inf _ _ _ _ _ _ e8, real_of_all_abs_lt_inf _ _ _ _ _ _ e9,
    real_of_all_abs_lt_inf _ _ _ _ _ _ e10⟩

end Cert.Bridge

end
-- ==== Proof.lean ====
/-
  A two-layer graph convolution with batch normalisation and mean pooling, as seven kernel regions among host
  arithmetic, against its plain array-language reference.

  Frames.  The kernel program runs to its end and leaves its arguments untouched, at the word-level instance and at
  the ideal one: the same run, written once for any float instance — the buffer contents folded through the
  fourteen segments of the program, each region's proof data at its entry contents, the regions' bodies run over
  their staging buffers (two of the kernels keep running column sums in scratch buffers, one keeps the running
  per-graph sums). The reference is host arithmetic only: its run is its operations composed.

  Values over the extended reals.  Each region's result array is one whole-array function of its operand arrays
  (a dense product, column sums and sums of squares, a scale-shift-clamp, membership sums); read back through the
  fold, the kernel program's result is a composition of these with its host arithmetic. That composition equals
  the reference's when the float arguments are real-valued, which the precondition says: the aggregate of each
  layer is then real-valued (every node has its self-loop, so every degree is at least one), the two ways of
  writing the variance agree, and the membership sums are the reference's accumulating scatters.
-/
import proofs.«406782_j35519379538031_1_alg».proof.Defs
import proofs.«406782_j35519379538031_1_alg».proof.Proof.Gen.Kernel
import proofs.«406782_j35519379538031_1_alg».proof.Proof.Gen.KernelIdeal
import proofs.«406782_j35519379538031_1_alg».proof.Proof.Gen.ReferenceIdeal
import proofs.«406782_j35519379538031_1_alg».proof.Proof.Gen.Pre_finite_inputs
import proofs.«406782_j35519379538031_1_alg».proof.Proof.K.Run
import proofs.«406782_j35519379538031_1_alg».proof.Proof.KI.Run
import proofs.«406782_j35519379538031_1_alg».proof.Proof.KI.Read
import proofs.«406782_j35519379538031_1_alg».proof.Proof.KI.Val0
import proofs.«406782_j35519379538031_1_alg».proof.Proof.KI.Val1
import proofs.«406782_j35519379538031_1_alg».proof.Proof.KI.Val2
import proofs.«406782_j35519379538031_1_alg».proof.Proof.KI.Val3
import proofs.«406782_j35519379538031_1_alg».proof.Proof.KI.Val4
import proofs.«406782_j35519379538031_1_alg».proof.Proof.KI.Val5
import proofs.«406782_j35519379538031_1_alg».proof.Proof.KI.Val6
import proofs.«406782_j35519379538031_1_alg».proof.Proof.Ref.Run
import proofs.«406782_j35519379538031_1_alg».proof.Proof.Bridge.Final
import proofs.«406782_j35519379538031_1_alg».proof.Proof.Bridge.Finite
import Idealize.ShloMosaic.Adequacy
import Idealize.ShloMosaic.Init

noncomputable section

namespace Cert.Proof

open Idealize.ShloMosaic Idealize.SL.Sem

/-- The word-level kernel program runs to its end with its arguments as launched. -/
theorem frame_k : Cert.frame_Kernel := fun m ρ _ =>
  (θ_run Cert.Kernel.defs _ _).mono (fun _ h c => (h c).2) (Cert.Kernel.Hand.run (F := Bits) m ρ)

/-- So does its idealized printing. -/
theorem frame_ki : Cert.frame_KernelIdeal := fun m ρ _ =>
  (θ_run Cert.KernelIdeal.defs _ _).mono (fun _ h c => (h c).2) (Cert.KernelIdeal.Hand.run (F := Ideal) m ρ)

/-- The reference is host arithmetic: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the same result array: the kernel program's
    result read back through its segments is the composition `kOut` of the launch arguments, the reference's is
    `refOut` of them, and the two agree on real-valued float arguments. -/
theorem algebraic : Cert.algebraic_KernelIdeal_ReferenceIdeal := by
  intro m ρ m' ρ' hpre hagree
  refine ⟨fun c => Cert.KernelIdeal.Hand.W14 (F := Ideal) m ρ c (Proc.devRef .tc Cert.KernelIdeal.main_v106),
    Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10⟩ := hagree c
  obtain ⟨f0, f3, f4, f5, f6, f7, f8, f9, f10⟩ := Cert.Bridge.finite_of_pre m hpre c
  rw [e0, e1, e2, e3, e4, e5, e6, e7, e8, e9, e10]
  dsimp only
  rw [Cert.KernelIdeal.Hand.kernel_out Cert.KernelIdeal.Hand.arrAt0 Cert.KernelIdeal.Hand.arrAt1_sum
      Cert.KernelIdeal.Hand.arrAt1_sumsq Cert.KernelIdeal.Hand.arrAt2 Cert.KernelIdeal.Hand.arrAt3
      Cert.KernelIdeal.Hand.arrAt4_sum Cert.KernelIdeal.Hand.arrAt4_sumsq Cert.KernelIdeal.Hand.arrAt5
      Cert.KernelIdeal.Hand.arrAt6 m ρ c]
  exact (Cert.Bridge.final _ _ _ _ _ _ _ _ _ _ _ f0 f3 f4 f5 f6 f7 f8 f9 f10).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
